-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x256x256 : Shape := ⟨3, ![2, 256, 256]⟩
abbrev S512x256 : Shape := ⟨2, ![512, 256]⟩
abbrev S256 : Shape := ⟨1, ![256]⟩
abbrev S256x1 : Shape := ⟨2, ![256, 1]⟩
abbrev S1 : Shape := ⟨1, ![1]⟩
abbrev S_ : Shape := ⟨0, ![]⟩

class Facts : Prop where
  bcast_S_S2x256x256 : S_.BroadcastsInDim S2x256x256 (![] : Fin 0 → Fin S2x256x256.rank)
  reducesTo_S2x256x256_S_d0_1_2 : S2x256x256.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_v13 : IVec S_ 1) (main_v16 : IVec S256x1 1) : IVec S_ 1 :=
  let main_c_5 : IVec S_ 1 := constantI S_ 1 1#1
  let main_v17 : IVec S_ 1 := (fun x v => Host.reduce IntOp.andi x v reducesTo_S256x1_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S2x256x256 .f32) (main_arg1 : FVec F S512x256 .f32) (main_arg2 : FVec F S256 .f32) (main_arg3 : FVec F S256x1 .f32) (main_arg4 : FVec F S1 .f32) : IVec S_ 1 :=
  let main_v0 : FVec F S2x256x256 .f32 := Host.absf main_arg0
  let main_cst : FVec F S_ .f32 := constant S_ .f32 0x7F800000#32
  let main_v1 : FVec F S2x256x256 .f32 := broadcastInDim S2x256x256 ![] bcast_S_S2x256x256 main_cst
  let main_v2 : IVec S2x256x256 1 := cmpf .olt main_v0 main_v1
  let main_c : IVec S_ 1 := constantI S_ 1 1#1
  let main_v3 : IVec S_ 1 := (fun x v => Host.reduce IntOp.andi x v reducesTo_S2x256x256_S_d0_1_2 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x1 .f32 := Host.absf main_arg3
  let main_cst_4 : FVec F S_ .f32 := constant S_ .f32 0x7F800000#32
  let main_v15 : FVec F S256x1 .f32 := broadcastInDim S256x1 ![] bcast_S_S256x1 main_cst_4
  let main_v16 : IVec S256x1 1 := cmpf .olt main_v14 main_v15
  fn_part1 (F := F) main_arg4 main_v13 main_v16
-- ==== Kernel.lean ====
abbrev S2x256x256 : Shape := ⟨3, ![2, 256, 256]⟩
abbrev S512x256 : Shape := ⟨2, ![512, 256]⟩
abbrev S256 : Shape := ⟨1, ![256]⟩
abbrev S256x1 : Shape := ⟨2, ![256, 1]⟩
abbrev S1 : Shape := ⟨1, ![1]⟩
abbrev S1x1 : Shape := ⟨2, ![1, 1]⟩
abbrev S4x4 : Shape := ⟨2, ![4, 4]⟩
abbrev S_ : Shape := ⟨0, ![]⟩
abbrev S1x256 : Shape := ⟨2, ![1, 256]⟩
abbrev S4x1x4x1 : Shape := ⟨4, ![4, 1, 4, 1]⟩
abbrev S1x1x1x256 : Shape := ⟨4, ![1, 1, 1, 256]⟩
abbrev S4x1x4x256 : Shape := ⟨4, ![4, 1, 4, 256]⟩
abbrev S4x1024 : Shape := ⟨2, ![4, 1024]⟩
abbrev S256x256 : Shape := ⟨2, ![256, 256]⟩
abbrev S1x256x256 : Shape := ⟨3, ![1, 256, 256]⟩
abbrev S256x4 : Shape := ⟨2, ![256, 4]⟩
abbrev S1024x256 : Shape := ⟨2, ![1024, 256]⟩
abbrev S4x256 : Shape := ⟨2, ![4, 256]⟩
abbrev S1x4x256 : Shape := ⟨3, ![1, 4, 256]⟩

abbrev nBuf : Space → Nat
  | .hbm => 22
  | .vmem => 6
  | .smem => 0
  | _ => 0

abbrev bufTy : (tb : Table) → Fin (tcTables nBuf tb) → BufTy
  | .hbm, ⟨0, _⟩ => ⟨S2x256x256, .f32⟩
  | .hbm, ⟨1, _⟩ => ⟨S512x256, .f32⟩
  | .hbm, ⟨2, _⟩ => ⟨S256, .f32⟩
  | .hbm, ⟨3, _⟩ => ⟨S256x1, .f32⟩
  | .hbm, ⟨4, _⟩ => ⟨S1, .f32⟩
  | .hbm, ⟨5, _⟩ => ⟨S256x1, .f32⟩
  | .hbm, ⟨6, _⟩ => ⟨S1x1, .f32⟩
  | .hbm, ⟨7, _⟩ => ⟨S4x4, .i32⟩
  | .hbm, ⟨8, _⟩ => ⟨S4x4, .i32⟩
  | .hbm, ⟨9, _⟩ => ⟨S_, .i32⟩
  | .hbm, ⟨10, _⟩ => ⟨S4x4, .i32⟩
  | .hbm, ⟨11, _⟩ => ⟨S4x4, .i32⟩
  | .hbm, ⟨12, _⟩ => ⟨S4x4, .i1⟩
  | .hbm, ⟨13, _⟩ => ⟨S4x4, .f32⟩
  | .hbm, ⟨14, _⟩ => ⟨S1x256, .f32⟩
  | .hbm, ⟨15, _⟩ => ⟨S4x1x4x1, .f32⟩
  | .hbm, ⟨16, _⟩ => ⟨S1x1x1x256, .f32⟩
  | .hbm, ⟨17, _⟩ => ⟨S4x1x4x256, .f32⟩
  | .hbm, ⟨18, _⟩ => ⟨S4x1x4x256, .f32⟩
  | .hbm, ⟨19, _⟩ => ⟨S4x1x4x256, .f32⟩
  | .hbm, ⟨20, _⟩ => ⟨S4x1024, .f32⟩
  | .hbm, ⟨21, _⟩ => ⟨S2x256x256, .f32⟩
  | .local _ .vmem, ⟨0, _⟩ => ⟨S2x256x256, .f32⟩
  | .local _ .vmem, ⟨1, _⟩ => ⟨S512x256, .f32⟩
  | .local _ .vmem, ⟨2, _⟩ => ⟨S256x1, .f32⟩
  | .local _ .vmem, ⟨3, _⟩ => ⟨S4x1024, .f32⟩
  | .local _ .vmem, ⟨4, _⟩ => ⟨S1x1, .f32⟩
  | .local _ .vmem, ⟨5, _⟩ => ⟨S2x256x256, .f32⟩
  | _, _ => ⟨S2x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v9 : Ref sig .tc := ⟨.hbm, 20, rfl⟩
abbrev main_v10 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S2x256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

class Facts₀ : Prop where
  shapeCasts_S256_S256x1 : S256.ShapeCasts S256x1
  shapeCasts_S1_S1x1 : S1.ShapeCasts S1x1
  bcast_S_S4x4 : S_.BroadcastsInDim S4x4 (![] : Fin 0 → Fin S4x4.rank)
  shapeCasts_S256x1_S1x256 : S256x1.ShapeCasts S1x256
  bcast_S4x4_S4x1x4x1_0_2 : S4x4.BroadcastsInDim S4x1x4x1 (![0, 2] : Fin 2 → Fin S4x1x4x1.rank)
  bcast_S1x256_S1x1x1x256_1_3 : S1x256.BroadcastsInDim S1x1x1x256 (![1, 3] : Fin 2 → Fin S1x1x1x256.rank)
  bcast_S4x1x4x1_S4x1x4x256_0_1_2_3 : S4x1x4x1.BroadcastsInDim S4x1x4x256 (![0, 1, 2, 3] : Fin 4 → Fin S4x1x4x256.rank)
  bcast_S1x1x1x256_S4x1x4x256_0_1_2_3 : S1x1x1x256.BroadcastsInDim S4x1x4x256 (![0, 1, 2, 3] : Fin 4 → Fin S4x1x4x256.rank)
  shapeCasts_S4x1x4x256_S4x1024 : S4x1x4x256.ShapeCasts S4x1024
  inb_S512x256_S256x256_0_0 : ∀ a, (![0, 0] : Fin 2 → Nat) a + S256x256.size a ≤ S512x256.size a
  h_S256x256 : 0 < S256x256.numel
  inb_S512x256_S256x256_256_0 : ∀ a, (![256, 0] : Fin 2 → Nat) a + S256x256.size a ≤ S512x256.size a
  inb_S4x1024_S4x1024_0_0 : ∀ a, (![0, 0] : Fin 2 → Nat) a + S4x1024.size a ≤ S4x1024.size a
  h_S4x1024 : 0 < S4x1024.numel
  shapeCasts_S4x1024_S4x1024 : S4x1024.ShapeCasts S4x1024
  bitsLt_bf16_f32 : FTy.bits .bf16 < FTy.bits .f32
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S2x256x256_S1x256x256_0_0_0 : ∀ a, (![0, 0, 0] : Fin 3 → Nat) a + S1x256x256.size a ≤ S2x256x256.size a
  h_S1x256x256 : 0 < S1x256x256.numel
  shapeCasts_S1x256x256_S256x256 : S1x256x256.ShapeCasts S256x256
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x256 : S256x1.Broadcasts S256x256
  natLt_1_32 : 1 < 32
  slices_S256x256_o0_0_S256x4 : S256x256.Slices ![0, 0] S256x4
  slices_S256x4_o0_0_S256x1 : S256x4.Slices ![0, 0] S256x1
  slices_S256x4_o0_1_S256x1 : S256x4.Slices ![0, 1] S256x1
  slices_S256x4_o0_2_S256x1 : S256x4.Slices ![0, 2] S256x1
  slices_S256x4_o0_3_S256x1 : S256x4.Slices ![0, 3] S256x1
  concatenates_S256x256_S256x256_S256x256_S256x256_S1024x256_d0 : Shape.Concatenates [S256x256, S256x256, S256x256, S256x256] S1024x256 0
  slices_S256x256_o0_0_S4x256 : S256x256.Slices ![0, 0] S4x256
  inb_S2x256x256_S1x4x256_0_0_0 : ∀ a, (![0, 0, 0] : Fin 3 → Nat) a + S1x4x256.size a ≤ S2x256x256.size a
  h_S1x4x256 : 0 < S1x4x256.numel
  shapeCasts_S1x4x256_S4x256 : S1x4x256.ShapeCasts S4x256
  shapeCasts_S4x256_S1x4x256 : S4x256.ShapeCasts S1x4x256
  slices_S256x256_o0_4_S256x4 : S256x256.Slices ![0, 4] S256x4
  slices_S256x256_o4_0_S4x256 : S256x256.Slices ![4, 0] S4x256
  inb_S2x256x256_S1x4x256_0_4_0 : ∀ a, (![0, 4, 0] : Fin 3 → Nat) a + S1x4x256.size a ≤ S2x256x256.size a
  slices_S256x256_o0_8_S256x4 : S256x256.Slices ![0, 8] S256x4
  slices_S256x256_o8_0_S4x256 : S256x256.Slices ![8, 0] S4x256
  inb_S2x256x256_S1x4x256_0_8_0 : ∀ a, (![0, 8, 0] : Fin 3 → Nat) a + S1x4x256.size a ≤ S2x256x256.size a
  slices_S256x256_o0_12_S256x4 : S256x256.Slices ![0, 12] S256x4
  slices_S256x256_o12_0_S4x256 : S256x256.Slices ![12, 0] S4x256
  inb_S2x256x256_S1x4x256_0_12_0 : ∀ a, (![0, 12, 0] : Fin 3 → Nat) a + S1x4x256.size a ≤ S2x256x256.size a
  slices_S256x256_o0_16_S256x4 : S256x256.Slices ![0, 16] S256x4
  slices_S256x256_o16_0_S4x256 : S256x256.Slices ![16, 0] S4x256
  inb_S2x256x256_S1x4x256_0_16_0 : ∀ a, (![0, 16, 0] : Fin 3 → Nat) a + S1x4x256.size a ≤ S2x256x256.size a
  slices_S256x256_o0_20_S256x4 : S256x256.Slices ![0, 20] S256x4
  slices_S256x256_o20_0_S4x256 : S256x256.Slices ![20, 0] S4x256
  inb_S2x256x256_S1x4x256_0_20_0 : ∀ a, (![0, 20, 0] : Fin 3 → Nat) a + S1x4x256.size a ≤ S2x256x256.size a
  slices_S256x256_o0_24_S256x4 : S256x256.Slices ![0, 24] S256x4
  slices_S256x256_o24_0_S4x256 : S256x256.Slices ![24, 0] S4x256
  inb_S2x256x256_S1x4x256_0_24_0 : ∀ a, (![0, 24, 0] : Fin 3 → Nat) a + S1x4x256.size a ≤ S2x256x256.size a
  slices_S256x256_o0_28_S256x4 : S256x256.Slices ![0, 28] S256x4
  slices_S256x256_o28_0_S4x256 : S256x256.Slices ![28, 0] S4x256
  inb_S2x256x256_S1x4x256_0_28_0 : ∀ a, (![0, 28, 0] : Fin 3 → Nat) a + S1x4x256.size a ≤ S2x256x256.size a
  slices_S256x256_o0_32_S256x4 : S256x256.Slices ![0, 32] S256x4
  slices_S256x256_o32_0_S4x256 : S256x256.Slices ![32, 0] S4x256
  inb_S2x256x256_S1x4x256_0_32_0 : ∀ a, (![0, 32, 0] : Fin 3 → Nat) a + S1x4x256.size a ≤ S2x256x256.size a
  slices_S256x256_o0_36_S256x4 : S256x256.Slices ![0, 36] S256x4
  slices_S256x256_o36_0_S4x256 : S256x256.Slices ![36, 0] S4x256
  inb_S2x256x256_S1x4x256_0_36_0 : ∀ a, (![0, 36, 0] : Fin 3 → Nat) a + S1x4x256.size a ≤ S2x256x256.size a
  slices_S256x256_o0_40_S256x4 : S256x256.Slices ![0, 40] S256x4
  slices_S256x256_o40_0_S4x256 : S256x256.Slices ![40, 0] S4x256
  inb_S2x256x256_S1x4x256_0_40_0 : ∀ a, (![0, 40, 0] : Fin 3 → Nat) a + S1x4x256.size a ≤ S2x256x256.size a
  slices_S256x256_o0_44_S256x4 : S256x256.Slices ![0, 44] S256x4
  slices_S256x256_o44_0_S4x256 : S256x256.Slices ![44, 0] S4x256
  inb_S2x256x256_S1x4x256_0_44_0 : ∀ a, (![0, 44, 0] : Fin 3 → Nat) a + S1x4x256.size a ≤ S2x256x256.size a
  slices_S256x256_o0_48_S256x4 : S256x256.Slices ![0, 48] S256x4
  slices_S256x256_o48_0_S4x256 : S256x256.Slices ![48, 0] S4x256
  inb_S2x256x256_S1x4x256_0_48_0 : ∀ a, (![0, 48, 0] : Fin 3 → Nat) a + S1x4x256.size a ≤ S2x256x256.size a
  slices_S256x256_o0_52_S256x4 : S256x256.Slices ![0, 52] S256x4
  slices_S256x256_o52_0_S4x256 : S256x256.Slices ![52, 0] S4x256
  inb_S2x256x256_S1x4x256_0_52_0 : ∀ a, (![0, 52, 0] : Fin 3 → Nat) a + S1x4x256.size a ≤ S2x256x256.size a
  slices_S256x256_o0_56_S256x4 : S256x256.Slices ![0, 56] S256x4
  slices_S256x256_o56_0_S4x256 : S256x256.Slices ![56, 0] S4x256
  inb_S2x256x256_S1x4x256_0_56_0 : ∀ a, (![0, 56, 0] : Fin 3 → Nat) a + S1x4x256.size a ≤ S2x256x256.size a
  slices_S256x256_o0_60_S256x4 : S256x256.Slices ![0, 60] S256x4
  slices_S256x256_o60_0_S4x256 : S256x256.Slices ![60, 0] S4x256
  inb_S2x256x256_S1x4x256_0_60_0 : ∀ a, (![0, 60, 0] : Fin 3 → Nat) a + S1x4x256.size a ≤ S2x256x256.size a
  slices_S256x256_o0_64_S256x4 : S256x256.Slices ![0, 64] S256x4
  slices_S256x256_o64_0_S4x256 : S256x256.Slices ![64, 0] S4x256
  inb_S2x256x256_S1x4x256_0_64_0 : ∀ a, (![0, 64, 0] : Fin 3 → Nat) a + S1x4x256.size a ≤ S2x256x256.size a
  slices_S256x256_o0_68_S256x4 : S256x256.Slices ![0, 68] S256x4
  slices_S256x256_o68_0_S4x256 : S256x256.Slices ![68, 0] S4x256
  inb_S2x256x256_S1x4x256_0_68_0 : ∀ a, (![0, 68, 0] : Fin 3 → Nat) a + S1x4x256.size a ≤ S2x256x256.size a
  slices_S256x256_o0_72_S256x4 : S256x256.Slices ![0, 72] S256x4
  slices_S256x256_o72_0_S4x256 : S256x256.Slices ![72, 0] S4x256
  inb_S2x256x256_S1x4x256_0_72_0 : ∀ a, (![0, 72, 0] : Fin 3 → Nat) a + S1x4x256.size a ≤ S2x256x256.size a
  slices_S256x256_o0_76_S256x4 : S256x256.Slices ![0, 76] S256x4
  slices_S256x256_o76_0_S4x256 : S256x256.Slices ![76, 0] S4x256
  inb_S2x256x256_S1x4x256_0_76_0 : ∀ a, (![0, 76, 0] : Fin 3 → Nat) a + S1x4x256.size a ≤ S2x256x256.size a
  slices_S256x256_o0_80_S256x4 : S256x256.Slices ![0, 80] S256x4
  slices_S256x256_o80_0_S4x256 : S256x256.Slices ![80, 0] S4x256
  inb_S2x256x256_S1x4x256_0_80_0 : ∀ a, (![0, 80, 0] : Fin 3 → Nat) a + S1x4x256.size a ≤ S2x256x256.size a
  slices_S256x256_o0_84_S256x4 : S256x256.Slices ![0, 84] S256x4
  slices_S256x256_o84_0_S4x256 : S256x256.Slices ![84, 0] S4x256
  inb_S2x256x256_S1x4x256_0_84_0 : ∀ a, (![0, 84, 0] : Fin 3 → Nat) a + S1x4x256.size a ≤ S2x256x256.size a
  slices_S256x256_o0_88_S256x4 : S256x256.Slices ![0, 88] S256x4
  slices_S256x256_o88_0_S4x256 : S256x256.Slices ![88, 0] S4x256
  inb_S2x256x256_S1x4x256_0_88_0 : ∀ a, (![0, 88, 0] : Fin 3 → Nat) a + S1x4x256.size a ≤ S2x256x256.size a
  slices_S256x256_o0_92_S256x4 : S256x256.Slices ![0, 92] S256x4
  slices_S256x256_o92_0_S4x256 : S256x256.Slices ![92, 0] S4x256
  inb_S2x256x256_S1x4x256_0_92_0 : ∀ a, (![0, 92, 0] : Fin 3 → Nat) a + S1x4x256.size a ≤ S2x256x256.size a
  slices_S256x256_o0_96_S256x4 : S256x256.Slices ![0, 96] S256x4
  slices_S256x256_o96_0_S4x256 : S256x256.Slices ![96, 0] S4x256
  inb_S2x256x256_S1x4x256_0_96_0 : ∀ a, (![0, 96, 0] : Fin 3 → Nat) a + S1x4x256.size a ≤ S2x256x256.size a
  slices_S256x256_o0_100_S256x4 : S256x256.Slices ![0, 100] S256x4
  slices_S256x256_o100_0_S4x256 : S256x256.Slices ![100, 0] S4x256
  inb_S2x256x256_S1x4x256_0_100_0 : ∀ a, (![0, 100, 0] : Fin 3 → Nat) a + S1x4x256.size a ≤ S2x256x256.size a
  slices_S256x256_o0_104_S256x4 : S256x256.Slices ![0, 104] S256x4
  slices_S256x256_o104_0_S4x256 : S256x256.Slices ![104, 0] S4x256
  inb_S2x256x256_S1x4x256_0_104_0 : ∀ a, (![0, 104, 0] : Fin 3 → Nat) a + S1x4x256.size a ≤ S2x256x256.size a
  slices_S256x256_o0_108_S256x4 : S256x256.Slices ![0, 108] S256x4
  slices_S256x256_o108_0_S4x256 : S256x256.Slices ![108, 0] S4x256
  inb_S2x256x256_S1x4x256_0_108_0 : ∀ a, (![0, 108, 0] : Fin 3 → Nat) a + S1x4x256.size a ≤ S2x256x256.size a
  slices_S256x256_o0_112_S256x4 : S256x256.Slices ![0, 112] S256x4
  slices_S256x256_o112_0_S4x256 : S256x256.Slices ![112, 0] S4x256
  inb_S2x256x256_S1x4x256_0_112_0 : ∀ a, (![0, 112, 0] : Fin 3 → Nat) a + S1x4x256.size a ≤ S2x256x256.size a
  slices_S256x256_o0_116_S256x4 : S256x256.Slices ![0, 116] S256x4
  slices_S256x256_o116_0_S4x256 : S256x256.Slices ![116, 0] S4x256
  inb_S2x256x256_S1x4x256_0_116_0 : ∀ a, (![0, 116, 0] : Fin 3 → Nat) a + S1x4x256.size a ≤ S2x256x256.size a
  slices_S256x256_o0_120_S256x4 : S256x256.Slices ![0, 120] S256x4
  slices_S256x256_o120_0_S4x256 : S256x256.Slices ![120, 0] S4x256
  inb_S2x256x256_S1x4x256_0_120_0 : ∀ a, (![0, 120, 0] : Fin 3 → Nat) a + S1x4x256.size a ≤ S2x256x256.size a
  slices_S256x256_o0_124_S256x4 : S256x256.Slices ![0, 124] S256x4
  slices_S256x256_o124_0_S4x256 : S256x256.Slices ![124, 0] S4x256
  inb_S2x256x256_S1x4x256_0_124_0 : ∀ a, (![0, 124, 0] : Fin 3 → Nat) a + S1x4x256.size a ≤ S2x256x256.size a
  slices_S256x256_o0_128_S256x4 : S256x256.Slices ![0, 128] S256x4
  slices_S256x256_o128_0_S4x256 : S256x256.Slices ![128, 0] S4x256
  inb_S2x256x256_S1x4x256_0_128_0 : ∀ a, (![0, 128, 0] : Fin 3 → Nat) a + S1x4x256.size a ≤ S2x256x256.size a
  slices_S256x256_o0_132_S256x4 : S256x256.Slices ![0, 132] S256x4
  slices_S256x256_o132_0_S4x256 : S256x256.Slices ![132, 0] S4x256
  inb_S2x256x256_S1x4x256_0_132_0 : ∀ a, (![0, 132, 0] : Fin 3 → Nat) a + S1x4x256.size a ≤ S2x256x256.size a
  slices_S256x256_o0_136_S256x4 : S256x256.Slices ![0, 136] S256x4
  slices_S256x256_o136_0_S4x256 : S256x256.Slices ![136, 0] S4x256
  inb_S2x256x256_S1x4x256_0_136_0 : ∀ a, (![0, 136, 0] : Fin 3 → Nat) a + S1x4x256.size a ≤ S2x256x256.size a
  slices_S256x256_o0_140_S256x4 : S256x256.Slices ![0, 140] S256x4
  slices_S256x256_o140_0_S4x256 : S256x256.Slices ![140, 0] S4x256
  inb_S2x256x256_S1x4x256_0_140_0 : ∀ a, (![0, 140, 0] : Fin 3 → Nat) a + S1x4x256.size a ≤ S2x256x256.size a
  slices_S256x256_o0_144_S256x4 : S256x256.Slices ![0, 144] S256x4
  slices_S256x256_o144_0_S4x256 : S256x256.Slices ![144, 0] S4x256
  inb_S2x256x256_S1x4x256_0_144_0 : ∀ a, (![0, 144, 0] : Fin 3 → Nat) a + S1x4x256.size a ≤ S2x256x256.size a
  slices_S256x256_o0_148_S256x4 : S256x256.Slices ![0, 148] S256x4
  slices_S256x256_o148_0_S4x256 : S256x256.Slices ![148, 0] S4x256
  inb_S2x256x256_S1x4x256_0_148_0 : ∀ a, (![0, 148, 0] : Fin 3 → Nat) a + S1x4x256.size a ≤ S2x256x256.size a
  slices_S256x256_o0_152_S256x4 : S256x256.Slices ![0, 152] S256x4
  slices_S256x256_o152_0_S4x256 : S256x256.Slices ![152, 0] S4x256
  inb_S2x256x256_S1x4x256_0_152_0 : ∀ a, (![0, 152, 0] : Fin 3 → Nat) a + S1x4x256.size a ≤ S2x256x256.size a
  slices_S256x256_o0_156_S256x4 : S256x256.Slices ![0, 156] S256x4
  slices_S256x256_o156_0_S4x256 : S256x256.Slices ![156, 0] S4x256
  inb_S2x256x256_S1x4x256_0_156_0 : ∀ a, (![0, 156, 0] : Fin 3 → Nat) a + S1x4x256.size a ≤ S2x256x256.size a
  slices_S256x256_o0_160_S256x4 : S256x256.Slices ![0, 160] S256x4
  slices_S256x256_o160_0_S4x256 : S256x256.Slices ![160, 0] S4x256
  inb_S2x256x256_S1x4x256_0_160_0 : ∀ a, (![0, 160, 0] : Fin 3 → Nat) a + S1x4x256.size a ≤ S2x256x256.size a
  slices_S256x256_o0_164_S256x4 : S256x256.Slices ![0, 164] S256x4
  slices_S256x256_o164_0_S4x256 : S256x256.Slices ![164, 0] S4x256
  inb_S2x256x256_S1x4x256_0_164_0 : ∀ a, (![0, 164, 0] : Fin 3 → Nat) a + S1x4x256.size a ≤ S2x256x256.size a
  slices_S256x256_o0_168_S256x4 : S256x256.Slices ![0, 168] S256x4
  slices_S256x256_o168_0_S4x256 : S256x256.Slices ![168, 0] S4x256
  inb_S2x256x256_S1x4x256_0_168_0 : ∀ a, (![0, 168, 0] : Fin 3 → Nat) a + S1x4x256.size a ≤ S2x256x256.size a
  slices_S256x256_o0_172_S256x4 : S256x256.Slices ![0, 172] S256x4
  slices_S256x256_o172_0_S4x256 : S256x256.Slices ![172, 0] S4x256
  inb_S2x256x256_S1x4x256_0_172_0 : ∀ a, (![0, 172, 0] : Fin 3 → Nat) a + S1x4x256.size a ≤ S2x256x256.size a
  slices_S256x256_o0_176_S256x4 : S256x256.Slices ![0, 176] S256x4
  slices_S256x256_o176_0_S4x256 : S256x256.Slices ![176, 0] S4x256
  inb_S2x256x256_S1x4x256_0_176_0 : ∀ a, (![0, 176, 0] : Fin 3 → Nat) a + S1x4x256.size a ≤ S2x256x256.size a
  slices_S256x256_o0_180_S256x4 : S256x256.Slices ![0, 180] S256x4
  slices_S256x256_o180_0_S4x256 : S256x256.Slices ![180, 0] S4x256
  inb_S2x256x256_S1x4x256_0_180_0 : ∀ a, (![0, 180, 0] : Fin 3 → Nat) a + S1x4x256.size a ≤ S2x256x256.size a
  slices_S256x256_o0_184_S256x4 : S256x256.Slices ![0, 184] S256x4
  slices_S256x256_o184_0_S4x256 : S256x256.Slices ![184, 0] S4x256
  inb_S2x256x256_S1x4x256_0_184_0 : ∀ a, (![0, 184, 0] : Fin 3 → Nat) a + S1x4x256.size a ≤ S2x256x256.size a
  slices_S256x256_o0_188_S256x4 : S256x256.Slices ![0, 188] S256x4
  slices_S256x256_o188_0_S4x256 : S256x256.Slices ![188, 0] S4x256
  inb_S2x256x256_S1x4x256_0_188_0 : ∀ a, (![0, 188, 0] : Fin 3 → Nat) a + S1x4x256.size a ≤ S2x256x256.size a
  slices_S256x256_o0_192_S256x4 : S256x256.Slices ![0, 192] S256x4
  slices_S256x256_o192_0_S4x256 : S256x256.Slices ![192, 0] S4x256
  inb_S2x256x256_S1x4x256_0_192_0 : ∀ a, (![0, 192, 0] : Fin 3 → Nat) a + S1x4x256.size a ≤ S2x256x256.size a
  slices_S256x256_o0_196_S256x4 : S256x256.Slices ![0, 196] S256x4
  slices_S256x256_o196_0_S4x256 : S256x256.Slices ![196, 0] S4x256
  inb_S2x256x256_S1x4x256_0_196_0 : ∀ a, (![0, 196, 0] : Fin 3 → Nat) a + S1x4x256.size a ≤ S2x256x256.size a
  slices_S256x256_o0_200_S256x4 : S256x256.Slices ![0, 200] S256x4
  slices_S256x256_o200_0_S4x256 : S256x256.Slices ![200, 0] S4x256
  inb_S2x256x256_S1x4x256_0_200_0 : ∀ a, (![0, 200, 0] : Fin 3 → Nat) a + S1x4x256.size a ≤ S2x256x256.size a
  slices_S256x256_o0_204_S256x4 : S256x256.Slices ![0, 204] S256x4
  slices_S256x256_o204_0_S4x256 : S256x256.Slices ![204, 0] S4x256
  inb_S2x256x256_S1x4x256_0_204_0 : ∀ a, (![0, 204, 0] : Fin 3 → Nat) a + S1x4x256.size a ≤ S2x256x256.size a
  slices_S256x256_o0_208_S256x4 : S256x256.Slices ![0, 208] S256x4
  slices_S256x256_o208_0_S4x256 : S256x256.Slices ![208, 0] S4x256
  inb_S2x256x256_S1x4x256_0_208_0 : ∀ a, (![0, 208, 0] : Fin 3 → Nat) a + S1x4x256.size a ≤ S2x256x256.size a
  slices_S256x256_o0_212_S256x4 : S256x256.Slices ![0, 212] S256x4
  slices_S256x256_o212_0_S4x256 : S256x256.Slices ![212, 0] S4x256
  inb_S2x256x256_S1x4x256_0_212_0 : ∀ a, (![0, 212, 0] : Fin 3 → Nat) a + S1x4x256.size a ≤ S2x256x256.size a
  slices_S256x256_o0_216_S256x4 : S256x256.Slices ![0, 216] S256x4
  slices_S256x256_o216_0_S4x256 : S256x256.Slices ![216, 0] S4x256
  inb_S2x256x256_S1x4x256_0_216_0 : ∀ a, (![0, 216, 0] : Fin 3 → Nat) a + S1x4x256.size a ≤ S2x256x256.size a
  slices_S256x256_o0_220_S256x4 : S256x256.Slices ![0, 220] S256x4
  slices_S256x256_o220_0_S4x256 : S256x256.Slices ![220, 0] S4x256
  inb_S2x256x256_S1x4x256_0_220_0 : ∀ a, (![0, 220, 0] : Fin 3 → Nat) a + S1x4x256.size a ≤ S2x256x256.size a
  slices_S256x256_o0_224_S256x4 : S256x256.Slices ![0, 224] S256x4
  slices_S256x256_o224_0_S4x256 : S256x256.Slices ![224, 0] S4x256
  inb_S2x256x256_S1x4x256_0_224_0 : ∀ a, (![0, 224, 0] : Fin 3 → Nat) a + S1x4x256.size a ≤ S2x256x256.size a
  slices_S256x256_o0_228_S256x4 : S256x256.Slices ![0, 228] S256x4
  slices_S256x256_o228_0_S4x256 : S256x256.Slices ![228, 0] S4x256
  inb_S2x256x256_S1x4x256_0_228_0 : ∀ a, (![0, 228, 0] : Fin 3 → Nat) a + S1x4x256.size a ≤ S2x256x256.size a
  slices_S256x256_o0_232_S256x4 : S256x256.Slices ![0, 232] S256x4
  slices_S256x256_o232_0_S4x256 : S256x256.Slices ![232, 0] S4x256
  inb_S2x256x256_S1x4x256_0_232_0 : ∀ a, (![0, 232, 0] : Fin 3 → Nat) a + S1x4x256.size a ≤ S2x256x256.size a
  slices_S256x256_o0_236_S256x4 : S256x256.Slices ![0, 236] S256x4
  slices_S256x256_o236_0_S4x256 : S256x256.Slices ![236, 0] S4x256
  inb_S2x256x256_S1x4x256_0_236_0 : ∀ a, (![0, 236, 0] : Fin 3 → Nat) a + S1x4x256.size a ≤ S2x256x256.size a
  slices_S256x256_o0_240_S256x4 : S256x256.Slices ![0, 240] S256x4
  slices_S256x256_o240_0_S4x256 : S256x256.Slices ![240, 0] S4x256
  inb_S2x256x256_S1x4x256_0_240_0 : ∀ a, (![0, 240, 0] : Fin 3 → Nat) a + S1x4x256.size a ≤ S2x256x256.size a
  slices_S256x256_o0_244_S256x4 : S256x256.Slices ![0, 244] S256x4
  slices_S256x256_o244_0_S4x256 : S256x256.Slices ![244, 0] S4x256
  inb_S2x256x256_S1x4x256_0_244_0 : ∀ a, (![0, 244, 0] : Fin 3 → Nat) a + S1x4x256.size a ≤ S2x256x256.size a
  slices_S256x256_o0_248_S256x4 : S256x256.Slices ![0, 248] S256x4
  slices_S256x256_o248_0_S4x256 : S256x256.Slices ![248, 0] S4x256
  inb_S2x256x256_S1x4x256_0_248_0 : ∀ a, (![0, 248, 0] : Fin 3 → Nat) a + S1x4x256.size a ≤ S2x256x256.size a
  slices_S256x256_o0_252_S256x4 : S256x256.Slices ![0, 252] S256x4
  slices_S256x256_o252_0_S4x256 : S256x256.Slices ![252, 0] S4x256
  inb_S2x256x256_S1x4x256_0_252_0 : ∀ a, (![0, 252, 0] : Fin 3 → Nat) a + S1x4x256.size a ≤ S2x256x256.size a
  inb_S2x256x256_S1x256x256_1_0_0 : ∀ a, (![1, 0, 0] : Fin 3 → Nat) a + S1x256x256.size a ≤ S2x256x256.size a
  inb_S2x256x256_S1x4x256_1_0_0 : ∀ a, (![1, 0, 0] : Fin 3 → Nat) a + S1x4x256.size a ≤ S2x256x256.size a
  inb_S2x256x256_S1x4x256_1_4_0 : ∀ a, (![1, 4, 0] : Fin 3 → Nat) a + S1x4x256.size a ≤ S2x256x256.size a
  inb_S2x256x256_S1x4x256_1_8_0 : ∀ a, (![1, 8, 0] : Fin 3 → Nat) a + S1x4x256.size a ≤ S2x256x256.size a
  inb_S2x256x256_S1x4x256_1_12_0 : ∀ a, (![1, 12, 0] : Fin 3 → Nat) a + S1x4x256.size a ≤ S2x256x256.size a
  inb_S2x256x256_S1x4x256_1_16_0 : ∀ a, (![1, 16, 0] : Fin 3 → Nat) a + S1x4x256.size a ≤ S2x256x256.size a
  inb_S2x256x256_S1x4x256_1_20_0 : ∀ a, (![1, 20, 0] : Fin 3 → Nat) a + S1x4x256.size a ≤ S2x256x256.size a
  inb_S2x256x256_S1x4x256_1_24_0 : ∀ a, (![1, 24, 0] : Fin 3 → Nat) a + S1x4x256.size a ≤ S2x256x256.size a
  inb_S2x256x256_S1x4x256_1_28_0 : ∀ a, (![1, 28, 0] : Fin 3 → Nat) a + S1x4x256.size a ≤ S2x256x256.size a
  inb_S2x256x256_S1x4x256_1_32_0 : ∀ a, (![1, 32, 0] : Fin 3 → Nat) a + S1x4x256.size a ≤ S2x256x256.size a
  inb_S2x256x256_S1x4x256_1_36_0 : ∀ a, (![1, 36, 0] : Fin 3 → Nat) a + S1x4x256.size a ≤ S2x256x256.size a
  inb_S2x256x256_S1x4x256_1_40_0 : ∀ a, (![1, 40, 0] : Fin 3 → Nat) a + S1x4x256.size a ≤ S2x256x256.size a
  inb_S2x256x256_S1x4x256_1_44_0 : ∀ a, (![1, 44, 0] : Fin 3 → Nat) a + S1x4x256.size a ≤ S2x256x256.size a
  inb_S2x256x256_S1x4x256_1_48_0 : ∀ a, (![1, 48, 0] : Fin 3 → Nat) a + S1x4x256.size a ≤ S2x256x256.size a
  inb_S2x256x256_S1x4x256_1_52_0 : ∀ a, (![1, 52, 0] : Fin 3 → Nat) a + S1x4x256.size a ≤ S2x256x256.size a
  inb_S2x256x256_S1x4x256_1_56_0 : ∀ a, (![1, 56, 0] : Fin 3 → Nat) a + S1x4x256.size a ≤ S2x256x256.size a
  inb_S2x256x256_S1x4x256_1_60_0 : ∀ a, (![1, 60, 0] : Fin 3 → Nat) a + S1x4x256.size a ≤ S2x256x256.size a
  inb_S2x256x256_S1x4x256_1_64_0 : ∀ a, (![1, 64, 0] : Fin 3 → Nat) a + S1x4x256.size a ≤ S2x256x256.size a
  inb_S2x256x256_S1x4x256_1_68_0 : ∀ a, (![1, 68, 0] : Fin 3 → Nat) a + S1x4x256.size a ≤ S2x256x256.size a
  inb_S2x256x256_S1x4x256_1_72_0 : ∀ a, (![1, 72, 0] : Fin 3 → Nat) a + S1x4x256.size a ≤ S2x256x256.size a
  inb_S2x256x256_S1x4x256_1_76_0 : ∀ a, (![1, 76, 0] : Fin 3 → Nat) a + S1x4x256.size a ≤ S2x256x256.size a
  inb_S2x256x256_S1x4x256_1_80_0 : ∀ a, (![1, 80, 0] : Fin 3 → Nat) a + S1x4x256.size a ≤ S2x256x256.size a
  inb_S2x256x256_S1x4x256_1_84_0 : ∀ a, (![1, 84, 0] : Fin 3 → Nat) a + S1x4x256.size a ≤ S2x256x256.size a
  inb_S2x256x256_S1x4x256_1_88_0 : ∀ a, (![1, 88, 0] : Fin 3 → Nat) a + S1x4x256.size a ≤ S2x256x256.size a
  inb_S2x256x256_S1x4x256_1_92_0 : ∀ a, (![1, 92, 0] : Fin 3 → Nat) a + S1x4x256.size a ≤ S2x256x256.size a
  inb_S2x256x256_S1x4x256_1_96_0 : ∀ a, (![1, 96, 0] : Fin 3 → Nat) a + S1x4x256.size a ≤ S2x256x256.size a
  inb_S2x256x256_S1x4x256_1_100_0 : ∀ a, (![1, 100, 0] : Fin 3 → Nat) a + S1x4x256.size a ≤ S2x256x256.size a
  inb_S2x256x256_S1x4x256_1_104_0 : ∀ a, (![1, 104, 0] : Fin 3 → Nat) a + S1x4x256.size a ≤ S2x256x256.size a
  inb_S2x256x256_S1x4x256_1_108_0 : ∀ a, (![1, 108, 0] : Fin 3 → Nat) a + S1x4x256.size a ≤ S2x256x256.size a
  inb_S2x256x256_S1x4x256_1_112_0 : ∀ a, (![1, 112, 0] : Fin 3 → Nat) a + S1x4x256.size a ≤ S2x256x256.size a
  inb_S2x256x256_S1x4x256_1_116_0 : ∀ a, (![1, 116, 0] : Fin 3 → Nat) a + S1x4x256.size a ≤ S2x256x256.size a
  inb_S2x256x256_S1x4x256_1_120_0 : ∀ a, (![1, 120, 0] : Fin 3 → Nat) a + S1x4x256.size a ≤ S2x256x256.size a
  inb_S2x256x256_S1x4x256_1_124_0 : ∀ a, (![1, 124, 0] : Fin 3 → Nat) a + S1x4x256.size a ≤ S2x256x256.size a
  inb_S2x256x256_S1x4x256_1_128_0 : ∀ a, (![1, 128, 0] : Fin 3 → Nat) a + S1x4x256.size a ≤ S2x256x256.size a
  inb_S2x256x256_S1x4x256_1_132_0 : ∀ a, (![1, 132, 0] : Fin 3 → Nat) a + S1x4x256.size a ≤ S2x256x256.size a
  inb_S2x256x256_S1x4x256_1_136_0 : ∀ a, (![1, 136, 0] : Fin 3 → Nat) a + S1x4x256.size a ≤ S2x256x256.size a
  inb_S2x256x256_S1x4x256_1_140_0 : ∀ a, (![1, 140, 0] : Fin 3 → Nat) a + S1x4x256.size a ≤ S2x256x256.size a
  inb_S2x256x256_S1x4x256_1_144_0 : ∀ a, (![1, 144, 0] : Fin 3 → Nat) a + S1x4x256.size a ≤ S2x256x256.size a
  inb_S2x256x256_S1x4x256_1_148_0 : ∀ a, (![1, 148, 0] : Fin 3 → Nat) a + S1x4x256.size a ≤ S2x256x256.size a
  inb_S2x256x256_S1x4x256_1_152_0 : ∀ a, (![1, 152, 0] : Fin 3 → Nat) a + S1x4x256.size a ≤ S2x256x256.size a
  inb_S2x256x256_S1x4x256_1_156_0 : ∀ a, (![1, 156, 0] : Fin 3 → Nat) a + S1x4x256.size a ≤ S2x256x256.size a
  inb_S2x256x256_S1x4x256_1_160_0 : ∀ a, (![1, 160, 0] : Fin 3 → Nat) a + S1x4x256.size a ≤ S2x256x256.size a
  inb_S2x256x256_S1x4x256_1_164_0 : ∀ a, (![1, 164, 0] : Fin 3 → Nat) a + S1x4x256.size a ≤ S2x256x256.size a
  inb_S2x256x256_S1x4x256_1_168_0 : ∀ a, (![1, 168, 0] : Fin 3 → Nat) a + S1x4x256.size a ≤ S2x256x256.size a
  inb_S2x256x256_S1x4x256_1_172_0 : ∀ a, (![1, 172, 0] : Fin 3 → Nat) a + S1x4x256.size a ≤ S2x256x256.size a
  inb_S2x256x256_S1x4x256_1_176_0 : ∀ a, (![1, 176, 0] : Fin 3 → Nat) a + S1x4x256.size a ≤ S2x256x256.size a
  inb_S2x256x256_S1x4x256_1_180_0 : ∀ a, (![1, 180, 0] : Fin 3 → Nat) a + S1x4x256.size a ≤ S2x256x256.size a
  inb_S2x256x256_S1x4x256_1_184_0 : ∀ a, (![1, 184, 0] : Fin 3 → Nat) a + S1x4x256.size a ≤ S2x256x256.size a
  inb_S2x256x256_S1x4x256_1_188_0 : ∀ a, (![1, 188, 0] : Fin 3 → Nat) a + S1x4x256.size a ≤ S2x256x256.size a
  inb_S2x256x256_S1x4x256_1_192_0 : ∀ a, (![1, 192, 0] : Fin 3 → Nat) a + S1x4x256.size a ≤ S2x256x256.size a
  inb_S2x256x256_S1x4x256_1_196_0 : ∀ a, (![1, 196, 0] : Fin 3 → Nat) a + S1x4x256.size a ≤ S2x256x256.size a
  inb_S2x256x256_S1x4x256_1_200_0 : ∀ a, (![1, 200, 0] : Fin 3 → Nat) a + S1x4x256.size a ≤ S2x256x256.size a
  inb_S2x256x256_S1x4x256_1_204_0 : ∀ a, (![1, 204, 0] : Fin 3 → Nat) a + S1x4x256.size a ≤ S2x256x256.size a
  inb_S2x256x256_S1x4x256_1_208_0 : ∀ a, (![1, 208, 0] : Fin 3 → Nat) a + S1x4x256.size a ≤ S2x256x256.size a
  inb_S2x256x256_S1x4x256_1_212_0 : ∀ a, (![1, 212, 0] : Fin 3 → Nat) a + S1x4x256.size a ≤ S2x256x256.size a
  inb_S2x256x256_S1x4x256_1_216_0 : ∀ a, (![1, 216, 0] : Fin 3 → Nat) a + S1x4x256.size a ≤ S2x256x256.size a
  inb_S2x256x256_S1x4x256_1_220_0 : ∀ a, (![1, 220, 0] : Fin 3 → Nat) a + S1x4x256.size a ≤ S2x256x256.size a
  inb_S2x256x256_S1x4x256_1_224_0 : ∀ a, (![1, 224, 0] : Fin 3 → Nat) a + S1x4x256.size a ≤ S2x256x256.size a
  inb_S2x256x256_S1x4x256_1_228_0 : ∀ a, (![1, 228, 0] : Fin 3 → Nat) a + S1x4x256.size a ≤ S2x256x256.size a
  inb_S2x256x256_S1x4x256_1_232_0 : ∀ a, (![1, 232, 0] : Fin 3 → Nat) a + S1x4x256.size a ≤ S2x256x256.size a
  inb_S2x256x256_S1x4x256_1_236_0 : ∀ a, (![1, 236, 0] : Fin 3 → Nat) a + S1x4x256.size a ≤ S2x256x256.size a
  inb_S2x256x256_S1x4x256_1_240_0 : ∀ a, (![1, 240, 0] : Fin 3 → Nat) a + S1x4x256.size a ≤ S2x256x256.size a
  inb_S2x256x256_S1x4x256_1_244_0 : ∀ a, (![1, 244, 0] : Fin 3 → Nat) a + S1x4x256.size a ≤ S2x256x256.size a
  inb_S2x256x256_S1x4x256_1_248_0 : ∀ a, (![1, 248, 0] : Fin 3 → Nat) a + S1x4x256.size a ≤ S2x256x256.size a
  inb_S2x256x256_S1x4x256_1_252_0 : ∀ a, (![1, 252, 0] : Fin 3 → Nat) a + S1x4x256.size a ≤ S2x256x256.size a
  dot_S256x256_S256x256_S256x256_0_1_1_0_n_n_wf : DotDims.WF S256x256 S256x256 S256x256 [0] [1] [1] [0] [] []
  dot_S4x1024_S1024x256_S4x256_1_0_0_1_n_n_wf : DotDims.WF S4x1024 S1024x256 S4x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2x256x256.size a ≤ S2x256x256.size a
  hwx0_0 : ∀ i : grid0.Coords, EltTy.bits .f32 = 32 ∨ (Rect.block (s := S2x256x256) S2x256x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S256x1.size a
  hwx0_2 : ∀ i : grid0.Coords, EltTy.bits .f32 = 32 ∨ (Rect.block (s := S256x1) S256x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x1024.size a ≤ S4x1024.size a
  hwx0_3 : ∀ i : grid0.Coords, EltTy.bits .f32 = 32 ∨ (Rect.block (s := S4x1024) S4x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2x256x256.size a ≤ S2x256x256.size a
  hwx0_5 : ∀ i : grid0.Coords, EltTy.bits .f32 = 32 ∨ (Rect.block (s := S2x256x256) S2x256x256.size (cc0_transform_5 i) (hinb0_5 i)).WholeWords (EltTy.packing .f32)

variable [Facts₀]

def dot_S256x256_S256x256_S256x256_0_1_1_0_n_n : DotDims S256x256 S256x256 S256x256 where
  lhsContracting := [0]
  rhsContracting := [1]
  lhsNonContracting := [1]
  rhsNonContracting := [0]
  lhsBatch := []
  rhsBatch := []
  wf := dot_S256x256_S256x256_S256x256_0_1_1_0_n_n_wf
def dot_S4x1024_S1024x256_S4x256_1_0_0_1_n_n : DotDims S4x1024 S1024x256 S4x256 where
  lhsContracting := [1]
  rhsContracting := [0]
  lhsNonContracting := [0]
  rhsNonContracting := [1]
  lhsBatch := []
  rhsBatch := []
  wf := dot_S4x1024_S1024x256_S4x256_1_0_0_1_n_n_wf

abbrev win0_0 : Pipeline.Window sig grid0 :=
  Pipeline.Window.ofSpec (Memref.whole main_arg0) S2x256x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S4x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S2x256x256.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2x256x256 : Shape := ⟨3, ![2, 256, 256]⟩
abbrev S512x256 : Shape := ⟨2, ![512, 256]⟩
abbrev S256 : Shape := ⟨1, ![256]⟩
abbrev S256x1 : Shape := ⟨2, ![256, 1]⟩
abbrev S1 : Shape := ⟨1, ![1]⟩
abbrev S256x256 : Shape := ⟨2, ![256, 256]⟩
abbrev S2x256x1x256 : Shape := ⟨4, ![2, 256, 1, 256]⟩
abbrev S2x1x256x256 : Shape := ⟨4, ![2, 1, 256, 256]⟩
abbrev S2x256x256x256 : Shape := ⟨4, ![2, 256, 256, 256]⟩
abbrev S1x1x1x256 : Shape := ⟨4, ![1, 1, 1, 256]⟩
abbrev S_ : Shape := ⟨0, ![]⟩
abbrev S2x256x256x1 : Shape := ⟨4, ![2, 256, 256, 1]⟩

abbrev nBuf : Space → Nat
  | .hbm => 38
  | .vmem => 0
  | .smem => 0
  | _ => 0

abbrev bufTy : (tb : Table) → Fin (tcTables nBuf tb) → BufTy
  | .hbm, ⟨0, _⟩ => ⟨S2x256x256, .f32⟩
  | .hbm, ⟨1, _⟩ => ⟨S512x256, .f32⟩
  | .hbm, ⟨2, _⟩ => ⟨S256, .f32⟩
  | .hbm, ⟨3, _⟩ => ⟨S256x1, .f32⟩
  | .hbm, ⟨4, _⟩ => ⟨S1, .f32⟩
  | .hbm, ⟨5, _⟩ => ⟨S256x256, .f32⟩
  | .hbm, ⟨6, _⟩ => ⟨S256x256, .f32⟩
  | .hbm, ⟨7, _⟩ => ⟨S2x256x256, .f32⟩
  | .hbm, ⟨8, _⟩ => ⟨S2x256x256, .f32⟩
  | .hbm, ⟨9, _⟩ => ⟨S2x256x1x256, .f32⟩
  | .hbm, ⟨10, _⟩ => ⟨S2x1x256x256, .f32⟩
  | .hbm, ⟨11, _⟩ => ⟨S2x256x256x256, .f32⟩
  | .hbm, ⟨12, _⟩ => ⟨S2x256x256x256, .f32⟩
  | .hbm, ⟨13, _⟩ => ⟨S2x256x256x256, .f32⟩
  | .hbm, ⟨14, _⟩ => ⟨S1x1x1x256, .f32⟩
  | .hbm, ⟨15, _⟩ => ⟨S2x256x256x256, .f32⟩
  | .hbm, ⟨16, _⟩ => ⟨S2x256x256x256, .f32⟩
  | .hbm, ⟨17, _⟩ => ⟨S_, .f32⟩
  | .hbm, ⟨18, _⟩ => ⟨S2x256x256x256, .f32⟩
  | .hbm, ⟨19, _⟩ => ⟨S2x256x256x256, .f32⟩
  | .hbm, ⟨20, _⟩ => ⟨S2x256x256x1, .f32⟩
  | .hbm, ⟨21, _⟩ => ⟨S2x256x256, .f32⟩
  | .hbm, ⟨22, _⟩ => ⟨S_, .f32⟩
  | .hbm, ⟨23, _⟩ => ⟨S2x256x256, .f32⟩
  | .hbm, ⟨24, _⟩ => ⟨S2x256x256, .f32⟩
  | .hbm, ⟨25, _⟩ => ⟨S2x256x256, .f32⟩
  | .hbm, ⟨26, _⟩ => ⟨S2x256x256, .f32⟩
  | .hbm, ⟨27, _⟩ => ⟨S_, .f32⟩
  | .hbm, ⟨28, _⟩ => ⟨S2x256x256, .f32⟩
  | .hbm, ⟨29, _⟩ => ⟨S2x256x256, .f32⟩
  | .hbm, ⟨30, _⟩ => ⟨S_, .f32⟩
  | .hbm, ⟨31, _⟩ => ⟨S2x256x256, .f32⟩
  | .hbm, ⟨32, _⟩ => ⟨S2x256x256, .f32⟩
  | .hbm, ⟨33, _⟩ => ⟨S_, .f32⟩
  | .hbm, ⟨34, _⟩ => ⟨S2x256x256, .f32⟩
  | .hbm, ⟨35, _⟩ => ⟨S2x256x256, .i1⟩
  | .hbm, ⟨36, _⟩ => ⟨S2x256x256, .f32⟩
  | .hbm, ⟨37, _⟩ => ⟨S2x256x256, .f32⟩
  | _, _ => ⟨S2x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_call0_cst : Ref sig .tc := ⟨.hbm, 17, rfl⟩
abbrev main_call0_v0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst : Ref sig .tc := ⟨.hbm, 27, rfl⟩
abbrev main_v20 : Ref sig .tc := ⟨.hbm, 28, rfl⟩
abbrev main_v21 : Ref sig .tc := ⟨.hbm, 29, rfl⟩
abbrev main_cst_0 : Ref sig .tc := ⟨.hbm, 30, rfl⟩
abbrev main_v22 : Ref sig .tc := ⟨.hbm, 31, rfl⟩
abbrev main_v23 : Ref sig .tc := ⟨.hbm, 32, rfl⟩
abbrev main_cst_1 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]

class Facts₀ : Prop where
  slices_S512x256_S256x256_0_0 : S512x256.Slices ![0, 0] S256x256
  slices_S512x256_S256x256_256_0 : S512x256.Slices ![256, 0] S256x256
  bcast_S2x256x256_S2x256x1x256_0_1_3 : S2x256x256.BroadcastsInDim S2x256x1x256 (![0, 1, 3] : Fin 3 → Fin S2x256x1x256.rank)
  bcast_S2x256x256_S2x1x256x256_0_2_3 : S2x256x256.BroadcastsInDim S2x1x256x256 (![0, 2, 3] : Fin 3 → Fin S2x1x256x256.rank)
  bcast_S2x256x1x256_S2x256x256x256_0_1_2_3 : S2x256x1x256.BroadcastsInDim S2x256x256x256 (![0, 1, 2, 3] : Fin 4 → Fin S2x256x256x256.rank)
  bcast_S2x1x256x256_S2x256x256x256_0_1_2_3 : S2x1x256x256.BroadcastsInDim S2x256x256x256 (![0, 1, 2, 3] : Fin 4 → Fin S2x256x256x256.rank)
  bcast_S256_S1x1x1x256_3 : S256.BroadcastsInDim S1x1x1x256 (![3] : Fin 1 → Fin S1x1x1x256.rank)
  bcast_S1x1x1x256_S2x256x256x256_0_1_2_3 : S1x1x1x256.BroadcastsInDim S2x256x256x256 (![0, 1, 2, 3] : Fin 4 → Fin S2x256x256x256.rank)
  bcast_S_S2x256x256x256 : S_.BroadcastsInDim S2x256x256x256 (![] : Fin 0 → Fin S2x256x256x256.rank)
  shapeCasts_S2x256x256x1_S2x256x256 : S2x256x256x1.ShapeCasts S2x256x256
  shapeCasts_S1_S_ : S1.ShapeCasts S_
  bcast_S_S2x256x256 : S_.BroadcastsInDim S2x256x256 (![] : Fin 0 → Fin S2x256x256.rank)
  dot_S2x256x256_S256x256_S2x256x256_2_0_01_1_n_n_wf : DotDims.WF S2x256x256 S256x256 S2x256x256 [2] [0] [0, 1] [1] [] []
  dot_S2x256x256x256_S256x1_S2x256x256x1_3_0_012_1_n_n_wf : DotDims.WF S2x256x256x256 S256x1 S2x256x256x1 [3] [0] [0, 1, 2] [1] [] []

variable [Facts₀]

def dot_S2x256x256_S256x256_S2x256x256_2_0_01_1_n_n : DotDims S2x256x256 S256x256 S2x256x256 where
  lhsContracting := [2]
  rhsContracting := [0]
  lhsNonContracting := [0, 1]
  rhsNonContracting := [1]
  lhsBatch := []
  rhsBatch := []
  wf := dot_S2x256x256_S256x256_S2x256x256_2_0_01_1_n_n_wf
def dot_S2x256x256x256_S256x1_S2x256x256x1_3_0_012_1_n_n : DotDims S2x256x256x256 S256x1 S2x256x256x1 where
  lhsContracting := [3]
  rhsContracting := [0]
  lhsNonContracting := [0, 1, 2]
  rhsNonContracting := [1]
  lhsBatch := []
  rhsBatch := []
  wf := dot_S2x256x256x256_S256x1_S2x256x256x1_3_0_012_1_n_n_wf

class Facts : Prop extends Facts₀ where

variable [Facts]
-- ==== Proof.RowGroup.lean ====
/-
  One group of four output rows of the per-edge score, as the kernel computes it.

  For a fixed batch element the kernel holds two 256 x 256 tables with the hidden unit on the rows:
  `at` (hidden unit h, node i: the first-layer contribution of node i as SOURCE, bias included) and
  `bt` (hidden unit h, node j: the contribution of node j as TARGET), and the 0/1 adjacency mask.
  For the four source nodes i0, i0+1, i0+2, i0+3 it forms the four 256 x 256 tables
  max (bt + column (i0+g) of at, 0), stacks them into a 1024 x 256 table, multiplies the stack by the
  4 x 1024 second-layer weight (block-diagonal: row g is the weight vector in columns 256 g .. 256 g + 255
  and zero elsewhere), adds the output bias, applies the logistic function and masks by rows
  i0 .. i0+3 of the adjacency mask. `rowGroup` is that computation as one function of the offset and the
  tables; every store of the kernel's body writes one such group.
-/
import proofs.«101957_g89077621719711_cont_sun_m_405_23_alg».proof.Proof.Gen.KernelIdeal.Skeleton

set_option synthInstance.maxSize 4096

noncomputable section

namespace Cert.KernelIdeal.Rows

open Idealize.ShloMosaic Idealize.SL.Sem Cert.KernelIdeal Cert.KernelIdeal.Gen

variable {F : FTy → Type} [FloatOps F]

/-- The four output rows `i0 .. i0+3` (all 256 columns) from the second-layer weight `w2`, the output bias `b2`,
    the source table `at`, the target table `bt` and the adjacency mask `msk`; `hc` says columns `i0 .. i0+3`
    lie inside `at`, `hm` that rows `i0 .. i0+3` lie inside `msk`. -/
noncomputable def rowGroup (i0 : Nat) (hc : S256x256.Slices ![0, i0] S256x4) (hm : S256x256.Slices ![i0, 0] S4x256)
    (w2 : FVec F S4x1024 .bf16) (b2 : F .f32) (at' : FVec F S256x256 .bf16) (bt : FVec F S256x256 .bf16)
    (msk : FVec F S256x256 .f32) : FVec F S1x4x256 .f32 :=
  have cols : FVec F S256x4 .bf16 := extractStridedSlice S256x4 ![0, i0] at' hc
  have c0 : FVec F S256x1 .bf16 := extractStridedSlice S256x1 ![0, 0] cols slices_S256x4_o0_0_S256x1
  have a0 : FVec F S256x256 .bf16 := broadcastTo S256x256 c0 broadcasts_S256x1_S256x256
  have s0 : FVec F S256x256 .bf16 := addf bt a0
  have z0 : F .bf16 := Scalar.ofBits .bf16 0x0000#16
  have zz0 : FVec F S256x256 .bf16 := broadcast S256x256 z0
  have m0 : FVec F S256x256 .bf16 := maximumf s0 zz0
  have c1 : FVec F S256x1 .bf16 := extractStridedSlice S256x1 ![0, 1] cols slices_S256x4_o0_1_S256x1
  have a1 : FVec F S256x256 .bf16 := broadcastTo S256x256 c1 broadcasts_S256x1_S256x256
  have s1 : FVec F S256x256 .bf16 := addf bt a1
  have z1 : F .bf16 := Scalar.ofBits .bf16 0x0000#16
  have zz1 : FVec F S256x256 .bf16 := broadcast S256x256 z1
  have m1 : FVec F S256x256 .bf16 := maximumf s1 zz1
  have c2 : FVec F S256x1 .bf16 := extractStridedSlice S256x1 ![0, 2] cols slices_S256x4_o0_2_S256x1
  have a2 : FVec F S256x256 .bf16 := broadcastTo S256x256 c2 broadcasts_S256x1_S256x256
  have s2 : FVec F S256x256 .bf16 := addf bt a2
  have z2 : F .bf16 := Scalar.ofBits .bf16 0x0000#16
  have zz2 : FVec F S256x256 .bf16 := broadcast S256x256 z2
  have m2 : FVec F S256x256 .bf16 := maximumf s2 zz2
  have c3 : FVec F S256x1 .bf16 := extractStridedSlice S256x1 ![0, 3] cols slices_S256x4_o0_3_S256x1
  have a3 : FVec F S256x256 .bf16 := broadcastTo S256x256 c3 broadcasts_S256x1_S256x256
  have s3 : FVec F S256x256 .bf16 := addf bt a3
  have z3 : F .bf16 := Scalar.ofBits .bf16 0x0000#16
  have zz3 : FVec F S256x256 .bf16 := broadcast S256x256 z3
  have m3 : FVec F S256x256 .bf16 := maximumf s3 zz3
  have stack : FVec F S1024x256 .bf16 := concatenate S1024x256 0 [⟨S256x256, m0⟩, ⟨S256x256, m1⟩, ⟨S256x256, m2⟩, ⟨S256x256, m3⟩] concatenates_S256x256_S256x256_S256x256_S256x256_S1024x256_d0
  have zacc : FVec F S4x256 .f32 := constant S4x256 .f32 0x00000000#32
  have lin : FVec F S4x256 .f32 := matmul dot_S4x1024_S1024x256_S4x256_1_0_0_1_n_n none w2 stack zacc
  have bb : FVec F S4x256 .f32 := broadcast S4x256 b2
  have pre : FVec F S4x256 .f32 := addf lin bb
  have sg : FVec F S4x256 .f32 := logistic pre
  have mrows : FVec F S4x256 .f32 := extractStridedSlice S4x256 ![i0, 0] msk hm
  have res : FVec F S4x256 .f32 := mulf sg mrows
  have out : FVec F S1x4x256 .f32 := shapeCast S1x4x256 res shapeCasts_S4x256_S1x4x256
  out

end Cert.KernelIdeal.Rows

end
-- ==== Proof.EdgeSpec.lean ====
/-
  The per-edge score, as a function of the five argument arrays, and the algebra that joins its two arrangements.

  For a batch element b, a source node i and a target node j the reference computes
    score b i j = logistic (Σ_h relu ((A b i h + B b j h) + b1 h) · W2 h + b2) · [s b i j ≠ 0],
  with A b i h = Σ_k s b i k · W1 k h (the first 256 rows of W1) and B b j h = Σ_k s b j k · W1 (256 + k) h
  (the last 256 rows): `edgeScoreAt`.

  The kernel holds the two first-layer tables TRANSPOSED, hidden unit first, the bias folded into the source
  table: `atT b h i = (Σ_k W1 k h · s b i k) + b1 h`, `btT b h j = Σ_k W1 (256 + k) h · s b j k`, and sums
  `w h · relu (btT b h j + atT b h i)` over h: `kernelScoreAt`. The two agree because + and · on the extended reals
  are commutative and associative (`kernelScoreAt_eq`); no cancellation or distributivity is used, so no
  finiteness is needed.

  The kernel does the sum over h for four source nodes at once, as ONE contraction of length 1024 = 4 · 256
  against a block-diagonal weight: row g of the weight is `w` in columns 256 g .. 256 g + 255 and zero elsewhere.
  Since 0 · x = 0 for every extended real x, the three foreign blocks contribute nothing: `kron_contract`.
-/
import Idealize.ShloMosaic.PureOps.Ideal
import Idealize.ShloMosaic.PureOps.Ideal.Laws
import Idealize.ShloMosaic.Lib.ValueIdx

noncomputable section

namespace Cert.EdgeSpec

open Idealize.ShloMosaic Idealize.ShloMosaic.ValueIdx

/-- batch × node × node (the adjacency tensor, also read as batch × node × feature). -/
abbrev Adj : Shape := ⟨3, ![2, 256, 256]⟩
/-- The first-layer weight: rows 0..255 act on the source node's features, rows 256..511 on the target's. -/
abbrev W1s : Shape := ⟨2, ![512, 256]⟩
abbrev Col : Shape := ⟨2, ![256, 1]⟩
abbrev Vec256 : Shape := ⟨1, ![256]⟩
abbrev One1 : Shape := ⟨1, ![1]⟩
abbrev One11 : Shape := ⟨2, ![1, 1]⟩
/-- The block-diagonal second-layer weight: 4 rows, 4 · 256 columns. -/
abbrev Blk : Shape := ⟨2, ![4, 1024]⟩

/-- Row k of the source half of W1. -/
def lo (k : Fin 256) : Fin 512 := ⟨k.val, by omega⟩
/-- Row k of the target half of W1. -/
def hi (k : Fin 256) : Fin 512 := ⟨256 + k.val, by omega⟩

/-- The indicator of a nonzero entry, as the float 0 or 1. -/
def mask01 (x : EReal) : EReal := (((Ideal.cmp .une x 0).toNat : ℝ) : EReal)

/-- A b i h: the source node's first-layer contribution. -/
def srcPart (s : Adj.Idx → EReal) (W1 : W1s.Idx → EReal) (b : Fin 2) (i h : Fin 256) : EReal :=
  ∑ k : Fin 256, s (ix3 b i k) * W1 (ix2 (lo k) h)

/-- B b j h: the target node's first-layer contribution. -/
def tgtPart (s : Adj.Idx → EReal) (W1 : W1s.Idx → EReal) (b : Fin 2) (j h : Fin 256) : EReal :=
  ∑ k : Fin 256, s (ix3 b j k) * W1 (ix2 (hi k) h)

/-- The reference's score of edge (i, j) of batch element b. -/
def edgeScoreAt (s : Adj.Idx → EReal) (W1 : W1s.Idx → EReal) (b1 : Vec256.Idx → EReal) (W2 : Col.Idx → EReal)
    (b2 : One1.Idx → EReal) (b : Fin 2) (i j : Fin 256) : EReal :=
  Ideal.logistic ((∑ h : Fin 256, max ((srcPart s W1 b i h + tgtPart s W1 b j h) + b1 (ix1 h)) 0 * W2 (ix2 h 0))
    + b2 (ix1 0)) * mask01 (s (ix3 b i j))

/-- The whole result array of the reference. -/
def edgeScore (s : Adj.Idx → EReal) (W1 : W1s.Idx → EReal) (b1 : Vec256.Idx → EReal) (W2 : Col.Idx → EReal)
    (b2 : One1.Idx → EReal) : Adj.Idx → EReal :=
  fun y => edgeScoreAt s W1 b1 W2 b2 ⟨(y 0).val, (y 0).isLt⟩ ⟨(y 1).val, (y 1).isLt⟩ ⟨(y 2).val, (y 2).isLt⟩

/-- The kernel's source table, hidden unit first, bias (a 256 × 1 column) folded in. -/
def atT (x0 : Adj.Idx → EReal) (x1 : W1s.Idx → EReal) (x2 : Col.Idx → EReal) (b : Fin 2) (h i : Fin 256) : EReal :=
  (∑ k : Fin 256, x1 (ix2 (lo k) h) * x0 (ix3 b i k)) + x2 (ix2 h 0)

/-- The kernel's target table, hidden unit first. -/
def btT (x0 : Adj.Idx → EReal) (x1 : W1s.Idx → EReal) (b : Fin 2) (h j : Fin 256) : EReal :=
  ∑ k : Fin 256, x1 (ix2 (hi k) h) * x0 (ix3 b j k)

/-- The kernel's score of edge (i, j) of batch element b, over a weight column `w` and an output bias. -/
def kernelScoreAt (x0 : Adj.Idx → EReal) (x1 : W1s.Idx → EReal) (x2 : Col.Idx → EReal) (w : Fin 256 → EReal) (bias : EReal)
    (b : Fin 2) (i j : Fin 256) : EReal :=
  Ideal.logistic ((∑ h : Fin 256, w h * max (btT x0 x1 b h j + atT x0 x1 x2 b h i) 0) + bias) * mask01 (x0 (ix3 b i j))

/-- The whole block the kernel writes. -/
def kernelScore (x0 : Adj.Idx → EReal) (x1 : W1s.Idx → EReal) (x2 : Col.Idx → EReal) (w : Fin 256 → EReal) (bias : EReal) :
    Adj.Idx → EReal :=
  fun y => kernelScoreAt x0 x1 x2 w bias ⟨(y 0).val, (y 0).isLt⟩ ⟨(y 1).val, (y 1).isLt⟩ ⟨(y 2).val, (y 2).isLt⟩

/-- The two arrangements of the score agree: products and sums commuted and regrouped. -/
theorem kernelScoreAt_eq (s : Adj.Idx → EReal) (W1 : W1s.Idx → EReal) (b1 : Vec256.Idx → EReal) (W2 : Col.Idx → EReal)
    (b2 : One1.Idx → EReal) (x2 : Col.Idx → EReal) (w : Fin 256 → EReal) (bias : EReal)
    (hx2 : ∀ h : Fin 256, x2 (ix2 h 0) = b1 (ix1 h)) (hw : ∀ h : Fin 256, w h = W2 (ix2 h 0)) (hb : bias = b2 (ix1 0))
    (b : Fin 2) (i j : Fin 256) :
    kernelScoreAt s W1 x2 w bias b i j = edgeScoreAt s W1 b1 W2 b2 b i j := by
  unfold kernelScoreAt edgeScoreAt
  rw [hb]
  have e : ∀ h : Fin 256, w h * max (btT s W1 b h j + atT s W1 x2 b h i) 0
      = max ((srcPart s W1 b i h + tgtPart s W1 b j h) + b1 (ix1 h)) 0 * W2 (ix2 h 0) := by
    intro h
    have ea : atT s W1 x2 b h i = srcPart s W1 b i h + b1 (ix1 h) := by
      unfold atT srcPart
      rw [hx2]
      exact congrArg (· + b1 (ix1 h)) (Finset.sum_congr rfl fun k _ => mul_comm _ _)
    have eb : btT s W1 b h j = tgtPart s W1 b j h := by
      unfold btT tgtPart
      exact Finset.sum_congr rfl fun k _ => mul_comm _ _
    rw [ea, eb, hw, mul_comm, add_comm (tgtPart s W1 b j h), add_right_comm]
  rw [Finset.sum_congr rfl fun h _ => e h]

/-- The pair (block, position in the block) of a column of the block-diagonal weight. -/
def blkEquiv : Fin 4 × Fin 256 ≃ Fin 1024 where
  toFun p := ⟨256 * p.1.val + p.2.val, by have := p.1.isLt; have := p.2.isLt; omega⟩
  invFun c := (⟨c.val / 256, by have := c.isLt; omega⟩, ⟨c.val % 256, Nat.mod_lt _ (by norm_num)⟩)
  left_inv p := by
    have h1 := p.1.isLt; have h2 := p.2.isLt
    refine Prod.ext (Fin.ext ?_) (Fin.ext ?_)
    · show (256 * p.1.val + p.2.val) / 256 = p.1.val; omega
    · show (256 * p.1.val + p.2.val) % 256 = p.2.val; omega
  right_inv c := by
    refine Fin.ext ?_
    show 256 * (c.val / 256) + c.val % 256 = c.val; omega

/-- A contraction of length 4 · 256 against row g of a block-diagonal weight is the contraction of length 256 of
    block g against the weight column: the other three blocks are multiplied by zero. -/
theorem kron_contract (w2 : Blk.Idx → EReal) (w : Fin 256 → EReal)
    (hw2 : ∀ (g : Fin 4) (c : Fin 1024), w2 (ix2 g c)
      = (if g.val = c.val / 256 then (1 : EReal) else 0) * w ⟨c.val % 256, Nat.mod_lt _ (by norm_num)⟩)
    (f : Fin 1024 → EReal) (g : Fin 4) :
    ∑ c : Fin 1024, w2 (ix2 g c) * f c = ∑ h : Fin 256, w h * f (blkEquiv (g, h)) := by
  rw [← Equiv.sum_comp blkEquiv, Fintype.sum_prod_type]
  rw [Finset.sum_eq_single g]
  · refine Finset.sum_congr rfl fun h _ => ?_
    rw [hw2]
    have h1 : (blkEquiv (g, h)).val / 256 = g.val := by
      show (256 * g.val + h.val) / 256 = g.val; have := h.isLt; omega
    have h2 : (⟨(blkEquiv (g, h)).val % 256, Nat.mod_lt _ (by norm_num)⟩ : Fin 256) = h := by
      refine Fin.ext ?_; show (256 * g.val + h.val) % 256 = h.val; have := h.isLt; omega
    rw [if_pos h1.symm, one_mul, h2]
  · intro a _ ha
    refine Finset.sum_eq_zero fun h _ => ?_
    rw [hw2]
    have h1 : (blkEquiv (a, h)).val / 256 = a.val := by
      show (256 * a.val + h.val) / 256 = a.val; have := h.isLt; omega
    rw [if_neg (by rw [h1]; exact fun e => ha (Fin.ext e.symm)), zero_mul, zero_mul]
  · intro hg; exact absurd (Finset.mem_univ g) hg

/-- The float literal 1.0 is the real number 1. -/
theorem ofBits_one_f32 : Ideal.ofBits .f32 0x3F800000#32 = 1 := by
  simp [Ideal.ofBits, Ideal.ieee, -EReal.coe_mul]; norm_num

end Cert.EdgeSpec

end
-- ==== Proof.RowGroupValue.lean ====
/-
  A row group read at an entry, on the extended reals.

  Entry (g, j) of the group at offset i0 is
    logistic (Σ_c w2 (g, c) · stack (c, j) + b2) · msk (i0 + g, j),
  the stack being the four tables max (bt + column (i0 + a) of at, 0), a = 0..3, one under the other: its row 256 a + h is
  row h of table a. When w2 is block-diagonal over a weight column w (row g is w in columns 256 g .. 256 g + 255 and zero
  elsewhere) the contraction over the 1024 rows collapses to block g: Σ_h w h · max (bt (h, j) + at (h, i0 + g), 0).
-/
import proofs.«101957_g89077621719711_cont_sun_m_405_23_alg».proof.Proof.RowGroup
import proofs.«101957_g89077621719711_cont_sun_m_405_23_alg».proof.Proof.EdgeSpec
import Idealize.ShloMosaic.Lib.ValueIdx
import Idealize.ShloMosaic.Lib.Pipeline.Value
import Idealize.ShloMosaic.PureOps.Ideal.Laws

set_option synthInstance.maxSize 4096

noncomputable section

namespace Cert.KernelIdeal.Rows

open Idealize.ShloMosaic Idealize.ShloMosaic.ValueIdx Idealize.SL.Sem Cert.KernelIdeal Cert.KernelIdeal.Gen Cert.EdgeSpec

/-! ## The contraction of the 4 × 1024 weight with the 1024 × 256 stack -/

theorem lhs4_0 (i : S4x256.Idx) (q : dot_S4x1024_S1024x256_S4x256_1_0_0_1_n_n.contr.Idx) :
    (dot_S4x1024_S1024x256_S4x256_1_0_0_1_n_n.lhsIdx i q 0).val = (i 0).val := by
  unfold DotDims.lhsIdx
  rw [dif_neg (show ¬(0 : Fin S4x1024.rank) ∈ dot_S4x1024_S1024x256_S4x256_1_0_0_1_n_n.lhsBatch by decide), dif_pos (show (0 : Fin S4x1024.rank) ∈ dot_S4x1024_S1024x256_S4x256_1_0_0_1_n_n.lhsNonContracting by decide)]
  rfl
theorem lhs4_1 (i : S4x256.Idx) (q : dot_S4x1024_S1024x256_S4x256_1_0_0_1_n_n.contr.Idx) :
    (dot_S4x1024_S1024x256_S4x256_1_0_0_1_n_n.lhsIdx i q 1).val = (q ⟨0, by decide⟩).val :=
  dot_S4x1024_S1024x256_S4x256_1_0_0_1_n_n.lhsIdx_val_of_single rfl i q
theorem rhs4_0 (i : S4x256.Idx) (q : dot_S4x1024_S1024x256_S4x256_1_0_0_1_n_n.contr.Idx) :
    (dot_S4x1024_S1024x256_S4x256_1_0_0_1_n_n.rhsIdx i q 0).val = (q ⟨0, by decide⟩).val :=
  dot_S4x1024_S1024x256_S4x256_1_0_0_1_n_n.rhsIdx_val_of_single rfl i q
theorem rhs4_1 (i : S4x256.Idx) (q : dot_S4x1024_S1024x256_S4x256_1_0_0_1_n_n.contr.Idx) :
    (dot_S4x1024_S1024x256_S4x256_1_0_0_1_n_n.rhsIdx i q 1).val = (i 1).val := by
  unfold DotDims.rhsIdx
  rw [dif_neg (show ¬(1 : Fin S1024x256.rank) ∈ dot_S4x1024_S1024x256_S4x256_1_0_0_1_n_n.rhsBatch by decide), dif_pos (show (1 : Fin S1024x256.rank) ∈ dot_S4x1024_S1024x256_S4x256_1_0_0_1_n_n.rhsNonContracting by decide)]
  rfl

/-- Entry (g, j) of the product of the weight with the stack, from the zero accumulator, is the sum over the 1024 rows. -/
theorem matmul4_apply (W : FVec Ideal S4x1024 .bf16) (S : FVec Ideal S1024x256 .bf16) (g : Fin 4) (j : Fin 256) :
    matmul dot_S4x1024_S1024x256_S4x256_1_0_0_1_n_n none W S (constant S4x256 .f32 0x00000000#32) (ix2 g j)
      = ∑ c : Fin 1024, W (ix2 g c) * S (ix2 c j) := by
  simp only [matmul]
  rw [Ideal.matmul_constant_zero_apply, ← Equiv.sum_comp (ValueIdx.contrEquiv1 dot_S4x1024_S1024x256_S4x256_1_0_0_1_n_n 1024 rfl rfl).symm]
  refine Finset.sum_congr rfl fun k _ => ?_
  have hk := ValueIdx.contrEquiv1_symm_val dot_S4x1024_S1024x256_S4x256_1_0_0_1_n_n 1024 rfl rfl k
  have el : dot_S4x1024_S1024x256_S4x256_1_0_0_1_n_n.lhsIdx (ix2 g j) ((ValueIdx.contrEquiv1 dot_S4x1024_S1024x256_S4x256_1_0_0_1_n_n 1024 rfl rfl).symm k) = ix2 g k := funext fun a => Fin.ext (by
    match a with
    | ⟨0, _⟩ => exact lhs4_0 _ _
    | ⟨1, _⟩ => exact (lhs4_1 _ _).trans hk)
  have er : dot_S4x1024_S1024x256_S4x256_1_0_0_1_n_n.rhsIdx (ix2 g j) ((ValueIdx.contrEquiv1 dot_S4x1024_S1024x256_S4x256_1_0_0_1_n_n 1024 rfl rfl).symm k) = ix2 k j := funext fun a => Fin.ext (by
    match a with
    | ⟨0, _⟩ => exact (rhs4_0 _ _).trans hk
    | ⟨1, _⟩ => exact rhs4_1 _ _)
  rw [el, er]

/-! ## The stack of four tables -/

/-- Row 256 a + h of the stack is row h of table a. -/
theorem stack_apply (t0 t1 t2 t3 : FVec Ideal S256x256 .bf16) (a : Fin 4) (h j : Fin 256) :
    concatenate S1024x256 0 [⟨S256x256, t0⟩, ⟨S256x256, t1⟩, ⟨S256x256, t2⟩, ⟨S256x256, t3⟩]
        concatenates_S256x256_S256x256_S256x256_S256x256_S1024x256_d0 (ix2 (blkEquiv (a, h)) j)
      = (match a with | ⟨0, _⟩ => t0 | ⟨1, _⟩ => t1 | ⟨2, _⟩ => t2 | ⟨3, _⟩ => t3) (ix2 h j) := by
  have hside : ∀ (i : S256x256.Idx) (y : S1024x256.Idx), (i 1).val = (y 1).val →
      ∀ b : Fin S256x256.rank, b.cast (rfl : S256x256.rank = S1024x256.rank) ≠ (0 : Fin S1024x256.rank) → (i b).val = (y (b.cast rfl)).val := by
    intro i y e b hb
    match b with
    | ⟨0, _⟩ => exact absurd rfl hb
    | ⟨1, _⟩ => exact e
  have key : ∀ (k : Nat) (hk : k < 4) (tk : FVec Ideal S256x256 .bf16) (c : Fin 1024),
      ([⟨S256x256, t0⟩, ⟨S256x256, t1⟩, ⟨S256x256, t2⟩, ⟨S256x256, t3⟩] : List ((s : Shape) × (s.Idx → Ideal .bf16)))[k] = ⟨S256x256, tk⟩ →
      256 * k + h.val = c.val →
      concatenate S1024x256 0 [⟨S256x256, t0⟩, ⟨S256x256, t1⟩, ⟨S256x256, t2⟩, ⟨S256x256, t3⟩]
        concatenates_S256x256_S256x256_S256x256_S256x256_S1024x256_d0 (ix2 c j) = tk (ix2 h j) := by
    intro k hk tk c hxk hc
    refine concatenate_apply_piece (0 : Fin S1024x256.rank) [⟨S256x256, t0⟩, ⟨S256x256, t1⟩, ⟨S256x256, t2⟩, ⟨S256x256, t3⟩]
      concatenates_S256x256_S256x256_S256x256_S256x256_S1024x256_d0 (ix2 c j) k hk S256x256 tk hxk rfl (256 * k) ?_ (ix2 h j) (hside _ _ rfl) hc
    match k, hk with
    | 0, _ => rfl
    | 1, _ => rfl
    | 2, _ => rfl
    | 3, _ => rfl
  match a with
  | ⟨0, _⟩ => exact key 0 (by omega) t0 _ rfl rfl
  | ⟨1, _⟩ => exact key 1 (by omega) t1 _ rfl rfl
  | ⟨2, _⟩ => exact key 2 (by omega) t2 _ rfl rfl
  | ⟨3, _⟩ => exact key 3 (by omega) t3 _ rfl rfl

/-! ## One table of the stack, and the group -/

/-- The bf16 zero the kernel takes the maximum with is the real number 0. -/
theorem ofBits_zero_bf16 : Ideal.ofBits .bf16 0x0000#16 = 0 := by simp [Ideal.ofBits, Ideal.ieee]

/-- Table a of the stack at (h, j): the target entry plus column a of the four source columns, cut off below at 0. -/
theorem table_apply (cols : FVec Ideal S256x4 .bf16) (bt : FVec Ideal S256x256 .bf16) (a : Fin 4)
    (hs : S256x4.Slices ![0, a.val] S256x1) (h j : Fin 256) :
    maximumf (addf bt (broadcastTo S256x256 (extractStridedSlice S256x1 ![0, a.val] cols hs) broadcasts_S256x1_S256x256))
        (broadcast S256x256 (Scalar.ofBits .bf16 0x0000#16)) (ix2 h j)
      = max (bt (ix2 h j) + cols (ix2 h a)) 0 := by
  rw [maximumf_apply, addf_apply, broadcast_apply]
  rw [broadcastTo_apply _ broadcasts_S256x1_S256x256 (ix2 h j) (ix2 h 0) (fun b => by
    match b with
    | ⟨0, _⟩ => rfl
    | ⟨1, _⟩ => rfl)]
  rw [extractStridedSlice_apply _ cols hs (ix2 h 0) (ix2 h a) (fun b => by
    match b with
    | ⟨0, _⟩ => show h.val = 0 + h.val; omega
    | ⟨1, _⟩ => rfl)]
  exact congrArg (max _) ofBits_zero_bf16

/-- Entry (g, j) of the row group at offset i0, when the weight is block-diagonal over the column `w`: the score of source
    node i0 + g and target node j from the two tables, masked. -/
theorem rowGroup_apply (i0 : Nat) (hi0 : i0 + 4 ≤ 256) (hc : S256x256.Slices ![0, i0] S256x4) (hm : S256x256.Slices ![i0, 0] S4x256)
    (w2 : FVec Ideal S4x1024 .bf16) (b2 : Ideal .f32) (at' bt : FVec Ideal S256x256 .bf16) (msk : FVec Ideal S256x256 .f32)
    (w : Fin 256 → EReal)
    (hw2 : ∀ (g : Fin 4) (c : Fin 1024), w2 (ix2 g c)
      = (if g.val = c.val / 256 then (1 : EReal) else 0) * w ⟨c.val % 256, Nat.mod_lt _ (by norm_num)⟩)
    (g : Fin 4) (j : Fin 256) :
    rowGroup i0 hc hm w2 b2 at' bt msk (ix3 0 g j)
      = Ideal.logistic ((∑ h : Fin 256, w h * max (bt (ix2 h j) + at' (ix2 h ⟨i0 + g.val, by omega⟩)) 0) + b2)
        * msk (ix2 ⟨i0 + g.val, by omega⟩ j) := by
  unfold rowGroup
  refine (shapeCast_apply _ shapeCasts_S4x256_S1x4x256 (ix3 0 g j) (ix2 g j) ?_).trans ?_
  · rw [Shape.rowMajor_val_two, Shape.rowMajor_val_three]
    show g.val * 256 + j.val = ((0 : Fin 1).val * 4 + g.val) * 256 + j.val
    simp
  rw [mulf_apply]
  refine congrArg₂ (· * ·) ?_ ?_
  · show Ideal.logistic (_ + b2) = _
    refine congrArg (fun z => Ideal.logistic (z + b2)) ?_
    rw [matmul4_apply, kron_contract w2 w hw2]
    refine Finset.sum_congr rfl fun h _ => congrArg (w h * ·) ?_
    rw [stack_apply]
    have hcol : ∀ a : Fin 4, extractStridedSlice S256x4 ![0, i0] at' hc (ix2 h a) = at' (ix2 h ⟨i0 + a.val, by omega⟩) := fun a =>
      extractStridedSlice_apply _ at' hc (ix2 h a) (ix2 h ⟨i0 + a.val, by omega⟩) (fun b => by
        match b with
        | ⟨0, _⟩ => show h.val = 0 + h.val; omega
        | ⟨1, _⟩ => rfl)
    match g with
    | ⟨0, _⟩ => exact (table_apply _ bt 0 slices_S256x4_o0_0_S256x1 h j).trans (by rw [hcol]; rfl)
    | ⟨1, _⟩ => exact (table_apply _ bt 1 slices_S256x4_o0_1_S256x1 h j).trans (by rw [hcol]; rfl)
    | ⟨2, _⟩ => exact (table_apply _ bt 2 slices_S256x4_o0_2_S256x1 h j).trans (by rw [hcol]; rfl)
    | ⟨3, _⟩ => exact (table_apply _ bt 3 slices_S256x4_o0_3_S256x1 h j).trans (by rw [hcol]; rfl)
  · exact extractStridedSlice_apply _ msk hm (ix2 g j) (ix2 ⟨i0 + g.val, by omega⟩ j) (fun b => by
      match b with
      | ⟨0, _⟩ => rfl
      | ⟨1, _⟩ => show j.val = 0 + j.val; omega)

end Cert.KernelIdeal.Rows

end
-- ==== Proof.BodyTables.lean ====
/-
  The three tables of one batch element, the weight and the output bias, as the body computes them from its loads,
  read at an entry on the extended reals.

  The body multiplies each half of the first-layer weight, TRANSPOSED (the contraction runs over the weight's row index
  and the features' column index), with the batch element's 256 × 256 feature block: entry (h, i) of the product is
  Σ_k W1 (k, h) · s (b, i, k). The source table adds the bias column; the mask is [s (b, i, j) ≠ 0] as 0 or 1; changes of
  float format are the identity.
-/
import proofs.«101957_g89077621719711_cont_sun_m_405_23_alg».proof.Proof.Gen.KernelIdeal.Frame
import proofs.«101957_g89077621719711_cont_sun_m_405_23_alg».proof.Proof.EdgeSpec
import Idealize.ShloMosaic.Lib.ValueIdx
import Idealize.ShloMosaic.Lib.Pipeline.Value
import Idealize.ShloMosaic.Lib.KernelVsHost
import Idealize.ShloMosaic.PureOps.Ideal.Laws

set_option synthInstance.maxSize 4096

noncomputable section

namespace Cert.KernelIdeal.Rows

open Idealize.ShloMosaic Idealize.ShloMosaic.ValueIdx Idealize.SL.Sem Cert.KernelIdeal Cert.KernelIdeal.Gen Cert.EdgeSpec

/-! ## The transposed product -/

theorem lhsT_0 (i : S256x256.Idx) (q : dot_S256x256_S256x256_S256x256_0_1_1_0_n_n.contr.Idx) :
    (dot_S256x256_S256x256_S256x256_0_1_1_0_n_n.lhsIdx i q 0).val = (q ⟨0, by decide⟩).val :=
  dot_S256x256_S256x256_S256x256_0_1_1_0_n_n.lhsIdx_val_of_single rfl i q
theorem lhsT_1 (i : S256x256.Idx) (q : dot_S256x256_S256x256_S256x256_0_1_1_0_n_n.contr.Idx) :
    (dot_S256x256_S256x256_S256x256_0_1_1_0_n_n.lhsIdx i q 1).val = (i 0).val := by
  unfold DotDims.lhsIdx
  rw [dif_neg (show ¬(1 : Fin S256x256.rank) ∈ dot_S256x256_S256x256_S256x256_0_1_1_0_n_n.lhsBatch by decide), dif_pos (show (1 : Fin S256x256.rank) ∈ dot_S256x256_S256x256_S256x256_0_1_1_0_n_n.lhsNonContracting by decide)]
  rfl
theorem rhsT_0 (i : S256x256.Idx) (q : dot_S256x256_S256x256_S256x256_0_1_1_0_n_n.contr.Idx) :
    (dot_S256x256_S256x256_S256x256_0_1_1_0_n_n.rhsIdx i q 0).val = (i 1).val := by
  unfold DotDims.rhsIdx
  rw [dif_neg (show ¬(0 : Fin S256x256.rank) ∈ dot_S256x256_S256x256_S256x256_0_1_1_0_n_n.rhsBatch by decide), dif_pos (show (0 : Fin S256x256.rank) ∈ dot_S256x256_S256x256_S256x256_0_1_1_0_n_n.rhsNonContracting by decide)]
  rfl
theorem rhsT_1 (i : S256x256.Idx) (q : dot_S256x256_S256x256_S256x256_0_1_1_0_n_n.contr.Idx) :
    (dot_S256x256_S256x256_S256x256_0_1_1_0_n_n.rhsIdx i q 1).val = (q ⟨0, by decide⟩).val :=
  dot_S256x256_S256x256_S256x256_0_1_1_0_n_n.rhsIdx_val_of_single rfl i q

/-- Entry (h, i) of the transposed product from the zero accumulator: Σ_k A (k, h) · B (i, k). -/
theorem matmulT_apply (A B : FVec Ideal S256x256 .f32) (h i : Fin 256) :
    matmul dot_S256x256_S256x256_S256x256_0_1_1_0_n_n none A B (constant S256x256 .f32 0x00000000#32) (ix2 h i)
      = ∑ k : Fin 256, A (ix2 k h) * B (ix2 i k) := by
  simp only [matmul]
  rw [Ideal.matmul_constant_zero_apply, ← Equiv.sum_comp (ValueIdx.contrEquiv1 dot_S256x256_S256x256_S256x256_0_1_1_0_n_n 256 rfl rfl).symm]
  refine Finset.sum_congr rfl fun k _ => ?_
  have hk := ValueIdx.contrEquiv1_symm_val dot_S256x256_S256x256_S256x256_0_1_1_0_n_n 256 rfl rfl k
  have el : dot_S256x256_S256x256_S256x256_0_1_1_0_n_n.lhsIdx (ix2 h i) ((ValueIdx.contrEquiv1 dot_S256x256_S256x256_S256x256_0_1_1_0_n_n 256 rfl rfl).symm k) = ix2 k h := funext fun a => Fin.ext (by
    match a with
    | ⟨0, _⟩ => exact (lhsT_0 _ _).trans hk
    | ⟨1, _⟩ => exact lhsT_1 _ _)
  have er : dot_S256x256_S256x256_S256x256_0_1_1_0_n_n.rhsIdx (ix2 h i) ((ValueIdx.contrEquiv1 dot_S256x256_S256x256_S256x256_0_1_1_0_n_n 256 rfl rfl).symm k) = ix2 i k := funext fun a => Fin.ext (by
    match a with
    | ⟨0, _⟩ => exact rhsT_0 _ _
    | ⟨1, _⟩ => exact (rhsT_1 _ _).trans hk)
  rw [el, er]

/-! ## The loads -/

/-- The first 256 rows of the weight. -/
theorem ld_src (x1 : Vec Ideal S512x256 .f32) (k h : Fin 256) : View.ld x1 r0_0 (ix2 k h) = x1 (ix2 (lo k) h) :=
  congrArg x1 (funext fun a => Fin.ext (by
    match a with
    | ⟨0, _⟩ => show 0 + 1 * k.val = k.val; omega
    | ⟨1, _⟩ => show 0 + 1 * h.val = h.val; omega))

/-- The last 256 rows of the weight. -/
theorem ld_tgt (x1 : Vec Ideal S512x256 .f32) (k h : Fin 256) : View.ld x1 r0_1 (ix2 k h) = x1 (ix2 (hi k) h) :=
  congrArg x1 (funext fun a => Fin.ext (by
    match a with
    | ⟨0, _⟩ => show 256 + 1 * k.val = 256 + k.val; omega
    | ⟨1, _⟩ => show 0 + 1 * h.val = h.val; omega))

/-- Batch element b's feature block, viewed 256 × 256. -/
theorem feat_apply (x0 : Vec Ideal S2x256x256 .f32) (b : Fin 2)
    (inb : ∀ a, (![b.val, 0, 0] : Fin 3 → Nat) a + S1x256x256.size a ≤ S2x256x256.size a) (i k : Fin 256) :
    shapeCast S256x256 (View.ld x0 (Rect.unit (s := S2x256x256) ![b.val, 0, 0] S1x256x256.size inb)) shapeCasts_S1x256x256_S256x256 (ix2 i k) = x0 (ix3 b i k) := by
  refine (shapeCast_apply _ shapeCasts_S1x256x256_S256x256 (ix2 i k) (ix3 (0 : Fin 1) i k) ?_).trans ?_
  · rw [Shape.rowMajor_val_two, Shape.rowMajor_val_three]
    show ((0 : Fin 1).val * 256 + i.val) * 256 + k.val = i.val * 256 + k.val
    simp
  · exact congrArg x0 (funext fun a => Fin.ext (by
      match a with
      | ⟨0, _⟩ => show b.val + 1 * 0 = b.val; omega
      | ⟨1, _⟩ => show 0 + 1 * i.val = i.val; omega
      | ⟨2, _⟩ => show 0 + 1 * k.val = k.val; omega))

/-! ## The tables -/

/-- The source table: first-layer contribution of node i as source, hidden unit first, bias included. -/
theorem srcTable_apply (x0 : Vec Ideal S2x256x256 .f32) (x1 : Vec Ideal S512x256 .f32) (x2 : Vec Ideal S256x1 .f32) (b : Fin 2)
    (inb : ∀ a, (![b.val, 0, 0] : Fin 3 → Nat) a + S1x256x256.size a ≤ S2x256x256.size a) (h i : Fin 256) :
    k0_pay5 (View.ld x1 r0_0) (View.ld x0 (Rect.unit (s := S2x256x256) ![b.val, 0, 0] S1x256x256.size inb)) (View.ld x2 r0_5) (ix2 h i) = atT x0 x1 x2 b h i := by
  unfold k0_pay5 k0_pay4 atT
  dsimp only
  rw [truncf_apply, addf_apply, matmulT_apply]
  refine congrArg₂ (· + ·) (Finset.sum_congr rfl fun k _ => ?_) ?_
  · rw [ld_src, feat_apply]
  · refine (broadcastTo_apply _ broadcasts_S256x1_S256x256 (ix2 h i) (ix2 h 0) (fun a => by
      match a with
      | ⟨0, _⟩ => rfl
      | ⟨1, _⟩ => rfl)).trans ?_
    rw [shapeCast_self]
    exact congrArg x2 (funext fun a => Fin.ext (by
      match a with
      | ⟨0, _⟩ => show 0 + 1 * h.val = h.val; omega
      | ⟨1, _⟩ => rfl))

/-- The target table: first-layer contribution of node j as target, hidden unit first. -/
theorem tgtTable_apply (x0 : Vec Ideal S2x256x256 .f32) (x1 : Vec Ideal S512x256 .f32) (b : Fin 2)
    (inb : ∀ a, (![b.val, 0, 0] : Fin 3 → Nat) a + S1x256x256.size a ≤ S2x256x256.size a) (h j : Fin 256) :
    k0_pay6 (View.ld x1 r0_1) (View.ld x0 (Rect.unit (s := S2x256x256) ![b.val, 0, 0] S1x256x256.size inb)) (ix2 h j) = btT x0 x1 b h j := by
  unfold k0_pay6 k0_pay4 btT
  dsimp only
  rw [truncf_apply, matmulT_apply]
  refine Finset.sum_congr rfl fun k _ => ?_
  rw [ld_tgt, feat_apply]

/-- The mask: 1 where the adjacency entry is nonzero, 0 where it is zero. -/
theorem maskTable_apply (x0 : Vec Ideal S2x256x256 .f32) (b : Fin 2)
    (inb : ∀ a, (![b.val, 0, 0] : Fin 3 → Nat) a + S1x256x256.size a ≤ S2x256x256.size a) (i j : Fin 256) :
    k0_pay7 (View.ld x0 (Rect.unit (s := S2x256x256) ![b.val, 0, 0] S1x256x256.size inb)) (ix2 i j) = mask01 (x0 (ix3 b i j)) := by
  unfold k0_pay7 k0_pay4 mask01
  dsimp only
  rw [sitofp_extui_eq_uitofp]
  show (((Ideal.cmp .one (shapeCast S256x256 (View.ld x0 (Rect.unit (s := S2x256x256) ![b.val, 0, 0] S1x256x256.size inb)) shapeCasts_S1x256x256_S256x256 (ix2 i j)) (Ideal.ofBits .f32 0x00000000#32)).toNat : ℝ) : EReal) = _
  rw [feat_apply, Ideal.ofBits_zero_f32]
  rfl

/-- The weight as the body uses it is the fourth input block (a change of format only). -/
theorem weight_apply (x3 : Vec Ideal S4x1024 .f32) (g : Fin 4) (c : Fin 1024) :
    k0_pay2 (View.ld x3 r0_2) (ix2 g c) = x3 (ix2 g c) := by
  unfold k0_pay2
  rw [truncf_apply, shapeCast_self]
  exact congrArg x3 (funext fun a => Fin.ext (by
    match a with
    | ⟨0, _⟩ => show 0 + 1 * g.val = g.val; omega
    | ⟨1, _⟩ => show 0 + 1 * c.val = c.val; omega))

/-- The output bias is the one entry of the fifth input block. -/
theorem bias_apply (x4 : Vec Ideal S1x1 .f32) : k0_pay3 (View.ld x4 r0_3) = x4 (ix2 0 0) := by
  unfold k0_pay3 extractAt
  exact congrArg x4 (funext fun a => Fin.ext (by
    match a with
    | ⟨0, _⟩ => rfl
    | ⟨1, _⟩ => rfl))

end Cert.KernelIdeal.Rows

end
-- ==== Proof.PieceValue.lean ====
/-
  One stored piece of the output block is the kernel-shaped score on its rectangle.

  The piece at batch element b, rows i0 .. i0+3 is the row group at offset i0 over batch element b's tables; its entry
  (0, g, j) lies at (b, i0 + g, j) of the block, and there the row group is the score of source node i0 + g and target
  node j: the sum over the hidden units of w h · max (target table (h, j) + source table (h, i0 + g), 0), plus the output
  bias, through the logistic function, times the mask.
-/
import proofs.«101957_g89077621719711_cont_sun_m_405_23_alg».proof.Proof.RowGroupValue
import proofs.«101957_g89077621719711_cont_sun_m_405_23_alg».proof.Proof.BodyTables

set_option synthInstance.maxSize 4096

noncomputable section

namespace Cert.KernelIdeal.Rows

open Idealize.ShloMosaic Idealize.ShloMosaic.ValueIdx Idealize.SL.Sem Cert.KernelIdeal Cert.KernelIdeal.Gen Cert.EdgeSpec

/-- The piece of batch element b at rows i0 .. i0+3, read at a local index, is the kernel-shaped score at the block index
    the piece's rectangle sends it to. -/
theorem piece_ok (x0 : Vec Ideal S2x256x256 .f32) (x1 : Vec Ideal S512x256 .f32) (x2 : Vec Ideal S256x1 .f32)
    (x3 : Vec Ideal S4x1024 .f32) (x4 : Vec Ideal S1x1 .f32) (w : Fin 256 → EReal)
    (hx3 : ∀ (g : Fin 4) (c : Fin 1024), x3 (ix2 g c)
      = (if g.val = c.val / 256 then (1 : EReal) else 0) * w ⟨c.val % 256, Nat.mod_lt _ (by norm_num)⟩)
    (b : Fin 2) (inb : ∀ a, (![b.val, 0, 0] : Fin 3 → Nat) a + S1x256x256.size a ≤ S2x256x256.size a)
    (i0 : Nat) (hi0 : i0 + 4 ≤ 256) (hc : S256x256.Slices ![0, i0] S256x4) (hm : S256x256.Slices ![i0, 0] S4x256)
    (inbP : ∀ a, (![b.val, i0, 0] : Fin 3 → Nat) a + S1x4x256.size a ≤ S2x256x256.size a) (x : S1x4x256.Idx) :
    rowGroup i0 hc hm (k0_pay2 (View.ld x3 r0_2)) (k0_pay3 (View.ld x4 r0_3))
        (k0_pay5 (View.ld x1 r0_0) (View.ld x0 (Rect.unit (s := S2x256x256) ![b.val, 0, 0] S1x256x256.size inb)) (View.ld x2 r0_5))
        (k0_pay6 (View.ld x1 r0_1) (View.ld x0 (Rect.unit (s := S2x256x256) ![b.val, 0, 0] S1x256x256.size inb)))
        (k0_pay7 (View.ld x0 (Rect.unit (s := S2x256x256) ![b.val, 0, 0] S1x256x256.size inb))) x
      = kernelScore x0 x1 x2 w (x4 (ix2 0 0)) ((Rect.unit (s := S2x256x256) ![b.val, i0, 0] S1x4x256.size inbP).emb x) := by
  obtain ⟨z, g, j, rfl⟩ : ∃ (z : Fin 1) (g : Fin 4) (j : Fin 256), x = ix3 z g j := ⟨x 0, x 1, x 2, eq_ix3 x⟩
  obtain rfl : z = 0 := Subsingleton.elim _ _
  rw [rowGroup_apply i0 hi0 hc hm _ _ _ _ _ w (fun g c => (weight_apply x3 g c).trans (hx3 g c)) g j]
  have hb : (⟨b.val + 1 * 0, by have := b.isLt; omega⟩ : Fin 2) = b := Fin.ext (by simp)
  have hi : (⟨i0 + 1 * g.val, by have := g.isLt; omega⟩ : Fin 256) = ⟨i0 + g.val, by have := g.isLt; omega⟩ := Fin.ext (by simp)
  have hj : (⟨0 + 1 * j.val, by have := j.isLt; omega⟩ : Fin 256) = j := Fin.ext (by simp)
  have e : kernelScore x0 x1 x2 w (x4 (ix2 0 0)) ((Rect.unit (s := S2x256x256) ![b.val, i0, 0] S1x4x256.size inbP).emb (ix3 0 g j))
      = kernelScoreAt x0 x1 x2 w (x4 (ix2 0 0)) b ⟨i0 + g.val, by have := g.isLt; omega⟩ j :=
    congr (congr (congrArg (kernelScoreAt x0 x1 x2 w (x4 (ix2 0 0))) hb) hi) hj
  rw [e]
  unfold kernelScoreAt
  simp only [tgtTable_apply, srcTable_apply, bias_apply, maskTable_apply]

end Cert.KernelIdeal.Rows

end
-- ==== Proof.PieceTable.lean ====
/-
  The table of the 128 pieces the body stores into the output block: piece by piece, the stored value is the row
  group (RowGroup.lean) of the piece's batch element at the piece's row offset, over the body's five shared
  values (weight, output bias, source table, target table, mask) — each by unfolding the definitions —, and,
  chained over the list, every piece is the kernel-shaped score on its rectangle (`piece_ok`, PieceValue.lean).
-/
import proofs.«101957_g89077621719711_cont_sun_m_405_23_alg».proof.Proof.PieceValue

set_option synthInstance.maxSize 4096
set_option maxRecDepth 16384

noncomputable section

namespace Cert.KernelIdeal.Rows

open Idealize.ShloMosaic Idealize.ShloMosaic.ValueIdx Idealize.SL.Sem Cert.KernelIdeal Cert.KernelIdeal.Gen Cert.EdgeSpec

section
variable {F : FTy → Type} [FloatOps F]

theorem piece_r0_134 (x0 : Vec F S2x256x256 .f32) (x1 : Vec F S512x256 .f32) (x2 : Vec F S256x1 .f32) (x3 : Vec F S4x1024 .f32) (x4 : Vec F S1x1 .f32) :
    k0_pay1 (k0_pay2 (View.ld x3 r0_2)) (k0_pay3 (View.ld x4 r0_3)) (k0_pay226 (View.ld x1 r0_1) (View.ld x0 r0_70)) (k0_pay227 (View.ld x0 r0_70)) (k0_pay397 (k0_pay225 (View.ld x1 r0_0) (View.ld x0 r0_70) (View.ld x2 r0_5)) (k0_pay226 (View.ld x1 r0_1) (View.ld x0 r0_70))) (k0_pay398 (k0_pay225 (View.ld x1 r0_0) (View.ld x0 r0_70) (View.ld x2 r0_5)) (k0_pay226 (View.ld x1 r0_1) (View.ld x0 r0_70))) (k0_pay399 (k0_pay225 (View.ld x1 r0_0) (View.ld x0 r0_70) (View.ld x2 r0_5)) (k0_pay226 (View.ld x1 r0_1) (View.ld x0 r0_70))) (k0_pay400 (k0_pay225 (View.ld x1 r0_0) (View.ld x0 r0_70) (View.ld x2 r0_5)))
      = rowGroup 252 slices_S256x256_o0_252_S256x4 slices_S256x256_o252_0_S4x256 (k0_pay2 (View.ld x3 r0_2)) (k0_pay3 (View.ld x4 r0_3)) (k0_pay5 (View.ld x1 r0_0) (View.ld x0 r0_70) (View.ld x2 r0_5)) (k0_pay6 (View.ld x1 r0_1) (View.ld x0 r0_70)) (k0_pay7 (View.ld x0 r0_70)) := rfl

theorem piece_r0_133 (x0 : Vec F S2x256x256 .f32) (x1 : Vec F S512x256 .f32) (x2 : Vec F S256x1 .f32) (x3 : Vec F S4x1024 .f32) (x4 : Vec F S1x1 .f32) :
    k0_pay395 (k0_pay2 (View.ld x3 r0_2)) (k0_pay3 (View.ld x4 r0_3)) (k0_pay225 (View.ld x1 r0_0) (View.ld x0 r0_70) (View.ld x2 r0_5)) (k0_pay226 (View.ld x1 r0_1) (View.ld x0 r0_70)) (k0_pay227 (View.ld x0 r0_70))
      = rowGroup 248 slices_S256x256_o0_248_S256x4 slices_S256x256_o248_0_S4x256 (k0_pay2 (View.ld x3 r0_2)) (k0_pay3 (View.ld x4 r0_3)) (k0_pay5 (View.ld x1 r0_0) (View.ld x0 r0_70) (View.ld x2 r0_5)) (k0_pay6 (View.ld x1 r0_1) (View.ld x0 r0_70)) (k0_pay7 (View.ld x0 r0_70)) := rfl

theorem piece_r0_132 (x0 : Vec F S2x256x256 .f32) (x1 : Vec F S512x256 .f32) (x2 : Vec F S256x1 .f32) (x3 : Vec F S4x1024 .f32) (x4 : Vec F S1x1 .f32) :
    k0_pay394 (k0_pay2 (View.ld x3 r0_2)) (k0_pay3 (View.ld x4 r0_3)) (k0_pay225 (View.ld x1 r0_0) (View.ld x0 r0_70) (View.ld x2 r0_5)) (k0_pay226 (View.ld x1 r0_1) (View.ld x0 r0_70)) (k0_pay227 (View.ld x0 r0_70))
      = rowGroup 244 slices_S256x256_o0_244_S256x4 slices_S256x256_o244_0_S4x256 (k0_pay2 (View.ld x3 r0_2)) (k0_pay3 (View.ld x4 r0_3)) (k0_pay5 (View.ld x1 r0_0) (View.ld x0 r0_70) (View.ld x2 r0_5)) (k0_pay6 (View.ld x1 r0_1) (View.ld x0 r0_70)) (k0_pay7 (View.ld x0 r0_70)) := rfl

theorem piece_r0_131 (x0 : Vec F S2x256x256 .f32) (x1 : Vec F S512x256 .f32) (x2 : Vec F S256x1 .f32) (x3 : Vec F S4x1024 .f32) (x4 : Vec F S1x1 .f32) :
    k0_pay393 (k0_pay2 (View.ld x3 r0_2)) (k0_pay3 (View.ld x4 r0_3)) (k0_pay226 (View.ld x1 r0_1) (View.ld x0 r0_70)) (k0_pay227 (View.ld x0 r0_70)) (k0_pay389 (k0_pay225 (View.ld x1 r0_0) (View.ld x0 r0_70) (View.ld x2 r0_5)) (k0_pay226 (View.ld x1 r0_1) (View.ld x0 r0_70))) (k0_pay390 (k0_pay225 (View.ld x1 r0_0) (View.ld x0 r0_70) (View.ld x2 r0_5)) (k0_pay226 (View.ld x1 r0_1) (View.ld x0 r0_70))) (k0_pay391 (k0_pay225 (View.ld x1 r0_0) (View.ld x0 r0_70) (View.ld x2 r0_5)) (k0_pay226 (View.ld x1 r0_1) (View.ld x0 r0_70))) (k0_pay392 (k0_pay225 (View.ld x1 r0_0) (View.ld x0 r0_70) (View.ld x2 r0_5)))
      = rowGroup 240 slices_S256x256_o0_240_S256x4 slices_S256x256_o240_0_S4x256 (k0_pay2 (View.ld x3 r0_2)) (k0_pay3 (View.ld x4 r0_3)) (k0_pay5 (View.ld x1 r0_0) (View.ld x0 r0_70) (View.ld x2 r0_5)) (k0_pay6 (View.ld x1 r0_1) (View.ld x0 r0_70)) (k0_pay7 (View.ld x0 r0_70)) := rfl

theorem piece_r0_130 (x0 : Vec F S2x256x256 .f32) (x1 : Vec F S512x256 .f32) (x2 : Vec F S256x1 .f32) (x3 : Vec F S4x1024 .f32) (x4 : Vec F S1x1 .f32) :
    k0_pay387 (k0_pay2 (View.ld x3 r0_2)) (k0_pay3 (View.ld x4 r0_3)) (k0_pay225 (View.ld x1 r0_0) (View.ld x0 r0_70) (View.ld x2 r0_5)) (k0_pay226 (View.ld x1 r0_1) (View.ld x0 r0_70)) (k0_pay227 (View.ld x0 r0_70))
      = rowGroup 236 slices_S256x256_o0_236_S256x4 slices_S256x256_o236_0_S4x256 (k0_pay2 (View.ld x3 r0_2)) (k0_pay3 (View.ld x4 r0_3)) (k0_pay5 (View.ld x1 r0_0) (View.ld x0 r0_70) (View.ld x2 r0_5)) (k0_pay6 (View.ld x1 r0_1) (View.ld x0 r0_70)) (k0_pay7 (View.ld x0 r0_70)) := rfl

theorem piece_r0_129 (x0 : Vec F S2x256x256 .f32) (x1 : Vec F S512x256 .f32) (x2 : Vec F S256x1 .f32) (x3 : Vec F S4x1024 .f32) (x4 : Vec F S1x1 .f32) :
    k0_pay386 (k0_pay2 (View.ld x3 r0_2)) (k0_pay3 (View.ld x4 r0_3)) (k0_pay225 (View.ld x1 r0_0) (View.ld x0 r0_70) (View.ld x2 r0_5)) (k0_pay226 (View.ld x1 r0_1) (View.ld x0 r0_70)) (k0_pay227 (View.ld x0 r0_70))
      = rowGroup 232 slices_S256x256_o0_232_S256x4 slices_S256x256_o232_0_S4x256 (k0_pay2 (View.ld x3 r0_2)) (k0_pay3 (View.ld x4 r0_3)) (k0_pay5 (View.ld x1 r0_0) (View.ld x0 r0_70) (View.ld x2 r0_5)) (k0_pay6 (View.ld x1 r0_1) (View.ld x0 r0_70)) (k0_pay7 (View.ld x0 r0_70)) := rfl

theorem piece_r0_128 (x0 : Vec F S2x256x256 .f32) (x1 : Vec F S512x256 .f32) (x2 : Vec F S256x1 .f32) (x3 : Vec F S4x1024 .f32) (x4 : Vec F S1x1 .f32) :
    k0_pay385 (k0_pay2 (View.ld x3 r0_2)) (k0_pay3 (View.ld x4 r0_3)) (k0_pay226 (View.ld x1 r0_1) (View.ld x0 r0_70)) (k0_pay227 (View.ld x0 r0_70)) (k0_pay381 (k0_pay225 (View.ld x1 r0_0) (View.ld x0 r0_70) (View.ld x2 r0_5)) (k0_pay226 (View.ld x1 r0_1) (View.ld x0 r0_70))) (k0_pay382 (k0_pay225 (View.ld x1 r0_0) (View.ld x0 r0_70) (View.ld x2 r0_5)) (k0_pay226 (View.ld x1 r0_1) (View.ld x0 r0_70))) (k0_pay383 (k0_pay225 (View.ld x1 r0_0) (View.ld x0 r0_70) (View.ld x2 r0_5)) (k0_pay226 (View.ld x1 r0_1) (View.ld x0 r0_70))) (k0_pay384 (k0_pay225 (View.ld x1 r0_0) (View.ld x0 r0_70) (View.ld x2 r0_5)))
      = rowGroup 228 slices_S256x256_o0_228_S256x4 slices_S256x256_o228_0_S4x256 (k0_pay2 (View.ld x3 r0_2)) (k0_pay3 (View.ld x4 r0_3)) (k0_pay5 (View.ld x1 r0_0) (View.ld x0 r0_70) (View.ld x2 r0_5)) (k0_pay6 (View.ld x1 r0_1) (View.ld x0 r0_70)) (k0_pay7 (View.ld x0 r0_70)) := rfl

theorem piece_r0_127 (x0 : Vec F S2x256x256 .f32) (x1 : Vec F S512x256 .f32) (x2 : Vec F S256x1 .f32) (x3 : Vec F S4x1024 .f32) (x4 : Vec F S1x1 .f32) :
    k0_pay379 (k0_pay2 (View.ld x3 r0_2)) (k0_pay3 (View.ld x4 r0_3)) (k0_pay225 (View.ld x1 r0_0) (View.ld x0 r0_70) (View.ld x2 r0_5)) (k0_pay226 (View.ld x1 r0_1) (View.ld x0 r0_70)) (k0_pay227 (View.ld x0 r0_70))
      = rowGroup 224 slices_S256x256_o0_224_S256x4 slices_S256x256_o224_0_S4x256 (k0_pay2 (View.ld x3 r0_2)) (k0_pay3 (View.ld x4 r0_3)) (k0_pay5 (View.ld x1 r0_0) (View.ld x0 r0_70) (View.ld x2 r0_5)) (k0_pay6 (View.ld x1 r0_1) (View.ld x0 r0_70)) (k0_pay7 (View.ld x0 r0_70)) := rfl

theorem piece_r0_126 (x0 : Vec F S2x256x256 .f32) (x1 : Vec F S512x256 .f32) (x2 : Vec F S256x1 .f32) (x3 : Vec F S4x1024 .f32) (x4 : Vec F S1x1 .f32) :
    k0_pay378 (k0_pay2 (View.ld x3 r0_2)) (k0_pay3 (View.ld x4 r0_3)) (k0_pay225 (View.ld x1 r0_0) (View.ld x0 r0_70) (View.ld x2 r0_5)) (k0_pay226 (View.ld x1 r0_1) (View.ld x0 r0_70)) (k0_pay227 (View.ld x0 r0_70))
      = rowGroup 220 slices_S256x256_o0_220_S256x4 slices_S256x256_o220_0_S4x256 (k0_pay2 (View.ld x3 r0_2)) (k0_pay3 (View.ld x4 r0_3)) (k0_pay5 (View.ld x1 r0_0) (View.ld x0 r0_70) (View.ld x2 r0_5)) (k0_pay6 (View.ld x1 r0_1) (View.ld x0 r0_70)) (k0_pay7 (View.ld x0 r0_70)) := rfl

theorem piece_r0_125 (x0 : Vec F S2x256x256 .f32) (x1 : Vec F S512x256 .f32) (x2 : Vec F S256x1 .f32) (x3 : Vec F S4x1024 .f32) (x4 : Vec F S1x1 .f32) :
    k0_pay377 (k0_pay2 (View.ld x3 r0_2)) (k0_pay3 (View.ld x4 r0_3)) (k0_pay226 (View.ld x1 r0_1) (View.ld x0 r0_70)) (k0_pay227 (View.ld x0 r0_70)) (k0_pay373 (k0_pay225 (View.ld x1 r0_0) (View.ld x0 r0_70) (View.ld x2 r0_5)) (k0_pay226 (View.ld x1 r0_1) (View.ld x0 r0_70))) (k0_pay374 (k0_pay225 (View.ld x1 r0_0) (View.ld x0 r0_70) (View.ld x2 r0_5)) (k0_pay226 (View.ld x1 r0_1) (View.ld x0 r0_70))) (k0_pay375 (k0_pay225 (View.ld x1 r0_0) (View.ld x0 r0_70) (View.ld x2 r0_5)) (k0_pay226 (View.ld x1 r0_1) (View.ld x0 r0_70))) (k0_pay376 (k0_pay225 (View.ld x1 r0_0) (View.ld x0 r0_70) (View.ld x2 r0_5)))
      = rowGroup 216 slices_S256x256_o0_216_S256x4 slices_S256x256_o216_0_S4x256 (k0_pay2 (View.ld x3 r0_2)) (k0_pay3 (View.ld x4 r0_3)) (k0_pay5 (View.ld x1 r0_0) (View.ld x0 r0_70) (View.ld x2 r0_5)) (k0_pay6 (View.ld x1 r0_1) (View.ld x0 r0_70)) (k0_pay7 (View.ld x0 r0_70)) := rfl

theorem piece_r0_124 (x0 : Vec F S2x256x256 .f32) (x1 : Vec F S512x256 .f32) (x2 : Vec F S256x1 .f32) (x3 : Vec F S4x1024 .f32) (x4 : Vec F S1x1 .f32) :
    k0_pay371 (k0_pay2 (View.ld x3 r0_2)) (k0_pay3 (View.ld x4 r0_3)) (k0_pay225 (View.ld x1 r0_0) (View.ld x0 r0_70) (View.ld x2 r0_5)) (k0_pay226 (View.ld x1 r0_1) (View.ld x0 r0_70)) (k0_pay227 (View.ld x0 r0_70))
      = rowGroup 212 slices_S256x256_o0_212_S256x4 slices_S256x256_o212_0_S4x256 (k0_pay2 (View.ld x3 r0_2)) (k0_pay3 (View.ld x4 r0_3)) (k0_pay5 (View.ld x1 r0_0) (View.ld x0 r0_70) (View.ld x2 r0_5)) (k0_pay6 (View.ld x1 r0_1) (View.ld x0 r0_70)) (k0_pay7 (View.ld x0 r0_70)) := rfl

theorem piece_r0_123 (x0 : Vec F S2x256x256 .f32) (x1 : Vec F S512x256 .f32) (x2 : Vec F S256x1 .f32) (x3 : Vec F S4x1024 .f32) (x4 : Vec F S1x1 .f32) :
    k0_pay370 (k0_pay2 (View.ld x3 r0_2)) (k0_pay3 (View.ld x4 r0_3)) (k0_pay225 (View.ld x1 r0_0) (View.ld x0 r0_70) (View.ld x2 r0_5)) (k0_pay226 (View.ld x1 r0_1) (View.ld x0 r0_70)) (k0_pay227 (View.ld x0 r0_70))
      = rowGroup 208 slices_S256x256_o0_208_S256x4 slices_S256x256_o208_0_S4x256 (k0_pay2 (View.ld x3 r0_2)) (k0_pay3 (View.ld x4 r0_3)) (k0_pay5 (View.ld x1 r0_0) (View.ld x0 r0_70) (View.ld x2 r0_5)) (k0_pay6 (View.ld x1 r0_1) (View.ld x0 r0_70)) (k0_pay7 (View.ld x0 r0_70)) := rfl

theorem piece_r0_122 (x0 : Vec F S2x256x256 .f32) (x1 : Vec F S512x256 .f32) (x2 : Vec F S256x1 .f32) (x3 : Vec F S4x1024 .f32) (x4 : Vec F S1x1 .f32) :
    k0_pay369 (k0_pay2 (View.ld x3 r0_2)) (k0_pay3 (View.ld x4 r0_3)) (k0_pay226 (View.ld x1 r0_1) (View.ld x0 r0_70)) (k0_pay227 (View.ld x0 r0_70)) (k0_pay365 (k0_pay225 (View.ld x1 r0_0) (View.ld x0 r0_70) (View.ld x2 r0_5)) (k0_pay226 (View.ld x1 r0_1) (View.ld x0 r0_70))) (k0_pay366 (k0_pay225 (View.ld x1 r0_0) (View.ld x0 r0_70) (View.ld x2 r0_5)) (k0_pay226 (View.ld x1 r0_1) (View.ld x0 r0_70))) (k0_pay367 (k0_pay225 (View.ld x1 r0_0) (View.ld x0 r0_70) (View.ld x2 r0_5)) (k0_pay226 (View.ld x1 r0_1) (View.ld x0 r0_70))) (k0_pay368 (k0_pay225 (View.ld x1 r0_0) (View.ld x0 r0_70) (View.ld x2 r0_5)))
      = rowGroup 204 slices_S256x256_o0_204_S256x4 slices_S256x256_o204_0_S4x256 (k0_pay2 (View.ld x3 r0_2)) (k0_pay3 (View.ld x4 r0_3)) (k0_pay5 (View.ld x1 r0_0) (View.ld x0 r0_70) (View.ld x2 r0_5)) (k0_pay6 (View.ld x1 r0_1) (View.ld x0 r0_70)) (k0_pay7 (View.ld x0 r0_70)) := rfl

theorem piece_r0_121 (x0 : Vec F S2x256x256 .f32) (x1 : Vec F S512x256 .f32) (x2 : Vec F S256x1 .f32) (x3 : Vec F S4x1024 .f32) (x4 : Vec F S1x1 .f32) :
    k0_pay363 (k0_pay2 (View.ld x3 r0_2)) (k0_pay3 (View.ld x4 r0_3)) (k0_pay225 (View.ld x1 r0_0) (View.ld x0 r0_70) (View.ld x2 r0_5)) (k0_pay226 (View.ld x1 r0_1) (View.ld x0 r0_70)) (k0_pay227 (View.ld x0 r0_70))
      = rowGroup 200 slices_S256x256_o0_200_S256x4 slices_S256x256_o200_0_S4x256 (k0_pay2 (View.ld x3 r0_2)) (k0_pay3 (View.ld x4 r0_3)) (k0_pay5 (View.ld x1 r0_0) (View.ld x0 r0_70) (View.ld x2 r0_5)) (k0_pay6 (View.ld x1 r0_1) (View.ld x0 r0_70)) (k0_pay7 (View.ld x0 r0_70)) := rfl

theorem piece_r0_120 (x0 : Vec F S2x256x256 .f32) (x1 : Vec F S512x256 .f32) (x2 : Vec F S256x1 .f32) (x3 : Vec F S4x1024 .f32) (x4 : Vec F S1x1 .f32) :
    k0_pay362 (k0_pay2 (View.ld x3 r0_2)) (k0_pay3 (View.ld x4 r0_3)) (k0_pay225 (View.ld x1 r0_0) (View.ld x0 r0_70) (View.ld x2 r0_5)) (k0_pay226 (View.ld x1 r0_1) (View.ld x0 r0_70)) (k0_pay227 (View.ld x0 r0_70))
      = rowGroup 196 slices_S256x256_o0_196_S256x4 slices_S256x256_o196_0_S4x256 (k0_pay2 (View.ld x3 r0_2)) (k0_pay3 (View.ld x4 r0_3)) (k0_pay5 (View.ld x1 r0_0) (View.ld x0 r0_70) (View.ld x2 r0_5)) (k0_pay6 (View.ld x1 r0_1) (View.ld x0 r0_70)) (k0_pay7 (View.ld x0 r0_70)) := rfl

theorem piece_r0_119 (x0 : Vec F S2x256x256 .f32) (x1 : Vec F S512x256 .f32) (x2 : Vec F S256x1 .f32) (x3 : Vec F S4x1024 .f32) (x4 : Vec F S1x1 .f32) :
    k0_pay361 (k0_pay2 (View.ld x3 r0_2)) (k0_pay3 (View.ld x4 r0_3)) (k0_pay226 (View.ld x1 r0_1) (View.ld x0 r0_70)) (k0_pay227 (View.ld x0 r0_70)) (k0_pay357 (k0_pay225 (View.ld x1 r0_0) (View.ld x0 r0_70) (View.ld x2 r0_5)) (k0_pay226 (View.ld x1 r0_1) (View.ld x0 r0_70))) (k0_pay358 (k0_pay225 (View.ld x1 r0_0) (View.ld x0 r0_70) (View.ld x2 r0_5)) (k0_pay226 (View.ld x1 r0_1) (View.ld x0 r0_70))) (k0_pay359 (k0_pay225 (View.ld x1 r0_0) (View.ld x0 r0_70) (View.ld x2 r0_5)) (k0_pay226 (View.ld x1 r0_1) (View.ld x0 r0_70))) (k0_pay360 (k0_pay225 (View.ld x1 r0_0) (View.ld x0 r0_70) (View.ld x2 r0_5)))
      = rowGroup 192 slices_S256x256_o0_192_S256x4 slices_S256x256_o192_0_S4x256 (k0_pay2 (View.ld x3 r0_2)) (k0_pay3 (View.ld x4 r0_3)) (k0_pay5 (View.ld x1 r0_0) (View.ld x0 r0_70) (View.ld x2 r0_5)) (k0_pay6 (View.ld x1 r0_1) (View.ld x0 r0_70)) (k0_pay7 (View.ld x0 r0_70)) := rfl

theorem piece_r0_118 (x0 : Vec F S2x256x256 .f32) (x1 : Vec F S512x256 .f32) (x2 : Vec F S256x1 .f32) (x3 : Vec F S4x1024 .f32) (x4 : Vec F S1x1 .f32) :
    k0_pay355 (k0_pay2 (View.ld x3 r0_2)) (k0_pay3 (View.ld x4 r0_3)) (k0_pay225 (View.ld x1 r0_0) (View.ld x0 r0_70) (View.ld x2 r0_5)) (k0_pay226 (View.ld x1 r0_1) (View.ld x0 r0_70)) (k0_pay227 (View.ld x0 r0_70))
      = rowGroup 188 slices_S256x256_o0_188_S256x4 slices_S256x256_o188_0_S4x256 (k0_pay2 (View.ld x3 r0_2)) (k0_pay3 (View.ld x4 r0_3)) (k0_pay5 (View.ld x1 r0_0) (View.ld x0 r0_70) (View.ld x2 r0_5)) (k0_pay6 (View.ld x1 r0_1) (View.ld x0 r0_70)) (k0_pay7 (View.ld x0 r0_70)) := rfl

theorem piece_r0_117 (x0 : Vec F S2x256x256 .f32) (x1 : Vec F S512x256 .f32) (x2 : Vec F S256x1 .f32) (x3 : Vec F S4x1024 .f32) (x4 : Vec F S1x1 .f32) :
    k0_pay354 (k0_pay2 (View.ld x3 r0_2)) (k0_pay3 (View.ld x4 r0_3)) (k0_pay225 (View.ld x1 r0_0) (View.ld x0 r0_70) (View.ld x2 r0_5)) (k0_pay226 (View.ld x1 r0_1) (View.ld x0 r0_70)) (k0_pay227 (View.ld x0 r0_70))
      = rowGroup 184 slices_S256x256_o0_184_S256x4 slices_S256x256_o184_0_S4x256 (k0_pay2 (View.ld x3 r0_2)) (k0_pay3 (View.ld x4 r0_3)) (k0_pay5 (View.ld x1 r0_0) (View.ld x0 r0_70) (View.ld x2 r0_5)) (k0_pay6 (View.ld x1 r0_1) (View.ld x0 r0_70)) (k0_pay7 (View.ld x0 r0_70)) := rfl

theorem piece_r0_116 (x0 : Vec F S2x256x256 .f32) (x1 : Vec F S512x256 .f32) (x2 : Vec F S256x1 .f32) (x3 : Vec F S4x1024 .f32) (x4 : Vec F S1x1 .f32) :
    k0_pay353 (k0_pay2 (View.ld x3 r0_2)) (k0_pay3 (View.ld x4 r0_3)) (k0_pay226 (View.ld x1 r0_1) (View.ld x0 r0_70)) (k0_pay227 (View.ld x0 r0_70)) (k0_pay349 (k0_pay225 (View.ld x1 r0_0) (View.ld x0 r0_70) (View.ld x2 r0_5)) (k0_pay226 (View.ld x1 r0_1) (View.ld x0 r0_70))) (k0_pay350 (k0_pay225 (View.ld x1 r0_0) (View.ld x0 r0_70) (View.ld x2 r0_5)) (k0_pay226 (View.ld x1 r0_1) (View.ld x0 r0_70))) (k0_pay351 (k0_pay225 (View.ld x1 r0_0) (View.ld x0 r0_70) (View.ld x2 r0_5)) (k0_pay226 (View.ld x1 r0_1) (View.ld x0 r0_70))) (k0_pay352 (k0_pay225 (View.ld x1 r0_0) (View.ld x0 r0_70) (View.ld x2 r0_5)))
      = rowGroup 180 slices_S256x256_o0_180_S256x4 slices_S256x256_o180_0_S4x256 (k0_pay2 (View.ld x3 r0_2)) (k0_pay3 (View.ld x4 r0_3)) (k0_pay5 (View.ld x1 r0_0) (View.ld x0 r0_70) (View.ld x2 r0_5)) (k0_pay6 (View.ld x1 r0_1) (View.ld x0 r0_70)) (k0_pay7 (View.ld x0 r0_70)) := rfl

theorem piece_r0_115 (x0 : Vec F S2x256x256 .f32) (x1 : Vec F S512x256 .f32) (x2 : Vec F S256x1 .f32) (x3 : Vec F S4x1024 .f32) (x4 : Vec F S1x1 .f32) :
    k0_pay347 (k0_pay2 (View.ld x3 r0_2)) (k0_pay3 (View.ld x4 r0_3)) (k0_pay225 (View.ld x1 r0_0) (View.ld x0 r0_70) (View.ld x2 r0_5)) (k0_pay226 (View.ld x1 r0_1) (View.ld x0 r0_70)) (k0_pay227 (View.ld x0 r0_70))
      = rowGroup 176 slices_S256x256_o0_176_S256x4 slices_S256x256_o176_0_S4x256 (k0_pay2 (View.ld x3 r0_2)) (k0_pay3 (View.ld x4 r0_3)) (k0_pay5 (View.ld x1 r0_0) (View.ld x0 r0_70) (View.ld x2 r0_5)) (k0_pay6 (View.ld x1 r0_1) (View.ld x0 r0_70)) (k0_pay7 (View.ld x0 r0_70)) := rfl

theorem piece_r0_114 (x0 : Vec F S2x256x256 .f32) (x1 : Vec F S512x256 .f32) (x2 : Vec F S256x1 .f32) (x3 : Vec F S4x1024 .f32) (x4 : Vec F S1x1 .f32) :
    k0_pay346 (k0_pay2 (View.ld x3 r0_2)) (k0_pay3 (View.ld x4 r0_3)) (k0_pay225 (View.ld x1 r0_0) (View.ld x0 r0_70) (View.ld x2 r0_5)) (k0_pay226 (View.ld x1 r0_1) (View.ld x0 r0_70)) (k0_pay227 (View.ld x0 r0_70))
      = rowGroup 172 slices_S256x256_o0_172_S256x4 slices_S256x256_o172_0_S4x256 (k0_pay2 (View.ld x3 r0_2)) (k0_pay3 (View.ld x4 r0_3)) (k0_pay5 (View.ld x1 r0_0) (View.ld x0 r0_70) (View.ld x2 r0_5)) (k0_pay6 (View.ld x1 r0_1) (View.ld x0 r0_70)) (k0_pay7 (View.ld x0 r0_70)) := rfl

theorem piece_r0_113 (x0 : Vec F S2x256x256 .f32) (x1 : Vec F S512x256 .f32) (x2 : Vec F S256x1 .f32) (x3 : Vec F S4x1024 .f32) (x4 : Vec F S1x1 .f32) :
    k0_pay345 (k0_pay2 (View.ld x3 r0_2)) (k0_pay3 (View.ld x4 r0_3)) (k0_pay226 (View.ld x1 r0_1) (View.ld x0 r0_70)) (k0_pay227 (View.ld x0 r0_70)) (k0_pay341 (k0_pay225 (View.ld x1 r0_0) (View.ld x0 r0_70) (View.ld x2 r0_5)) (k0_pay226 (View.ld x1 r0_1) (View.ld x0 r0_70))) (k0_pay342 (k0_pay225 (View.ld x1 r0_0) (View.ld x0 r0_70) (View.ld x2 r0_5)) (k0_pay226 (View.ld x1 r0_1) (View.ld x0 r0_70))) (k0_pay343 (k0_pay225 (View.ld x1 r0_0) (View.ld x0 r0_70) (View.ld x2 r0_5)) (k0_pay226 (View.ld x1 r0_1) (View.ld x0 r0_70))) (k0_pay344 (k0_pay225 (View.ld x1 r0_0) (View.ld x0 r0_70) (View.ld x2 r0_5)))
      = rowGroup 168 slices_S256x256_o0_168_S256x4 slices_S256x256_o168_0_S4x256 (k0_pay2 (View.ld x3 r0_2)) (k0_pay3 (View.ld x4 r0_3)) (k0_pay5 (View.ld x1 r0_0) (View.ld x0 r0_70) (View.ld x2 r0_5)) (k0_pay6 (View.ld x1 r0_1) (View.ld x0 r0_70)) (k0_pay7 (View.ld x0 r0_70)) := rfl

theorem piece_r0_112 (x0 : Vec F S2x256x256 .f32) (x1 : Vec F S512x256 .f32) (x2 : Vec F S256x1 .f32) (x3 : Vec F S4x1024 .f32) (x4 : Vec F S1x1 .f32) :
    k0_pay339 (k0_pay2 (View.ld x3 r0_2)) (k0_pay3 (View.ld x4 r0_3)) (k0_pay225 (View.ld x1 r0_0) (View.ld x0 r0_70) (View.ld x2 r0_5)) (k0_pay226 (View.ld x1 r0_1) (View.ld x0 r0_70)) (k0_pay227 (View.ld x0 r0_70))
      = rowGroup 164 slices_S256x256_o0_164_S256x4 slices_S256x256_o164_0_S4x256 (k0_pay2 (View.ld x3 r0_2)) (k0_pay3 (View.ld x4 r0_3)) (k0_pay5 (View.ld x1 r0_0) (View.ld x0 r0_70) (View.ld x2 r0_5)) (k0_pay6 (View.ld x1 r0_1) (View.ld x0 r0_70)) (k0_pay7 (View.ld x0 r0_70)) := rfl

theorem piece_r0_111 (x0 : Vec F S2x256x256 .f32) (x1 : Vec F S512x256 .f32) (x2 : Vec F S256x1 .f32) (x3 : Vec F S4x1024 .f32) (x4 : Vec F S1x1 .f32) :
    k0_pay338 (k0_pay2 (View.ld x3 r0_2)) (k0_pay3 (View.ld x4 r0_3)) (k0_pay225 (View.ld x1 r0_0) (View.ld x0 r0_70) (View.ld x2 r0_5)) (k0_pay226 (View.ld x1 r0_1) (View.ld x0 r0_70)) (k0_pay227 (View.ld x0 r0_70))
      = rowGroup 160 slices_S256x256_o0_160_S256x4 slices_S256x256_o160_0_S4x256 (k0_pay2 (View.ld x3 r0_2)) (k0_pay3 (View.ld x4 r0_3)) (k0_pay5 (View.ld x1 r0_0) (View.ld x0 r0_70) (View.ld x2 r0_5)) (k0_pay6 (View.ld x1 r0_1) (View.ld x0 r0_70)) (k0_pay7 (View.ld x0 r0_70)) := rfl

theorem piece_r0_110 (x0 : Vec F S2x256x256 .f32) (x1 : Vec F S512x256 .f32) (x2 : Vec F S256x1 .f32) (x3 : Vec F S4x1024 .f32) (x4 : Vec F S1x1 .f32) :
    k0_pay337 (k0_pay2 (View.ld x3 r0_2)) (k0_pay3 (View.ld x4 r0_3)) (k0_pay226 (View.ld x1 r0_1) (View.ld x0 r0_70)) (k0_pay227 (View.ld x0 r0_70)) (k0_pay333 (k0_pay225 (View.ld x1 r0_0) (View.ld x0 r0_70) (View.ld x2 r0_5)) (k0_pay226 (View.ld x1 r0_1) (View.ld x0 r0_70))) (k0_pay334 (k0_pay225 (View.ld x1 r0_0) (View.ld x0 r0_70) (View.ld x2 r0_5)) (k0_pay226 (View.ld x1 r0_1) (View.ld x0 r0_70))) (k0_pay335 (k0_pay225 (View.ld x1 r0_0) (View.ld x0 r0_70) (View.ld x2 r0_5)) (k0_pay226 (View.ld x1 r0_1) (View.ld x0 r0_70))) (k0_pay336 (k0_pay225 (View.ld x1 r0_0) (View.ld x0 r0_70) (View.ld x2 r0_5)))
      = rowGroup 156 slices_S256x256_o0_156_S256x4 slices_S256x256_o156_0_S4x256 (k0_pay2 (View.ld x3 r0_2)) (k0_pay3 (View.ld x4 r0_3)) (k0_pay5 (View.ld x1 r0_0) (View.ld x0 r0_70) (View.ld x2 r0_5)) (k0_pay6 (View.ld x1 r0_1) (View.ld x0 r0_70)) (k0_pay7 (View.ld x0 r0_70)) := rfl

theorem piece_r0_109 (x0 : Vec F S2x256x256 .f32) (x1 : Vec F S512x256 .f32) (x2 : Vec F S256x1 .f32) (x3 : Vec F S4x1024 .f32) (x4 : Vec F S1x1 .f32) :
    k0_pay331 (k0_pay2 (View.ld x3 r0_2)) (k0_pay3 (View.ld x4 r0_3)) (k0_pay225 (View.ld x1 r0_0) (View.ld x0 r0_70) (View.ld x2 r0_5)) (k0_pay226 (View.ld x1 r0_1) (View.ld x0 r0_70)) (k0_pay227 (View.ld x0 r0_70))
      = rowGroup 152 slices_S256x256_o0_152_S256x4 slices_S256x256_o152_0_S4x256 (k0_pay2 (View.ld x3 r0_2)) (k0_pay3 (View.ld x4 r0_3)) (k0_pay5 (View.ld x1 r0_0) (View.ld x0 r0_70) (View.ld x2 r0_5)) (k0_pay6 (View.ld x1 r0_1) (View.ld x0 r0_70)) (k0_pay7 (View.ld x0 r0_70)) := rfl

theorem piece_r0_108 (x0 : Vec F S2x256x256 .f32) (x1 : Vec F S512x256 .f32) (x2 : Vec F S256x1 .f32) (x3 : Vec F S4x1024 .f32) (x4 : Vec F S1x1 .f32) :
    k0_pay330 (k0_pay2 (View.ld x3 r0_2)) (k0_pay3 (View.ld x4 r0_3)) (k0_pay225 (View.ld x1 r0_0) (View.ld x0 r0_70) (View.ld x2 r0_5)) (k0_pay226 (View.ld x1 r0_1) (View.ld x0 r0_70)) (k0_pay227 (View.ld x0 r0_70))
      = rowGroup 148 slices_S256x256_o0_148_S256x4 slices_S256x256_o148_0_S4x256 (k0_pay2 (View.ld x3 r0_2)) (k0_pay3 (View.ld x4 r0_3)) (k0_pay5 (View.ld x1 r0_0) (View.ld x0 r0_70) (View.ld x2 r0_5)) (k0_pay6 (View.ld x1 r0_1) (View.ld x0 r0_70)) (k0_pay7 (View.ld x0 r0_70)) := rfl

theorem piece_r0_107 (x0 : Vec F S2x256x256 .f32) (x1 : Vec F S512x256 .f32) (x2 : Vec F S256x1 .f32) (x3 : Vec F S4x1024 .f32) (x4 : Vec F S1x1 .f32) :
    k0_pay329 (k0_pay2 (View.ld x3 r0_2)) (k0_pay3 (View.ld x4 r0_3)) (k0_pay226 (View.ld x1 r0_1) (View.ld x0 r0_70)) (k0_pay227 (View.ld x0 r0_70)) (k0_pay325 (k0_pay225 (View.ld x1 r0_0) (View.ld x0 r0_70) (View.ld x2 r0_5)) (k0_pay226 (View.ld x1 r0_1) (View.ld x0 r0_70))) (k0_pay326 (k0_pay225 (View.ld x1 r0_0) (View.ld x0 r0_70) (View.ld x2 r0_5)) (k0_pay226 (View.ld x1 r0_1) (View.ld x0 r0_70))) (k0_pay327 (k0_pay225 (View.ld x1 r0_0) (View.ld x0 r0_70) (View.ld x2 r0_5)) (k0_pay226 (View.ld x1 r0_1) (View.ld x0 r0_70))) (k0_pay328 (k0_pay225 (View.ld x1 r0_0) (View.ld x0 r0_70) (View.ld x2 r0_5)))
      = rowGroup 144 slices_S256x256_o0_144_S256x4 slices_S256x256_o144_0_S4x256 (k0_pay2 (View.ld x3 r0_2)) (k0_pay3 (View.ld x4 r0_3)) (k0_pay5 (View.ld x1 r0_0) (View.ld x0 r0_70) (View.ld x2 r0_5)) (k0_pay6 (View.ld x1 r0_1) (View.ld x0 r0_70)) (k0_pay7 (View.ld x0 r0_70)) := rfl

theorem piece_r0_106 (x0 : Vec F S2x256x256 .f32) (x1 : Vec F S512x256 .f32) (x2 : Vec F S256x1 .f32) (x3 : Vec F S4x1024 .f32) (x4 : Vec F S1x1 .f32) :
    k0_pay323 (k0_pay2 (View.ld x3 r0_2)) (k0_pay3 (View.ld x4 r0_3)) (k0_pay225 (View.ld x1 r0_0) (View.ld x0 r0_70) (View.ld x2 r0_5)) (k0_pay226 (View.ld x1 r0_1) (View.ld x0 r0_70)) (k0_pay227 (View.ld x0 r0_70))
      = rowGroup 140 slices_S256x256_o0_140_S256x4 slices_S256x256_o140_0_S4x256 (k0_pay2 (View.ld x3 r0_2)) (k0_pay3 (View.ld x4 r0_3)) (k0_pay5 (View.ld x1 r0_0) (View.ld x0 r0_70) (View.ld x2 r0_5)) (k0_pay6 (View.ld x1 r0_1) (View.ld x0 r0_70)) (k0_pay7 (View.ld x0 r0_70)) := rfl

theorem piece_r0_105 (x0 : Vec F S2x256x256 .f32) (x1 : Vec F S512x256 .f32) (x2 : Vec F S256x1 .f32) (x3 : Vec F S4x1024 .f32) (x4 : Vec F S1x1 .f32) :
    k0_pay322 (k0_pay2 (View.ld x3 r0_2)) (k0_pay3 (View.ld x4 r0_3)) (k0_pay225 (View.ld x1 r0_0) (View.ld x0 r0_70) (View.ld x2 r0_5)) (k0_pay226 (View.ld x1 r0_1) (View.ld x0 r0_70)) (k0_pay227 (View.ld x0 r0_70))
      = rowGroup 136 slices_S256x256_o0_136_S256x4 slices_S256x256_o136_0_S4x256 (k0_pay2 (View.ld x3 r0_2)) (k0_pay3 (View.ld x4 r0_3)) (k0_pay5 (View.ld x1 r0_0) (View.ld x0 r0_70) (View.ld x2 r0_5)) (k0_pay6 (View.ld x1 r0_1) (View.ld x0 r0_70)) (k0_pay7 (View.ld x0 r0_70)) := rfl

theorem piece_r0_104 (x0 : Vec F S2x256x256 .f32) (x1 : Vec F S512x256 .f32) (x2 : Vec F S256x1 .f32) (x3 : Vec F S4x1024 .f32) (x4 : Vec F S1x1 .f32) :
    k0_pay321 (k0_pay2 (View.ld x3 r0_2)) (k0_pay3 (View.ld x4 r0_3)) (k0_pay226 (View.ld x1 r0_1) (View.ld x0 r0_70)) (k0_pay227 (View.ld x0 r0_70)) (k0_pay317 (k0_pay225 (View.ld x1 r0_0) (View.ld x0 r0_70) (View.ld x2 r0_5)) (k0_pay226 (View.ld x1 r0_1) (View.ld x0 r0_70))) (k0_pay318 (k0_pay225 (View.ld x1 r0_0) (View.ld x0 r0_70) (View.ld x2 r0_5)) (k0_pay226 (View.ld x1 r0_1) (View.ld x0 r0_70))) (k0_pay319 (k0_pay225 (View.ld x1 r0_0) (View.ld x0 r0_70) (View.ld x2 r0_5)) (k0_pay226 (View.ld x1 r0_1) (View.ld x0 r0_70))) (k0_pay320 (k0_pay225 (View.ld x1 r0_0) (View.ld x0 r0_70) (View.ld x2 r0_5)))
      = rowGroup 132 slices_S256x256_o0_132_S256x4 slices_S256x256_o132_0_S4x256 (k0_pay2 (View.ld x3 r0_2)) (k0_pay3 (View.ld x4 r0_3)) (k0_pay5 (View.ld x1 r0_0) (View.ld x0 r0_70) (View.ld x2 r0_5)) (k0_pay6 (View.ld x1 r0_1) (View.ld x0 r0_70)) (k0_pay7 (View.ld x0 r0_70)) := rfl

theorem piece_r0_103 (x0 : Vec F S2x256x256 .f32) (x1 : Vec F S512x256 .f32) (x2 : Vec F S256x1 .f32) (x3 : Vec F S4x1024 .f32) (x4 : Vec F S1x1 .f32) :
    k0_pay315 (k0_pay2 (View.ld x3 r0_2)) (k0_pay3 (View.ld x4 r0_3)) (k0_pay225 (View.ld x1 r0_0) (View.ld x0 r0_70) (View.ld x2 r0_5)) (k0_pay226 (View.ld x1 r0_1) (View.ld x0 r0_70)) (k0_pay227 (View.ld x0 r0_70))
      = rowGroup 128 slices_S256x256_o0_128_S256x4 slices_S256x256_o128_0_S4x256 (k0_pay2 (View.ld x3 r0_2)) (k0_pay3 (View.ld x4 r0_3)) (k0_pay5 (View.ld x1 r0_0) (View.ld x0 r0_70) (View.ld x2 r0_5)) (k0_pay6 (View.ld x1 r0_1) (View.ld x0 r0_70)) (k0_pay7 (View.ld x0 r0_70)) := rfl

theorem piece_r0_102 (x0 : Vec F S2x256x256 .f32) (x1 : Vec F S512x256 .f32) (x2 : Vec F S256x1 .f32) (x3 : Vec F S4x1024 .f32) (x4 : Vec F S1x1 .f32) :
    k0_pay314 (k0_pay2 (View.ld x3 r0_2)) (k0_pay3 (View.ld x4 r0_3)) (k0_pay225 (View.ld x1 r0_0) (View.ld x0 r0_70) (View.ld x2 r0_5)) (k0_pay226 (View.ld x1 r0_1) (View.ld x0 r0_70)) (k0_pay227 (View.ld x0 r0_70))
      = rowGroup 124 slices_S256x256_o0_124_S256x4 slices_S256x256_o124_0_S4x256 (k0_pay2 (View.ld x3 r0_2)) (k0_pay3 (View.ld x4 r0_3)) (k0_pay5 (View.ld x1 r0_0) (View.ld x0 r0_70) (View.ld x2 r0_5)) (k0_pay6 (View.ld x1 r0_1) (View.ld x0 r0_70)) (k0_pay7 (View.ld x0 r0_70)) := rfl

theorem piece_r0_101 (x0 : Vec F S2x256x256 .f32) (x1 : Vec F S512x256 .f32) (x2 : Vec F S256x1 .f32) (x3 : Vec F S4x1024 .f32) (x4 : Vec F S1x1 .f32) :
    k0_pay313 (k0_pay2 (View.ld x3 r0_2)) (k0_pay3 (View.ld x4 r0_3)) (k0_pay226 (View.ld x1 r0_1) (View.ld x0 r0_70)) (k0_pay227 (View.ld x0 r0_70)) (k0_pay309 (k0_pay225 (View.ld x1 r0_0) (View.ld x0 r0_70) (View.ld x2 r0_5)) (k0_pay226 (View.ld x1 r0_1) (View.ld x0 r0_70))) (k0_pay310 (k0_pay225 (View.ld x1 r0_0) (View.ld x0 r0_70) (View.ld x2 r0_5)) (k0_pay226 (View.ld x1 r0_1) (View.ld x0 r0_70))) (k0_pay311 (k0_pay225 (View.ld x1 r0_0) (View.ld x0 r0_70) (View.ld x2 r0_5)) (k0_pay226 (View.ld x1 r0_1) (View.ld x0 r0_70))) (k0_pay312 (k0_pay225 (View.ld x1 r0_0) (View.ld x0 r0_70) (View.ld x2 r0_5)))
      = rowGroup 120 slices_S256x256_o0_120_S256x4 slices_S256x256_o120_0_S4x256 (k0_pay2 (View.ld x3 r0_2)) (k0_pay3 (View.ld x4 r0_3)) (k0_pay5 (View.ld x1 r0_0) (View.ld x0 r0_70) (View.ld x2 r0_5)) (k0_pay6 (View.ld x1 r0_1) (View.ld x0 r0_70)) (k0_pay7 (View.ld x0 r0_70)) := rfl

theorem piece_r0_100 (x0 : Vec F S2x256x256 .f32) (x1 : Vec F S512x256 .f32) (x2 : Vec F S256x1 .f32) (x3 : Vec F S4x1024 .f32) (x4 : Vec F S1x1 .f32) :
    k0_pay307 (k0_pay2 (View.ld x3 r0_2)) (k0_pay3 (View.ld x4 r0_3)) (k0_pay225 (View.ld x1 r0_0) (View.ld x0 r0_70) (View.ld x2 r0_5)) (k0_pay226 (View.ld x1 r0_1) (View.ld x0 r0_70)) (k0_pay227 (View.ld x0 r0_70))
      = rowGroup 116 slices_S256x256_o0_116_S256x4 slices_S256x256_o116_0_S4x256 (k0_pay2 (View.ld x3 r0_2)) (k0_pay3 (View.ld x4 r0_3)) (k0_pay5 (View.ld x1 r0_0) (View.ld x0 r0_70) (View.ld x2 r0_5)) (k0_pay6 (View.ld x1 r0_1) (View.ld x0 r0_70)) (k0_pay7 (View.ld x0 r0_70)) := rfl

theorem piece_r0_99 (x0 : Vec F S2x256x256 .f32) (x1 : Vec F S512x256 .f32) (x2 : Vec F S256x1 .f32) (x3 : Vec F S4x1024 .f32) (x4 : Vec F S1x1 .f32) :
    k0_pay306 (k0_pay2 (View.ld x3 r0_2)) (k0_pay3 (View.ld x4 r0_3)) (k0_pay225 (View.ld x1 r0_0) (View.ld x0 r0_70) (View.ld x2 r0_5)) (k0_pay226 (View.ld x1 r0_1) (View.ld x0 r0_70)) (k0_pay227 (View.ld x0 r0_70))
      = rowGroup 112 slices_S256x256_o0_112_S256x4 slices_S256x256_o112_0_S4x256 (k0_pay2 (View.ld x3 r0_2)) (k0_pay3 (View.ld x4 r0_3)) (k0_pay5 (View.ld x1 r0_0) (View.ld x0 r0_70) (View.ld x2 r0_5)) (k0_pay6 (View.ld x1 r0_1) (View.ld x0 r0_70)) (k0_pay7 (View.ld x0 r0_70)) := rfl

theorem piece_r0_98 (x0 : Vec F S2x256x256 .f32) (x1 : Vec F S512x256 .f32) (x2 : Vec F S256x1 .f32) (x3 : Vec F S4x1024 .f32) (x4 : Vec F S1x1 .f32) :
    k0_pay305 (k0_pay2 (View.ld x3 r0_2)) (k0_pay3 (View.ld x4 r0_3)) (k0_pay226 (View.ld x1 r0_1) (View.ld x0 r0_70)) (k0_pay227 (View.ld x0 r0_70)) (k0_pay301 (k0_pay225 (View.ld x1 r0_0) (View.ld x0 r0_70) (View.ld x2 r0_5)) (k0_pay226 (View.ld x1 r0_1) (View.ld x0 r0_70))) (k0_pay302 (k0_pay225 (View.ld x1 r0_0) (View.ld x0 r0_70) (View.ld x2 r0_5)) (k0_pay226 (View.ld x1 r0_1) (View.ld x0 r0_70))) (k0_pay303 (k0_pay225 (View.ld x1 r0_0) (View.ld x0 r0_70) (View.ld x2 r0_5)) (k0_pay226 (View.ld x1 r0_1) (View.ld x0 r0_70))) (k0_pay304 (k0_pay225 (View.ld x1 r0_0) (View.ld x0 r0_70) (View.ld x2 r0_5)))
      = rowGroup 108 slices_S256x256_o0_108_S256x4 slices_S256x256_o108_0_S4x256 (k0_pay2 (View.ld x3 r0_2)) (k0_pay3 (View.ld x4 r0_3)) (k0_pay5 (View.ld x1 r0_0) (View.ld x0 r0_70) (View.ld x2 r0_5)) (k0_pay6 (View.ld x1 r0_1) (View.ld x0 r0_70)) (k0_pay7 (View.ld x0 r0_70)) := rfl

theorem piece_r0_97 (x0 : Vec F S2x256x256 .f32) (x1 : Vec F S512x256 .f32) (x2 : Vec F S256x1 .f32) (x3 : Vec F S4x1024 .f32) (x4 : Vec F S1x1 .f32) :
    k0_pay299 (k0_pay2 (View.ld x3 r0_2)) (k0_pay3 (View.ld x4 r0_3)) (k0_pay225 (View.ld x1 r0_0) (View.ld x0 r0_70) (View.ld x2 r0_5)) (k0_pay226 (View.ld x1 r0_1) (View.ld x0 r0_70)) (k0_pay227 (View.ld x0 r0_70))
      = rowGroup 104 slices_S256x256_o0_104_S256x4 slices_S256x256_o104_0_S4x256 (k0_pay2 (View.ld x3 r0_2)) (k0_pay3 (View.ld x4 r0_3)) (k0_pay5 (View.ld x1 r0_0) (View.ld x0 r0_70) (View.ld x2 r0_5)) (k0_pay6 (View.ld x1 r0_1) (View.ld x0 r0_70)) (k0_pay7 (View.ld x0 r0_70)) := rfl

theorem piece_r0_96 (x0 : Vec F S2x256x256 .f32) (x1 : Vec F S512x256 .f32) (x2 : Vec F S256x1 .f32) (x3 : Vec F S4x1024 .f32) (x4 : Vec F S1x1 .f32) :
    k0_pay298 (k0_pay2 (View.ld x3 r0_2)) (k0_pay3 (View.ld x4 r0_3)) (k0_pay225 (View.ld x1 r0_0) (View.ld x0 r0_70) (View.ld x2 r0_5)) (k0_pay226 (View.ld x1 r0_1) (View.ld x0 r0_70)) (k0_pay227 (View.ld x0 r0_70))
      = rowGroup 100 slices_S256x256_o0_100_S256x4 slices_S256x256_o100_0_S4x256 (k0_pay2 (View.ld x3 r0_2)) (k0_pay3 (View.ld x4 r0_3)) (k0_pay5 (View.ld x1 r0_0) (View.ld x0 r0_70) (View.ld x2 r0_5)) (k0_pay6 (View.ld x1 r0_1) (View.ld x0 r0_70)) (k0_pay7 (View.ld x0 r0_70)) := rfl

theorem piece_r0_95 (x0 : Vec F S2x256x256 .f32) (x1 : Vec F S512x256 .f32) (x2 : Vec F S256x1 .f32) (x3 : Vec F S4x1024 .f32) (x4 : Vec F S1x1 .f32) :
    k0_pay297 (k0_pay2 (View.ld x3 r0_2)) (k0_pay3 (View.ld x4 r0_3)) (k0_pay226 (View.ld x1 r0_1) (View.ld x0 r0_70)) (k0_pay227 (View.ld x0 r0_70)) (k0_pay293 (k0_pay225 (View.ld x1 r0_0) (View.ld x0 r0_70) (View.ld x2 r0_5)) (k0_pay226 (View.ld x1 r0_1) (View.ld x0 r0_70))) (k0_pay294 (k0_pay225 (View.ld x1 r0_0) (View.ld x0 r0_70) (View.ld x2 r0_5)) (k0_pay226 (View.ld x1 r0_1) (View.ld x0 r0_70))) (k0_pay295 (k0_pay225 (View.ld x1 r0_0) (View.ld x0 r0_70) (View.ld x2 r0_5)) (k0_pay226 (View.ld x1 r0_1) (View.ld x0 r0_70))) (k0_pay296 (k0_pay225 (View.ld x1 r0_0) (View.ld x0 r0_70) (View.ld x2 r0_5)))
      = rowGroup 96 slices_S256x256_o0_96_S256x4 slices_S256x256_o96_0_S4x256 (k0_pay2 (View.ld x3 r0_2)) (k0_pay3 (View.ld x4 r0_3)) (k0_pay5 (View.ld x1 r0_0) (View.ld x0 r0_70) (View.ld x2 r0_5)) (k0_pay6 (View.ld x1 r0_1) (View.ld x0 r0_70)) (k0_pay7 (View.ld x0 r0_70)) := rfl

theorem piece_r0_94 (x0 : Vec F S2x256x256 .f32) (x1 : Vec F S512x256 .f32) (x2 : Vec F S256x1 .f32) (x3 : Vec F S4x1024 .f32) (x4 : Vec F S1x1 .f32) :
    k0_pay291 (k0_pay2 (View.ld x3 r0_2)) (k0_pay3 (View.ld x4 r0_3)) (k0_pay225 (View.ld x1 r0_0) (View.ld x0 r0_70) (View.ld x2 r0_5)) (k0_pay226 (View.ld x1 r0_1) (View.ld x0 r0_70)) (k0_pay227 (View.ld x0 r0_70))
      = rowGroup 92 slices_S256x256_o0_92_S256x4 slices_S256x256_o92_0_S4x256 (k0_pay2 (View.ld x3 r0_2)) (k0_pay3 (View.ld x4 r0_3)) (k0_pay5 (View.ld x1 r0_0) (View.ld x0 r0_70) (View.ld x2 r0_5)) (k0_pay6 (View.ld x1 r0_1) (View.ld x0 r0_70)) (k0_pay7 (View.ld x0 r0_70)) := rfl

theorem piece_r0_93 (x0 : Vec F S2x256x256 .f32) (x1 : Vec F S512x256 .f32) (x2 : Vec F S256x1 .f32) (x3 : Vec F S4x1024 .f32) (x4 : Vec F S1x1 .f32) :
    k0_pay290 (k0_pay2 (View.ld x3 r0_2)) (k0_pay3 (View.ld x4 r0_3)) (k0_pay225 (View.ld x1 r0_0) (View.ld x0 r0_70) (View.ld x2 r0_5)) (k0_pay226 (View.ld x1 r0_1) (View.ld x0 r0_70)) (k0_pay227 (View.ld x0 r0_70))
      = rowGroup 88 slices_S256x256_o0_88_S256x4 slices_S256x256_o88_0_S4x256 (k0_pay2 (View.ld x3 r0_2)) (k0_pay3 (View.ld x4 r0_3)) (k0_pay5 (View.ld x1 r0_0) (View.ld x0 r0_70) (View.ld x2 r0_5)) (k0_pay6 (View.ld x1 r0_1) (View.ld x0 r0_70)) (k0_pay7 (View.ld x0 r0_70)) := rfl

theorem piece_r0_92 (x0 : Vec F S2x256x256 .f32) (x1 : Vec F S512x256 .f32) (x2 : Vec F S256x1 .f32) (x3 : Vec F S4x1024 .f32) (x4 : Vec F S1x1 .f32) :
    k0_pay289 (k0_pay2 (View.ld x3 r0_2)) (k0_pay3 (View.ld x4 r0_3)) (k0_pay226 (View.ld x1 r0_1) (View.ld x0 r0_70)) (k0_pay227 (View.ld x0 r0_70)) (k0_pay285 (k0_pay225 (View.ld x1 r0_0) (View.ld x0 r0_70) (View.ld x2 r0_5)) (k0_pay226 (View.ld x1 r0_1) (View.ld x0 r0_70))) (k0_pay286 (k0_pay225 (View.ld x1 r0_0) (View.ld x0 r0_70) (View.ld x2 r0_5)) (k0_pay226 (View.ld x1 r0_1) (View.ld x0 r0_70))) (k0_pay287 (k0_pay225 (View.ld x1 r0_0) (View.ld x0 r0_70) (View.ld x2 r0_5)) (k0_pay226 (View.ld x1 r0_1) (View.ld x0 r0_70))) (k0_pay288 (k0_pay225 (View.ld x1 r0_0) (View.ld x0 r0_70) (View.ld x2 r0_5)))
      = rowGroup 84 slices_S256x256_o0_84_S256x4 slices_S256x256_o84_0_S4x256 (k0_pay2 (View.ld x3 r0_2)) (k0_pay3 (View.ld x4 r0_3)) (k0_pay5 (View.ld x1 r0_0) (View.ld x0 r0_70) (View.ld x2 r0_5)) (k0_pay6 (View.ld x1 r0_1) (View.ld x0 r0_70)) (k0_pay7 (View.ld x0 r0_70)) := rfl

theorem piece_r0_91 (x0 : Vec F S2x256x256 .f32) (x1 : Vec F S512x256 .f32) (x2 : Vec F S256x1 .f32) (x3 : Vec F S4x1024 .f32) (x4 : Vec F S1x1 .f32) :
    k0_pay283 (k0_pay2 (View.ld x3 r0_2)) (k0_pay3 (View.ld x4 r0_3)) (k0_pay225 (View.ld x1 r0_0) (View.ld x0 r0_70) (View.ld x2 r0_5)) (k0_pay226 (View.ld x1 r0_1) (View.ld x0 r0_70)) (k0_pay227 (View.ld x0 r0_70))
      = rowGroup 80 slices_S256x256_o0_80_S256x4 slices_S256x256_o80_0_S4x256 (k0_pay2 (View.ld x3 r0_2)) (k0_pay3 (View.ld x4 r0_3)) (k0_pay5 (View.ld x1 r0_0) (View.ld x0 r0_70) (View.ld x2 r0_5)) (k0_pay6 (View.ld x1 r0_1) (View.ld x0 r0_70)) (k0_pay7 (View.ld x0 r0_70)) := rfl

theorem piece_r0_90 (x0 : Vec F S2x256x256 .f32) (x1 : Vec F S512x256 .f32) (x2 : Vec F S256x1 .f32) (x3 : Vec F S4x1024 .f32) (x4 : Vec F S1x1 .f32) :
    k0_pay282 (k0_pay2 (View.ld x3 r0_2)) (k0_pay3 (View.ld x4 r0_3)) (k0_pay225 (View.ld x1 r0_0) (View.ld x0 r0_70) (View.ld x2 r0_5)) (k0_pay226 (View.ld x1 r0_1) (View.ld x0 r0_70)) (k0_pay227 (View.ld x0 r0_70))
      = rowGroup 76 slices_S256x256_o0_76_S256x4 slices_S256x256_o76_0_S4x256 (k0_pay2 (View.ld x3 r0_2)) (k0_pay3 (View.ld x4 r0_3)) (k0_pay5 (View.ld x1 r0_0) (View.ld x0 r0_70) (View.ld x2 r0_5)) (k0_pay6 (View.ld x1 r0_1) (View.ld x0 r0_70)) (k0_pay7 (View.ld x0 r0_70)) := rfl

theorem piece_r0_89 (x0 : Vec F S2x256x256 .f32) (x1 : Vec F S512x256 .f32) (x2 : Vec F S256x1 .f32) (x3 : Vec F S4x1024 .f32) (x4 : Vec F S1x1 .f32) :
    k0_pay281 (k0_pay2 (View.ld x3 r0_2)) (k0_pay3 (View.ld x4 r0_3)) (k0_pay226 (View.ld x1 r0_1) (View.ld x0 r0_70)) (k0_pay227 (View.ld x0 r0_70)) (k0_pay277 (k0_pay225 (View.ld x1 r0_0) (View.ld x0 r0_70) (View.ld x2 r0_5)) (k0_pay226 (View.ld x1 r0_1) (View.ld x0 r0_70))) (k0_pay278 (k0_pay225 (View.ld x1 r0_0) (View.ld x0 r0_70) (View.ld x2 r0_5)) (k0_pay226 (View.ld x1 r0_1) (View.ld x0 r0_70))) (k0_pay279 (k0_pay225 (View.ld x1 r0_0) (View.ld x0 r0_70) (View.ld x2 r0_5)) (k0_pay226 (View.ld x1 r0_1) (View.ld x0 r0_70))) (k0_pay280 (k0_pay225 (View.ld x1 r0_0) (View.ld x0 r0_70) (View.ld x2 r0_5)))
      = rowGroup 72 slices_S256x256_o0_72_S256x4 slices_S256x256_o72_0_S4x256 (k0_pay2 (View.ld x3 r0_2)) (k0_pay3 (View.ld x4 r0_3)) (k0_pay5 (View.ld x1 r0_0) (View.ld x0 r0_70) (View.ld x2 r0_5)) (k0_pay6 (View.ld x1 r0_1) (View.ld x0 r0_70)) (k0_pay7 (View.ld x0 r0_70)) := rfl

theorem piece_r0_88 (x0 : Vec F S2x256x256 .f32) (x1 : Vec F S512x256 .f32) (x2 : Vec F S256x1 .f32) (x3 : Vec F S4x1024 .f32) (x4 : Vec F S1x1 .f32) :
    k0_pay275 (k0_pay2 (View.ld x3 r0_2)) (k0_pay3 (View.ld x4 r0_3)) (k0_pay225 (View.ld x1 r0_0) (View.ld x0 r0_70) (View.ld x2 r0_5)) (k0_pay226 (View.ld x1 r0_1) (View.ld x0 r0_70)) (k0_pay227 (View.ld x0 r0_70))
      = rowGroup 68 slices_S256x256_o0_68_S256x4 slices_S256x256_o68_0_S4x256 (k0_pay2 (View.ld x3 r0_2)) (k0_pay3 (View.ld x4 r0_3)) (k0_pay5 (View.ld x1 r0_0) (View.ld x0 r0_70) (View.ld x2 r0_5)) (k0_pay6 (View.ld x1 r0_1) (View.ld x0 r0_70)) (k0_pay7 (View.ld x0 r0_70)) := rfl

theorem piece_r0_87 (x0 : Vec F S2x256x256 .f32) (x1 : Vec F S512x256 .f32) (x2 : Vec F S256x1 .f32) (x3 : Vec F S4x1024 .f32) (x4 : Vec F S1x1 .f32) :
    k0_pay274 (k0_pay2 (View.ld x3 r0_2)) (k0_pay3 (View.ld x4 r0_3)) (k0_pay225 (View.ld x1 r0_0) (View.ld x0 r0_70) (View.ld x2 r0_5)) (k0_pay226 (View.ld x1 r0_1) (View.ld x0 r0_70)) (k0_pay227 (View.ld x0 r0_70))
      = rowGroup 64 slices_S256x256_o0_64_S256x4 slices_S256x256_o64_0_S4x256 (k0_pay2 (View.ld x3 r0_2)) (k0_pay3 (View.ld x4 r0_3)) (k0_pay5 (View.ld x1 r0_0) (View.ld x0 r0_70) (View.ld x2 r0_5)) (k0_pay6 (View.ld x1 r0_1) (View.ld x0 r0_70)) (k0_pay7 (View.ld x0 r0_70)) := rfl

theorem piece_r0_86 (x0 : Vec F S2x256x256 .f32) (x1 : Vec F S512x256 .f32) (x2 : Vec F S256x1 .f32) (x3 : Vec F S4x1024 .f32) (x4 : Vec F S1x1 .f32) :
    k0_pay273 (k0_pay2 (View.ld x3 r0_2)) (k0_pay3 (View.ld x4 r0_3)) (k0_pay226 (View.ld x1 r0_1) (View.ld x0 r0_70)) (k0_pay227 (View.ld x0 r0_70)) (k0_pay269 (k0_pay225 (View.ld x1 r0_0) (View.ld x0 r0_70) (View.ld x2 r0_5)) (k0_pay226 (View.ld x1 r0_1) (View.ld x0 r0_70))) (k0_pay270 (k0_pay225 (View.ld x1 r0_0) (View.ld x0 r0_70) (View.ld x2 r0_5)) (k0_pay226 (View.ld x1 r0_1) (View.ld x0 r0_70))) (k0_pay271 (k0_pay225 (View.ld x1 r0_0) (View.ld x0 r0_70) (View.ld x2 r0_5)) (k0_pay226 (View.ld x1 r0_1) (View.ld x0 r0_70))) (k0_pay272 (k0_pay225 (View.ld x1 r0_0) (View.ld x0 r0_70) (View.ld x2 r0_5)))
      = rowGroup 60 slices_S256x256_o0_60_S256x4 slices_S256x256_o60_0_S4x256 (k0_pay2 (View.ld x3 r0_2)) (k0_pay3 (View.ld x4 r0_3)) (k0_pay5 (View.ld x1 r0_0) (View.ld x0 r0_70) (View.ld x2 r0_5)) (k0_pay6 (View.ld x1 r0_1) (View.ld x0 r0_70)) (k0_pay7 (View.ld x0 r0_70)) := rfl

theorem piece_r0_85 (x0 : Vec F S2x256x256 .f32) (x1 : Vec F S512x256 .f32) (x2 : Vec F S256x1 .f32) (x3 : Vec F S4x1024 .f32) (x4 : Vec F S1x1 .f32) :
    k0_pay267 (k0_pay2 (View.ld x3 r0_2)) (k0_pay3 (View.ld x4 r0_3)) (k0_pay225 (View.ld x1 r0_0) (View.ld x0 r0_70) (View.ld x2 r0_5)) (k0_pay226 (View.ld x1 r0_1) (View.ld x0 r0_70)) (k0_pay227 (View.ld x0 r0_70))
      = rowGroup 56 slices_S256x256_o0_56_S256x4 slices_S256x256_o56_0_S4x256 (k0_pay2 (View.ld x3 r0_2)) (k0_pay3 (View.ld x4 r0_3)) (k0_pay5 (View.ld x1 r0_0) (View.ld x0 r0_70) (View.ld x2 r0_5)) (k0_pay6 (View.ld x1 r0_1) (View.ld x0 r0_70)) (k0_pay7 (View.ld x0 r0_70)) := rfl

theorem piece_r0_84 (x0 : Vec F S2x256x256 .f32) (x1 : Vec F S512x256 .f32) (x2 : Vec F S256x1 .f32) (x3 : Vec F S4x1024 .f32) (x4 : Vec F S1x1 .f32) :
    k0_pay266 (k0_pay2 (View.ld x3 r0_2)) (k0_pay3 (View.ld x4 r0_3)) (k0_pay225 (View.ld x1 r0_0) (View.ld x0 r0_70) (View.ld x2 r0_5)) (k0_pay226 (View.ld x1 r0_1) (View.ld x0 r0_70)) (k0_pay227 (View.ld x0 r0_70))
      = rowGroup 52 slices_S256x256_o0_52_S256x4 slices_S256x256_o52_0_S4x256 (k0_pay2 (View.ld x3 r0_2)) (k0_pay3 (View.ld x4 r0_3)) (k0_pay5 (View.ld x1 r0_0) (View.ld x0 r0_70) (View.ld x2 r0_5)) (k0_pay6 (View.ld x1 r0_1) (View.ld x0 r0_70)) (k0_pay7 (View.ld x0 r0_70)) := rfl

theorem piece_r0_83 (x0 : Vec F S2x256x256 .f32) (x1 : Vec F S512x256 .f32) (x2 : Vec F S256x1 .f32) (x3 : Vec F S4x1024 .f32) (x4 : Vec F S1x1 .f32) :
    k0_pay265 (k0_pay2 (View.ld x3 r0_2)) (k0_pay3 (View.ld x4 r0_3)) (k0_pay226 (View.ld x1 r0_1) (View.ld x0 r0_70)) (k0_pay227 (View.ld x0 r0_70)) (k0_pay261 (k0_pay225 (View.ld x1 r0_0) (View.ld x0 r0_70) (View.ld x2 r0_5)) (k0_pay226 (View.ld x1 r0_1) (View.ld x0 r0_70))) (k0_pay262 (k0_pay225 (View.ld x1 r0_0) (View.ld x0 r0_70) (View.ld x2 r0_5)) (k0_pay226 (View.ld x1 r0_1) (View.ld x0 r0_70))) (k0_pay263 (k0_pay225 (View.ld x1 r0_0) (View.ld x0 r0_70) (View.ld x2 r0_5)) (k0_pay226 (View.ld x1 r0_1) (View.ld x0 r0_70))) (k0_pay264 (k0_pay225 (View.ld x1 r0_0) (View.ld x0 r0_70) (View.ld x2 r0_5)))
      = rowGroup 48 slices_S256x256_o0_48_S256x4 slices_S256x256_o48_0_S4x256 (k0_pay2 (View.ld x3 r0_2)) (k0_pay3 (View.ld x4 r0_3)) (k0_pay5 (View.ld x1 r0_0) (View.ld x0 r0_70) (View.ld x2 r0_5)) (k0_pay6 (View.ld x1 r0_1) (View.ld x0 r0_70)) (k0_pay7 (View.ld x0 r0_70)) := rfl

theorem piece_r0_82 (x0 : Vec F S2x256x256 .f32) (x1 : Vec F S512x256 .f32) (x2 : Vec F S256x1 .f32) (x3 : Vec F S4x1024 .f32) (x4 : Vec F S1x1 .f32) :
    k0_pay259 (k0_pay2 (View.ld x3 r0_2)) (k0_pay3 (View.ld x4 r0_3)) (k0_pay225 (View.ld x1 r0_0) (View.ld x0 r0_70) (View.ld x2 r0_5)) (k0_pay226 (View.ld x1 r0_1) (View.ld x0 r0_70)) (k0_pay227 (View.ld x0 r0_70))
      = rowGroup 44 slices_S256x256_o0_44_S256x4 slices_S256x256_o44_0_S4x256 (k0_pay2 (View.ld x3 r0_2)) (k0_pay3 (View.ld x4 r0_3)) (k0_pay5 (View.ld x1 r0_0) (View.ld x0 r0_70) (View.ld x2 r0_5)) (k0_pay6 (View.ld x1 r0_1) (View.ld x0 r0_70)) (k0_pay7 (View.ld x0 r0_70)) := rfl

theorem piece_r0_81 (x0 : Vec F S2x256x256 .f32) (x1 : Vec F S512x256 .f32) (x2 : Vec F S256x1 .f32) (x3 : Vec F S4x1024 .f32) (x4 : Vec F S1x1 .f32) :
    k0_pay258 (k0_pay2 (View.ld x3 r0_2)) (k0_pay3 (View.ld x4 r0_3)) (k0_pay225 (View.ld x1 r0_0) (View.ld x0 r0_70) (View.ld x2 r0_5)) (k0_pay226 (View.ld x1 r0_1) (View.ld x0 r0_70)) (k0_pay227 (View.ld x0 r0_70))
      = rowGroup 40 slices_S256x256_o0_40_S256x4 slices_S256x256_o40_0_S4x256 (k0_pay2 (View.ld x3 r0_2)) (k0_pay3 (View.ld x4 r0_3)) (k0_pay5 (View.ld x1 r0_0) (View.ld x0 r0_70) (View.ld x2 r0_5)) (k0_pay6 (View.ld x1 r0_1) (View.ld x0 r0_70)) (k0_pay7 (View.ld x0 r0_70)) := rfl

theorem piece_r0_80 (x0 : Vec F S2x256x256 .f32) (x1 : Vec F S512x256 .f32) (x2 : Vec F S256x1 .f32) (x3 : Vec F S4x1024 .f32) (x4 : Vec F S1x1 .f32) :
    k0_pay257 (k0_pay2 (View.ld x3 r0_2)) (k0_pay3 (View.ld x4 r0_3)) (k0_pay226 (View.ld x1 r0_1) (View.ld x0 r0_70)) (k0_pay227 (View.ld x0 r0_70)) (k0_pay253 (k0_pay225 (View.ld x1 r0_0) (View.ld x0 r0_70) (View.ld x2 r0_5)) (k0_pay226 (View.ld x1 r0_1) (View.ld x0 r0_70))) (k0_pay254 (k0_pay225 (View.ld x1 r0_0) (View.ld x0 r0_70) (View.ld x2 r0_5)) (k0_pay226 (View.ld x1 r0_1) (View.ld x0 r0_70))) (k0_pay255 (k0_pay225 (View.ld x1 r0_0) (View.ld x0 r0_70) (View.ld x2 r0_5)) (k0_pay226 (View.ld x1 r0_1) (View.ld x0 r0_70))) (k0_pay256 (k0_pay225 (View.ld x1 r0_0) (View.ld x0 r0_70) (View.ld x2 r0_5)))
      = rowGroup 36 slices_S256x256_o0_36_S256x4 slices_S256x256_o36_0_S4x256 (k0_pay2 (View.ld x3 r0_2)) (k0_pay3 (View.ld x4 r0_3)) (k0_pay5 (View.ld x1 r0_0) (View.ld x0 r0_70) (View.ld x2 r0_5)) (k0_pay6 (View.ld x1 r0_1) (View.ld x0 r0_70)) (k0_pay7 (View.ld x0 r0_70)) := rfl

theorem piece_r0_79 (x0 : Vec F S2x256x256 .f32) (x1 : Vec F S512x256 .f32) (x2 : Vec F S256x1 .f32) (x3 : Vec F S4x1024 .f32) (x4 : Vec F S1x1 .f32) :
    k0_pay251 (k0_pay2 (View.ld x3 r0_2)) (k0_pay3 (View.ld x4 r0_3)) (k0_pay225 (View.ld x1 r0_0) (View.ld x0 r0_70) (View.ld x2 r0_5)) (k0_pay226 (View.ld x1 r0_1) (View.ld x0 r0_70)) (k0_pay227 (View.ld x0 r0_70))
      = rowGroup 32 slices_S256x256_o0_32_S256x4 slices_S256x256_o32_0_S4x256 (k0_pay2 (View.ld x3 r0_2)) (k0_pay3 (View.ld x4 r0_3)) (k0_pay5 (View.ld x1 r0_0) (View.ld x0 r0_70) (View.ld x2 r0_5)) (k0_pay6 (View.ld x1 r0_1) (View.ld x0 r0_70)) (k0_pay7 (View.ld x0 r0_70)) := rfl

theorem piece_r0_78 (x0 : Vec F S2x256x256 .f32) (x1 : Vec F S512x256 .f32) (x2 : Vec F S256x1 .f32) (x3 : Vec F S4x1024 .f32) (x4 : Vec F S1x1 .f32) :
    k0_pay250 (k0_pay2 (View.ld x3 r0_2)) (k0_pay3 (View.ld x4 r0_3)) (k0_pay225 (View.ld x1 r0_0) (View.ld x0 r0_70) (View.ld x2 r0_5)) (k0_pay226 (View.ld x1 r0_1) (View.ld x0 r0_70)) (k0_pay227 (View.ld x0 r0_70))
      = rowGroup 28 slices_S256x256_o0_28_S256x4 slices_S256x256_o28_0_S4x256 (k0_pay2 (View.ld x3 r0_2)) (k0_pay3 (View.ld x4 r0_3)) (k0_pay5 (View.ld x1 r0_0) (View.ld x0 r0_70) (View.ld x2 r0_5)) (k0_pay6 (View.ld x1 r0_1) (View.ld x0 r0_70)) (k0_pay7 (View.ld x0 r0_70)) := rfl

theorem piece_r0_77 (x0 : Vec F S2x256x256 .f32) (x1 : Vec F S512x256 .f32) (x2 : Vec F S256x1 .f32) (x3 : Vec F S4x1024 .f32) (x4 : Vec F S1x1 .f32) :
    k0_pay249 (k0_pay2 (View.ld x3 r0_2)) (k0_pay3 (View.ld x4 r0_3)) (k0_pay226 (View.ld x1 r0_1) (View.ld x0 r0_70)) (k0_pay227 (View.ld x0 r0_70)) (k0_pay245 (k0_pay225 (View.ld x1 r0_0) (View.ld x0 r0_70) (View.ld x2 r0_5)) (k0_pay226 (View.ld x1 r0_1) (View.ld x0 r0_70))) (k0_pay246 (k0_pay225 (View.ld x1 r0_0) (View.ld x0 r0_70) (View.ld x2 r0_5)) (k0_pay226 (View.ld x1 r0_1) (View.ld x0 r0_70))) (k0_pay247 (k0_pay225 (View.ld x1 r0_0) (View.ld x0 r0_70) (View.ld x2 r0_5)) (k0_pay226 (View.ld x1 r0_1) (View.ld x0 r0_70))) (k0_pay248 (k0_pay225 (View.ld x1 r0_0) (View.ld x0 r0_70) (View.ld x2 r0_5)))
      = rowGroup 24 slices_S256x256_o0_24_S256x4 slices_S256x256_o24_0_S4x256 (k0_pay2 (View.ld x3 r0_2)) (k0_pay3 (View.ld x4 r0_3)) (k0_pay5 (View.ld x1 r0_0) (View.ld x0 r0_70) (View.ld x2 r0_5)) (k0_pay6 (View.ld x1 r0_1) (View.ld x0 r0_70)) (k0_pay7 (View.ld x0 r0_70)) := rfl

theorem piece_r0_76 (x0 : Vec F S2x256x256 .f32) (x1 : Vec F S512x256 .f32) (x2 : Vec F S256x1 .f32) (x3 : Vec F S4x1024 .f32) (x4 : Vec F S1x1 .f32) :
    k0_pay243 (k0_pay2 (View.ld x3 r0_2)) (k0_pay3 (View.ld x4 r0_3)) (k0_pay225 (View.ld x1 r0_0) (View.ld x0 r0_70) (View.ld x2 r0_5)) (k0_pay226 (View.ld x1 r0_1) (View.ld x0 r0_70)) (k0_pay227 (View.ld x0 r0_70))
      = rowGroup 20 slices_S256x256_o0_20_S256x4 slices_S256x256_o20_0_S4x256 (k0_pay2 (View.ld x3 r0_2)) (k0_pay3 (View.ld x4 r0_3)) (k0_pay5 (View.ld x1 r0_0) (View.ld x0 r0_70) (View.ld x2 r0_5)) (k0_pay6 (View.ld x1 r0_1) (View.ld x0 r0_70)) (k0_pay7 (View.ld x0 r0_70)) := rfl

theorem piece_r0_75 (x0 : Vec F S2x256x256 .f32) (x1 : Vec F S512x256 .f32) (x2 : Vec F S256x1 .f32) (x3 : Vec F S4x1024 .f32) (x4 : Vec F S1x1 .f32) :
    k0_pay242 (k0_pay2 (View.ld x3 r0_2)) (k0_pay3 (View.ld x4 r0_3)) (k0_pay225 (View.ld x1 r0_0) (View.ld x0 r0_70) (View.ld x2 r0_5)) (k0_pay226 (View.ld x1 r0_1) (View.ld x0 r0_70)) (k0_pay227 (View.ld x0 r0_70))
      = rowGroup 16 slices_S256x256_o0_16_S256x4 slices_S256x256_o16_0_S4x256 (k0_pay2 (View.ld x3 r0_2)) (k0_pay3 (View.ld x4 r0_3)) (k0_pay5 (View.ld x1 r0_0) (View.ld x0 r0_70) (View.ld x2 r0_5)) (k0_pay6 (View.ld x1 r0_1) (View.ld x0 r0_70)) (k0_pay7 (View.ld x0 r0_70)) := rfl

theorem piece_r0_74 (x0 : Vec F S2x256x256 .f32) (x1 : Vec F S512x256 .f32) (x2 : Vec F S256x1 .f32) (x3 : Vec F S4x1024 .f32) (x4 : Vec F S1x1 .f32) :
    k0_pay241 (k0_pay2 (View.ld x3 r0_2)) (k0_pay3 (View.ld x4 r0_3)) (k0_pay226 (View.ld x1 r0_1) (View.ld x0 r0_70)) (k0_pay227 (View.ld x0 r0_70)) (k0_pay237 (k0_pay225 (View.ld x1 r0_0) (View.ld x0 r0_70) (View.ld x2 r0_5)) (k0_pay226 (View.ld x1 r0_1) (View.ld x0 r0_70))) (k0_pay238 (k0_pay225 (View.ld x1 r0_0) (View.ld x0 r0_70) (View.ld x2 r0_5)) (k0_pay226 (View.ld x1 r0_1) (View.ld x0 r0_70))) (k0_pay239 (k0_pay225 (View.ld x1 r0_0) (View.ld x0 r0_70) (View.ld x2 r0_5)) (k0_pay226 (View.ld x1 r0_1) (View.ld x0 r0_70))) (k0_pay240 (k0_pay225 (View.ld x1 r0_0) (View.ld x0 r0_70) (View.ld x2 r0_5)))
      = rowGroup 12 slices_S256x256_o0_12_S256x4 slices_S256x256_o12_0_S4x256 (k0_pay2 (View.ld x3 r0_2)) (k0_pay3 (View.ld x4 r0_3)) (k0_pay5 (View.ld x1 r0_0) (View.ld x0 r0_70) (View.ld x2 r0_5)) (k0_pay6 (View.ld x1 r0_1) (View.ld x0 r0_70)) (k0_pay7 (View.ld x0 r0_70)) := rfl

theorem piece_r0_73 (x0 : Vec F S2x256x256 .f32) (x1 : Vec F S512x256 .f32) (x2 : Vec F S256x1 .f32) (x3 : Vec F S4x1024 .f32) (x4 : Vec F S1x1 .f32) :
    k0_pay235 (k0_pay2 (View.ld x3 r0_2)) (k0_pay3 (View.ld x4 r0_3)) (k0_pay225 (View.ld x1 r0_0) (View.ld x0 r0_70) (View.ld x2 r0_5)) (k0_pay226 (View.ld x1 r0_1) (View.ld x0 r0_70)) (k0_pay227 (View.ld x0 r0_70))
      = rowGroup 8 slices_S256x256_o0_8_S256x4 slices_S256x256_o8_0_S4x256 (k0_pay2 (View.ld x3 r0_2)) (k0_pay3 (View.ld x4 r0_3)) (k0_pay5 (View.ld x1 r0_0) (View.ld x0 r0_70) (View.ld x2 r0_5)) (k0_pay6 (View.ld x1 r0_1) (View.ld x0 r0_70)) (k0_pay7 (View.ld x0 r0_70)) := rfl

theorem piece_r0_72 (x0 : Vec F S2x256x256 .f32) (x1 : Vec F S512x256 .f32) (x2 : Vec F S256x1 .f32) (x3 : Vec F S4x1024 .f32) (x4 : Vec F S1x1 .f32) :
    k0_pay234 (k0_pay2 (View.ld x3 r0_2)) (k0_pay3 (View.ld x4 r0_3)) (k0_pay225 (View.ld x1 r0_0) (View.ld x0 r0_70) (View.ld x2 r0_5)) (k0_pay226 (View.ld x1 r0_1) (View.ld x0 r0_70)) (k0_pay227 (View.ld x0 r0_70))
      = rowGroup 4 slices_S256x256_o0_4_S256x4 slices_S256x256_o4_0_S4x256 (k0_pay2 (View.ld x3 r0_2)) (k0_pay3 (View.ld x4 r0_3)) (k0_pay5 (View.ld x1 r0_0) (View.ld x0 r0_70) (View.ld x2 r0_5)) (k0_pay6 (View.ld x1 r0_1) (View.ld x0 r0_70)) (k0_pay7 (View.ld x0 r0_70)) := rfl

theorem piece_r0_71 (x0 : Vec F S2x256x256 .f32) (x1 : Vec F S512x256 .f32) (x2 : Vec F S256x1 .f32) (x3 : Vec F S4x1024 .f32) (x4 : Vec F S1x1 .f32) :
    k0_pay233 (k0_pay2 (View.ld x3 r0_2)) (k0_pay3 (View.ld x4 r0_3)) (k0_pay226 (View.ld x1 r0_1) (View.ld x0 r0_70)) (k0_pay227 (View.ld x0 r0_70)) (k0_pay229 (View.ld x1 r0_0) (View.ld x1 r0_1) (View.ld x0 r0_70) (View.ld x2 r0_5)) (k0_pay230 (View.ld x1 r0_0) (View.ld x1 r0_1) (View.ld x0 r0_70) (View.ld x2 r0_5)) (k0_pay231 (View.ld x1 r0_0) (View.ld x1 r0_1) (View.ld x0 r0_70) (View.ld x2 r0_5)) (k0_pay232 (View.ld x1 r0_0) (View.ld x0 r0_70) (View.ld x2 r0_5))
      = rowGroup 0 slices_S256x256_o0_0_S256x4 slices_S256x256_o0_0_S4x256 (k0_pay2 (View.ld x3 r0_2)) (k0_pay3 (View.ld x4 r0_3)) (k0_pay5 (View.ld x1 r0_0) (View.ld x0 r0_70) (View.ld x2 r0_5)) (k0_pay6 (View.ld x1 r0_1) (View.ld x0 r0_70)) (k0_pay7 (View.ld x0 r0_70)) := rfl

theorem piece_r0_69 (x0 : Vec F S2x256x256 .f32) (x1 : Vec F S512x256 .f32) (x2 : Vec F S256x1 .f32) (x3 : Vec F S4x1024 .f32) (x4 : Vec F S1x1 .f32) :
    k0_pay223 (k0_pay2 (View.ld x3 r0_2)) (k0_pay3 (View.ld x4 r0_3)) (k0_pay7 (View.ld x0 r0_4)) (k0_pay219 (k0_pay5 (View.ld x1 r0_0) (View.ld x0 r0_4) (View.ld x2 r0_5)) (k0_pay6 (View.ld x1 r0_1) (View.ld x0 r0_4))) (k0_pay220 (k0_pay5 (View.ld x1 r0_0) (View.ld x0 r0_4) (View.ld x2 r0_5)) (k0_pay6 (View.ld x1 r0_1) (View.ld x0 r0_4))) (k0_pay221 (k0_pay5 (View.ld x1 r0_0) (View.ld x0 r0_4) (View.ld x2 r0_5)) (k0_pay6 (View.ld x1 r0_1) (View.ld x0 r0_4))) (k0_pay222 (k0_pay5 (View.ld x1 r0_0) (View.ld x0 r0_4) (View.ld x2 r0_5)) (k0_pay6 (View.ld x1 r0_1) (View.ld x0 r0_4)))
      = rowGroup 252 slices_S256x256_o0_252_S256x4 slices_S256x256_o252_0_S4x256 (k0_pay2 (View.ld x3 r0_2)) (k0_pay3 (View.ld x4 r0_3)) (k0_pay5 (View.ld x1 r0_0) (View.ld x0 r0_4) (View.ld x2 r0_5)) (k0_pay6 (View.ld x1 r0_1) (View.ld x0 r0_4)) (k0_pay7 (View.ld x0 r0_4)) := rfl

theorem piece_r0_68 (x0 : Vec F S2x256x256 .f32) (x1 : Vec F S512x256 .f32) (x2 : Vec F S256x1 .f32) (x3 : Vec F S4x1024 .f32) (x4 : Vec F S1x1 .f32) :
    k0_pay217 (k0_pay2 (View.ld x3 r0_2)) (k0_pay3 (View.ld x4 r0_3)) (k0_pay6 (View.ld x1 r0_1) (View.ld x0 r0_4)) (k0_pay7 (View.ld x0 r0_4)) (k0_pay215 (k0_pay5 (View.ld x1 r0_0) (View.ld x0 r0_4) (View.ld x2 r0_5))) (k0_pay216 (k0_pay5 (View.ld x1 r0_0) (View.ld x0 r0_4) (View.ld x2 r0_5)))
      = rowGroup 248 slices_S256x256_o0_248_S256x4 slices_S256x256_o248_0_S4x256 (k0_pay2 (View.ld x3 r0_2)) (k0_pay3 (View.ld x4 r0_3)) (k0_pay5 (View.ld x1 r0_0) (View.ld x0 r0_4) (View.ld x2 r0_5)) (k0_pay6 (View.ld x1 r0_1) (View.ld x0 r0_4)) (k0_pay7 (View.ld x0 r0_4)) := rfl

theorem piece_r0_67 (x0 : Vec F S2x256x256 .f32) (x1 : Vec F S512x256 .f32) (x2 : Vec F S256x1 .f32) (x3 : Vec F S4x1024 .f32) (x4 : Vec F S1x1 .f32) :
    k0_pay214 (k0_pay2 (View.ld x3 r0_2)) (k0_pay3 (View.ld x4 r0_3)) (k0_pay5 (View.ld x1 r0_0) (View.ld x0 r0_4) (View.ld x2 r0_5)) (k0_pay6 (View.ld x1 r0_1) (View.ld x0 r0_4)) (k0_pay7 (View.ld x0 r0_4))
      = rowGroup 244 slices_S256x256_o0_244_S256x4 slices_S256x256_o244_0_S4x256 (k0_pay2 (View.ld x3 r0_2)) (k0_pay3 (View.ld x4 r0_3)) (k0_pay5 (View.ld x1 r0_0) (View.ld x0 r0_4) (View.ld x2 r0_5)) (k0_pay6 (View.ld x1 r0_1) (View.ld x0 r0_4)) (k0_pay7 (View.ld x0 r0_4)) := rfl

theorem piece_r0_66 (x0 : Vec F S2x256x256 .f32) (x1 : Vec F S512x256 .f32) (x2 : Vec F S256x1 .f32) (x3 : Vec F S4x1024 .f32) (x4 : Vec F S1x1 .f32) :
    k0_pay213 (k0_pay2 (View.ld x3 r0_2)) (k0_pay3 (View.ld x4 r0_3)) (k0_pay7 (View.ld x0 r0_4)) (k0_pay209 (k0_pay5 (View.ld x1 r0_0) (View.ld x0 r0_4) (View.ld x2 r0_5)) (k0_pay6 (View.ld x1 r0_1) (View.ld x0 r0_4))) (k0_pay210 (k0_pay5 (View.ld x1 r0_0) (View.ld x0 r0_4) (View.ld x2 r0_5)) (k0_pay6 (View.ld x1 r0_1) (View.ld x0 r0_4))) (k0_pay211 (k0_pay5 (View.ld x1 r0_0) (View.ld x0 r0_4) (View.ld x2 r0_5)) (k0_pay6 (View.ld x1 r0_1) (View.ld x0 r0_4))) (k0_pay212 (k0_pay5 (View.ld x1 r0_0) (View.ld x0 r0_4) (View.ld x2 r0_5)) (k0_pay6 (View.ld x1 r0_1) (View.ld x0 r0_4)))
      = rowGroup 240 slices_S256x256_o0_240_S256x4 slices_S256x256_o240_0_S4x256 (k0_pay2 (View.ld x3 r0_2)) (k0_pay3 (View.ld x4 r0_3)) (k0_pay5 (View.ld x1 r0_0) (View.ld x0 r0_4) (View.ld x2 r0_5)) (k0_pay6 (View.ld x1 r0_1) (View.ld x0 r0_4)) (k0_pay7 (View.ld x0 r0_4)) := rfl

theorem piece_r0_65 (x0 : Vec F S2x256x256 .f32) (x1 : Vec F S512x256 .f32) (x2 : Vec F S256x1 .f32) (x3 : Vec F S4x1024 .f32) (x4 : Vec F S1x1 .f32) :
    k0_pay207 (k0_pay2 (View.ld x3 r0_2)) (k0_pay3 (View.ld x4 r0_3)) (k0_pay6 (View.ld x1 r0_1) (View.ld x0 r0_4)) (k0_pay7 (View.ld x0 r0_4)) (k0_pay205 (k0_pay5 (View.ld x1 r0_0) (View.ld x0 r0_4) (View.ld x2 r0_5))) (k0_pay206 (k0_pay5 (View.ld x1 r0_0) (View.ld x0 r0_4) (View.ld x2 r0_5)))
      = rowGroup 236 slices_S256x256_o0_236_S256x4 slices_S256x256_o236_0_S4x256 (k0_pay2 (View.ld x3 r0_2)) (k0_pay3 (View.ld x4 r0_3)) (k0_pay5 (View.ld x1 r0_0) (View.ld x0 r0_4) (View.ld x2 r0_5)) (k0_pay6 (View.ld x1 r0_1) (View.ld x0 r0_4)) (k0_pay7 (View.ld x0 r0_4)) := rfl

theorem piece_r0_64 (x0 : Vec F S2x256x256 .f32) (x1 : Vec F S512x256 .f32) (x2 : Vec F S256x1 .f32) (x3 : Vec F S4x1024 .f32) (x4 : Vec F S1x1 .f32) :
    k0_pay204 (k0_pay2 (View.ld x3 r0_2)) (k0_pay3 (View.ld x4 r0_3)) (k0_pay5 (View.ld x1 r0_0) (View.ld x0 r0_4) (View.ld x2 r0_5)) (k0_pay6 (View.ld x1 r0_1) (View.ld x0 r0_4)) (k0_pay7 (View.ld x0 r0_4))
      = rowGroup 232 slices_S256x256_o0_232_S256x4 slices_S256x256_o232_0_S4x256 (k0_pay2 (View.ld x3 r0_2)) (k0_pay3 (View.ld x4 r0_3)) (k0_pay5 (View.ld x1 r0_0) (View.ld x0 r0_4) (View.ld x2 r0_5)) (k0_pay6 (View.ld x1 r0_1) (View.ld x0 r0_4)) (k0_pay7 (View.ld x0 r0_4)) := rfl

theorem piece_r0_63 (x0 : Vec F S2x256x256 .f32) (x1 : Vec F S512x256 .f32) (x2 : Vec F S256x1 .f32) (x3 : Vec F S4x1024 .f32) (x4 : Vec F S1x1 .f32) :
    k0_pay203 (k0_pay2 (View.ld x3 r0_2)) (k0_pay3 (View.ld x4 r0_3)) (k0_pay7 (View.ld x0 r0_4)) (k0_pay199 (k0_pay5 (View.ld x1 r0_0) (View.ld x0 r0_4) (View.ld x2 r0_5)) (k0_pay6 (View.ld x1 r0_1) (View.ld x0 r0_4))) (k0_pay200 (k0_pay5 (View.ld x1 r0_0) (View.ld x0 r0_4) (View.ld x2 r0_5)) (k0_pay6 (View.ld x1 r0_1) (View.ld x0 r0_4))) (k0_pay201 (k0_pay5 (View.ld x1 r0_0) (View.ld x0 r0_4) (View.ld x2 r0_5)) (k0_pay6 (View.ld x1 r0_1) (View.ld x0 r0_4))) (k0_pay202 (k0_pay5 (View.ld x1 r0_0) (View.ld x0 r0_4) (View.ld x2 r0_5)) (k0_pay6 (View.ld x1 r0_1) (View.ld x0 r0_4)))
      = rowGroup 228 slices_S256x256_o0_228_S256x4 slices_S256x256_o228_0_S4x256 (k0_pay2 (View.ld x3 r0_2)) (k0_pay3 (View.ld x4 r0_3)) (k0_pay5 (View.ld x1 r0_0) (View.ld x0 r0_4) (View.ld x2 r0_5)) (k0_pay6 (View.ld x1 r0_1) (View.ld x0 r0_4)) (k0_pay7 (View.ld x0 r0_4)) := rfl

theorem piece_r0_62 (x0 : Vec F S2x256x256 .f32) (x1 : Vec F S512x256 .f32) (x2 : Vec F S256x1 .f32) (x3 : Vec F S4x1024 .f32) (x4 : Vec F S1x1 .f32) :
    k0_pay197 (k0_pay2 (View.ld x3 r0_2)) (k0_pay3 (View.ld x4 r0_3)) (k0_pay6 (View.ld x1 r0_1) (View.ld x0 r0_4)) (k0_pay7 (View.ld x0 r0_4)) (k0_pay195 (k0_pay5 (View.ld x1 r0_0) (View.ld x0 r0_4) (View.ld x2 r0_5))) (k0_pay196 (k0_pay5 (View.ld x1 r0_0) (View.ld x0 r0_4) (View.ld x2 r0_5)))
      = rowGroup 224 slices_S256x256_o0_224_S256x4 slices_S256x256_o224_0_S4x256 (k0_pay2 (View.ld x3 r0_2)) (k0_pay3 (View.ld x4 r0_3)) (k0_pay5 (View.ld x1 r0_0) (View.ld x0 r0_4) (View.ld x2 r0_5)) (k0_pay6 (View.ld x1 r0_1) (View.ld x0 r0_4)) (k0_pay7 (View.ld x0 r0_4)) := rfl

theorem piece_r0_61 (x0 : Vec F S2x256x256 .f32) (x1 : Vec F S512x256 .f32) (x2 : Vec F S256x1 .f32) (x3 : Vec F S4x1024 .f32) (x4 : Vec F S1x1 .f32) :
    k0_pay194 (k0_pay2 (View.ld x3 r0_2)) (k0_pay3 (View.ld x4 r0_3)) (k0_pay5 (View.ld x1 r0_0) (View.ld x0 r0_4) (View.ld x2 r0_5)) (k0_pay6 (View.ld x1 r0_1) (View.ld x0 r0_4)) (k0_pay7 (View.ld x0 r0_4))
      = rowGroup 220 slices_S256x256_o0_220_S256x4 slices_S256x256_o220_0_S4x256 (k0_pay2 (View.ld x3 r0_2)) (k0_pay3 (View.ld x4 r0_3)) (k0_pay5 (View.ld x1 r0_0) (View.ld x0 r0_4) (View.ld x2 r0_5)) (k0_pay6 (View.ld x1 r0_1) (View.ld x0 r0_4)) (k0_pay7 (View.ld x0 r0_4)) := rfl

theorem piece_r0_60 (x0 : Vec F S2x256x256 .f32) (x1 : Vec F S512x256 .f32) (x2 : Vec F S256x1 .f32) (x3 : Vec F S4x1024 .f32) (x4 : Vec F S1x1 .f32) :
    k0_pay193 (k0_pay2 (View.ld x3 r0_2)) (k0_pay3 (View.ld x4 r0_3)) (k0_pay7 (View.ld x0 r0_4)) (k0_pay189 (k0_pay5 (View.ld x1 r0_0) (View.ld x0 r0_4) (View.ld x2 r0_5)) (k0_pay6 (View.ld x1 r0_1) (View.ld x0 r0_4))) (k0_pay190 (k0_pay5 (View.ld x1 r0_0) (View.ld x0 r0_4) (View.ld x2 r0_5)) (k0_pay6 (View.ld x1 r0_1) (View.ld x0 r0_4))) (k0_pay191 (k0_pay5 (View.ld x1 r0_0) (View.ld x0 r0_4) (View.ld x2 r0_5)) (k0_pay6 (View.ld x1 r0_1) (View.ld x0 r0_4))) (k0_pay192 (k0_pay5 (View.ld x1 r0_0) (View.ld x0 r0_4) (View.ld x2 r0_5)) (k0_pay6 (View.ld x1 r0_1) (View.ld x0 r0_4)))
      = rowGroup 216 slices_S256x256_o0_216_S256x4 slices_S256x256_o216_0_S4x256 (k0_pay2 (View.ld x3 r0_2)) (k0_pay3 (View.ld x4 r0_3)) (k0_pay5 (View.ld x1 r0_0) (View.ld x0 r0_4) (View.ld x2 r0_5)) (k0_pay6 (View.ld x1 r0_1) (View.ld x0 r0_4)) (k0_pay7 (View.ld x0 r0_4)) := rfl

theorem piece_r0_59 (x0 : Vec F S2x256x256 .f32) (x1 : Vec F S512x256 .f32) (x2 : Vec F S256x1 .f32) (x3 : Vec F S4x1024 .f32) (x4 : Vec F S1x1 .f32) :
    k0_pay187 (k0_pay2 (View.ld x3 r0_2)) (k0_pay3 (View.ld x4 r0_3)) (k0_pay6 (View.ld x1 r0_1) (View.ld x0 r0_4)) (k0_pay7 (View.ld x0 r0_4)) (k0_pay185 (k0_pay5 (View.ld x1 r0_0) (View.ld x0 r0_4) (View.ld x2 r0_5))) (k0_pay186 (k0_pay5 (View.ld x1 r0_0) (View.ld x0 r0_4) (View.ld x2 r0_5)))
      = rowGroup 212 slices_S256x256_o0_212_S256x4 slices_S256x256_o212_0_S4x256 (k0_pay2 (View.ld x3 r0_2)) (k0_pay3 (View.ld x4 r0_3)) (k0_pay5 (View.ld x1 r0_0) (View.ld x0 r0_4) (View.ld x2 r0_5)) (k0_pay6 (View.ld x1 r0_1) (View.ld x0 r0_4)) (k0_pay7 (View.ld x0 r0_4)) := rfl

theorem piece_r0_58 (x0 : Vec F S2x256x256 .f32) (x1 : Vec F S512x256 .f32) (x2 : Vec F S256x1 .f32) (x3 : Vec F S4x1024 .f32) (x4 : Vec F S1x1 .f32) :
    k0_pay184 (k0_pay2 (View.ld x3 r0_2)) (k0_pay3 (View.ld x4 r0_3)) (k0_pay5 (View.ld x1 r0_0) (View.ld x0 r0_4) (View.ld x2 r0_5)) (k0_pay6 (View.ld x1 r0_1) (View.ld x0 r0_4)) (k0_pay7 (View.ld x0 r0_4))
      = rowGroup 208 slices_S256x256_o0_208_S256x4 slices_S256x256_o208_0_S4x256 (k0_pay2 (View.ld x3 r0_2)) (k0_pay3 (View.ld x4 r0_3)) (k0_pay5 (View.ld x1 r0_0) (View.ld x0 r0_4) (View.ld x2 r0_5)) (k0_pay6 (View.ld x1 r0_1) (View.ld x0 r0_4)) (k0_pay7 (View.ld x0 r0_4)) := rfl

theorem piece_r0_57 (x0 : Vec F S2x256x256 .f32) (x1 : Vec F S512x256 .f32) (x2 : Vec F S256x1 .f32) (x3 : Vec F S4x1024 .f32) (x4 : Vec F S1x1 .f32) :
    k0_pay183 (k0_pay2 (View.ld x3 r0_2)) (k0_pay3 (View.ld x4 r0_3)) (k0_pay7 (View.ld x0 r0_4)) (k0_pay179 (k0_pay5 (View.ld x1 r0_0) (View.ld x0 r0_4) (View.ld x2 r0_5)) (k0_pay6 (View.ld x1 r0_1) (View.ld x0 r0_4))) (k0_pay180 (k0_pay5 (View.ld x1 r0_0) (View.ld x0 r0_4) (View.ld x2 r0_5)) (k0_pay6 (View.ld x1 r0_1) (View.ld x0 r0_4))) (k0_pay181 (k0_pay5 (View.ld x1 r0_0) (View.ld x0 r0_4) (View.ld x2 r0_5)) (k0_pay6 (View.ld x1 r0_1) (View.ld x0 r0_4))) (k0_pay182 (k0_pay5 (View.ld x1 r0_0) (View.ld x0 r0_4) (View.ld x2 r0_5)) (k0_pay6 (View.ld x1 r0_1) (View.ld x0 r0_4)))
      = rowGroup 204 slices_S256x256_o0_204_S256x4 slices_S256x256_o204_0_S4x256 (k0_pay2 (View.ld x3 r0_2)) (k0_pay3 (View.ld x4 r0_3)) (k0_pay5 (View.ld x1 r0_0) (View.ld x0 r0_4) (View.ld x2 r0_5)) (k0_pay6 (View.ld x1 r0_1) (View.ld x0 r0_4)) (k0_pay7 (View.ld x0 r0_4)) := rfl

theorem piece_r0_56 (x0 : Vec F S2x256x256 .f32) (x1 : Vec F S512x256 .f32) (x2 : Vec F S256x1 .f32) (x3 : Vec F S4x1024 .f32) (x4 : Vec F S1x1 .f32) :
    k0_pay177 (k0_pay2 (View.ld x3 r0_2)) (k0_pay3 (View.ld x4 r0_3)) (k0_pay6 (View.ld x1 r0_1) (View.ld x0 r0_4)) (k0_pay7 (View.ld x0 r0_4)) (k0_pay175 (k0_pay5 (View.ld x1 r0_0) (View.ld x0 r0_4) (View.ld x2 r0_5))) (k0_pay176 (k0_pay5 (View.ld x1 r0_0) (View.ld x0 r0_4) (View.ld x2 r0_5)))
      = rowGroup 200 slices_S256x256_o0_200_S256x4 slices_S256x256_o200_0_S4x256 (k0_pay2 (View.ld x3 r0_2)) (k0_pay3 (View.ld x4 r0_3)) (k0_pay5 (View.ld x1 r0_0) (View.ld x0 r0_4) (View.ld x2 r0_5)) (k0_pay6 (View.ld x1 r0_1) (View.ld x0 r0_4)) (k0_pay7 (View.ld x0 r0_4)) := rfl

theorem piece_r0_55 (x0 : Vec F S2x256x256 .f32) (x1 : Vec F S512x256 .f32) (x2 : Vec F S256x1 .f32) (x3 : Vec F S4x1024 .f32) (x4 : Vec F S1x1 .f32) :
    k0_pay174 (k0_pay2 (View.ld x3 r0_2)) (k0_pay3 (View.ld x4 r0_3)) (k0_pay5 (View.ld x1 r0_0) (View.ld x0 r0_4) (View.ld x2 r0_5)) (k0_pay6 (View.ld x1 r0_1) (View.ld x0 r0_4)) (k0_pay7 (View.ld x0 r0_4))
      = rowGroup 196 slices_S256x256_o0_196_S256x4 slices_S256x256_o196_0_S4x256 (k0_pay2 (View.ld x3 r0_2)) (k0_pay3 (View.ld x4 r0_3)) (k0_pay5 (View.ld x1 r0_0) (View.ld x0 r0_4) (View.ld x2 r0_5)) (k0_pay6 (View.ld x1 r0_1) (View.ld x0 r0_4)) (k0_pay7 (View.ld x0 r0_4)) := rfl

theorem piece_r0_54 (x0 : Vec F S2x256x256 .f32) (x1 : Vec F S512x256 .f32) (x2 : Vec F S256x1 .f32) (x3 : Vec F S4x1024 .f32) (x4 : Vec F S1x1 .f32) :
    k0_pay173 (k0_pay2 (View.ld x3 r0_2)) (k0_pay3 (View.ld x4 r0_3)) (k0_pay7 (View.ld x0 r0_4)) (k0_pay169 (k0_pay5 (View.ld x1 r0_0) (View.ld x0 r0_4) (View.ld x2 r0_5)) (k0_pay6 (View.ld x1 r0_1) (View.ld x0 r0_4))) (k0_pay170 (k0_pay5 (View.ld x1 r0_0) (View.ld x0 r0_4) (View.ld x2 r0_5)) (k0_pay6 (View.ld x1 r0_1) (View.ld x0 r0_4))) (k0_pay171 (k0_pay5 (View.ld x1 r0_0) (View.ld x0 r0_4) (View.ld x2 r0_5)) (k0_pay6 (View.ld x1 r0_1) (View.ld x0 r0_4))) (k0_pay172 (k0_pay5 (View.ld x1 r0_0) (View.ld x0 r0_4) (View.ld x2 r0_5)) (k0_pay6 (View.ld x1 r0_1) (View.ld x0 r0_4)))
      = rowGroup 192 slices_S256x256_o0_192_S256x4 slices_S256x256_o192_0_S4x256 (k0_pay2 (View.ld x3 r0_2)) (k0_pay3 (View.ld x4 r0_3)) (k0_pay5 (View.ld x1 r0_0) (View.ld x0 r0_4) (View.ld x2 r0_5)) (k0_pay6 (View.ld x1 r0_1) (View.ld x0 r0_4)) (k0_pay7 (View.ld x0 r0_4)) := rfl

theorem piece_r0_53 (x0 : Vec F S2x256x256 .f32) (x1 : Vec F S512x256 .f32) (x2 : Vec F S256x1 .f32) (x3 : Vec F S4x1024 .f32) (x4 : Vec F S1x1 .f32) :
    k0_pay167 (k0_pay2 (View.ld x3 r0_2)) (k0_pay3 (View.ld x4 r0_3)) (k0_pay6 (View.ld x1 r0_1) (View.ld x0 r0_4)) (k0_pay7 (View.ld x0 r0_4)) (k0_pay165 (k0_pay5 (View.ld x1 r0_0) (View.ld x0 r0_4) (View.ld x2 r0_5))) (k0_pay166 (k0_pay5 (View.ld x1 r0_0) (View.ld x0 r0_4) (View.ld x2 r0_5)))
      = rowGroup 188 slices_S256x256_o0_188_S256x4 slices_S256x256_o188_0_S4x256 (k0_pay2 (View.ld x3 r0_2)) (k0_pay3 (View.ld x4 r0_3)) (k0_pay5 (View.ld x1 r0_0) (View.ld x0 r0_4) (View.ld x2 r0_5)) (k0_pay6 (View.ld x1 r0_1) (View.ld x0 r0_4)) (k0_pay7 (View.ld x0 r0_4)) := rfl

theorem piece_r0_52 (x0 : Vec F S2x256x256 .f32) (x1 : Vec F S512x256 .f32) (x2 : Vec F S256x1 .f32) (x3 : Vec F S4x1024 .f32) (x4 : Vec F S1x1 .f32) :
    k0_pay164 (k0_pay2 (View.ld x3 r0_2)) (k0_pay3 (View.ld x4 r0_3)) (k0_pay5 (View.ld x1 r0_0) (View.ld x0 r0_4) (View.ld x2 r0_5)) (k0_pay6 (View.ld x1 r0_1) (View.ld x0 r0_4)) (k0_pay7 (View.ld x0 r0_4))
      = rowGroup 184 slices_S256x256_o0_184_S256x4 slices_S256x256_o184_0_S4x256 (k0_pay2 (View.ld x3 r0_2)) (k0_pay3 (View.ld x4 r0_3)) (k0_pay5 (View.ld x1 r0_0) (View.ld x0 r0_4) (View.ld x2 r0_5)) (k0_pay6 (View.ld x1 r0_1) (View.ld x0 r0_4)) (k0_pay7 (View.ld x0 r0_4)) := rfl

theorem piece_r0_51 (x0 : Vec F S2x256x256 .f32) (x1 : Vec F S512x256 .f32) (x2 : Vec F S256x1 .f32) (x3 : Vec F S4x1024 .f32) (x4 : Vec F S1x1 .f32) :
    k0_pay163 (k0_pay2 (View.ld x3 r0_2)) (k0_pay3 (View.ld x4 r0_3)) (k0_pay7 (View.ld x0 r0_4)) (k0_pay159 (k0_pay5 (View.ld x1 r0_0) (View.ld x0 r0_4) (View.ld x2 r0_5)) (k0_pay6 (View.ld x1 r0_1) (View.ld x0 r0_4))) (k0_pay160 (k0_pay5 (View.ld x1 r0_0) (View.ld x0 r0_4) (View.ld x2 r0_5)) (k0_pay6 (View.ld x1 r0_1) (View.ld x0 r0_4))) (k0_pay161 (k0_pay5 (View.ld x1 r0_0) (View.ld x0 r0_4) (View.ld x2 r0_5)) (k0_pay6 (View.ld x1 r0_1) (View.ld x0 r0_4))) (k0_pay162 (k0_pay5 (View.ld x1 r0_0) (View.ld x0 r0_4) (View.ld x2 r0_5)) (k0_pay6 (View.ld x1 r0_1) (View.ld x0 r0_4)))
      = rowGroup 180 slices_S256x256_o0_180_S256x4 slices_S256x256_o180_0_S4x256 (k0_pay2 (View.ld x3 r0_2)) (k0_pay3 (View.ld x4 r0_3)) (k0_pay5 (View.ld x1 r0_0) (View.ld x0 r0_4) (View.ld x2 r0_5)) (k0_pay6 (View.ld x1 r0_1) (View.ld x0 r0_4)) (k0_pay7 (View.ld x0 r0_4)) := rfl

theorem piece_r0_50 (x0 : Vec F S2x256x256 .f32) (x1 : Vec F S512x256 .f32) (x2 : Vec F S256x1 .f32) (x3 : Vec F S4x1024 .f32) (x4 : Vec F S1x1 .f32) :
    k0_pay157 (k0_pay2 (View.ld x3 r0_2)) (k0_pay3 (View.ld x4 r0_3)) (k0_pay6 (View.ld x1 r0_1) (View.ld x0 r0_4)) (k0_pay7 (View.ld x0 r0_4)) (k0_pay155 (k0_pay5 (View.ld x1 r0_0) (View.ld x0 r0_4) (View.ld x2 r0_5))) (k0_pay156 (k0_pay5 (View.ld x1 r0_0) (View.ld x0 r0_4) (View.ld x2 r0_5)))
      = rowGroup 176 slices_S256x256_o0_176_S256x4 slices_S256x256_o176_0_S4x256 (k0_pay2 (View.ld x3 r0_2)) (k0_pay3 (View.ld x4 r0_3)) (k0_pay5 (View.ld x1 r0_0) (View.ld x0 r0_4) (View.ld x2 r0_5)) (k0_pay6 (View.ld x1 r0_1) (View.ld x0 r0_4)) (k0_pay7 (View.ld x0 r0_4)) := rfl

theorem piece_r0_49 (x0 : Vec F S2x256x256 .f32) (x1 : Vec F S512x256 .f32) (x2 : Vec F S256x1 .f32) (x3 : Vec F S4x1024 .f32) (x4 : Vec F S1x1 .f32) :
    k0_pay154 (k0_pay2 (View.ld x3 r0_2)) (k0_pay3 (View.ld x4 r0_3)) (k0_pay5 (View.ld x1 r0_0) (View.ld x0 r0_4) (View.ld x2 r0_5)) (k0_pay6 (View.ld x1 r0_1) (View.ld x0 r0_4)) (k0_pay7 (View.ld x0 r0_4))
      = rowGroup 172 slices_S256x256_o0_172_S256x4 slices_S256x256_o172_0_S4x256 (k0_pay2 (View.ld x3 r0_2)) (k0_pay3 (View.ld x4 r0_3)) (k0_pay5 (View.ld x1 r0_0) (View.ld x0 r0_4) (View.ld x2 r0_5)) (k0_pay6 (View.ld x1 r0_1) (View.ld x0 r0_4)) (k0_pay7 (View.ld x0 r0_4)) := rfl

theorem piece_r0_48 (x0 : Vec F S2x256x256 .f32) (x1 : Vec F S512x256 .f32) (x2 : Vec F S256x1 .f32) (x3 : Vec F S4x1024 .f32) (x4 : Vec F S1x1 .f32) :
    k0_pay153 (k0_pay2 (View.ld x3 r0_2)) (k0_pay3 (View.ld x4 r0_3)) (k0_pay7 (View.ld x0 r0_4)) (k0_pay149 (k0_pay5 (View.ld x1 r0_0) (View.ld x0 r0_4) (View.ld x2 r0_5)) (k0_pay6 (View.ld x1 r0_1) (View.ld x0 r0_4))) (k0_pay150 (k0_pay5 (View.ld x1 r0_0) (View.ld x0 r0_4) (View.ld x2 r0_5)) (k0_pay6 (View.ld x1 r0_1) (View.ld x0 r0_4))) (k0_pay151 (k0_pay5 (View.ld x1 r0_0) (View.ld x0 r0_4) (View.ld x2 r0_5)) (k0_pay6 (View.ld x1 r0_1) (View.ld x0 r0_4))) (k0_pay152 (k0_pay5 (View.ld x1 r0_0) (View.ld x0 r0_4) (View.ld x2 r0_5)) (k0_pay6 (View.ld x1 r0_1) (View.ld x0 r0_4)))
      = rowGroup 168 slices_S256x256_o0_168_S256x4 slices_S256x256_o168_0_S4x256 (k0_pay2 (View.ld x3 r0_2)) (k0_pay3 (View.ld x4 r0_3)) (k0_pay5 (View.ld x1 r0_0) (View.ld x0 r0_4) (View.ld x2 r0_5)) (k0_pay6 (View.ld x1 r0_1) (View.ld x0 r0_4)) (k0_pay7 (View.ld x0 r0_4)) := rfl

theorem piece_r0_47 (x0 : Vec F S2x256x256 .f32) (x1 : Vec F S512x256 .f32) (x2 : Vec F S256x1 .f32) (x3 : Vec F S4x1024 .f32) (x4 : Vec F S1x1 .f32) :
    k0_pay147 (k0_pay2 (View.ld x3 r0_2)) (k0_pay3 (View.ld x4 r0_3)) (k0_pay6 (View.ld x1 r0_1) (View.ld x0 r0_4)) (k0_pay7 (View.ld x0 r0_4)) (k0_pay145 (k0_pay5 (View.ld x1 r0_0) (View.ld x0 r0_4) (View.ld x2 r0_5))) (k0_pay146 (k0_pay5 (View.ld x1 r0_0) (View.ld x0 r0_4) (View.ld x2 r0_5)))
      = rowGroup 164 slices_S256x256_o0_164_S256x4 slices_S256x256_o164_0_S4x256 (k0_pay2 (View.ld x3 r0_2)) (k0_pay3 (View.ld x4 r0_3)) (k0_pay5 (View.ld x1 r0_0) (View.ld x0 r0_4) (View.ld x2 r0_5)) (k0_pay6 (View.ld x1 r0_1) (View.ld x0 r0_4)) (k0_pay7 (View.ld x0 r0_4)) := rfl

theorem piece_r0_46 (x0 : Vec F S2x256x256 .f32) (x1 : Vec F S512x256 .f32) (x2 : Vec F S256x1 .f32) (x3 : Vec F S4x1024 .f32) (x4 : Vec F S1x1 .f32) :
    k0_pay144 (k0_pay2 (View.ld x3 r0_2)) (k0_pay3 (View.ld x4 r0_3)) (k0_pay5 (View.ld x1 r0_0) (View.ld x0 r0_4) (View.ld x2 r0_5)) (k0_pay6 (View.ld x1 r0_1) (View.ld x0 r0_4)) (k0_pay7 (View.ld x0 r0_4))
      = rowGroup 160 slices_S256x256_o0_160_S256x4 slices_S256x256_o160_0_S4x256 (k0_pay2 (View.ld x3 r0_2)) (k0_pay3 (View.ld x4 r0_3)) (k0_pay5 (View.ld x1 r0_0) (View.ld x0 r0_4) (View.ld x2 r0_5)) (k0_pay6 (View.ld x1 r0_1) (View.ld x0 r0_4)) (k0_pay7 (View.ld x0 r0_4)) := rfl

theorem piece_r0_45 (x0 : Vec F S2x256x256 .f32) (x1 : Vec F S512x256 .f32) (x2 : Vec F S256x1 .f32) (x3 : Vec F S4x1024 .f32) (x4 : Vec F S1x1 .f32) :
    k0_pay143 (k0_pay2 (View.ld x3 r0_2)) (k0_pay3 (View.ld x4 r0_3)) (k0_pay7 (View.ld x0 r0_4)) (k0_pay139 (k0_pay5 (View.ld x1 r0_0) (View.ld x0 r0_4) (View.ld x2 r0_5)) (k0_pay6 (View.ld x1 r0_1) (View.ld x0 r0_4))) (k0_pay140 (k0_pay5 (View.ld x1 r0_0) (View.ld x0 r0_4) (View.ld x2 r0_5)) (k0_pay6 (View.ld x1 r0_1) (View.ld x0 r0_4))) (k0_pay141 (k0_pay5 (View.ld x1 r0_0) (View.ld x0 r0_4) (View.ld x2 r0_5)) (k0_pay6 (View.ld x1 r0_1) (View.ld x0 r0_4))) (k0_pay142 (k0_pay5 (View.ld x1 r0_0) (View.ld x0 r0_4) (View.ld x2 r0_5)) (k0_pay6 (View.ld x1 r0_1) (View.ld x0 r0_4)))
      = rowGroup 156 slices_S256x256_o0_156_S256x4 slices_S256x256_o156_0_S4x256 (k0_pay2 (View.ld x3 r0_2)) (k0_pay3 (View.ld x4 r0_3)) (k0_pay5 (View.ld x1 r0_0) (View.ld x0 r0_4) (View.ld x2 r0_5)) (k0_pay6 (View.ld x1 r0_1) (View.ld x0 r0_4)) (k0_pay7 (View.ld x0 r0_4)) := rfl

theorem piece_r0_44 (x0 : Vec F S2x256x256 .f32) (x1 : Vec F S512x256 .f32) (x2 : Vec F S256x1 .f32) (x3 : Vec F S4x1024 .f32) (x4 : Vec F S1x1 .f32) :
    k0_pay137 (k0_pay2 (View.ld x3 r0_2)) (k0_pay3 (View.ld x4 r0_3)) (k0_pay6 (View.ld x1 r0_1) (View.ld x0 r0_4)) (k0_pay7 (View.ld x0 r0_4)) (k0_pay135 (k0_pay5 (View.ld x1 r0_0) (View.ld x0 r0_4) (View.ld x2 r0_5))) (k0_pay136 (k0_pay5 (View.ld x1 r0_0) (View.ld x0 r0_4) (View.ld x2 r0_5)))
      = rowGroup 152 slices_S256x256_o0_152_S256x4 slices_S256x256_o152_0_S4x256 (k0_pay2 (View.ld x3 r0_2)) (k0_pay3 (View.ld x4 r0_3)) (k0_pay5 (View.ld x1 r0_0) (View.ld x0 r0_4) (View.ld x2 r0_5)) (k0_pay6 (View.ld x1 r0_1) (View.ld x0 r0_4)) (k0_pay7 (View.ld x0 r0_4)) := rfl

theorem piece_r0_43 (x0 : Vec F S2x256x256 .f32) (x1 : Vec F S512x256 .f32) (x2 : Vec F S256x1 .f32) (x3 : Vec F S4x1024 .f32) (x4 : Vec F S1x1 .f32) :
    k0_pay134 (k0_pay2 (View.ld x3 r0_2)) (k0_pay3 (View.ld x4 r0_3)) (k0_pay5 (View.ld x1 r0_0) (View.ld x0 r0_4) (View.ld x2 r0_5)) (k0_pay6 (View.ld x1 r0_1) (View.ld x0 r0_4)) (k0_pay7 (View.ld x0 r0_4))
      = rowGroup 148 slices_S256x256_o0_148_S256x4 slices_S256x256_o148_0_S4x256 (k0_pay2 (View.ld x3 r0_2)) (k0_pay3 (View.ld x4 r0_3)) (k0_pay5 (View.ld x1 r0_0) (View.ld x0 r0_4) (View.ld x2 r0_5)) (k0_pay6 (View.ld x1 r0_1) (View.ld x0 r0_4)) (k0_pay7 (View.ld x0 r0_4)) := rfl

theorem piece_r0_42 (x0 : Vec F S2x256x256 .f32) (x1 : Vec F S512x256 .f32) (x2 : Vec F S256x1 .f32) (x3 : Vec F S4x1024 .f32) (x4 : Vec F S1x1 .f32) :
    k0_pay133 (k0_pay2 (View.ld x3 r0_2)) (k0_pay3 (View.ld x4 r0_3)) (k0_pay7 (View.ld x0 r0_4)) (k0_pay129 (k0_pay5 (View.ld x1 r0_0) (View.ld x0 r0_4) (View.ld x2 r0_5)) (k0_pay6 (View.ld x1 r0_1) (View.ld x0 r0_4))) (k0_pay130 (k0_pay5 (View.ld x1 r0_0) (View.ld x0 r0_4) (View.ld x2 r0_5)) (k0_pay6 (View.ld x1 r0_1) (View.ld x0 r0_4))) (k0_pay131 (k0_pay5 (View.ld x1 r0_0) (View.ld x0 r0_4) (View.ld x2 r0_5)) (k0_pay6 (View.ld x1 r0_1) (View.ld x0 r0_4))) (k0_pay132 (k0_pay5 (View.ld x1 r0_0) (View.ld x0 r0_4) (View.ld x2 r0_5)) (k0_pay6 (View.ld x1 r0_1) (View.ld x0 r0_4)))
      = rowGroup 144 slices_S256x256_o0_144_S256x4 slices_S256x256_o144_0_S4x256 (k0_pay2 (View.ld x3 r0_2)) (k0_pay3 (View.ld x4 r0_3)) (k0_pay5 (View.ld x1 r0_0) (View.ld x0 r0_4) (View.ld x2 r0_5)) (k0_pay6 (View.ld x1 r0_1) (View.ld x0 r0_4)) (k0_pay7 (View.ld x0 r0_4)) := rfl

theorem piece_r0_41 (x0 : Vec F S2x256x256 .f32) (x1 : Vec F S512x256 .f32) (x2 : Vec F S256x1 .f32) (x3 : Vec F S4x1024 .f32) (x4 : Vec F S1x1 .f32) :
    k0_pay127 (k0_pay2 (View.ld x3 r0_2)) (k0_pay3 (View.ld x4 r0_3)) (k0_pay6 (View.ld x1 r0_1) (View.ld x0 r0_4)) (k0_pay7 (View.ld x0 r0_4)) (k0_pay125 (k0_pay5 (View.ld x1 r0_0) (View.ld x0 r0_4) (View.ld x2 r0_5))) (k0_pay126 (k0_pay5 (View.ld x1 r0_0) (View.ld x0 r0_4) (View.ld x2 r0_5)))
      = rowGroup 140 slices_S256x256_o0_140_S256x4 slices_S256x256_o140_0_S4x256 (k0_pay2 (View.ld x3 r0_2)) (k0_pay3 (View.ld x4 r0_3)) (k0_pay5 (View.ld x1 r0_0) (View.ld x0 r0_4) (View.ld x2 r0_5)) (k0_pay6 (View.ld x1 r0_1) (View.ld x0 r0_4)) (k0_pay7 (View.ld x0 r0_4)) := rfl

theorem piece_r0_40 (x0 : Vec F S2x256x256 .f32) (x1 : Vec F S512x256 .f32) (x2 : Vec F S256x1 .f32) (x3 : Vec F S4x1024 .f32) (x4 : Vec F S1x1 .f32) :
    k0_pay124 (k0_pay2 (View.ld x3 r0_2)) (k0_pay3 (View.ld x4 r0_3)) (k0_pay5 (View.ld x1 r0_0) (View.ld x0 r0_4) (View.ld x2 r0_5)) (k0_pay6 (View.ld x1 r0_1) (View.ld x0 r0_4)) (k0_pay7 (View.ld x0 r0_4))
      = rowGroup 136 slices_S256x256_o0_136_S256x4 slices_S256x256_o136_0_S4x256 (k0_pay2 (View.ld x3 r0_2)) (k0_pay3 (View.ld x4 r0_3)) (k0_pay5 (View.ld x1 r0_0) (View.ld x0 r0_4) (View.ld x2 r0_5)) (k0_pay6 (View.ld x1 r0_1) (View.ld x0 r0_4)) (k0_pay7 (View.ld x0 r0_4)) := rfl

theorem piece_r0_39 (x0 : Vec F S2x256x256 .f32) (x1 : Vec F S512x256 .f32) (x2 : Vec F S256x1 .f32) (x3 : Vec F S4x1024 .f32) (x4 : Vec F S1x1 .f32) :
    k0_pay123 (k0_pay2 (View.ld x3 r0_2)) (k0_pay3 (View.ld x4 r0_3)) (k0_pay7 (View.ld x0 r0_4)) (k0_pay119 (k0_pay5 (View.ld x1 r0_0) (View.ld x0 r0_4) (View.ld x2 r0_5)) (k0_pay6 (View.ld x1 r0_1) (View.ld x0 r0_4))) (k0_pay120 (k0_pay5 (View.ld x1 r0_0) (View.ld x0 r0_4) (View.ld x2 r0_5)) (k0_pay6 (View.ld x1 r0_1) (View.ld x0 r0_4))) (k0_pay121 (k0_pay5 (View.ld x1 r0_0) (View.ld x0 r0_4) (View.ld x2 r0_5)) (k0_pay6 (View.ld x1 r0_1) (View.ld x0 r0_4))) (k0_pay122 (k0_pay5 (View.ld x1 r0_0) (View.ld x0 r0_4) (View.ld x2 r0_5)) (k0_pay6 (View.ld x1 r0_1) (View.ld x0 r0_4)))
      = rowGroup 132 slices_S256x256_o0_132_S256x4 slices_S256x256_o132_0_S4x256 (k0_pay2 (View.ld x3 r0_2)) (k0_pay3 (View.ld x4 r0_3)) (k0_pay5 (View.ld x1 r0_0) (View.ld x0 r0_4) (View.ld x2 r0_5)) (k0_pay6 (View.ld x1 r0_1) (View.ld x0 r0_4)) (k0_pay7 (View.ld x0 r0_4)) := rfl

theorem piece_r0_38 (x0 : Vec F S2x256x256 .f32) (x1 : Vec F S512x256 .f32) (x2 : Vec F S256x1 .f32) (x3 : Vec F S4x1024 .f32) (x4 : Vec F S1x1 .f32) :
    k0_pay117 (k0_pay2 (View.ld x3 r0_2)) (k0_pay3 (View.ld x4 r0_3)) (k0_pay6 (View.ld x1 r0_1) (View.ld x0 r0_4)) (k0_pay7 (View.ld x0 r0_4)) (k0_pay115 (k0_pay5 (View.ld x1 r0_0) (View.ld x0 r0_4) (View.ld x2 r0_5))) (k0_pay116 (k0_pay5 (View.ld x1 r0_0) (View.ld x0 r0_4) (View.ld x2 r0_5)))
      = rowGroup 128 slices_S256x256_o0_128_S256x4 slices_S256x256_o128_0_S4x256 (k0_pay2 (View.ld x3 r0_2)) (k0_pay3 (View.ld x4 r0_3)) (k0_pay5 (View.ld x1 r0_0) (View.ld x0 r0_4) (View.ld x2 r0_5)) (k0_pay6 (View.ld x1 r0_1) (View.ld x0 r0_4)) (k0_pay7 (View.ld x0 r0_4)) := rfl

theorem piece_r0_37 (x0 : Vec F S2x256x256 .f32) (x1 : Vec F S512x256 .f32) (x2 : Vec F S256x1 .f32) (x3 : Vec F S4x1024 .f32) (x4 : Vec F S1x1 .f32) :
    k0_pay114 (k0_pay2 (View.ld x3 r0_2)) (k0_pay3 (View.ld x4 r0_3)) (k0_pay5 (View.ld x1 r0_0) (View.ld x0 r0_4) (View.ld x2 r0_5)) (k0_pay6 (View.ld x1 r0_1) (View.ld x0 r0_4)) (k0_pay7 (View.ld x0 r0_4))
      = rowGroup 124 slices_S256x256_o0_124_S256x4 slices_S256x256_o124_0_S4x256 (k0_pay2 (View.ld x3 r0_2)) (k0_pay3 (View.ld x4 r0_3)) (k0_pay5 (View.ld x1 r0_0) (View.ld x0 r0_4) (View.ld x2 r0_5)) (k0_pay6 (View.ld x1 r0_1) (View.ld x0 r0_4)) (k0_pay7 (View.ld x0 r0_4)) := rfl

theorem piece_r0_36 (x0 : Vec F S2x256x256 .f32) (x1 : Vec F S512x256 .f32) (x2 : Vec F S256x1 .f32) (x3 : Vec F S4x1024 .f32) (x4 : Vec F S1x1 .f32) :
    k0_pay113 (k0_pay2 (View.ld x3 r0_2)) (k0_pay3 (View.ld x4 r0_3)) (k0_pay7 (View.ld x0 r0_4)) (k0_pay109 (k0_pay5 (View.ld x1 r0_0) (View.ld x0 r0_4) (View.ld x2 r0_5)) (k0_pay6 (View.ld x1 r0_1) (View.ld x0 r0_4))) (k0_pay110 (k0_pay5 (View.ld x1 r0_0) (View.ld x0 r0_4) (View.ld x2 r0_5)) (k0_pay6 (View.ld x1 r0_1) (View.ld x0 r0_4))) (k0_pay111 (k0_pay5 (View.ld x1 r0_0) (View.ld x0 r0_4) (View.ld x2 r0_5)) (k0_pay6 (View.ld x1 r0_1) (View.ld x0 r0_4))) (k0_pay112 (k0_pay5 (View.ld x1 r0_0) (View.ld x0 r0_4) (View.ld x2 r0_5)) (k0_pay6 (View.ld x1 r0_1) (View.ld x0 r0_4)))
      = rowGroup 120 slices_S256x256_o0_120_S256x4 slices_S256x256_o120_0_S4x256 (k0_pay2 (View.ld x3 r0_2)) (k0_pay3 (View.ld x4 r0_3)) (k0_pay5 (View.ld x1 r0_0) (View.ld x0 r0_4) (View.ld x2 r0_5)) (k0_pay6 (View.ld x1 r0_1) (View.ld x0 r0_4)) (k0_pay7 (View.ld x0 r0_4)) := rfl

theorem piece_r0_35 (x0 : Vec F S2x256x256 .f32) (x1 : Vec F S512x256 .f32) (x2 : Vec F S256x1 .f32) (x3 : Vec F S4x1024 .f32) (x4 : Vec F S1x1 .f32) :
    k0_pay107 (k0_pay2 (View.ld x3 r0_2)) (k0_pay3 (View.ld x4 r0_3)) (k0_pay6 (View.ld x1 r0_1) (View.ld x0 r0_4)) (k0_pay7 (View.ld x0 r0_4)) (k0_pay105 (k0_pay5 (View.ld x1 r0_0) (View.ld x0 r0_4) (View.ld x2 r0_5))) (k0_pay106 (k0_pay5 (View.ld x1 r0_0) (View.ld x0 r0_4) (View.ld x2 r0_5)))
      = rowGroup 116 slices_S256x256_o0_116_S256x4 slices_S256x256_o116_0_S4x256 (k0_pay2 (View.ld x3 r0_2)) (k0_pay3 (View.ld x4 r0_3)) (k0_pay5 (View.ld x1 r0_0) (View.ld x0 r0_4) (View.ld x2 r0_5)) (k0_pay6 (View.ld x1 r0_1) (View.ld x0 r0_4)) (k0_pay7 (View.ld x0 r0_4)) := rfl

theorem piece_r0_34 (x0 : Vec F S2x256x256 .f32) (x1 : Vec F S512x256 .f32) (x2 : Vec F S256x1 .f32) (x3 : Vec F S4x1024 .f32) (x4 : Vec F S1x1 .f32) :
    k0_pay104 (k0_pay2 (View.ld x3 r0_2)) (k0_pay3 (View.ld x4 r0_3)) (k0_pay5 (View.ld x1 r0_0) (View.ld x0 r0_4) (View.ld x2 r0_5)) (k0_pay6 (View.ld x1 r0_1) (View.ld x0 r0_4)) (k0_pay7 (View.ld x0 r0_4))
      = rowGroup 112 slices_S256x256_o0_112_S256x4 slices_S256x256_o112_0_S4x256 (k0_pay2 (View.ld x3 r0_2)) (k0_pay3 (View.ld x4 r0_3)) (k0_pay5 (View.ld x1 r0_0) (View.ld x0 r0_4) (View.ld x2 r0_5)) (k0_pay6 (View.ld x1 r0_1) (View.ld x0 r0_4)) (k0_pay7 (View.ld x0 r0_4)) := rfl

theorem piece_r0_33 (x0 : Vec F S2x256x256 .f32) (x1 : Vec F S512x256 .f32) (x2 : Vec F S256x1 .f32) (x3 : Vec F S4x1024 .f32) (x4 : Vec F S1x1 .f32) :
    k0_pay103 (k0_pay2 (View.ld x3 r0_2)) (k0_pay3 (View.ld x4 r0_3)) (k0_pay7 (View.ld x0 r0_4)) (k0_pay99 (k0_pay5 (View.ld x1 r0_0) (View.ld x0 r0_4) (View.ld x2 r0_5)) (k0_pay6 (View.ld x1 r0_1) (View.ld x0 r0_4))) (k0_pay100 (k0_pay5 (View.ld x1 r0_0) (View.ld x0 r0_4) (View.ld x2 r0_5)) (k0_pay6 (View.ld x1 r0_1) (View.ld x0 r0_4))) (k0_pay101 (k0_pay5 (View.ld x1 r0_0) (View.ld x0 r0_4) (View.ld x2 r0_5)) (k0_pay6 (View.ld x1 r0_1) (View.ld x0 r0_4))) (k0_pay102 (k0_pay5 (View.ld x1 r0_0) (View.ld x0 r0_4) (View.ld x2 r0_5)) (k0_pay6 (View.ld x1 r0_1) (View.ld x0 r0_4)))
      = rowGroup 108 slices_S256x256_o0_108_S256x4 slices_S256x256_o108_0_S4x256 (k0_pay2 (View.ld x3 r0_2)) (k0_pay3 (View.ld x4 r0_3)) (k0_pay5 (View.ld x1 r0_0) (View.ld x0 r0_4) (View.ld x2 r0_5)) (k0_pay6 (View.ld x1 r0_1) (View.ld x0 r0_4)) (k0_pay7 (View.ld x0 r0_4)) := rfl

theorem piece_r0_32 (x0 : Vec F S2x256x256 .f32) (x1 : Vec F S512x256 .f32) (x2 : Vec F S256x1 .f32) (x3 : Vec F S4x1024 .f32) (x4 : Vec F S1x1 .f32) :
    k0_pay97 (k0_pay2 (View.ld x3 r0_2)) (k0_pay3 (View.ld x4 r0_3)) (k0_pay6 (View.ld x1 r0_1) (View.ld x0 r0_4)) (k0_pay7 (View.ld x0 r0_4)) (k0_pay95 (k0_pay5 (View.ld x1 r0_0) (View.ld x0 r0_4) (View.ld x2 r0_5))) (k0_pay96 (k0_pay5 (View.ld x1 r0_0) (View.ld x0 r0_4) (View.ld x2 r0_5)))
      = rowGroup 104 slices_S256x256_o0_104_S256x4 slices_S256x256_o104_0_S4x256 (k0_pay2 (View.ld x3 r0_2)) (k0_pay3 (View.ld x4 r0_3)) (k0_pay5 (View.ld x1 r0_0) (View.ld x0 r0_4) (View.ld x2 r0_5)) (k0_pay6 (View.ld x1 r0_1) (View.ld x0 r0_4)) (k0_pay7 (View.ld x0 r0_4)) := rfl

theorem piece_r0_31 (x0 : Vec F S2x256x256 .f32) (x1 : Vec F S512x256 .f32) (x2 : Vec F S256x1 .f32) (x3 : Vec F S4x1024 .f32) (x4 : Vec F S1x1 .f32) :
    k0_pay94 (k0_pay2 (View.ld x3 r0_2)) (k0_pay3 (View.ld x4 r0_3)) (k0_pay5 (View.ld x1 r0_0) (View.ld x0 r0_4) (View.ld x2 r0_5)) (k0_pay6 (View.ld x1 r0_1) (View.ld x0 r0_4)) (k0_pay7 (View.ld x0 r0_4))
      = rowGroup 100 slices_S256x256_o0_100_S256x4 slices_S256x256_o100_0_S4x256 (k0_pay2 (View.ld x3 r0_2)) (k0_pay3 (View.ld x4 r0_3)) (k0_pay5 (View.ld x1 r0_0) (View.ld x0 r0_4) (View.ld x2 r0_5)) (k0_pay6 (View.ld x1 r0_1) (View.ld x0 r0_4)) (k0_pay7 (View.ld x0 r0_4)) := rfl

theorem piece_r0_30 (x0 : Vec F S2x256x256 .f32) (x1 : Vec F S512x256 .f32) (x2 : Vec F S256x1 .f32) (x3 : Vec F S4x1024 .f32) (x4 : Vec F S1x1 .f32) :
    k0_pay93 (k0_pay2 (View.ld x3 r0_2)) (k0_pay3 (View.ld x4 r0_3)) (k0_pay7 (View.ld x0 r0_4)) (k0_pay89 (k0_pay5 (View.ld x1 r0_0) (View.ld x0 r0_4) (View.ld x2 r0_5)) (k0_pay6 (View.ld x1 r0_1) (View.ld x0 r0_4))) (k0_pay90 (k0_pay5 (View.ld x1 r0_0) (View.ld x0 r0_4) (View.ld x2 r0_5)) (k0_pay6 (View.ld x1 r0_1) (View.ld x0 r0_4))) (k0_pay91 (k0_pay5 (View.ld x1 r0_0) (View.ld x0 r0_4) (View.ld x2 r0_5)) (k0_pay6 (View.ld x1 r0_1) (View.ld x0 r0_4))) (k0_pay92 (k0_pay5 (View.ld x1 r0_0) (View.ld x0 r0_4) (View.ld x2 r0_5)) (k0_pay6 (View.ld x1 r0_1) (View.ld x0 r0_4)))
      = rowGroup 96 slices_S256x256_o0_96_S256x4 slices_S256x256_o96_0_S4x256 (k0_pay2 (View.ld x3 r0_2)) (k0_pay3 (View.ld x4 r0_3)) (k0_pay5 (View.ld x1 r0_0) (View.ld x0 r0_4) (View.ld x2 r0_5)) (k0_pay6 (View.ld x1 r0_1) (View.ld x0 r0_4)) (k0_pay7 (View.ld x0 r0_4)) := rfl

theorem piece_r0_29 (x0 : Vec F S2x256x256 .f32) (x1 : Vec F S512x256 .f32) (x2 : Vec F S256x1 .f32) (x3 : Vec F S4x1024 .f32) (x4 : Vec F S1x1 .f32) :
    k0_pay87 (k0_pay2 (View.ld x3 r0_2)) (k0_pay3 (View.ld x4 r0_3)) (k0_pay6 (View.ld x1 r0_1) (View.ld x0 r0_4)) (k0_pay7 (View.ld x0 r0_4)) (k0_pay85 (k0_pay5 (View.ld x1 r0_0) (View.ld x0 r0_4) (View.ld x2 r0_5))) (k0_pay86 (k0_pay5 (View.ld x1 r0_0) (View.ld x0 r0_4) (View.ld x2 r0_5)))
      = rowGroup 92 slices_S256x256_o0_92_S256x4 slices_S256x256_o92_0_S4x256 (k0_pay2 (View.ld x3 r0_2)) (k0_pay3 (View.ld x4 r0_3)) (k0_pay5 (View.ld x1 r0_0) (View.ld x0 r0_4) (View.ld x2 r0_5)) (k0_pay6 (View.ld x1 r0_1) (View.ld x0 r0_4)) (k0_pay7 (View.ld x0 r0_4)) := rfl

theorem piece_r0_28 (x0 : Vec F S2x256x256 .f32) (x1 : Vec F S512x256 .f32) (x2 : Vec F S256x1 .f32) (x3 : Vec F S4x1024 .f32) (x4 : Vec F S1x1 .f32) :
    k0_pay84 (k0_pay2 (View.ld x3 r0_2)) (k0_pay3 (View.ld x4 r0_3)) (k0_pay5 (View.ld x1 r0_0) (View.ld x0 r0_4) (View.ld x2 r0_5)) (k0_pay6 (View.ld x1 r0_1) (View.ld x0 r0_4)) (k0_pay7 (View.ld x0 r0_4))
      = rowGroup 88 slices_S256x256_o0_88_S256x4 slices_S256x256_o88_0_S4x256 (k0_pay2 (View.ld x3 r0_2)) (k0_pay3 (View.ld x4 r0_3)) (k0_pay5 (View.ld x1 r0_0) (View.ld x0 r0_4) (View.ld x2 r0_5)) (k0_pay6 (View.ld x1 r0_1) (View.ld x0 r0_4)) (k0_pay7 (View.ld x0 r0_4)) := rfl

theorem piece_r0_27 (x0 : Vec F S2x256x256 .f32) (x1 : Vec F S512x256 .f32) (x2 : Vec F S256x1 .f32) (x3 : Vec F S4x1024 .f32) (x4 : Vec F S1x1 .f32) :
    k0_pay83 (k0_pay2 (View.ld x3 r0_2)) (k0_pay3 (View.ld x4 r0_3)) (k0_pay7 (View.ld x0 r0_4)) (k0_pay79 (k0_pay5 (View.ld x1 r0_0) (View.ld x0 r0_4) (View.ld x2 r0_5)) (k0_pay6 (View.ld x1 r0_1) (View.ld x0 r0_4))) (k0_pay80 (k0_pay5 (View.ld x1 r0_0) (View.ld x0 r0_4) (View.ld x2 r0_5)) (k0_pay6 (View.ld x1 r0_1) (View.ld x0 r0_4))) (k0_pay81 (k0_pay5 (View.ld x1 r0_0) (View.ld x0 r0_4) (View.ld x2 r0_5)) (k0_pay6 (View.ld x1 r0_1) (View.ld x0 r0_4))) (k0_pay82 (k0_pay5 (View.ld x1 r0_0) (View.ld x0 r0_4) (View.ld x2 r0_5)) (k0_pay6 (View.ld x1 r0_1) (View.ld x0 r0_4)))
      = rowGroup 84 slices_S256x256_o0_84_S256x4 slices_S256x256_o84_0_S4x256 (k0_pay2 (View.ld x3 r0_2)) (k0_pay3 (View.ld x4 r0_3)) (k0_pay5 (View.ld x1 r0_0) (View.ld x0 r0_4) (View.ld x2 r0_5)) (k0_pay6 (View.ld x1 r0_1) (View.ld x0 r0_4)) (k0_pay7 (View.ld x0 r0_4)) := rfl

theorem piece_r0_26 (x0 : Vec F S2x256x256 .f32) (x1 : Vec F S512x256 .f32) (x2 : Vec F S256x1 .f32) (x3 : Vec F S4x1024 .f32) (x4 : Vec F S1x1 .f32) :
    k0_pay77 (k0_pay2 (View.ld x3 r0_2)) (k0_pay3 (View.ld x4 r0_3)) (k0_pay6 (View.ld x1 r0_1) (View.ld x0 r0_4)) (k0_pay7 (View.ld x0 r0_4)) (k0_pay75 (k0_pay5 (View.ld x1 r0_0) (View.ld x0 r0_4) (View.ld x2 r0_5))) (k0_pay76 (k0_pay5 (View.ld x1 r0_0) (View.ld x0 r0_4) (View.ld x2 r0_5)))
      = rowGroup 80 slices_S256x256_o0_80_S256x4 slices_S256x256_o80_0_S4x256 (k0_pay2 (View.ld x3 r0_2)) (k0_pay3 (View.ld x4 r0_3)) (k0_pay5 (View.ld x1 r0_0) (View.ld x0 r0_4) (View.ld x2 r0_5)) (k0_pay6 (View.ld x1 r0_1) (View.ld x0 r0_4)) (k0_pay7 (View.ld x0 r0_4)) := rfl

theorem piece_r0_25 (x0 : Vec F S2x256x256 .f32) (x1 : Vec F S512x256 .f32) (x2 : Vec F S256x1 .f32) (x3 : Vec F S4x1024 .f32) (x4 : Vec F S1x1 .f32) :
    k0_pay74 (k0_pay2 (View.ld x3 r0_2)) (k0_pay3 (View.ld x4 r0_3)) (k0_pay5 (View.ld x1 r0_0) (View.ld x0 r0_4) (View.ld x2 r0_5)) (k0_pay6 (View.ld x1 r0_1) (View.ld x0 r0_4)) (k0_pay7 (View.ld x0 r0_4))
      = rowGroup 76 slices_S256x256_o0_76_S256x4 slices_S256x256_o76_0_S4x256 (k0_pay2 (View.ld x3 r0_2)) (k0_pay3 (View.ld x4 r0_3)) (k0_pay5 (View.ld x1 r0_0) (View.ld x0 r0_4) (View.ld x2 r0_5)) (k0_pay6 (View.ld x1 r0_1) (View.ld x0 r0_4)) (k0_pay7 (View.ld x0 r0_4)) := rfl

theorem piece_r0_24 (x0 : Vec F S2x256x256 .f32) (x1 : Vec F S512x256 .f32) (x2 : Vec F S256x1 .f32) (x3 : Vec F S4x1024 .f32) (x4 : Vec F S1x1 .f32) :
    k0_pay73 (k0_pay2 (View.ld x3 r0_2)) (k0_pay3 (View.ld x4 r0_3)) (k0_pay7 (View.ld x0 r0_4)) (k0_pay69 (k0_pay5 (View.ld x1 r0_0) (View.ld x0 r0_4) (View.ld x2 r0_5)) (k0_pay6 (View.ld x1 r0_1) (View.ld x0 r0_4))) (k0_pay70 (k0_pay5 (View.ld x1 r0_0) (View.ld x0 r0_4) (View.ld x2 r0_5)) (k0_pay6 (View.ld x1 r0_1) (View.ld x0 r0_4))) (k0_pay71 (k0_pay5 (View.ld x1 r0_0) (View.ld x0 r0_4) (View.ld x2 r0_5)) (k0_pay6 (View.ld x1 r0_1) (View.ld x0 r0_4))) (k0_pay72 (k0_pay5 (View.ld x1 r0_0) (View.ld x0 r0_4) (View.ld x2 r0_5)) (k0_pay6 (View.ld x1 r0_1) (View.ld x0 r0_4)))
      = rowGroup 72 slices_S256x256_o0_72_S256x4 slices_S256x256_o72_0_S4x256 (k0_pay2 (View.ld x3 r0_2)) (k0_pay3 (View.ld x4 r0_3)) (k0_pay5 (View.ld x1 r0_0) (View.ld x0 r0_4) (View.ld x2 r0_5)) (k0_pay6 (View.ld x1 r0_1) (View.ld x0 r0_4)) (k0_pay7 (View.ld x0 r0_4)) := rfl

theorem piece_r0_23 (x0 : Vec F S2x256x256 .f32) (x1 : Vec F S512x256 .f32) (x2 : Vec F S256x1 .f32) (x3 : Vec F S4x1024 .f32) (x4 : Vec F S1x1 .f32) :
    k0_pay67 (k0_pay2 (View.ld x3 r0_2)) (k0_pay3 (View.ld x4 r0_3)) (k0_pay6 (View.ld x1 r0_1) (View.ld x0 r0_4)) (k0_pay7 (View.ld x0 r0_4)) (k0_pay65 (k0_pay5 (View.ld x1 r0_0) (View.ld x0 r0_4) (View.ld x2 r0_5))) (k0_pay66 (k0_pay5 (View.ld x1 r0_0) (View.ld x0 r0_4) (View.ld x2 r0_5)))
      = rowGroup 68 slices_S256x256_o0_68_S256x4 slices_S256x256_o68_0_S4x256 (k0_pay2 (View.ld x3 r0_2)) (k0_pay3 (View.ld x4 r0_3)) (k0_pay5 (View.ld x1 r0_0) (View.ld x0 r0_4) (View.ld x2 r0_5)) (k0_pay6 (View.ld x1 r0_1) (View.ld x0 r0_4)) (k0_pay7 (View.ld x0 r0_4)) := rfl

theorem piece_r0_22 (x0 : Vec F S2x256x256 .f32) (x1 : Vec F S512x256 .f32) (x2 : Vec F S256x1 .f32) (x3 : Vec F S4x1024 .f32) (x4 : Vec F S1x1 .f32) :
    k0_pay64 (k0_pay2 (View.ld x3 r0_2)) (k0_pay3 (View.ld x4 r0_3)) (k0_pay5 (View.ld x1 r0_0) (View.ld x0 r0_4) (View.ld x2 r0_5)) (k0_pay6 (View.ld x1 r0_1) (View.ld x0 r0_4)) (k0_pay7 (View.ld x0 r0_4))
      = rowGroup 64 slices_S256x256_o0_64_S256x4 slices_S256x256_o64_0_S4x256 (k0_pay2 (View.ld x3 r0_2)) (k0_pay3 (View.ld x4 r0_3)) (k0_pay5 (View.ld x1 r0_0) (View.ld x0 r0_4) (View.ld x2 r0_5)) (k0_pay6 (View.ld x1 r0_1) (View.ld x0 r0_4)) (k0_pay7 (View.ld x0 r0_4)) := rfl

theorem piece_r0_21 (x0 : Vec F S2x256x256 .f32) (x1 : Vec F S512x256 .f32) (x2 : Vec F S256x1 .f32) (x3 : Vec F S4x1024 .f32) (x4 : Vec F S1x1 .f32) :
    k0_pay63 (k0_pay2 (View.ld x3 r0_2)) (k0_pay3 (View.ld x4 r0_3)) (k0_pay7 (View.ld x0 r0_4)) (k0_pay59 (k0_pay5 (View.ld x1 r0_0) (View.ld x0 r0_4) (View.ld x2 r0_5)) (k0_pay6 (View.ld x1 r0_1) (View.ld x0 r0_4))) (k0_pay60 (k0_pay5 (View.ld x1 r0_0) (View.ld x0 r0_4) (View.ld x2 r0_5)) (k0_pay6 (View.ld x1 r0_1) (View.ld x0 r0_4))) (k0_pay61 (k0_pay5 (View.ld x1 r0_0) (View.ld x0 r0_4) (View.ld x2 r0_5)) (k0_pay6 (View.ld x1 r0_1) (View.ld x0 r0_4))) (k0_pay62 (k0_pay5 (View.ld x1 r0_0) (View.ld x0 r0_4) (View.ld x2 r0_5)) (k0_pay6 (View.ld x1 r0_1) (View.ld x0 r0_4)))
      = rowGroup 60 slices_S256x256_o0_60_S256x4 slices_S256x256_o60_0_S4x256 (k0_pay2 (View.ld x3 r0_2)) (k0_pay3 (View.ld x4 r0_3)) (k0_pay5 (View.ld x1 r0_0) (View.ld x0 r0_4) (View.ld x2 r0_5)) (k0_pay6 (View.ld x1 r0_1) (View.ld x0 r0_4)) (k0_pay7 (View.ld x0 r0_4)) := rfl

theorem piece_r0_20 (x0 : Vec F S2x256x256 .f32) (x1 : Vec F S512x256 .f32) (x2 : Vec F S256x1 .f32) (x3 : Vec F S4x1024 .f32) (x4 : Vec F S1x1 .f32) :
    k0_pay57 (k0_pay2 (View.ld x3 r0_2)) (k0_pay3 (View.ld x4 r0_3)) (k0_pay6 (View.ld x1 r0_1) (View.ld x0 r0_4)) (k0_pay7 (View.ld x0 r0_4)) (k0_pay55 (k0_pay5 (View.ld x1 r0_0) (View.ld x0 r0_4) (View.ld x2 r0_5))) (k0_pay56 (k0_pay5 (View.ld x1 r0_0) (View.ld x0 r0_4) (View.ld x2 r0_5)))
      = rowGroup 56 slices_S256x256_o0_56_S256x4 slices_S256x256_o56_0_S4x256 (k0_pay2 (View.ld x3 r0_2)) (k0_pay3 (View.ld x4 r0_3)) (k0_pay5 (View.ld x1 r0_0) (View.ld x0 r0_4) (View.ld x2 r0_5)) (k0_pay6 (View.ld x1 r0_1) (View.ld x0 r0_4)) (k0_pay7 (View.ld x0 r0_4)) := rfl

theorem piece_r0_19 (x0 : Vec F S2x256x256 .f32) (x1 : Vec F S512x256 .f32) (x2 : Vec F S256x1 .f32) (x3 : Vec F S4x1024 .f32) (x4 : Vec F S1x1 .f32) :
    k0_pay54 (k0_pay2 (View.ld x3 r0_2)) (k0_pay3 (View.ld x4 r0_3)) (k0_pay5 (View.ld x1 r0_0) (View.ld x0 r0_4) (View.ld x2 r0_5)) (k0_pay6 (View.ld x1 r0_1) (View.ld x0 r0_4)) (k0_pay7 (View.ld x0 r0_4))
      = rowGroup 52 slices_S256x256_o0_52_S256x4 slices_S256x256_o52_0_S4x256 (k0_pay2 (View.ld x3 r0_2)) (k0_pay3 (View.ld x4 r0_3)) (k0_pay5 (View.ld x1 r0_0) (View.ld x0 r0_4) (View.ld x2 r0_5)) (k0_pay6 (View.ld x1 r0_1) (View.ld x0 r0_4)) (k0_pay7 (View.ld x0 r0_4)) := rfl

theorem piece_r0_18 (x0 : Vec F S2x256x256 .f32) (x1 : Vec F S512x256 .f32) (x2 : Vec F S256x1 .f32) (x3 : Vec F S4x1024 .f32) (x4 : Vec F S1x1 .f32) :
    k0_pay53 (k0_pay2 (View.ld x3 r0_2)) (k0_pay3 (View.ld x4 r0_3)) (k0_pay7 (View.ld x0 r0_4)) (k0_pay49 (k0_pay5 (View.ld x1 r0_0) (View.ld x0 r0_4) (View.ld x2 r0_5)) (k0_pay6 (View.ld x1 r0_1) (View.ld x0 r0_4))) (k0_pay50 (k0_pay5 (View.ld x1 r0_0) (View.ld x0 r0_4) (View.ld x2 r0_5)) (k0_pay6 (View.ld x1 r0_1) (View.ld x0 r0_4))) (k0_pay51 (k0_pay5 (View.ld x1 r0_0) (View.ld x0 r0_4) (View.ld x2 r0_5)) (k0_pay6 (View.ld x1 r0_1) (View.ld x0 r0_4))) (k0_pay52 (k0_pay5 (View.ld x1 r0_0) (View.ld x0 r0_4) (View.ld x2 r0_5)) (k0_pay6 (View.ld x1 r0_1) (View.ld x0 r0_4)))
      = rowGroup 48 slices_S256x256_o0_48_S256x4 slices_S256x256_o48_0_S4x256 (k0_pay2 (View.ld x3 r0_2)) (k0_pay3 (View.ld x4 r0_3)) (k0_pay5 (View.ld x1 r0_0) (View.ld x0 r0_4) (View.ld x2 r0_5)) (k0_pay6 (View.ld x1 r0_1) (View.ld x0 r0_4)) (k0_pay7 (View.ld x0 r0_4)) := rfl

theorem piece_r0_17 (x0 : Vec F S2x256x256 .f32) (x1 : Vec F S512x256 .f32) (x2 : Vec F S256x1 .f32) (x3 : Vec F S4x1024 .f32) (x4 : Vec F S1x1 .f32) :
    k0_pay47 (k0_pay2 (View.ld x3 r0_2)) (k0_pay3 (View.ld x4 r0_3)) (k0_pay6 (View.ld x1 r0_1) (View.ld x0 r0_4)) (k0_pay7 (View.ld x0 r0_4)) (k0_pay45 (k0_pay5 (View.ld x1 r0_0) (View.ld x0 r0_4) (View.ld x2 r0_5))) (k0_pay46 (k0_pay5 (View.ld x1 r0_0) (View.ld x0 r0_4) (View.ld x2 r0_5)))
      = rowGroup 44 slices_S256x256_o0_44_S256x4 slices_S256x256_o44_0_S4x256 (k0_pay2 (View.ld x3 r0_2)) (k0_pay3 (View.ld x4 r0_3)) (k0_pay5 (View.ld x1 r0_0) (View.ld x0 r0_4) (View.ld x2 r0_5)) (k0_pay6 (View.ld x1 r0_1) (View.ld x0 r0_4)) (k0_pay7 (View.ld x0 r0_4)) := rfl

theorem piece_r0_16 (x0 : Vec F S2x256x256 .f32) (x1 : Vec F S512x256 .f32) (x2 : Vec F S256x1 .f32) (x3 : Vec F S4x1024 .f32) (x4 : Vec F S1x1 .f32) :
    k0_pay44 (k0_pay2 (View.ld x3 r0_2)) (k0_pay3 (View.ld x4 r0_3)) (k0_pay5 (View.ld x1 r0_0) (View.ld x0 r0_4) (View.ld x2 r0_5)) (k0_pay6 (View.ld x1 r0_1) (View.ld x0 r0_4)) (k0_pay7 (View.ld x0 r0_4))
      = rowGroup 40 slices_S256x256_o0_40_S256x4 slices_S256x256_o40_0_S4x256 (k0_pay2 (View.ld x3 r0_2)) (k0_pay3 (View.ld x4 r0_3)) (k0_pay5 (View.ld x1 r0_0) (View.ld x0 r0_4) (View.ld x2 r0_5)) (k0_pay6 (View.ld x1 r0_1) (View.ld x0 r0_4)) (k0_pay7 (View.ld x0 r0_4)) := rfl

theorem piece_r0_15 (x0 : Vec F S2x256x256 .f32) (x1 : Vec F S512x256 .f32) (x2 : Vec F S256x1 .f32) (x3 : Vec F S4x1024 .f32) (x4 : Vec F S1x1 .f32) :
    k0_pay43 (k0_pay2 (View.ld x3 r0_2)) (k0_pay3 (View.ld x4 r0_3)) (k0_pay7 (View.ld x0 r0_4)) (k0_pay39 (k0_pay5 (View.ld x1 r0_0) (View.ld x0 r0_4) (View.ld x2 r0_5)) (k0_pay6 (View.ld x1 r0_1) (View.ld x0 r0_4))) (k0_pay40 (k0_pay5 (View.ld x1 r0_0) (View.ld x0 r0_4) (View.ld x2 r0_5)) (k0_pay6 (View.ld x1 r0_1) (View.ld x0 r0_4))) (k0_pay41 (k0_pay5 (View.ld x1 r0_0) (View.ld x0 r0_4) (View.ld x2 r0_5)) (k0_pay6 (View.ld x1 r0_1) (View.ld x0 r0_4))) (k0_pay42 (k0_pay5 (View.ld x1 r0_0) (View.ld x0 r0_4) (View.ld x2 r0_5)) (k0_pay6 (View.ld x1 r0_1) (View.ld x0 r0_4)))
      = rowGroup 36 slices_S256x256_o0_36_S256x4 slices_S256x256_o36_0_S4x256 (k0_pay2 (View.ld x3 r0_2)) (k0_pay3 (View.ld x4 r0_3)) (k0_pay5 (View.ld x1 r0_0) (View.ld x0 r0_4) (View.ld x2 r0_5)) (k0_pay6 (View.ld x1 r0_1) (View.ld x0 r0_4)) (k0_pay7 (View.ld x0 r0_4)) := rfl

theorem piece_r0_14 (x0 : Vec F S2x256x256 .f32) (x1 : Vec F S512x256 .f32) (x2 : Vec F S256x1 .f32) (x3 : Vec F S4x1024 .f32) (x4 : Vec F S1x1 .f32) :
    k0_pay37 (k0_pay2 (View.ld x3 r0_2)) (k0_pay3 (View.ld x4 r0_3)) (k0_pay6 (View.ld x1 r0_1) (View.ld x0 r0_4)) (k0_pay7 (View.ld x0 r0_4)) (k0_pay35 (k0_pay5 (View.ld x1 r0_0) (View.ld x0 r0_4) (View.ld x2 r0_5))) (k0_pay36 (k0_pay5 (View.ld x1 r0_0) (View.ld x0 r0_4) (View.ld x2 r0_5)))
      = rowGroup 32 slices_S256x256_o0_32_S256x4 slices_S256x256_o32_0_S4x256 (k0_pay2 (View.ld x3 r0_2)) (k0_pay3 (View.ld x4 r0_3)) (k0_pay5 (View.ld x1 r0_0) (View.ld x0 r0_4) (View.ld x2 r0_5)) (k0_pay6 (View.ld x1 r0_1) (View.ld x0 r0_4)) (k0_pay7 (View.ld x0 r0_4)) := rfl

theorem piece_r0_13 (x0 : Vec F S2x256x256 .f32) (x1 : Vec F S512x256 .f32) (x2 : Vec F S256x1 .f32) (x3 : Vec F S4x1024 .f32) (x4 : Vec F S1x1 .f32) :
    k0_pay34 (k0_pay2 (View.ld x3 r0_2)) (k0_pay3 (View.ld x4 r0_3)) (k0_pay5 (View.ld x1 r0_0) (View.ld x0 r0_4) (View.ld x2 r0_5)) (k0_pay6 (View.ld x1 r0_1) (View.ld x0 r0_4)) (k0_pay7 (View.ld x0 r0_4))
      = rowGroup 28 slices_S256x256_o0_28_S256x4 slices_S256x256_o28_0_S4x256 (k0_pay2 (View.ld x3 r0_2)) (k0_pay3 (View.ld x4 r0_3)) (k0_pay5 (View.ld x1 r0_0) (View.ld x0 r0_4) (View.ld x2 r0_5)) (k0_pay6 (View.ld x1 r0_1) (View.ld x0 r0_4)) (k0_pay7 (View.ld x0 r0_4)) := rfl

theorem piece_r0_12 (x0 : Vec F S2x256x256 .f32) (x1 : Vec F S512x256 .f32) (x2 : Vec F S256x1 .f32) (x3 : Vec F S4x1024 .f32) (x4 : Vec F S1x1 .f32) :
    k0_pay33 (k0_pay2 (View.ld x3 r0_2)) (k0_pay3 (View.ld x4 r0_3)) (k0_pay7 (View.ld x0 r0_4)) (k0_pay29 (k0_pay5 (View.ld x1 r0_0) (View.ld x0 r0_4) (View.ld x2 r0_5)) (k0_pay6 (View.ld x1 r0_1) (View.ld x0 r0_4))) (k0_pay30 (k0_pay5 (View.ld x1 r0_0) (View.ld x0 r0_4) (View.ld x2 r0_5)) (k0_pay6 (View.ld x1 r0_1) (View.ld x0 r0_4))) (k0_pay31 (k0_pay5 (View.ld x1 r0_0) (View.ld x0 r0_4) (View.ld x2 r0_5)) (k0_pay6 (View.ld x1 r0_1) (View.ld x0 r0_4))) (k0_pay32 (k0_pay5 (View.ld x1 r0_0) (View.ld x0 r0_4) (View.ld x2 r0_5)) (k0_pay6 (View.ld x1 r0_1) (View.ld x0 r0_4)))
      = rowGroup 24 slices_S256x256_o0_24_S256x4 slices_S256x256_o24_0_S4x256 (k0_pay2 (View.ld x3 r0_2)) (k0_pay3 (View.ld x4 r0_3)) (k0_pay5 (View.ld x1 r0_0) (View.ld x0 r0_4) (View.ld x2 r0_5)) (k0_pay6 (View.ld x1 r0_1) (View.ld x0 r0_4)) (k0_pay7 (View.ld x0 r0_4)) := rfl

theorem piece_r0_11 (x0 : Vec F S2x256x256 .f32) (x1 : Vec F S512x256 .f32) (x2 : Vec F S256x1 .f32) (x3 : Vec F S4x1024 .f32) (x4 : Vec F S1x1 .f32) :
    k0_pay27 (k0_pay2 (View.ld x3 r0_2)) (k0_pay3 (View.ld x4 r0_3)) (k0_pay6 (View.ld x1 r0_1) (View.ld x0 r0_4)) (k0_pay7 (View.ld x0 r0_4)) (k0_pay25 (k0_pay5 (View.ld x1 r0_0) (View.ld x0 r0_4) (View.ld x2 r0_5))) (k0_pay26 (k0_pay5 (View.ld x1 r0_0) (View.ld x0 r0_4) (View.ld x2 r0_5)))
      = rowGroup 20 slices_S256x256_o0_20_S256x4 slices_S256x256_o20_0_S4x256 (k0_pay2 (View.ld x3 r0_2)) (k0_pay3 (View.ld x4 r0_3)) (k0_pay5 (View.ld x1 r0_0) (View.ld x0 r0_4) (View.ld x2 r0_5)) (k0_pay6 (View.ld x1 r0_1) (View.ld x0 r0_4)) (k0_pay7 (View.ld x0 r0_4)) := rfl

theorem piece_r0_10 (x0 : Vec F S2x256x256 .f32) (x1 : Vec F S512x256 .f32) (x2 : Vec F S256x1 .f32) (x3 : Vec F S4x1024 .f32) (x4 : Vec F S1x1 .f32) :
    k0_pay24 (k0_pay2 (View.ld x3 r0_2)) (k0_pay3 (View.ld x4 r0_3)) (k0_pay5 (View.ld x1 r0_0) (View.ld x0 r0_4) (View.ld x2 r0_5)) (k0_pay6 (View.ld x1 r0_1) (View.ld x0 r0_4)) (k0_pay7 (View.ld x0 r0_4))
      = rowGroup 16 slices_S256x256_o0_16_S256x4 slices_S256x256_o16_0_S4x256 (k0_pay2 (View.ld x3 r0_2)) (k0_pay3 (View.ld x4 r0_3)) (k0_pay5 (View.ld x1 r0_0) (View.ld x0 r0_4) (View.ld x2 r0_5)) (k0_pay6 (View.ld x1 r0_1) (View.ld x0 r0_4)) (k0_pay7 (View.ld x0 r0_4)) := rfl

theorem piece_r0_9 (x0 : Vec F S2x256x256 .f32) (x1 : Vec F S512x256 .f32) (x2 : Vec F S256x1 .f32) (x3 : Vec F S4x1024 .f32) (x4 : Vec F S1x1 .f32) :
    k0_pay23 (k0_pay2 (View.ld x3 r0_2)) (k0_pay3 (View.ld x4 r0_3)) (k0_pay7 (View.ld x0 r0_4)) (k0_pay19 (k0_pay5 (View.ld x1 r0_0) (View.ld x0 r0_4) (View.ld x2 r0_5)) (k0_pay6 (View.ld x1 r0_1) (View.ld x0 r0_4))) (k0_pay20 (k0_pay5 (View.ld x1 r0_0) (View.ld x0 r0_4) (View.ld x2 r0_5)) (k0_pay6 (View.ld x1 r0_1) (View.ld x0 r0_4))) (k0_pay21 (k0_pay5 (View.ld x1 r0_0) (View.ld x0 r0_4) (View.ld x2 r0_5)) (k0_pay6 (View.ld x1 r0_1) (View.ld x0 r0_4))) (k0_pay22 (k0_pay5 (View.ld x1 r0_0) (View.ld x0 r0_4) (View.ld x2 r0_5)) (k0_pay6 (View.ld x1 r0_1) (View.ld x0 r0_4)))
      = rowGroup 12 slices_S256x256_o0_12_S256x4 slices_S256x256_o12_0_S4x256 (k0_pay2 (View.ld x3 r0_2)) (k0_pay3 (View.ld x4 r0_3)) (k0_pay5 (View.ld x1 r0_0) (View.ld x0 r0_4) (View.ld x2 r0_5)) (k0_pay6 (View.ld x1 r0_1) (View.ld x0 r0_4)) (k0_pay7 (View.ld x0 r0_4)) := rfl

theorem piece_r0_8 (x0 : Vec F S2x256x256 .f32) (x1 : Vec F S512x256 .f32) (x2 : Vec F S256x1 .f32) (x3 : Vec F S4x1024 .f32) (x4 : Vec F S1x1 .f32) :
    k0_pay17 (k0_pay2 (View.ld x3 r0_2)) (k0_pay3 (View.ld x4 r0_3)) (k0_pay6 (View.ld x1 r0_1) (View.ld x0 r0_4)) (k0_pay7 (View.ld x0 r0_4)) (k0_pay15 (k0_pay5 (View.ld x1 r0_0) (View.ld x0 r0_4) (View.ld x2 r0_5))) (k0_pay16 (k0_pay5 (View.ld x1 r0_0) (View.ld x0 r0_4) (View.ld x2 r0_5)))
      = rowGroup 8 slices_S256x256_o0_8_S256x4 slices_S256x256_o8_0_S4x256 (k0_pay2 (View.ld x3 r0_2)) (k0_pay3 (View.ld x4 r0_3)) (k0_pay5 (View.ld x1 r0_0) (View.ld x0 r0_4) (View.ld x2 r0_5)) (k0_pay6 (View.ld x1 r0_1) (View.ld x0 r0_4)) (k0_pay7 (View.ld x0 r0_4)) := rfl

theorem piece_r0_7 (x0 : Vec F S2x256x256 .f32) (x1 : Vec F S512x256 .f32) (x2 : Vec F S256x1 .f32) (x3 : Vec F S4x1024 .f32) (x4 : Vec F S1x1 .f32) :
    k0_pay14 (k0_pay2 (View.ld x3 r0_2)) (k0_pay3 (View.ld x4 r0_3)) (k0_pay5 (View.ld x1 r0_0) (View.ld x0 r0_4) (View.ld x2 r0_5)) (k0_pay6 (View.ld x1 r0_1) (View.ld x0 r0_4)) (k0_pay7 (View.ld x0 r0_4))
      = rowGroup 4 slices_S256x256_o0_4_S256x4 slices_S256x256_o4_0_S4x256 (k0_pay2 (View.ld x3 r0_2)) (k0_pay3 (View.ld x4 r0_3)) (k0_pay5 (View.ld x1 r0_0) (View.ld x0 r0_4) (View.ld x2 r0_5)) (k0_pay6 (View.ld x1 r0_1) (View.ld x0 r0_4)) (k0_pay7 (View.ld x0 r0_4)) := rfl

theorem piece_r0_6 (x0 : Vec F S2x256x256 .f32) (x1 : Vec F S512x256 .f32) (x2 : Vec F S256x1 .f32) (x3 : Vec F S4x1024 .f32) (x4 : Vec F S1x1 .f32) :
    k0_pay13 (k0_pay2 (View.ld x3 r0_2)) (k0_pay3 (View.ld x4 r0_3)) (k0_pay7 (View.ld x0 r0_4)) (k0_pay9 (View.ld x1 r0_0) (View.ld x1 r0_1) (View.ld x0 r0_4) (View.ld x2 r0_5)) (k0_pay10 (View.ld x1 r0_0) (View.ld x1 r0_1) (View.ld x0 r0_4) (View.ld x2 r0_5)) (k0_pay11 (View.ld x1 r0_0) (View.ld x1 r0_1) (View.ld x0 r0_4) (View.ld x2 r0_5)) (k0_pay12 (View.ld x1 r0_0) (View.ld x1 r0_1) (View.ld x0 r0_4) (View.ld x2 r0_5))
      = rowGroup 0 slices_S256x256_o0_0_S256x4 slices_S256x256_o0_0_S4x256 (k0_pay2 (View.ld x3 r0_2)) (k0_pay3 (View.ld x4 r0_3)) (k0_pay5 (View.ld x1 r0_0) (View.ld x0 r0_4) (View.ld x2 r0_5)) (k0_pay6 (View.ld x1 r0_1) (View.ld x0 r0_4)) (k0_pay7 (View.ld x0 r0_4)) := rfl

end

/-- Every piece of the output block's list is the kernel-shaped score on its rectangle. -/
theorem pieces_ok (x0 : Vec Ideal S2x256x256 .f32) (x1 : Vec Ideal S512x256 .f32) (x2 : Vec Ideal S256x1 .f32) (x3 : Vec Ideal S4x1024 .f32) (x4 : Vec Ideal S1x1 .f32) (w : Fin 256 → EReal)
    (hx3 : ∀ (g : Fin 4) (c : Fin 1024), x3 (ix2 g c)
      = (if g.val = c.val / 256 then (1 : EReal) else 0) * w ⟨c.val % 256, Nat.mod_lt _ (by norm_num)⟩) :
    ∀ p ∈ ([⟨r0_134, k0_pay1 (k0_pay2 (View.ld x3 r0_2)) (k0_pay3 (View.ld x4 r0_3)) (k0_pay226 (View.ld x1 r0_1) (View.ld x0 r0_70)) (k0_pay227 (View.ld x0 r0_70)) (k0_pay397 (k0_pay225 (View.ld x1 r0_0) (View.ld x0 r0_70) (View.ld x2 r0_5)) (k0_pay226 (View.ld x1 r0_1) (View.ld x0 r0_70))) (k0_pay398 (k0_pay225 (View.ld x1 r0_0) (View.ld x0 r0_70) (View.ld x2 r0_5)) (k0_pay226 (View.ld x1 r0_1) (View.ld x0 r0_70))) (k0_pay399 (k0_pay225 (View.ld x1 r0_0) (View.ld x0 r0_70) (View.ld x2 r0_5)) (k0_pay226 (View.ld x1 r0_1) (View.ld x0 r0_70))) (k0_pay400 (k0_pay225 (View.ld x1 r0_0) (View.ld x0 r0_70) (View.ld x2 r0_5)))⟩,
      ⟨r0_133, k0_pay395 (k0_pay2 (View.ld x3 r0_2)) (k0_pay3 (View.ld x4 r0_3)) (k0_pay225 (View.ld x1 r0_0) (View.ld x0 r0_70) (View.ld x2 r0_5)) (k0_pay226 (View.ld x1 r0_1) (View.ld x0 r0_70)) (k0_pay227 (View.ld x0 r0_70))⟩,
      ⟨r0_132, k0_pay394 (k0_pay2 (View.ld x3 r0_2)) (k0_pay3 (View.ld x4 r0_3)) (k0_pay225 (View.ld x1 r0_0) (View.ld x0 r0_70) (View.ld x2 r0_5)) (k0_pay226 (View.ld x1 r0_1) (View.ld x0 r0_70)) (k0_pay227 (View.ld x0 r0_70))⟩,
      ⟨r0_131, k0_pay393 (k0_pay2 (View.ld x3 r0_2)) (k0_pay3 (View.ld x4 r0_3)) (k0_pay226 (View.ld x1 r0_1) (View.ld x0 r0_70)) (k0_pay227 (View.ld x0 r0_70)) (k0_pay389 (k0_pay225 (View.ld x1 r0_0) (View.ld x0 r0_70) (View.ld x2 r0_5)) (k0_pay226 (View.ld x1 r0_1) (View.ld x0 r0_70))) (k0_pay390 (k0_pay225 (View.ld x1 r0_0) (View.ld x0 r0_70) (View.ld x2 r0_5)) (k0_pay226 (View.ld x1 r0_1) (View.ld x0 r0_70))) (k0_pay391 (k0_pay225 (View.ld x1 r0_0) (View.ld x0 r0_70) (View.ld x2 r0_5)) (k0_pay226 (View.ld x1 r0_1) (View.ld x0 r0_70))) (k0_pay392 (k0_pay225 (View.ld x1 r0_0) (View.ld x0 r0_70) (View.ld x2 r0_5)))⟩,
      ⟨r0_130, k0_pay387 (k0_pay2 (View.ld x3 r0_2)) (k0_pay3 (View.ld x4 r0_3)) (k0_pay225 (View.ld x1 r0_0) (View.ld x0 r0_70) (View.ld x2 r0_5)) (k0_pay226 (View.ld x1 r0_1) (View.ld x0 r0_70)) (k0_pay227 (View.ld x0 r0_70))⟩,
      ⟨r0_129, k0_pay386 (k0_pay2 (View.ld x3 r0_2)) (k0_pay3 (View.ld x4 r0_3)) (k0_pay225 (View.ld x1 r0_0) (View.ld x0 r0_70) (View.ld x2 r0_5)) (k0_pay226 (View.ld x1 r0_1) (View.ld x0 r0_70)) (k0_pay227 (View.ld x0 r0_70))⟩,
      ⟨r0_128, k0_pay385 (k0_pay2 (View.ld x3 r0_2)) (k0_pay3 (View.ld x4 r0_3)) (k0_pay226 (View.ld x1 r0_1) (View.ld x0 r0_70)) (k0_pay227 (View.ld x0 r0_70)) (k0_pay381 (k0_pay225 (View.ld x1 r0_0) (View.ld x0 r0_70) (View.ld x2 r0_5)) (k0_pay226 (View.ld x1 r0_1) (View.ld x0 r0_70))) (k0_pay382 (k0_pay225 (View.ld x1 r0_0) (View.ld x0 r0_70) (View.ld x2 r0_5)) (k0_pay226 (View.ld x1 r0_1) (View.ld x0 r0_70))) (k0_pay383 (k0_pay225 (View.ld x1 r0_0) (View.ld x0 r0_70) (View.ld x2 r0_5)) (k0_pay226 (View.ld x1 r0_1) (View.ld x0 r0_70))) (k0_pay384 (k0_pay225 (View.ld x1 r0_0) (View.ld x0 r0_70) (View.ld x2 r0_5)))⟩,
      ⟨r0_127, k0_pay379 (k0_pay2 (View.ld x3 r0_2)) (k0_pay3 (View.ld x4 r0_3)) (k0_pay225 (View.ld x1 r0_0) (View.ld x0 r0_70) (View.ld x2 r0_5)) (k0_pay226 (View.ld x1 r0_1) (View.ld x0 r0_70)) (k0_pay227 (View.ld x0 r0_70))⟩,
      ⟨r0_126, k0_pay378 (k0_pay2 (View.ld x3 r0_2)) (k0_pay3 (View.ld x4 r0_3)) (k0_pay225 (View.ld x1 r0_0) (View.ld x0 r0_70) (View.ld x2 r0_5)) (k0_pay226 (View.ld x1 r0_1) (View.ld x0 r0_70)) (k0_pay227 (View.ld x0 r0_70))⟩,
      ⟨r0_125, k0_pay377 (k0_pay2 (View.ld x3 r0_2)) (k0_pay3 (View.ld x4 r0_3)) (k0_pay226 (View.ld x1 r0_1) (View.ld x0 r0_70)) (k0_pay227 (View.ld x0 r0_70)) (k0_pay373 (k0_pay225 (View.ld x1 r0_0) (View.ld x0 r0_70) (View.ld x2 r0_5)) (k0_pay226 (View.ld x1 r0_1) (View.ld x0 r0_70))) (k0_pay374 (k0_pay225 (View.ld x1 r0_0) (View.ld x0 r0_70) (View.ld x2 r0_5)) (k0_pay226 (View.ld x1 r0_1) (View.ld x0 r0_70))) (k0_pay375 (k0_pay225 (View.ld x1 r0_0) (View.ld x0 r0_70) (View.ld x2 r0_5)) (k0_pay226 (View.ld x1 r0_1) (View.ld x0 r0_70))) (k0_pay376 (k0_pay225 (View.ld x1 r0_0) (View.ld x0 r0_70) (View.ld x2 r0_5)))⟩,
      ⟨r0_124, k0_pay371 (k0_pay2 (View.ld x3 r0_2)) (k0_pay3 (View.ld x4 r0_3)) (k0_pay225 (View.ld x1 r0_0) (View.ld x0 r0_70) (View.ld x2 r0_5)) (k0_pay226 (View.ld x1 r0_1) (View.ld x0 r0_70)) (k0_pay227 (View.ld x0 r0_70))⟩,
      ⟨r0_123, k0_pay370 (k0_pay2 (View.ld x3 r0_2)) (k0_pay3 (View.ld x4 r0_3)) (k0_pay225 (View.ld x1 r0_0) (View.ld x0 r0_70) (View.ld x2 r0_5)) (k0_pay226 (View.ld x1 r0_1) (View.ld x0 r0_70)) (k0_pay227 (View.ld x0 r0_70))⟩,
      ⟨r0_122, k0_pay369 (k0_pay2 (View.ld x3 r0_2)) (k0_pay3 (View.ld x4 r0_3)) (k0_pay226 (View.ld x1 r0_1) (View.ld x0 r0_70)) (k0_pay227 (View.ld x0 r0_70)) (k0_pay365 (k0_pay225 (View.ld x1 r0_0) (View.ld x0 r0_70) (View.ld x2 r0_5)) (k0_pay226 (View.ld x1 r0_1) (View.ld x0 r0_70))) (k0_pay366 (k0_pay225 (View.ld x1 r0_0) (View.ld x0 r0_70) (View.ld x2 r0_5)) (k0_pay226 (View.ld x1 r0_1) (View.ld x0 r0_70))) (k0_pay367 (k0_pay225 (View.ld x1 r0_0) (View.ld x0 r0_70) (View.ld x2 r0_5)) (k0_pay226 (View.ld x1 r0_1) (View.ld x0 r0_70))) (k0_pay368 (k0_pay225 (View.ld x1 r0_0) (View.ld x0 r0_70) (View.ld x2 r0_5)))⟩,
      ⟨r0_121, k0_pay363 (k0_pay2 (View.ld x3 r0_2)) (k0_pay3 (View.ld x4 r0_3)) (k0_pay225 (View.ld x1 r0_0) (View.ld x0 r0_70) (View.ld x2 r0_5)) (k0_pay226 (View.ld x1 r0_1) (View.ld x0 r0_70)) (k0_pay227 (View.ld x0 r0_70))⟩,
      ⟨r0_120, k0_pay362 (k0_pay2 (View.ld x3 r0_2)) (k0_pay3 (View.ld x4 r0_3)) (k0_pay225 (View.ld x1 r0_0) (View.ld x0 r0_70) (View.ld x2 r0_5)) (k0_pay226 (View.ld x1 r0_1) (View.ld x0 r0_70)) (k0_pay227 (View.ld x0 r0_70))⟩,
      ⟨r0_119, k0_pay361 (k0_pay2 (View.ld x3 r0_2)) (k0_pay3 (View.ld x4 r0_3)) (k0_pay226 (View.ld x1 r0_1) (View.ld x0 r0_70)) (k0_pay227 (View.ld x0 r0_70)) (k0_pay357 (k0_pay225 (View.ld x1 r0_0) (View.ld x0 r0_70) (View.ld x2 r0_5)) (k0_pay226 (View.ld x1 r0_1) (View.ld x0 r0_70))) (k0_pay358 (k0_pay225 (View.ld x1 r0_0) (View.ld x0 r0_70) (View.ld x2 r0_5)) (k0_pay226 (View.ld x1 r0_1) (View.ld x0 r0_70))) (k0_pay359 (k0_pay225 (View.ld x1 r0_0) (View.ld x0 r0_70) (View.ld x2 r0_5)) (k0_pay226 (View.ld x1 r0_1) (View.ld x0 r0_70))) (k0_pay360 (k0_pay225 (View.ld x1 r0_0) (View.ld x0 r0_70) (View.ld x2 r0_5)))⟩,
      ⟨r0_118, k0_pay355 (k0_pay2 (View.ld x3 r0_2)) (k0_pay3 (View.ld x4 r0_3)) (k0_pay225 (View.ld x1 r0_0) (View.ld x0 r0_70) (View.ld x2 r0_5)) (k0_pay226 (View.ld x1 r0_1) (View.ld x0 r0_70)) (k0_pay227 (View.ld x0 r0_70))⟩,
      ⟨r0_117, k0_pay354 (k0_pay2 (View.ld x3 r0_2)) (k0_pay3 (View.ld x4 r0_3)) (k0_pay225 (View.ld x1 r0_0) (View.ld x0 r0_70) (View.ld x2 r0_5)) (k0_pay226 (View.ld x1 r0_1) (View.ld x0 r0_70)) (k0_pay227 (View.ld x0 r0_70))⟩,
      ⟨r0_116, k0_pay353 (k0_pay2 (View.ld x3 r0_2)) (k0_pay3 (View.ld x4 r0_3)) (k0_pay226 (View.ld x1 r0_1) (View.ld x0 r0_70)) (k0_pay227 (View.ld x0 r0_70)) (k0_pay349 (k0_pay225 (View.ld x1 r0_0) (View.ld x0 r0_70) (View.ld x2 r0_5)) (k0_pay226 (View.ld x1 r0_1) (View.ld x0 r0_70))) (k0_pay350 (k0_pay225 (View.ld x1 r0_0) (View.ld x0 r0_70) (View.ld x2 r0_5)) (k0_pay226 (View.ld x1 r0_1) (View.ld x0 r0_70))) (k0_pay351 (k0_pay225 (View.ld x1 r0_0) (View.ld x0 r0_70) (View.ld x2 r0_5)) (k0_pay226 (View.ld x1 r0_1) (View.ld x0 r0_70))) (k0_pay352 (k0_pay225 (View.ld x1 r0_0) (View.ld x0 r0_70) (View.ld x2 r0_5)))⟩,
      ⟨r0_115, k0_pay347 (k0_pay2 (View.ld x3 r0_2)) (k0_pay3 (View.ld x4 r0_3)) (k0_pay225 (View.ld x1 r0_0) (View.ld x0 r0_70) (View.ld x2 r0_5)) (k0_pay226 (View.ld x1 r0_1) (View.ld x0 r0_70)) (k0_pay227 (View.ld x0 r0_70))⟩,
      ⟨r0_114, k0_pay346 (k0_pay2 (View.ld x3 r0_2)) (k0_pay3 (View.ld x4 r0_3)) (k0_pay225 (View.ld x1 r0_0) (View.ld x0 r0_70) (View.ld x2 r0_5)) (k0_pay226 (View.ld x1 r0_1) (View.ld x0 r0_70)) (k0_pay227 (View.ld x0 r0_70))⟩,
      ⟨r0_113, k0_pay345 (k0_pay2 (View.ld x3 r0_2)) (k0_pay3 (View.ld x4 r0_3)) (k0_pay226 (View.ld x1 r0_1) (View.ld x0 r0_70)) (k0_pay227 (View.ld x0 r0_70)) (k0_pay341 (k0_pay225 (View.ld x1 r0_0) (View.ld x0 r0_70) (View.ld x2 r0_5)) (k0_pay226 (View.ld x1 r0_1) (View.ld x0 r0_70))) (k0_pay342 (k0_pay225 (View.ld x1 r0_0) (View.ld x0 r0_70) (View.ld x2 r0_5)) (k0_pay226 (View.ld x1 r0_1) (View.ld x0 r0_70))) (k0_pay343 (k0_pay225 (View.ld x1 r0_0) (View.ld x0 r0_70) (View.ld x2 r0_5)) (k0_pay226 (View.ld x1 r0_1) (View.ld x0 r0_70))) (k0_pay344 (k0_pay225 (View.ld x1 r0_0) (View.ld x0 r0_70) (View.ld x2 r0_5)))⟩,
      ⟨r0_112, k0_pay339 (k0_pay2 (View.ld x3 r0_2)) (k0_pay3 (View.ld x4 r0_3)) (k0_pay225 (View.ld x1 r0_0) (View.ld x0 r0_70) (View.ld x2 r0_5)) (k0_pay226 (View.ld x1 r0_1) (View.ld x0 r0_70)) (k0_pay227 (View.ld x0 r0_70))⟩,
      ⟨r0_111, k0_pay338 (k0_pay2 (View.ld x3 r0_2)) (k0_pay3 (View.ld x4 r0_3)) (k0_pay225 (View.ld x1 r0_0) (View.ld x0 r0_70) (View.ld x2 r0_5)) (k0_pay226 (View.ld x1 r0_1) (View.ld x0 r0_70)) (k0_pay227 (View.ld x0 r0_70))⟩,
      ⟨r0_110, k0_pay337 (k0_pay2 (View.ld x3 r0_2)) (k0_pay3 (View.ld x4 r0_3)) (k0_pay226 (View.ld x1 r0_1) (View.ld x0 r0_70)) (k0_pay227 (View.ld x0 r0_70)) (k0_pay333 (k0_pay225 (View.ld x1 r0_0) (View.ld x0 r0_70) (View.ld x2 r0_5)) (k0_pay226 (View.ld x1 r0_1) (View.ld x0 r0_70))) (k0_pay334 (k0_pay225 (View.ld x1 r0_0) (View.ld x0 r0_70) (View.ld x2 r0_5)) (k0_pay226 (View.ld x1 r0_1) (View.ld x0 r0_70))) (k0_pay335 (k0_pay225 (View.ld x1 r0_0) (View.ld x0 r0_70) (View.ld x2 r0_5)) (k0_pay226 (View.ld x1 r0_1) (View.ld x0 r0_70))) (k0_pay336 (k0_pay225 (View.ld x1 r0_0) (View.ld x0 r0_70) (View.ld x2 r0_5)))⟩,
      ⟨r0_109, k0_pay331 (k0_pay2 (View.ld x3 r0_2)) (k0_pay3 (View.ld x4 r0_3)) (k0_pay225 (View.ld x1 r0_0) (View.ld x0 r0_70) (View.ld x2 r0_5)) (k0_pay226 (View.ld x1 r0_1) (View.ld x0 r0_70)) (k0_pay227 (View.ld x0 r0_70))⟩,
      ⟨r0_108, k0_pay330 (k0_pay2 (View.ld x3 r0_2)) (k0_pay3 (View.ld x4 r0_3)) (k0_pay225 (View.ld x1 r0_0) (View.ld x0 r0_70) (View.ld x2 r0_5)) (k0_pay226 (View.ld x1 r0_1) (View.ld x0 r0_70)) (k0_pay227 (View.ld x0 r0_70))⟩,
      ⟨r0_107, k0_pay329 (k0_pay2 (View.ld x3 r0_2)) (k0_pay3 (View.ld x4 r0_3)) (k0_pay226 (View.ld x1 r0_1) (View.ld x0 r0_70)) (k0_pay227 (View.ld x0 r0_70)) (k0_pay325 (k0_pay225 (View.ld x1 r0_0) (View.ld x0 r0_70) (View.ld x2 r0_5)) (k0_pay226 (View.ld x1 r0_1) (View.ld x0 r0_70))) (k0_pay326 (k0_pay225 (View.ld x1 r0_0) (View.ld x0 r0_70) (View.ld x2 r0_5)) (k0_pay226 (View.ld x1 r0_1) (View.ld x0 r0_70))) (k0_pay327 (k0_pay225 (View.ld x1 r0_0) (View.ld x0 r0_70) (View.ld x2 r0_5)) (k0_pay226 (View.ld x1 r0_1) (View.ld x0 r0_70))) (k0_pay328 (k0_pay225 (View.ld x1 r0_0) (View.ld x0 r0_70) (View.ld x2 r0_5)))⟩,
      ⟨r0_106, k0_pay323 (k0_pay2 (View.ld x3 r0_2)) (k0_pay3 (View.ld x4 r0_3)) (k0_pay225 (View.ld x1 r0_0) (View.ld x0 r0_70) (View.ld x2 r0_5)) (k0_pay226 (View.ld x1 r0_1) (View.ld x0 r0_70)) (k0_pay227 (View.ld x0 r0_70))⟩,
      ⟨r0_105, k0_pay322 (k0_pay2 (View.ld x3 r0_2)) (k0_pay3 (View.ld x4 r0_3)) (k0_pay225 (View.ld x1 r0_0) (View.ld x0 r0_70) (View.ld x2 r0_5)) (k0_pay226 (View.ld x1 r0_1) (View.ld x0 r0_70)) (k0_pay227 (View.ld x0 r0_70))⟩,
      ⟨r0_104, k0_pay321 (k0_pay2 (View.ld x3 r0_2)) (k0_pay3 (View.ld x4 r0_3)) (k0_pay226 (View.ld x1 r0_1) (View.ld x0 r0_70)) (k0_pay227 (View.ld x0 r0_70)) (k0_pay317 (k0_pay225 (View.ld x1 r0_0) (View.ld x0 r0_70) (View.ld x2 r0_5)) (k0_pay226 (View.ld x1 r0_1) (View.ld x0 r0_70))) (k0_pay318 (k0_pay225 (View.ld x1 r0_0) (View.ld x0 r0_70) (View.ld x2 r0_5)) (k0_pay226 (View.ld x1 r0_1) (View.ld x0 r0_70))) (k0_pay319 (k0_pay225 (View.ld x1 r0_0) (View.ld x0 r0_70) (View.ld x2 r0_5)) (k0_pay226 (View.ld x1 r0_1) (View.ld x0 r0_70))) (k0_pay320 (k0_pay225 (View.ld x1 r0_0) (View.ld x0 r0_70) (View.ld x2 r0_5)))⟩,
      ⟨r0_103, k0_pay315 (k0_pay2 (View.ld x3 r0_2)) (k0_pay3 (View.ld x4 r0_3)) (k0_pay225 (View.ld x1 r0_0) (View.ld x0 r0_70) (View.ld x2 r0_5)) (k0_pay226 (View.ld x1 r0_1) (View.ld x0 r0_70)) (k0_pay227 (View.ld x0 r0_70))⟩,
      ⟨r0_102, k0_pay314 (k0_pay2 (View.ld x3 r0_2)) (k0_pay3 (View.ld x4 r0_3)) (k0_pay225 (View.ld x1 r0_0) (View.ld x0 r0_70) (View.ld x2 r0_5)) (k0_pay226 (View.ld x1 r0_1) (View.ld x0 r0_70)) (k0_pay227 (View.ld x0 r0_70))⟩,
      ⟨r0_101, k0_pay313 (k0_pay2 (View.ld x3 r0_2)) (k0_pay3 (View.ld x4 r0_3)) (k0_pay226 (View.ld x1 r0_1) (View.ld x0 r0_70)) (k0_pay227 (View.ld x0 r0_70)) (k0_pay309 (k0_pay225 (View.ld x1 r0_0) (View.ld x0 r0_70) (View.ld x2 r0_5)) (k0_pay226 (View.ld x1 r0_1) (View.ld x0 r0_70))) (k0_pay310 (k0_pay225 (View.ld x1 r0_0) (View.ld x0 r0_70) (View.ld x2 r0_5)) (k0_pay226 (View.ld x1 r0_1) (View.ld x0 r0_70))) (k0_pay311 (k0_pay225 (View.ld x1 r0_0) (View.ld x0 r0_70) (View.ld x2 r0_5)) (k0_pay226 (View.ld x1 r0_1) (View.ld x0 r0_70))) (k0_pay312 (k0_pay225 (View.ld x1 r0_0) (View.ld x0 r0_70) (View.ld x2 r0_5)))⟩,
      ⟨r0_100, k0_pay307 (k0_pay2 (View.ld x3 r0_2)) (k0_pay3 (View.ld x4 r0_3)) (k0_pay225 (View.ld x1 r0_0) (View.ld x0 r0_70) (View.ld x2 r0_5)) (k0_pay226 (View.ld x1 r0_1) (View.ld x0 r0_70)) (k0_pay227 (View.ld x0 r0_70))⟩,
      ⟨r0_99, k0_pay306 (k0_pay2 (View.ld x3 r0_2)) (k0_pay3 (View.ld x4 r0_3)) (k0_pay225 (View.ld x1 r0_0) (View.ld x0 r0_70) (View.ld x2 r0_5)) (k0_pay226 (View.ld x1 r0_1) (View.ld x0 r0_70)) (k0_pay227 (View.ld x0 r0_70))⟩,
      ⟨r0_98, k0_pay305 (k0_pay2 (View.ld x3 r0_2)) (k0_pay3 (View.ld x4 r0_3)) (k0_pay226 (View.ld x1 r0_1) (View.ld x0 r0_70)) (k0_pay227 (View.ld x0 r0_70)) (k0_pay301 (k0_pay225 (View.ld x1 r0_0) (View.ld x0 r0_70) (View.ld x2 r0_5)) (k0_pay226 (View.ld x1 r0_1) (View.ld x0 r0_70))) (k0_pay302 (k0_pay225 (View.ld x1 r0_0) (View.ld x0 r0_70) (View.ld x2 r0_5)) (k0_pay226 (View.ld x1 r0_1) (View.ld x0 r0_70))) (k0_pay303 (k0_pay225 (View.ld x1 r0_0) (View.ld x0 r0_70) (View.ld x2 r0_5)) (k0_pay226 (View.ld x1 r0_1) (View.ld x0 r0_70))) (k0_pay304 (k0_pay225 (View.ld x1 r0_0) (View.ld x0 r0_70) (View.ld x2 r0_5)))⟩,
      ⟨r0_97, k0_pay299 (k0_pay2 (View.ld x3 r0_2)) (k0_pay3 (View.ld x4 r0_3)) (k0_pay225 (View.ld x1 r0_0) (View.ld x0 r0_70) (View.ld x2 r0_5)) (k0_pay226 (View.ld x1 r0_1) (View.ld x0 r0_70)) (k0_pay227 (View.ld x0 r0_70))⟩,
      ⟨r0_96, k0_pay298 (k0_pay2 (View.ld x3 r0_2)) (k0_pay3 (View.ld x4 r0_3)) (k0_pay225 (View.ld x1 r0_0) (View.ld x0 r0_70) (View.ld x2 r0_5)) (k0_pay226 (View.ld x1 r0_1) (View.ld x0 r0_70)) (k0_pay227 (View.ld x0 r0_70))⟩,
      ⟨r0_95, k0_pay297 (k0_pay2 (View.ld x3 r0_2)) (k0_pay3 (View.ld x4 r0_3)) (k0_pay226 (View.ld x1 r0_1) (View.ld x0 r0_70)) (k0_pay227 (View.ld x0 r0_70)) (k0_pay293 (k0_pay225 (View.ld x1 r0_0) (View.ld x0 r0_70) (View.ld x2 r0_5)) (k0_pay226 (View.ld x1 r0_1) (View.ld x0 r0_70))) (k0_pay294 (k0_pay225 (View.ld x1 r0_0) (View.ld x0 r0_70) (View.ld x2 r0_5)) (k0_pay226 (View.ld x1 r0_1) (View.ld x0 r0_70))) (k0_pay295 (k0_pay225 (View.ld x1 r0_0) (View.ld x0 r0_70) (View.ld x2 r0_5)) (k0_pay226 (View.ld x1 r0_1) (View.ld x0 r0_70))) (k0_pay296 (k0_pay225 (View.ld x1 r0_0) (View.ld x0 r0_70) (View.ld x2 r0_5)))⟩,
      ⟨r0_94, k0_pay291 (k0_pay2 (View.ld x3 r0_2)) (k0_pay3 (View.ld x4 r0_3)) (k0_pay225 (View.ld x1 r0_0) (View.ld x0 r0_70) (View.ld x2 r0_5)) (k0_pay226 (View.ld x1 r0_1) (View.ld x0 r0_70)) (k0_pay227 (View.ld x0 r0_70))⟩,
      ⟨r0_93, k0_pay290 (k0_pay2 (View.ld x3 r0_2)) (k0_pay3 (View.ld x4 r0_3)) (k0_pay225 (View.ld x1 r0_0) (View.ld x0 r0_70) (View.ld x2 r0_5)) (k0_pay226 (View.ld x1 r0_1) (View.ld x0 r0_70)) (k0_pay227 (View.ld x0 r0_70))⟩,
      ⟨r0_92, k0_pay289 (k0_pay2 (View.ld x3 r0_2)) (k0_pay3 (View.ld x4 r0_3)) (k0_pay226 (View.ld x1 r0_1) (View.ld x0 r0_70)) (k0_pay227 (View.ld x0 r0_70)) (k0_pay285 (k0_pay225 (View.ld x1 r0_0) (View.ld x0 r0_70) (View.ld x2 r0_5)) (k0_pay226 (View.ld x1 r0_1) (View.ld x0 r0_70))) (k0_pay286 (k0_pay225 (View.ld x1 r0_0) (View.ld x0 r0_70) (View.ld x2 r0_5)) (k0_pay226 (View.ld x1 r0_1) (View.ld x0 r0_70))) (k0_pay287 (k0_pay225 (View.ld x1 r0_0) (View.ld x0 r0_70) (View.ld x2 r0_5)) (k0_pay226 (View.ld x1 r0_1) (View.ld x0 r0_70))) (k0_pay288 (k0_pay225 (View.ld x1 r0_0) (View.ld x0 r0_70) (View.ld x2 r0_5)))⟩,
      ⟨r0_91, k0_pay283 (k0_pay2 (View.ld x3 r0_2)) (k0_pay3 (View.ld x4 r0_3)) (k0_pay225 (View.ld x1 r0_0) (View.ld x0 r0_70) (View.ld x2 r0_5)) (k0_pay226 (View.ld x1 r0_1) (View.ld x0 r0_70)) (k0_pay227 (View.ld x0 r0_70))⟩,
      ⟨r0_90, k0_pay282 (k0_pay2 (View.ld x3 r0_2)) (k0_pay3 (View.ld x4 r0_3)) (k0_pay225 (View.ld x1 r0_0) (View.ld x0 r0_70) (View.ld x2 r0_5)) (k0_pay226 (View.ld x1 r0_1) (View.ld x0 r0_70)) (k0_pay227 (View.ld x0 r0_70))⟩,
      ⟨r0_89, k0_pay281 (k0_pay2 (View.ld x3 r0_2)) (k0_pay3 (View.ld x4 r0_3)) (k0_pay226 (View.ld x1 r0_1) (View.ld x0 r0_70)) (k0_pay227 (View.ld x0 r0_70)) (k0_pay277 (k0_pay225 (View.ld x1 r0_0) (View.ld x0 r0_70) (View.ld x2 r0_5)) (k0_pay226 (View.ld x1 r0_1) (View.ld x0 r0_70))) (k0_pay278 (k0_pay225 (View.ld x1 r0_0) (View.ld x0 r0_70) (View.ld x2 r0_5)) (k0_pay226 (View.ld x1 r0_1) (View.ld x0 r0_70))) (k0_pay279 (k0_pay225 (View.ld x1 r0_0) (View.ld x0 r0_70) (View.ld x2 r0_5)) (k0_pay226 (View.ld x1 r0_1) (View.ld x0 r0_70))) (k0_pay280 (k0_pay225 (View.ld x1 r0_0) (View.ld x0 r0_70) (View.ld x2 r0_5)))⟩,
      ⟨r0_88, k0_pay275 (k0_pay2 (View.ld x3 r0_2)) (k0_pay3 (View.ld x4 r0_3)) (k0_pay225 (View.ld x1 r0_0) (View.ld x0 r0_70) (View.ld x2 r0_5)) (k0_pay226 (View.ld x1 r0_1) (View.ld x0 r0_70)) (k0_pay227 (View.ld x0 r0_70))⟩,
      ⟨r0_87, k0_pay274 (k0_pay2 (View.ld x3 r0_2)) (k0_pay3 (View.ld x4 r0_3)) (k0_pay225 (View.ld x1 r0_0) (View.ld x0 r0_70) (View.ld x2 r0_5)) (k0_pay226 (View.ld x1 r0_1) (View.ld x0 r0_70)) (k0_pay227 (View.ld x0 r0_70))⟩,
      ⟨r0_86, k0_pay273 (k0_pay2 (View.ld x3 r0_2)) (k0_pay3 (View.ld x4 r0_3)) (k0_pay226 (View.ld x1 r0_1) (View.ld x0 r0_70)) (k0_pay227 (View.ld x0 r0_70)) (k0_pay269 (k0_pay225 (View.ld x1 r0_0) (View.ld x0 r0_70) (View.ld x2 r0_5)) (k0_pay226 (View.ld x1 r0_1) (View.ld x0 r0_70))) (k0_pay270 (k0_pay225 (View.ld x1 r0_0) (View.ld x0 r0_70) (View.ld x2 r0_5)) (k0_pay226 (View.ld x1 r0_1) (View.ld x0 r0_70))) (k0_pay271 (k0_pay225 (View.ld x1 r0_0) (View.ld x0 r0_70) (View.ld x2 r0_5)) (k0_pay226 (View.ld x1 r0_1) (View.ld x0 r0_70))) (k0_pay272 (k0_pay225 (View.ld x1 r0_0) (View.ld x0 r0_70) (View.ld x2 r0_5)))⟩,
      ⟨r0_85, k0_pay267 (k0_pay2 (View.ld x3 r0_2)) (k0_pay3 (View.ld x4 r0_3)) (k0_pay225 (View.ld x1 r0_0) (View.ld x0 r0_70) (View.ld x2 r0_5)) (k0_pay226 (View.ld x1 r0_1) (View.ld x0 r0_70)) (k0_pay227 (View.ld x0 r0_70))⟩,
      ⟨r0_84, k0_pay266 (k0_pay2 (View.ld x3 r0_2)) (k0_pay3 (View.ld x4 r0_3)) (k0_pay225 (View.ld x1 r0_0) (View.ld x0 r0_70) (View.ld x2 r0_5)) (k0_pay226 (View.ld x1 r0_1) (View.ld x0 r0_70)) (k0_pay227 (View.ld x0 r0_70))⟩,
      ⟨r0_83, k0_pay265 (k0_pay2 (View.ld x3 r0_2)) (k0_pay3 (View.ld x4 r0_3)) (k0_pay226 (View.ld x1 r0_1) (View.ld x0 r0_70)) (k0_pay227 (View.ld x0 r0_70)) (k0_pay261 (k0_pay225 (View.ld x1 r0_0) (View.ld x0 r0_70) (View.ld x2 r0_5)) (k0_pay226 (View.ld x1 r0_1) (View.ld x0 r0_70))) (k0_pay262 (k0_pay225 (View.ld x1 r0_0) (View.ld x0 r0_70) (View.ld x2 r0_5)) (k0_pay226 (View.ld x1 r0_1) (View.ld x0 r0_70))) (k0_pay263 (k0_pay225 (View.ld x1 r0_0) (View.ld x0 r0_70) (View.ld x2 r0_5)) (k0_pay226 (View.ld x1 r0_1) (View.ld x0 r0_70))) (k0_pay264 (k0_pay225 (View.ld x1 r0_0) (View.ld x0 r0_70) (View.ld x2 r0_5)))⟩,
      ⟨r0_82, k0_pay259 (k0_pay2 (View.ld x3 r0_2)) (k0_pay3 (View.ld x4 r0_3)) (k0_pay225 (View.ld x1 r0_0) (View.ld x0 r0_70) (View.ld x2 r0_5)) (k0_pay226 (View.ld x1 r0_1) (View.ld x0 r0_70)) (k0_pay227 (View.ld x0 r0_70))⟩,
      ⟨r0_81, k0_pay258 (k0_pay2 (View.ld x3 r0_2)) (k0_pay3 (View.ld x4 r0_3)) (k0_pay225 (View.ld x1 r0_0) (View.ld x0 r0_70) (View.ld x2 r0_5)) (k0_pay226 (View.ld x1 r0_1) (View.ld x0 r0_70)) (k0_pay227 (View.ld x0 r0_70))⟩,
      ⟨r0_80, k0_pay257 (k0_pay2 (View.ld x3 r0_2)) (k0_pay3 (View.ld x4 r0_3)) (k0_pay226 (View.ld x1 r0_1) (View.ld x0 r0_70)) (k0_pay227 (View.ld x0 r0_70)) (k0_pay253 (k0_pay225 (View.ld x1 r0_0) (View.ld x0 r0_70) (View.ld x2 r0_5)) (k0_pay226 (View.ld x1 r0_1) (View.ld x0 r0_70))) (k0_pay254 (k0_pay225 (View.ld x1 r0_0) (View.ld x0 r0_70) (View.ld x2 r0_5)) (k0_pay226 (View.ld x1 r0_1) (View.ld x0 r0_70))) (k0_pay255 (k0_pay225 (View.ld x1 r0_0) (View.ld x0 r0_70) (View.ld x2 r0_5)) (k0_pay226 (View.ld x1 r0_1) (View.ld x0 r0_70))) (k0_pay256 (k0_pay225 (View.ld x1 r0_0) (View.ld x0 r0_70) (View.ld x2 r0_5)))⟩,
      ⟨r0_79, k0_pay251 (k0_pay2 (View.ld x3 r0_2)) (k0_pay3 (View.ld x4 r0_3)) (k0_pay225 (View.ld x1 r0_0) (View.ld x0 r0_70) (View.ld x2 r0_5)) (k0_pay226 (View.ld x1 r0_1) (View.ld x0 r0_70)) (k0_pay227 (View.ld x0 r0_70))⟩,
      ⟨r0_78, k0_pay250 (k0_pay2 (View.ld x3 r0_2)) (k0_pay3 (View.ld x4 r0_3)) (k0_pay225 (View.ld x1 r0_0) (View.ld x0 r0_70) (View.ld x2 r0_5)) (k0_pay226 (View.ld x1 r0_1) (View.ld x0 r0_70)) (k0_pay227 (View.ld x0 r0_70))⟩,
      ⟨r0_77, k0_pay249 (k0_pay2 (View.ld x3 r0_2)) (k0_pay3 (View.ld x4 r0_3)) (k0_pay226 (View.ld x1 r0_1) (View.ld x0 r0_70)) (k0_pay227 (View.ld x0 r0_70)) (k0_pay245 (k0_pay225 (View.ld x1 r0_0) (View.ld x0 r0_70) (View.ld x2 r0_5)) (k0_pay226 (View.ld x1 r0_1) (View.ld x0 r0_70))) (k0_pay246 (k0_pay225 (View.ld x1 r0_0) (View.ld x0 r0_70) (View.ld x2 r0_5)) (k0_pay226 (View.ld x1 r0_1) (View.ld x0 r0_70))) (k0_pay247 (k0_pay225 (View.ld x1 r0_0) (View.ld x0 r0_70) (View.ld x2 r0_5)) (k0_pay226 (View.ld x1 r0_1) (View.ld x0 r0_70))) (k0_pay248 (k0_pay225 (View.ld x1 r0_0) (View.ld x0 r0_70) (View.ld x2 r0_5)))⟩,
      ⟨r0_76, k0_pay243 (k0_pay2 (View.ld x3 r0_2)) (k0_pay3 (View.ld x4 r0_3)) (k0_pay225 (View.ld x1 r0_0) (View.ld x0 r0_70) (View.ld x2 r0_5)) (k0_pay226 (View.ld x1 r0_1) (View.ld x0 r0_70)) (k0_pay227 (View.ld x0 r0_70))⟩,
      ⟨r0_75, k0_pay242 (k0_pay2 (View.ld x3 r0_2)) (k0_pay3 (View.ld x4 r0_3)) (k0_pay225 (View.ld x1 r0_0) (View.ld x0 r0_70) (View.ld x2 r0_5)) (k0_pay226 (View.ld x1 r0_1) (View.ld x0 r0_70)) (k0_pay227 (View.ld x0 r0_70))⟩,
      ⟨r0_74, k0_pay241 (k0_pay2 (View.ld x3 r0_2)) (k0_pay3 (View.ld x4 r0_3)) (k0_pay226 (View.ld x1 r0_1) (View.ld x0 r0_70)) (k0_pay227 (View.ld x0 r0_70)) (k0_pay237 (k0_pay225 (View.ld x1 r0_0) (View.ld x0 r0_70) (View.ld x2 r0_5)) (k0_pay226 (View.ld x1 r0_1) (View.ld x0 r0_70))) (k0_pay238 (k0_pay225 (View.ld x1 r0_0) (View.ld x0 r0_70) (View.ld x2 r0_5)) (k0_pay226 (View.ld x1 r0_1) (View.ld x0 r0_70))) (k0_pay239 (k0_pay225 (View.ld x1 r0_0) (View.ld x0 r0_70) (View.ld x2 r0_5)) (k0_pay226 (View.ld x1 r0_1) (View.ld x0 r0_70))) (k0_pay240 (k0_pay225 (View.ld x1 r0_0) (View.ld x0 r0_70) (View.ld x2 r0_5)))⟩,
      ⟨r0_73, k0_pay235 (k0_pay2 (View.ld x3 r0_2)) (k0_pay3 (View.ld x4 r0_3)) (k0_pay225 (View.ld x1 r0_0) (View.ld x0 r0_70) (View.ld x2 r0_5)) (k0_pay226 (View.ld x1 r0_1) (View.ld x0 r0_70)) (k0_pay227 (View.ld x0 r0_70))⟩,
      ⟨r0_72, k0_pay234 (k0_pay2 (View.ld x3 r0_2)) (k0_pay3 (View.ld x4 r0_3)) (k0_pay225 (View.ld x1 r0_0) (View.ld x0 r0_70) (View.ld x2 r0_5)) (k0_pay226 (View.ld x1 r0_1) (View.ld x0 r0_70)) (k0_pay227 (View.ld x0 r0_70))⟩,
      ⟨r0_71, k0_pay233 (k0_pay2 (View.ld x3 r0_2)) (k0_pay3 (View.ld x4 r0_3)) (k0_pay226 (View.ld x1 r0_1) (View.ld x0 r0_70)) (k0_pay227 (View.ld x0 r0_70)) (k0_pay229 (View.ld x1 r0_0) (View.ld x1 r0_1) (View.ld x0 r0_70) (View.ld x2 r0_5)) (k0_pay230 (View.ld x1 r0_0) (View.ld x1 r0_1) (View.ld x0 r0_70) (View.ld x2 r0_5)) (k0_pay231 (View.ld x1 r0_0) (View.ld x1 r0_1) (View.ld x0 r0_70) (View.ld x2 r0_5)) (k0_pay232 (View.ld x1 r0_0) (View.ld x0 r0_70) (View.ld x2 r0_5))⟩,
      ⟨r0_69, k0_pay223 (k0_pay2 (View.ld x3 r0_2)) (k0_pay3 (View.ld x4 r0_3)) (k0_pay7 (View.ld x0 r0_4)) (k0_pay219 (k0_pay5 (View.ld x1 r0_0) (View.ld x0 r0_4) (View.ld x2 r0_5)) (k0_pay6 (View.ld x1 r0_1) (View.ld x0 r0_4))) (k0_pay220 (k0_pay5 (View.ld x1 r0_0) (View.ld x0 r0_4) (View.ld x2 r0_5)) (k0_pay6 (View.ld x1 r0_1) (View.ld x0 r0_4))) (k0_pay221 (k0_pay5 (View.ld x1 r0_0) (View.ld x0 r0_4) (View.ld x2 r0_5)) (k0_pay6 (View.ld x1 r0_1) (View.ld x0 r0_4))) (k0_pay222 (k0_pay5 (View.ld x1 r0_0) (View.ld x0 r0_4) (View.ld x2 r0_5)) (k0_pay6 (View.ld x1 r0_1) (View.ld x0 r0_4)))⟩,
      ⟨r0_68, k0_pay217 (k0_pay2 (View.ld x3 r0_2)) (k0_pay3 (View.ld x4 r0_3)) (k0_pay6 (View.ld x1 r0_1) (View.ld x0 r0_4)) (k0_pay7 (View.ld x0 r0_4)) (k0_pay215 (k0_pay5 (View.ld x1 r0_0) (View.ld x0 r0_4) (View.ld x2 r0_5))) (k0_pay216 (k0_pay5 (View.ld x1 r0_0) (View.ld x0 r0_4) (View.ld x2 r0_5)))⟩,
      ⟨r0_67, k0_pay214 (k0_pay2 (View.ld x3 r0_2)) (k0_pay3 (View.ld x4 r0_3)) (k0_pay5 (View.ld x1 r0_0) (View.ld x0 r0_4) (View.ld x2 r0_5)) (k0_pay6 (View.ld x1 r0_1) (View.ld x0 r0_4)) (k0_pay7 (View.ld x0 r0_4))⟩,
      ⟨r0_66, k0_pay213 (k0_pay2 (View.ld x3 r0_2)) (k0_pay3 (View.ld x4 r0_3)) (k0_pay7 (View.ld x0 r0_4)) (k0_pay209 (k0_pay5 (View.ld x1 r0_0) (View.ld x0 r0_4) (View.ld x2 r0_5)) (k0_pay6 (View.ld x1 r0_1) (View.ld x0 r0_4))) (k0_pay210 (k0_pay5 (View.ld x1 r0_0) (View.ld x0 r0_4) (View.ld x2 r0_5)) (k0_pay6 (View.ld x1 r0_1) (View.ld x0 r0_4))) (k0_pay211 (k0_pay5 (View.ld x1 r0_0) (View.ld x0 r0_4) (View.ld x2 r0_5)) (k0_pay6 (View.ld x1 r0_1) (View.ld x0 r0_4))) (k0_pay212 (k0_pay5 (View.ld x1 r0_0) (View.ld x0 r0_4) (View.ld x2 r0_5)) (k0_pay6 (View.ld x1 r0_1) (View.ld x0 r0_4)))⟩,
      ⟨r0_65, k0_pay207 (k0_pay2 (View.ld x3 r0_2)) (k0_pay3 (View.ld x4 r0_3)) (k0_pay6 (View.ld x1 r0_1) (View.ld x0 r0_4)) (k0_pay7 (View.ld x0 r0_4)) (k0_pay205 (k0_pay5 (View.ld x1 r0_0) (View.ld x0 r0_4) (View.ld x2 r0_5))) (k0_pay206 (k0_pay5 (View.ld x1 r0_0) (View.ld x0 r0_4) (View.ld x2 r0_5)))⟩,
      ⟨r0_64, k0_pay204 (k0_pay2 (View.ld x3 r0_2)) (k0_pay3 (View.ld x4 r0_3)) (k0_pay5 (View.ld x1 r0_0) (View.ld x0 r0_4) (View.ld x2 r0_5)) (k0_pay6 (View.ld x1 r0_1) (View.ld x0 r0_4)) (k0_pay7 (View.ld x0 r0_4))⟩,
      ⟨r0_63, k0_pay203 (k0_pay2 (View.ld x3 r0_2)) (k0_pay3 (View.ld x4 r0_3)) (k0_pay7 (View.ld x0 r0_4)) (k0_pay199 (k0_pay5 (View.ld x1 r0_0) (View.ld x0 r0_4) (View.ld x2 r0_5)) (k0_pay6 (View.ld x1 r0_1) (View.ld x0 r0_4))) (k0_pay200 (k0_pay5 (View.ld x1 r0_0) (View.ld x0 r0_4) (View.ld x2 r0_5)) (k0_pay6 (View.ld x1 r0_1) (View.ld x0 r0_4))) (k0_pay201 (k0_pay5 (View.ld x1 r0_0) (View.ld x0 r0_4) (View.ld x2 r0_5)) (k0_pay6 (View.ld x1 r0_1) (View.ld x0 r0_4))) (k0_pay202 (k0_pay5 (View.ld x1 r0_0) (View.ld x0 r0_4) (View.ld x2 r0_5)) (k0_pay6 (View.ld x1 r0_1) (View.ld x0 r0_4)))⟩,
      ⟨r0_62, k0_pay197 (k0_pay2 (View.ld x3 r0_2)) (k0_pay3 (View.ld x4 r0_3)) (k0_pay6 (View.ld x1 r0_1) (View.ld x0 r0_4)) (k0_pay7 (View.ld x0 r0_4)) (k0_pay195 (k0_pay5 (View.ld x1 r0_0) (View.ld x0 r0_4) (View.ld x2 r0_5))) (k0_pay196 (k0_pay5 (View.ld x1 r0_0) (View.ld x0 r0_4) (View.ld x2 r0_5)))⟩,
      ⟨r0_61, k0_pay194 (k0_pay2 (View.ld x3 r0_2)) (k0_pay3 (View.ld x4 r0_3)) (k0_pay5 (View.ld x1 r0_0) (View.ld x0 r0_4) (View.ld x2 r0_5)) (k0_pay6 (View.ld x1 r0_1) (View.ld x0 r0_4)) (k0_pay7 (View.ld x0 r0_4))⟩,
      ⟨r0_60, k0_pay193 (k0_pay2 (View.ld x3 r0_2)) (k0_pay3 (View.ld x4 r0_3)) (k0_pay7 (View.ld x0 r0_4)) (k0_pay189 (k0_pay5 (View.ld x1 r0_0) (View.ld x0 r0_4) (View.ld x2 r0_5)) (k0_pay6 (View.ld x1 r0_1) (View.ld x0 r0_4))) (k0_pay190 (k0_pay5 (View.ld x1 r0_0) (View.ld x0 r0_4) (View.ld x2 r0_5)) (k0_pay6 (View.ld x1 r0_1) (View.ld x0 r0_4))) (k0_pay191 (k0_pay5 (View.ld x1 r0_0) (View.ld x0 r0_4) (View.ld x2 r0_5)) (k0_pay6 (View.ld x1 r0_1) (View.ld x0 r0_4))) (k0_pay192 (k0_pay5 (View.ld x1 r0_0) (View.ld x0 r0_4) (View.ld x2 r0_5)) (k0_pay6 (View.ld x1 r0_1) (View.ld x0 r0_4)))⟩,
      ⟨r0_59, k0_pay187 (k0_pay2 (View.ld x3 r0_2)) (k0_pay3 (View.ld x4 r0_3)) (k0_pay6 (View.ld x1 r0_1) (View.ld x0 r0_4)) (k0_pay7 (View.ld x0 r0_4)) (k0_pay185 (k0_pay5 (View.ld x1 r0_0) (View.ld x0 r0_4) (View.ld x2 r0_5))) (k0_pay186 (k0_pay5 (View.ld x1 r0_0) (View.ld x0 r0_4) (View.ld x2 r0_5)))⟩,
      ⟨r0_58, k0_pay184 (k0_pay2 (View.ld x3 r0_2)) (k0_pay3 (View.ld x4 r0_3)) (k0_pay5 (View.ld x1 r0_0) (View.ld x0 r0_4) (View.ld x2 r0_5)) (k0_pay6 (View.ld x1 r0_1) (View.ld x0 r0_4)) (k0_pay7 (View.ld x0 r0_4))⟩,
      ⟨r0_57, k0_pay183 (k0_pay2 (View.ld x3 r0_2)) (k0_pay3 (View.ld x4 r0_3)) (k0_pay7 (View.ld x0 r0_4)) (k0_pay179 (k0_pay5 (View.ld x1 r0_0) (View.ld x0 r0_4) (View.ld x2 r0_5)) (k0_pay6 (View.ld x1 r0_1) (View.ld x0 r0_4))) (k0_pay180 (k0_pay5 (View.ld x1 r0_0) (View.ld x0 r0_4) (View.ld x2 r0_5)) (k0_pay6 (View.ld x1 r0_1) (View.ld x0 r0_4))) (k0_pay181 (k0_pay5 (View.ld x1 r0_0) (View.ld x0 r0_4) (View.ld x2 r0_5)) (k0_pay6 (View.ld x1 r0_1) (View.ld x0 r0_4))) (k0_pay182 (k0_pay5 (View.ld x1 r0_0) (View.ld x0 r0_4) (View.ld x2 r0_5)) (k0_pay6 (View.ld x1 r0_1) (View.ld x0 r0_4)))⟩,
      ⟨r0_56, k0_pay177 (k0_pay2 (View.ld x3 r0_2)) (k0_pay3 (View.ld x4 r0_3)) (k0_pay6 (View.ld x1 r0_1) (View.ld x0 r0_4)) (k0_pay7 (View.ld x0 r0_4)) (k0_pay175 (k0_pay5 (View.ld x1 r0_0) (View.ld x0 r0_4) (View.ld x2 r0_5))) (k0_pay176 (k0_pay5 (View.ld x1 r0_0) (View.ld x0 r0_4) (View.ld x2 r0_5)))⟩,
      ⟨r0_55, k0_pay174 (k0_pay2 (View.ld x3 r0_2)) (k0_pay3 (View.ld x4 r0_3)) (k0_pay5 (View.ld x1 r0_0) (View.ld x0 r0_4) (View.ld x2 r0_5)) (k0_pay6 (View.ld x1 r0_1) (View.ld x0 r0_4)) (k0_pay7 (View.ld x0 r0_4))⟩,
      ⟨r0_54, k0_pay173 (k0_pay2 (View.ld x3 r0_2)) (k0_pay3 (View.ld x4 r0_3)) (k0_pay7 (View.ld x0 r0_4)) (k0_pay169 (k0_pay5 (View.ld x1 r0_0) (View.ld x0 r0_4) (View.ld x2 r0_5)) (k0_pay6 (View.ld x1 r0_1) (View.ld x0 r0_4))) (k0_pay170 (k0_pay5 (View.ld x1 r0_0) (View.ld x0 r0_4) (View.ld x2 r0_5)) (k0_pay6 (View.ld x1 r0_1) (View.ld x0 r0_4))) (k0_pay171 (k0_pay5 (View.ld x1 r0_0) (View.ld x0 r0_4) (View.ld x2 r0_5)) (k0_pay6 (View.ld x1 r0_1) (View.ld x0 r0_4))) (k0_pay172 (k0_pay5 (View.ld x1 r0_0) (View.ld x0 r0_4) (View.ld x2 r0_5)) (k0_pay6 (View.ld x1 r0_1) (View.ld x0 r0_4)))⟩,
      ⟨r0_53, k0_pay167 (k0_pay2 (View.ld x3 r0_2)) (k0_pay3 (View.ld x4 r0_3)) (k0_pay6 (View.ld x1 r0_1) (View.ld x0 r0_4)) (k0_pay7 (View.ld x0 r0_4)) (k0_pay165 (k0_pay5 (View.ld x1 r0_0) (View.ld x0 r0_4) (View.ld x2 r0_5))) (k0_pay166 (k0_pay5 (View.ld x1 r0_0) (View.ld x0 r0_4) (View.ld x2 r0_5)))⟩,
      ⟨r0_52, k0_pay164 (k0_pay2 (View.ld x3 r0_2)) (k0_pay3 (View.ld x4 r0_3)) (k0_pay5 (View.ld x1 r0_0) (View.ld x0 r0_4) (View.ld x2 r0_5)) (k0_pay6 (View.ld x1 r0_1) (View.ld x0 r0_4)) (k0_pay7 (View.ld x0 r0_4))⟩,
      ⟨r0_51, k0_pay163 (k0_pay2 (View.ld x3 r0_2)) (k0_pay3 (View.ld x4 r0_3)) (k0_pay7 (View.ld x0 r0_4)) (k0_pay159 (k0_pay5 (View.ld x1 r0_0) (View.ld x0 r0_4) (View.ld x2 r0_5)) (k0_pay6 (View.ld x1 r0_1) (View.ld x0 r0_4))) (k0_pay160 (k0_pay5 (View.ld x1 r0_0) (View.ld x0 r0_4) (View.ld x2 r0_5)) (k0_pay6 (View.ld x1 r0_1) (View.ld x0 r0_4))) (k0_pay161 (k0_pay5 (View.ld x1 r0_0) (View.ld x0 r0_4) (View.ld x2 r0_5)) (k0_pay6 (View.ld x1 r0_1) (View.ld x0 r0_4))) (k0_pay162 (k0_pay5 (View.ld x1 r0_0) (View.ld x0 r0_4) (View.ld x2 r0_5)) (k0_pay6 (View.ld x1 r0_1) (View.ld x0 r0_4)))⟩,
      ⟨r0_50, k0_pay157 (k0_pay2 (View.ld x3 r0_2)) (k0_pay3 (View.ld x4 r0_3)) (k0_pay6 (View.ld x1 r0_1) (View.ld x0 r0_4)) (k0_pay7 (View.ld x0 r0_4)) (k0_pay155 (k0_pay5 (View.ld x1 r0_0) (View.ld x0 r0_4) (View.ld x2 r0_5))) (k0_pay156 (k0_pay5 (View.ld x1 r0_0) (View.ld x0 r0_4) (View.ld x2 r0_5)))⟩,
      ⟨r0_49, k0_pay154 (k0_pay2 (View.ld x3 r0_2)) (k0_pay3 (View.ld x4 r0_3)) (k0_pay5 (View.ld x1 r0_0) (View.ld x0 r0_4) (View.ld x2 r0_5)) (k0_pay6 (View.ld x1 r0_1) (View.ld x0 r0_4)) (k0_pay7 (View.ld x0 r0_4))⟩,
      ⟨r0_48, k0_pay153 (k0_pay2 (View.ld x3 r0_2)) (k0_pay3 (View.ld x4 r0_3)) (k0_pay7 (View.ld x0 r0_4)) (k0_pay149 (k0_pay5 (View.ld x1 r0_0) (View.ld x0 r0_4) (View.ld x2 r0_5)) (k0_pay6 (View.ld x1 r0_1) (View.ld x0 r0_4))) (k0_pay150 (k0_pay5 (View.ld x1 r0_0) (View.ld x0 r0_4) (View.ld x2 r0_5)) (k0_pay6 (View.ld x1 r0_1) (View.ld x0 r0_4))) (k0_pay151 (k0_pay5 (View.ld x1 r0_0) (View.ld x0 r0_4) (View.ld x2 r0_5)) (k0_pay6 (View.ld x1 r0_1) (View.ld x0 r0_4))) (k0_pay152 (k0_pay5 (View.ld x1 r0_0) (View.ld x0 r0_4) (View.ld x2 r0_5)) (k0_pay6 (View.ld x1 r0_1) (View.ld x0 r0_4)))⟩,
      ⟨r0_47, k0_pay147 (k0_pay2 (View.ld x3 r0_2)) (k0_pay3 (View.ld x4 r0_3)) (k0_pay6 (View.ld x1 r0_1) (View.ld x0 r0_4)) (k0_pay7 (View.ld x0 r0_4)) (k0_pay145 (k0_pay5 (View.ld x1 r0_0) (View.ld x0 r0_4) (View.ld x2 r0_5))) (k0_pay146 (k0_pay5 (View.ld x1 r0_0) (View.ld x0 r0_4) (View.ld x2 r0_5)))⟩,
      ⟨r0_46, k0_pay144 (k0_pay2 (View.ld x3 r0_2)) (k0_pay3 (View.ld x4 r0_3)) (k0_pay5 (View.ld x1 r0_0) (View.ld x0 r0_4) (View.ld x2 r0_5)) (k0_pay6 (View.ld x1 r0_1) (View.ld x0 r0_4)) (k0_pay7 (View.ld x0 r0_4))⟩,
      ⟨r0_45, k0_pay143 (k0_pay2 (View.ld x3 r0_2)) (k0_pay3 (View.ld x4 r0_3)) (k0_pay7 (View.ld x0 r0_4)) (k0_pay139 (k0_pay5 (View.ld x1 r0_0) (View.ld x0 r0_4) (View.ld x2 r0_5)) (k0_pay6 (View.ld x1 r0_1) (View.ld x0 r0_4))) (k0_pay140 (k0_pay5 (View.ld x1 r0_0) (View.ld x0 r0_4) (View.ld x2 r0_5)) (k0_pay6 (View.ld x1 r0_1) (View.ld x0 r0_4))) (k0_pay141 (k0_pay5 (View.ld x1 r0_0) (View.ld x0 r0_4) (View.ld x2 r0_5)) (k0_pay6 (View.ld x1 r0_1) (View.ld x0 r0_4))) (k0_pay142 (k0_pay5 (View.ld x1 r0_0) (View.ld x0 r0_4) (View.ld x2 r0_5)) (k0_pay6 (View.ld x1 r0_1) (View.ld x0 r0_4)))⟩,
      ⟨r0_44, k0_pay137 (k0_pay2 (View.ld x3 r0_2)) (k0_pay3 (View.ld x4 r0_3)) (k0_pay6 (View.ld x1 r0_1) (View.ld x0 r0_4)) (k0_pay7 (View.ld x0 r0_4)) (k0_pay135 (k0_pay5 (View.ld x1 r0_0) (View.ld x0 r0_4) (View.ld x2 r0_5))) (k0_pay136 (k0_pay5 (View.ld x1 r0_0) (View.ld x0 r0_4) (View.ld x2 r0_5)))⟩,
      ⟨r0_43, k0_pay134 (k0_pay2 (View.ld x3 r0_2)) (k0_pay3 (View.ld x4 r0_3)) (k0_pay5 (View.ld x1 r0_0) (View.ld x0 r0_4) (View.ld x2 r0_5)) (k0_pay6 (View.ld x1 r0_1) (View.ld x0 r0_4)) (k0_pay7 (View.ld x0 r0_4))⟩,
      ⟨r0_42, k0_pay133 (k0_pay2 (View.ld x3 r0_2)) (k0_pay3 (View.ld x4 r0_3)) (k0_pay7 (View.ld x0 r0_4)) (k0_pay129 (k0_pay5 (View.ld x1 r0_0) (View.ld x0 r0_4) (View.ld x2 r0_5)) (k0_pay6 (View.ld x1 r0_1) (View.ld x0 r0_4))) (k0_pay130 (k0_pay5 (View.ld x1 r0_0) (View.ld x0 r0_4) (View.ld x2 r0_5)) (k0_pay6 (View.ld x1 r0_1) (View.ld x0 r0_4))) (k0_pay131 (k0_pay5 (View.ld x1 r0_0) (View.ld x0 r0_4) (View.ld x2 r0_5)) (k0_pay6 (View.ld x1 r0_1) (View.ld x0 r0_4))) (k0_pay132 (k0_pay5 (View.ld x1 r0_0) (View.ld x0 r0_4) (View.ld x2 r0_5)) (k0_pay6 (View.ld x1 r0_1) (View.ld x0 r0_4)))⟩,
      ⟨r0_41, k0_pay127 (k0_pay2 (View.ld x3 r0_2)) (k0_pay3 (View.ld x4 r0_3)) (k0_pay6 (View.ld x1 r0_1) (View.ld x0 r0_4)) (k0_pay7 (View.ld x0 r0_4)) (k0_pay125 (k0_pay5 (View.ld x1 r0_0) (View.ld x0 r0_4) (View.ld x2 r0_5))) (k0_pay126 (k0_pay5 (View.ld x1 r0_0) (View.ld x0 r0_4) (View.ld x2 r0_5)))⟩,
      ⟨r0_40, k0_pay124 (k0_pay2 (View.ld x3 r0_2)) (k0_pay3 (View.ld x4 r0_3)) (k0_pay5 (View.ld x1 r0_0) (View.ld x0 r0_4) (View.ld x2 r0_5)) (k0_pay6 (View.ld x1 r0_1) (View.ld x0 r0_4)) (k0_pay7 (View.ld x0 r0_4))⟩,
      ⟨r0_39, k0_pay123 (k0_pay2 (View.ld x3 r0_2)) (k0_pay3 (View.ld x4 r0_3)) (k0_pay7 (View.ld x0 r0_4)) (k0_pay119 (k0_pay5 (View.ld x1 r0_0) (View.ld x0 r0_4) (View.ld x2 r0_5)) (k0_pay6 (View.ld x1 r0_1) (View.ld x0 r0_4))) (k0_pay120 (k0_pay5 (View.ld x1 r0_0) (View.ld x0 r0_4) (View.ld x2 r0_5)) (k0_pay6 (View.ld x1 r0_1) (View.ld x0 r0_4))) (k0_pay121 (k0_pay5 (View.ld x1 r0_0) (View.ld x0 r0_4) (View.ld x2 r0_5)) (k0_pay6 (View.ld x1 r0_1) (View.ld x0 r0_4))) (k0_pay122 (k0_pay5 (View.ld x1 r0_0) (View.ld x0 r0_4) (View.ld x2 r0_5)) (k0_pay6 (View.ld x1 r0_1) (View.ld x0 r0_4)))⟩,
      ⟨r0_38, k0_pay117 (k0_pay2 (View.ld x3 r0_2)) (k0_pay3 (View.ld x4 r0_3)) (k0_pay6 (View.ld x1 r0_1) (View.ld x0 r0_4)) (k0_pay7 (View.ld x0 r0_4)) (k0_pay115 (k0_pay5 (View.ld x1 r0_0) (View.ld x0 r0_4) (View.ld x2 r0_5))) (k0_pay116 (k0_pay5 (View.ld x1 r0_0) (View.ld x0 r0_4) (View.ld x2 r0_5)))⟩,
      ⟨r0_37, k0_pay114 (k0_pay2 (View.ld x3 r0_2)) (k0_pay3 (View.ld x4 r0_3)) (k0_pay5 (View.ld x1 r0_0) (View.ld x0 r0_4) (View.ld x2 r0_5)) (k0_pay6 (View.ld x1 r0_1) (View.ld x0 r0_4)) (k0_pay7 (View.ld x0 r0_4))⟩,
      ⟨r0_36, k0_pay113 (k0_pay2 (View.ld x3 r0_2)) (k0_pay3 (View.ld x4 r0_3)) (k0_pay7 (View.ld x0 r0_4)) (k0_pay109 (k0_pay5 (View.ld x1 r0_0) (View.ld x0 r0_4) (View.ld x2 r0_5)) (k0_pay6 (View.ld x1 r0_1) (View.ld x0 r0_4))) (k0_pay110 (k0_pay5 (View.ld x1 r0_0) (View.ld x0 r0_4) (View.ld x2 r0_5)) (k0_pay6 (View.ld x1 r0_1) (View.ld x0 r0_4))) (k0_pay111 (k0_pay5 (View.ld x1 r0_0) (View.ld x0 r0_4) (View.ld x2 r0_5)) (k0_pay6 (View.ld x1 r0_1) (View.ld x0 r0_4))) (k0_pay112 (k0_pay5 (View.ld x1 r0_0) (View.ld x0 r0_4) (View.ld x2 r0_5)) (k0_pay6 (View.ld x1 r0_1) (View.ld x0 r0_4)))⟩,
      ⟨r0_35, k0_pay107 (k0_pay2 (View.ld x3 r0_2)) (k0_pay3 (View.ld x4 r0_3)) (k0_pay6 (View.ld x1 r0_1) (View.ld x0 r0_4)) (k0_pay7 (View.ld x0 r0_4)) (k0_pay105 (k0_pay5 (View.ld x1 r0_0) (View.ld x0 r0_4) (View.ld x2 r0_5))) (k0_pay106 (k0_pay5 (View.ld x1 r0_0) (View.ld x0 r0_4) (View.ld x2 r0_5)))⟩,
      ⟨r0_34, k0_pay104 (k0_pay2 (View.ld x3 r0_2)) (k0_pay3 (View.ld x4 r0_3)) (k0_pay5 (View.ld x1 r0_0) (View.ld x0 r0_4) (View.ld x2 r0_5)) (k0_pay6 (View.ld x1 r0_1) (View.ld x0 r0_4)) (k0_pay7 (View.ld x0 r0_4))⟩,
      ⟨r0_33, k0_pay103 (k0_pay2 (View.ld x3 r0_2)) (k0_pay3 (View.ld x4 r0_3)) (k0_pay7 (View.ld x0 r0_4)) (k0_pay99 (k0_pay5 (View.ld x1 r0_0) (View.ld x0 r0_4) (View.ld x2 r0_5)) (k0_pay6 (View.ld x1 r0_1) (View.ld x0 r0_4))) (k0_pay100 (k0_pay5 (View.ld x1 r0_0) (View.ld x0 r0_4) (View.ld x2 r0_5)) (k0_pay6 (View.ld x1 r0_1) (View.ld x0 r0_4))) (k0_pay101 (k0_pay5 (View.ld x1 r0_0) (View.ld x0 r0_4) (View.ld x2 r0_5)) (k0_pay6 (View.ld x1 r0_1) (View.ld x0 r0_4))) (k0_pay102 (k0_pay5 (View.ld x1 r0_0) (View.ld x0 r0_4) (View.ld x2 r0_5)) (k0_pay6 (View.ld x1 r0_1) (View.ld x0 r0_4)))⟩,
      ⟨r0_32, k0_pay97 (k0_pay2 (View.ld x3 r0_2)) (k0_pay3 (View.ld x4 r0_3)) (k0_pay6 (View.ld x1 r0_1) (View.ld x0 r0_4)) (k0_pay7 (View.ld x0 r0_4)) (k0_pay95 (k0_pay5 (View.ld x1 r0_0) (View.ld x0 r0_4) (View.ld x2 r0_5))) (k0_pay96 (k0_pay5 (View.ld x1 r0_0) (View.ld x0 r0_4) (View.ld x2 r0_5)))⟩,
      ⟨r0_31, k0_pay94 (k0_pay2 (View.ld x3 r0_2)) (k0_pay3 (View.ld x4 r0_3)) (k0_pay5 (View.ld x1 r0_0) (View.ld x0 r0_4) (View.ld x2 r0_5)) (k0_pay6 (View.ld x1 r0_1) (View.ld x0 r0_4)) (k0_pay7 (View.ld x0 r0_4))⟩,
      ⟨r0_30, k0_pay93 (k0_pay2 (View.ld x3 r0_2)) (k0_pay3 (View.ld x4 r0_3)) (k0_pay7 (View.ld x0 r0_4)) (k0_pay89 (k0_pay5 (View.ld x1 r0_0) (View.ld x0 r0_4) (View.ld x2 r0_5)) (k0_pay6 (View.ld x1 r0_1) (View.ld x0 r0_4))) (k0_pay90 (k0_pay5 (View.ld x1 r0_0) (View.ld x0 r0_4) (View.ld x2 r0_5)) (k0_pay6 (View.ld x1 r0_1) (View.ld x0 r0_4))) (k0_pay91 (k0_pay5 (View.ld x1 r0_0) (View.ld x0 r0_4) (View.ld x2 r0_5)) (k0_pay6 (View.ld x1 r0_1) (View.ld x0 r0_4))) (k0_pay92 (k0_pay5 (View.ld x1 r0_0) (View.ld x0 r0_4) (View.ld x2 r0_5)) (k0_pay6 (View.ld x1 r0_1) (View.ld x0 r0_4)))⟩,
      ⟨r0_29, k0_pay87 (k0_pay2 (View.ld x3 r0_2)) (k0_pay3 (View.ld x4 r0_3)) (k0_pay6 (View.ld x1 r0_1) (View.ld x0 r0_4)) (k0_pay7 (View.ld x0 r0_4)) (k0_pay85 (k0_pay5 (View.ld x1 r0_0) (View.ld x0 r0_4) (View.ld x2 r0_5))) (k0_pay86 (k0_pay5 (View.ld x1 r0_0) (View.ld x0 r0_4) (View.ld x2 r0_5)))⟩,
      ⟨r0_28, k0_pay84 (k0_pay2 (View.ld x3 r0_2)) (k0_pay3 (View.ld x4 r0_3)) (k0_pay5 (View.ld x1 r0_0) (View.ld x0 r0_4) (View.ld x2 r0_5)) (k0_pay6 (View.ld x1 r0_1) (View.ld x0 r0_4)) (k0_pay7 (View.ld x0 r0_4))⟩,
      ⟨r0_27, k0_pay83 (k0_pay2 (View.ld x3 r0_2)) (k0_pay3 (View.ld x4 r0_3)) (k0_pay7 (View.ld x0 r0_4)) (k0_pay79 (k0_pay5 (View.ld x1 r0_0) (View.ld x0 r0_4) (View.ld x2 r0_5)) (k0_pay6 (View.ld x1 r0_1) (View.ld x0 r0_4))) (k0_pay80 (k0_pay5 (View.ld x1 r0_0) (View.ld x0 r0_4) (View.ld x2 r0_5)) (k0_pay6 (View.ld x1 r0_1) (View.ld x0 r0_4))) (k0_pay81 (k0_pay5 (View.ld x1 r0_0) (View.ld x0 r0_4) (View.ld x2 r0_5)) (k0_pay6 (View.ld x1 r0_1) (View.ld x0 r0_4))) (k0_pay82 (k0_pay5 (View.ld x1 r0_0) (View.ld x0 r0_4) (View.ld x2 r0_5)) (k0_pay6 (View.ld x1 r0_1) (View.ld x0 r0_4)))⟩,
      ⟨r0_26, k0_pay77 (k0_pay2 (View.ld x3 r0_2)) (k0_pay3 (View.ld x4 r0_3)) (k0_pay6 (View.ld x1 r0_1) (View.ld x0 r0_4)) (k0_pay7 (View.ld x0 r0_4)) (k0_pay75 (k0_pay5 (View.ld x1 r0_0) (View.ld x0 r0_4) (View.ld x2 r0_5))) (k0_pay76 (k0_pay5 (View.ld x1 r0_0) (View.ld x0 r0_4) (View.ld x2 r0_5)))⟩,
      ⟨r0_25, k0_pay74 (k0_pay2 (View.ld x3 r0_2)) (k0_pay3 (View.ld x4 r0_3)) (k0_pay5 (View.ld x1 r0_0) (View.ld x0 r0_4) (View.ld x2 r0_5)) (k0_pay6 (View.ld x1 r0_1) (View.ld x0 r0_4)) (k0_pay7 (View.ld x0 r0_4))⟩,
      ⟨r0_24, k0_pay73 (k0_pay2 (View.ld x3 r0_2)) (k0_pay3 (View.ld x4 r0_3)) (k0_pay7 (View.ld x0 r0_4)) (k0_pay69 (k0_pay5 (View.ld x1 r0_0) (View.ld x0 r0_4) (View.ld x2 r0_5)) (k0_pay6 (View.ld x1 r0_1) (View.ld x0 r0_4))) (k0_pay70 (k0_pay5 (View.ld x1 r0_0) (View.ld x0 r0_4) (View.ld x2 r0_5)) (k0_pay6 (View.ld x1 r0_1) (View.ld x0 r0_4))) (k0_pay71 (k0_pay5 (View.ld x1 r0_0) (View.ld x0 r0_4) (View.ld x2 r0_5)) (k0_pay6 (View.ld x1 r0_1) (View.ld x0 r0_4))) (k0_pay72 (k0_pay5 (View.ld x1 r0_0) (View.ld x0 r0_4) (View.ld x2 r0_5)) (k0_pay6 (View.ld x1 r0_1) (View.ld x0 r0_4)))⟩,
      ⟨r0_23, k0_pay67 (k0_pay2 (View.ld x3 r0_2)) (k0_pay3 (View.ld x4 r0_3)) (k0_pay6 (View.ld x1 r0_1) (View.ld x0 r0_4)) (k0_pay7 (View.ld x0 r0_4)) (k0_pay65 (k0_pay5 (View.ld x1 r0_0) (View.ld x0 r0_4) (View.ld x2 r0_5))) (k0_pay66 (k0_pay5 (View.ld x1 r0_0) (View.ld x0 r0_4) (View.ld x2 r0_5)))⟩,
      ⟨r0_22, k0_pay64 (k0_pay2 (View.ld x3 r0_2)) (k0_pay3 (View.ld x4 r0_3)) (k0_pay5 (View.ld x1 r0_0) (View.ld x0 r0_4) (View.ld x2 r0_5)) (k0_pay6 (View.ld x1 r0_1) (View.ld x0 r0_4)) (k0_pay7 (View.ld x0 r0_4))⟩,
      ⟨r0_21, k0_pay63 (k0_pay2 (View.ld x3 r0_2)) (k0_pay3 (View.ld x4 r0_3)) (k0_pay7 (View.ld x0 r0_4)) (k0_pay59 (k0_pay5 (View.ld x1 r0_0) (View.ld x0 r0_4) (View.ld x2 r0_5)) (k0_pay6 (View.ld x1 r0_1) (View.ld x0 r0_4))) (k0_pay60 (k0_pay5 (View.ld x1 r0_0) (View.ld x0 r0_4) (View.ld x2 r0_5)) (k0_pay6 (View.ld x1 r0_1) (View.ld x0 r0_4))) (k0_pay61 (k0_pay5 (View.ld x1 r0_0) (View.ld x0 r0_4) (View.ld x2 r0_5)) (k0_pay6 (View.ld x1 r0_1) (View.ld x0 r0_4))) (k0_pay62 (k0_pay5 (View.ld x1 r0_0) (View.ld x0 r0_4) (View.ld x2 r0_5)) (k0_pay6 (View.ld x1 r0_1) (View.ld x0 r0_4)))⟩,
      ⟨r0_20, k0_pay57 (k0_pay2 (View.ld x3 r0_2)) (k0_pay3 (View.ld x4 r0_3)) (k0_pay6 (View.ld x1 r0_1) (View.ld x0 r0_4)) (k0_pay7 (View.ld x0 r0_4)) (k0_pay55 (k0_pay5 (View.ld x1 r0_0) (View.ld x0 r0_4) (View.ld x2 r0_5))) (k0_pay56 (k0_pay5 (View.ld x1 r0_0) (View.ld x0 r0_4) (View.ld x2 r0_5)))⟩,
      ⟨r0_19, k0_pay54 (k0_pay2 (View.ld x3 r0_2)) (k0_pay3 (View.ld x4 r0_3)) (k0_pay5 (View.ld x1 r0_0) (View.ld x0 r0_4) (View.ld x2 r0_5)) (k0_pay6 (View.ld x1 r0_1) (View.ld x0 r0_4)) (k0_pay7 (View.ld x0 r0_4))⟩,
      ⟨r0_18, k0_pay53 (k0_pay2 (View.ld x3 r0_2)) (k0_pay3 (View.ld x4 r0_3)) (k0_pay7 (View.ld x0 r0_4)) (k0_pay49 (k0_pay5 (View.ld x1 r0_0) (View.ld x0 r0_4) (View.ld x2 r0_5)) (k0_pay6 (View.ld x1 r0_1) (View.ld x0 r0_4))) (k0_pay50 (k0_pay5 (View.ld x1 r0_0) (View.ld x0 r0_4) (View.ld x2 r0_5)) (k0_pay6 (View.ld x1 r0_1) (View.ld x0 r0_4))) (k0_pay51 (k0_pay5 (View.ld x1 r0_0) (View.ld x0 r0_4) (View.ld x2 r0_5)) (k0_pay6 (View.ld x1 r0_1) (View.ld x0 r0_4))) (k0_pay52 (k0_pay5 (View.ld x1 r0_0) (View.ld x0 r0_4) (View.ld x2 r0_5)) (k0_pay6 (View.ld x1 r0_1) (View.ld x0 r0_4)))⟩,
      ⟨r0_17, k0_pay47 (k0_pay2 (View.ld x3 r0_2)) (k0_pay3 (View.ld x4 r0_3)) (k0_pay6 (View.ld x1 r0_1) (View.ld x0 r0_4)) (k0_pay7 (View.ld x0 r0_4)) (k0_pay45 (k0_pay5 (View.ld x1 r0_0) (View.ld x0 r0_4) (View.ld x2 r0_5))) (k0_pay46 (k0_pay5 (View.ld x1 r0_0) (View.ld x0 r0_4) (View.ld x2 r0_5)))⟩,
      ⟨r0_16, k0_pay44 (k0_pay2 (View.ld x3 r0_2)) (k0_pay3 (View.ld x4 r0_3)) (k0_pay5 (View.ld x1 r0_0) (View.ld x0 r0_4) (View.ld x2 r0_5)) (k0_pay6 (View.ld x1 r0_1) (View.ld x0 r0_4)) (k0_pay7 (View.ld x0 r0_4))⟩,
      ⟨r0_15, k0_pay43 (k0_pay2 (View.ld x3 r0_2)) (k0_pay3 (View.ld x4 r0_3)) (k0_pay7 (View.ld x0 r0_4)) (k0_pay39 (k0_pay5 (View.ld x1 r0_0) (View.ld x0 r0_4) (View.ld x2 r0_5)) (k0_pay6 (View.ld x1 r0_1) (View.ld x0 r0_4))) (k0_pay40 (k0_pay5 (View.ld x1 r0_0) (View.ld x0 r0_4) (View.ld x2 r0_5)) (k0_pay6 (View.ld x1 r0_1) (View.ld x0 r0_4))) (k0_pay41 (k0_pay5 (View.ld x1 r0_0) (View.ld x0 r0_4) (View.ld x2 r0_5)) (k0_pay6 (View.ld x1 r0_1) (View.ld x0 r0_4))) (k0_pay42 (k0_pay5 (View.ld x1 r0_0) (View.ld x0 r0_4) (View.ld x2 r0_5)) (k0_pay6 (View.ld x1 r0_1) (View.ld x0 r0_4)))⟩,
      ⟨r0_14, k0_pay37 (k0_pay2 (View.ld x3 r0_2)) (k0_pay3 (View.ld x4 r0_3)) (k0_pay6 (View.ld x1 r0_1) (View.ld x0 r0_4)) (k0_pay7 (View.ld x0 r0_4)) (k0_pay35 (k0_pay5 (View.ld x1 r0_0) (View.ld x0 r0_4) (View.ld x2 r0_5))) (k0_pay36 (k0_pay5 (View.ld x1 r0_0) (View.ld x0 r0_4) (View.ld x2 r0_5)))⟩,
      ⟨r0_13, k0_pay34 (k0_pay2 (View.ld x3 r0_2)) (k0_pay3 (View.ld x4 r0_3)) (k0_pay5 (View.ld x1 r0_0) (View.ld x0 r0_4) (View.ld x2 r0_5)) (k0_pay6 (View.ld x1 r0_1) (View.ld x0 r0_4)) (k0_pay7 (View.ld x0 r0_4))⟩,
      ⟨r0_12, k0_pay33 (k0_pay2 (View.ld x3 r0_2)) (k0_pay3 (View.ld x4 r0_3)) (k0_pay7 (View.ld x0 r0_4)) (k0_pay29 (k0_pay5 (View.ld x1 r0_0) (View.ld x0 r0_4) (View.ld x2 r0_5)) (k0_pay6 (View.ld x1 r0_1) (View.ld x0 r0_4))) (k0_pay30 (k0_pay5 (View.ld x1 r0_0) (View.ld x0 r0_4) (View.ld x2 r0_5)) (k0_pay6 (View.ld x1 r0_1) (View.ld x0 r0_4))) (k0_pay31 (k0_pay5 (View.ld x1 r0_0) (View.ld x0 r0_4) (View.ld x2 r0_5)) (k0_pay6 (View.ld x1 r0_1) (View.ld x0 r0_4))) (k0_pay32 (k0_pay5 (View.ld x1 r0_0) (View.ld x0 r0_4) (View.ld x2 r0_5)) (k0_pay6 (View.ld x1 r0_1) (View.ld x0 r0_4)))⟩,
      ⟨r0_11, k0_pay27 (k0_pay2 (View.ld x3 r0_2)) (k0_pay3 (View.ld x4 r0_3)) (k0_pay6 (View.ld x1 r0_1) (View.ld x0 r0_4)) (k0_pay7 (View.ld x0 r0_4)) (k0_pay25 (k0_pay5 (View.ld x1 r0_0) (View.ld x0 r0_4) (View.ld x2 r0_5))) (k0_pay26 (k0_pay5 (View.ld x1 r0_0) (View.ld x0 r0_4) (View.ld x2 r0_5)))⟩,
      ⟨r0_10, k0_pay24 (k0_pay2 (View.ld x3 r0_2)) (k0_pay3 (View.ld x4 r0_3)) (k0_pay5 (View.ld x1 r0_0) (View.ld x0 r0_4) (View.ld x2 r0_5)) (k0_pay6 (View.ld x1 r0_1) (View.ld x0 r0_4)) (k0_pay7 (View.ld x0 r0_4))⟩,
      ⟨r0_9, k0_pay23 (k0_pay2 (View.ld x3 r0_2)) (k0_pay3 (View.ld x4 r0_3)) (k0_pay7 (View.ld x0 r0_4)) (k0_pay19 (k0_pay5 (View.ld x1 r0_0) (View.ld x0 r0_4) (View.ld x2 r0_5)) (k0_pay6 (View.ld x1 r0_1) (View.ld x0 r0_4))) (k0_pay20 (k0_pay5 (View.ld x1 r0_0) (View.ld x0 r0_4) (View.ld x2 r0_5)) (k0_pay6 (View.ld x1 r0_1) (View.ld x0 r0_4))) (k0_pay21 (k0_pay5 (View.ld x1 r0_0) (View.ld x0 r0_4) (View.ld x2 r0_5)) (k0_pay6 (View.ld x1 r0_1) (View.ld x0 r0_4))) (k0_pay22 (k0_pay5 (View.ld x1 r0_0) (View.ld x0 r0_4) (View.ld x2 r0_5)) (k0_pay6 (View.ld x1 r0_1) (View.ld x0 r0_4)))⟩,
      ⟨r0_8, k0_pay17 (k0_pay2 (View.ld x3 r0_2)) (k0_pay3 (View.ld x4 r0_3)) (k0_pay6 (View.ld x1 r0_1) (View.ld x0 r0_4)) (k0_pay7 (View.ld x0 r0_4)) (k0_pay15 (k0_pay5 (View.ld x1 r0_0) (View.ld x0 r0_4) (View.ld x2 r0_5))) (k0_pay16 (k0_pay5 (View.ld x1 r0_0) (View.ld x0 r0_4) (View.ld x2 r0_5)))⟩,
      ⟨r0_7, k0_pay14 (k0_pay2 (View.ld x3 r0_2)) (k0_pay3 (View.ld x4 r0_3)) (k0_pay5 (View.ld x1 r0_0) (View.ld x0 r0_4) (View.ld x2 r0_5)) (k0_pay6 (View.ld x1 r0_1) (View.ld x0 r0_4)) (k0_pay7 (View.ld x0 r0_4))⟩,
      ⟨r0_6, k0_pay13 (k0_pay2 (View.ld x3 r0_2)) (k0_pay3 (View.ld x4 r0_3)) (k0_pay7 (View.ld x0 r0_4)) (k0_pay9 (View.ld x1 r0_0) (View.ld x1 r0_1) (View.ld x0 r0_4) (View.ld x2 r0_5)) (k0_pay10 (View.ld x1 r0_0) (View.ld x1 r0_1) (View.ld x0 r0_4) (View.ld x2 r0_5)) (k0_pay11 (View.ld x1 r0_0) (View.ld x1 r0_1) (View.ld x0 r0_4) (View.ld x2 r0_5)) (k0_pay12 (View.ld x1 r0_0) (View.ld x1 r0_1) (View.ld x0 r0_4) (View.ld x2 r0_5))⟩] : List (View.Piece (Elt Ideal) S2x256x256 .f32)),
      ∀ x : p.1.shape.Idx, p.2 x = kernelScore x0 x1 x2 w (x4 (ix2 0 0)) (p.1.emb x) := by
  refine List.forall_mem_cons.2 ⟨fun x => (congrFun (piece_r0_134 x0 x1 x2 x3 x4) x).trans (piece_ok x0 x1 x2 x3 x4 w hx3 1 inb_S2x256x256_S1x256x256_1_0_0 252 (by norm_num) slices_S256x256_o0_252_S256x4 slices_S256x256_o252_0_S4x256 inb_S2x256x256_S1x4x256_1_252_0 x), ?_⟩
  refine List.forall_mem_cons.2 ⟨fun x => (congrFun (piece_r0_133 x0 x1 x2 x3 x4) x).trans (piece_ok x0 x1 x2 x3 x4 w hx3 1 inb_S2x256x256_S1x256x256_1_0_0 248 (by norm_num) slices_S256x256_o0_248_S256x4 slices_S256x256_o248_0_S4x256 inb_S2x256x256_S1x4x256_1_248_0 x), ?_⟩
  refine List.forall_mem_cons.2 ⟨fun x => (congrFun (piece_r0_132 x0 x1 x2 x3 x4) x).trans (piece_ok x0 x1 x2 x3 x4 w hx3 1 inb_S2x256x256_S1x256x256_1_0_0 244 (by norm_num) slices_S256x256_o0_244_S256x4 slices_S256x256_o244_0_S4x256 inb_S2x256x256_S1x4x256_1_244_0 x), ?_⟩
  refine List.forall_mem_cons.2 ⟨fun x => (congrFun (piece_r0_131 x0 x1 x2 x3 x4) x).trans (piece_ok x0 x1 x2 x3 x4 w hx3 1 inb_S2x256x256_S1x256x256_1_0_0 240 (by norm_num) slices_S256x256_o0_240_S256x4 slices_S256x256_o240_0_S4x256 inb_S2x256x256_S1x4x256_1_240_0 x), ?_⟩
  refine List.forall_mem_cons.2 ⟨fun x => (congrFun (piece_r0_130 x0 x1 x2 x3 x4) x).trans (piece_ok x0 x1 x2 x3 x4 w hx3 1 inb_S2x256x256_S1x256x256_1_0_0 236 (by norm_num) slices_S256x256_o0_236_S256x4 slices_S256x256_o236_0_S4x256 inb_S2x256x256_S1x4x256_1_236_0 x), ?_⟩
  refine List.forall_mem_cons.2 ⟨fun x => (congrFun (piece_r0_129 x0 x1 x2 x3 x4) x).trans (piece_ok x0 x1 x2 x3 x4 w hx3 1 inb_S2x256x256_S1x256x256_1_0_0 232 (by norm_num) slices_S256x256_o0_232_S256x4 slices_S256x256_o232_0_S4x256 inb_S2x256x256_S1x4x256_1_232_0 x), ?_⟩
  refine List.forall_mem_cons.2 ⟨fun x => (congrFun (piece_r0_128 x0 x1 x2 x3 x4) x).trans (piece_ok x0 x1 x2 x3 x4 w hx3 1 inb_S2x256x256_S1x256x256_1_0_0 228 (by norm_num) slices_S256x256_o0_228_S256x4 slices_S256x256_o228_0_S4x256 inb_S2x256x256_S1x4x256_1_228_0 x), ?_⟩
  refine List.forall_mem_cons.2 ⟨fun x => (congrFun (piece_r0_127 x0 x1 x2 x3 x4) x).trans (piece_ok x0 x1 x2 x3 x4 w hx3 1 inb_S2x256x256_S1x256x256_1_0_0 224 (by norm_num) slices_S256x256_o0_224_S256x4 slices_S256x256_o224_0_S4x256 inb_S2x256x256_S1x4x256_1_224_0 x), ?_⟩
  refine List.forall_mem_cons.2 ⟨fun x => (congrFun (piece_r0_126 x0 x1 x2 x3 x4) x).trans (piece_ok x0 x1 x2 x3 x4 w hx3 1 inb_S2x256x256_S1x256x256_1_0_0 220 (by norm_num) slices_S256x256_o0_220_S256x4 slices_S256x256_o220_0_S4x256 inb_S2x256x256_S1x4x256_1_220_0 x), ?_⟩
  refine List.forall_mem_cons.2 ⟨fun x => (congrFun (piece_r0_125 x0 x1 x2 x3 x4) x).trans (piece_ok x0 x1 x2 x3 x4 w hx3 1 inb_S2x256x256_S1x256x256_1_0_0 216 (by norm_num) slices_S256x256_o0_216_S256x4 slices_S256x256_o216_0_S4x256 inb_S2x256x256_S1x4x256_1_216_0 x), ?_⟩
  refine List.forall_mem_cons.2 ⟨fun x => (congrFun (piece_r0_124 x0 x1 x2 x3 x4) x).trans (piece_ok x0 x1 x2 x3 x4 w hx3 1 inb_S2x256x256_S1x256x256_1_0_0 212 (by norm_num) slices_S256x256_o0_212_S256x4 slices_S256x256_o212_0_S4x256 inb_S2x256x256_S1x4x256_1_212_0 x), ?_⟩
  refine List.forall_mem_cons.2 ⟨fun x => (congrFun (piece_r0_123 x0 x1 x2 x3 x4) x).trans (piece_ok x0 x1 x2 x3 x4 w hx3 1 inb_S2x256x256_S1x256x256_1_0_0 208 (by norm_num) slices_S256x256_o0_208_S256x4 slices_S256x256_o208_0_S4x256 inb_S2x256x256_S1x4x256_1_208_0 x), ?_⟩
  refine List.forall_mem_cons.2 ⟨fun x => (congrFun (piece_r0_122 x0 x1 x2 x3 x4) x).trans (piece_ok x0 x1 x2 x3 x4 w hx3 1 inb_S2x256x256_S1x256x256_1_0_0 204 (by norm_num) slices_S256x256_o0_204_S256x4 slices_S256x256_o204_0_S4x256 inb_S2x256x256_S1x4x256_1_204_0 x), ?_⟩
  refine List.forall_mem_cons.2 ⟨fun x => (congrFun (piece_r0_121 x0 x1 x2 x3 x4) x).trans (piece_ok x0 x1 x2 x3 x4 w hx3 1 inb_S2x256x256_S1x256x256_1_0_0 200 (by norm_num) slices_S256x256_o0_200_S256x4 slices_S256x256_o200_0_S4x256 inb_S2x256x256_S1x4x256_1_200_0 x), ?_⟩
  refine List.forall_mem_cons.2 ⟨fun x => (congrFun (piece_r0_120 x0 x1 x2 x3 x4) x).trans (piece_ok x0 x1 x2 x3 x4 w hx3 1 inb_S2x256x256_S1x256x256_1_0_0 196 (by norm_num) slices_S256x256_o0_196_S256x4 slices_S256x256_o196_0_S4x256 inb_S2x256x256_S1x4x256_1_196_0 x), ?_⟩
  refine List.forall_mem_cons.2 ⟨fun x => (congrFun (piece_r0_119 x0 x1 x2 x3 x4) x).trans (piece_ok x0 x1 x2 x3 x4 w hx3 1 inb_S2x256x256_S1x256x256_1_0_0 192 (by norm_num) slices_S256x256_o0_192_S256x4 slices_S256x256_o192_0_S4x256 inb_S2x256x256_S1x4x256_1_192_0 x), ?_⟩
  refine List.forall_mem_cons.2 ⟨fun x => (congrFun (piece_r0_118 x0 x1 x2 x3 x4) x).trans (piece_ok x0 x1 x2 x3 x4 w hx3 1 inb_S2x256x256_S1x256x256_1_0_0 188 (by norm_num) slices_S256x256_o0_188_S256x4 slices_S256x256_o188_0_S4x256 inb_S2x256x256_S1x4x256_1_188_0 x), ?_⟩
  refine List.forall_mem_cons.2 ⟨fun x => (congrFun (piece_r0_117 x0 x1 x2 x3 x4) x).trans (piece_ok x0 x1 x2 x3 x4 w hx3 1 inb_S2x256x256_S1x256x256_1_0_0 184 (by norm_num) slices_S256x256_o0_184_S256x4 slices_S256x256_o184_0_S4x256 inb_S2x256x256_S1x4x256_1_184_0 x), ?_⟩
  refine List.forall_mem_cons.2 ⟨fun x => (congrFun (piece_r0_116 x0 x1 x2 x3 x4) x).trans (piece_ok x0 x1 x2 x3 x4 w hx3 1 inb_S2x256x256_S1x256x256_1_0_0 180 (by norm_num) slices_S256x256_o0_180_S256x4 slices_S256x256_o180_0_S4x256 inb_S2x256x256_S1x4x256_1_180_0 x), ?_⟩
  refine List.forall_mem_cons.2 ⟨fun x => (congrFun (piece_r0_115 x0 x1 x2 x3 x4) x).trans (piece_ok x0 x1 x2 x3 x4 w hx3 1 inb_S2x256x256_S1x256x256_1_0_0 176 (by norm_num) slices_S256x256_o0_176_S256x4 slices_S256x256_o176_0_S4x256 inb_S2x256x256_S1x4x256_1_176_0 x), ?_⟩
  refine List.forall_mem_cons.2 ⟨fun x => (congrFun (piece_r0_114 x0 x1 x2 x3 x4) x).trans (piece_ok x0 x1 x2 x3 x4 w hx3 1 inb_S2x256x256_S1x256x256_1_0_0 172 (by norm_num) slices_S256x256_o0_172_S256x4 slices_S256x256_o172_0_S4x256 inb_S2x256x256_S1x4x256_1_172_0 x), ?_⟩
  refine List.forall_mem_cons.2 ⟨fun x => (congrFun (piece_r0_113 x0 x1 x2 x3 x4) x).trans (piece_ok x0 x1 x2 x3 x4 w hx3 1 inb_S2x256x256_S1x256x256_1_0_0 168 (by norm_num) slices_S256x256_o0_168_S256x4 slices_S256x256_o168_0_S4x256 inb_S2x256x256_S1x4x256_1_168_0 x), ?_⟩
  refine List.forall_mem_cons.2 ⟨fun x => (congrFun (piece_r0_112 x0 x1 x2 x3 x4) x).trans (piece_ok x0 x1 x2 x3 x4 w hx3 1 inb_S2x256x256_S1x256x256_1_0_0 164 (by norm_num) slices_S256x256_o0_164_S256x4 slices_S256x256_o164_0_S4x256 inb_S2x256x256_S1x4x256_1_164_0 x), ?_⟩
  refine List.forall_mem_cons.2 ⟨fun x => (congrFun (piece_r0_111 x0 x1 x2 x3 x4) x).trans (piece_ok x0 x1 x2 x3 x4 w hx3 1 inb_S2x256x256_S1x256x256_1_0_0 160 (by norm_num) slices_S256x256_o0_160_S256x4 slices_S256x256_o160_0_S4x256 inb_S2x256x256_S1x4x256_1_160_0 x), ?_⟩
  refine List.forall_mem_cons.2 ⟨fun x => (congrFun (piece_r0_110 x0 x1 x2 x3 x4) x).trans (piece_ok x0 x1 x2 x3 x4 w hx3 1 inb_S2x256x256_S1x256x256_1_0_0 156 (by norm_num) slices_S256x256_o0_156_S256x4 slices_S256x256_o156_0_S4x256 inb_S2x256x256_S1x4x256_1_156_0 x), ?_⟩
  refine List.forall_mem_cons.2 ⟨fun x => (congrFun (piece_r0_109 x0 x1 x2 x3 x4) x).trans (piece_ok x0 x1 x2 x3 x4 w hx3 1 inb_S2x256x256_S1x256x256_1_0_0 152 (by norm_num) slices_S256x256_o0_152_S256x4 slices_S256x256_o152_0_S4x256 inb_S2x256x256_S1x4x256_1_152_0 x), ?_⟩
  refine List.forall_mem_cons.2 ⟨fun x => (congrFun (piece_r0_108 x0 x1 x2 x3 x4) x).trans (piece_ok x0 x1 x2 x3 x4 w hx3 1 inb_S2x256x256_S1x256x256_1_0_0 148 (by norm_num) slices_S256x256_o0_148_S256x4 slices_S256x256_o148_0_S4x256 inb_S2x256x256_S1x4x256_1_148_0 x), ?_⟩
  refine List.forall_mem_cons.2 ⟨fun x => (congrFun (piece_r0_107 x0 x1 x2 x3 x4) x).trans (piece_ok x0 x1 x2 x3 x4 w hx3 1 inb_S2x256x256_S1x256x256_1_0_0 144 (by norm_num) slices_S256x256_o0_144_S256x4 slices_S256x256_o144_0_S4x256 inb_S2x256x256_S1x4x256_1_144_0 x), ?_⟩
  refine List.forall_mem_cons.2 ⟨fun x => (congrFun (piece_r0_106 x0 x1 x2 x3 x4) x).trans (piece_ok x0 x1 x2 x3 x4 w hx3 1 inb_S2x256x256_S1x256x256_1_0_0 140 (by norm_num) slices_S256x256_o0_140_S256x4 slices_S256x256_o140_0_S4x256 inb_S2x256x256_S1x4x256_1_140_0 x), ?_⟩
  refine List.forall_mem_cons.2 ⟨fun x => (congrFun (piece_r0_105 x0 x1 x2 x3 x4) x).trans (piece_ok x0 x1 x2 x3 x4 w hx3 1 inb_S2x256x256_S1x256x256_1_0_0 136 (by norm_num) slices_S256x256_o0_136_S256x4 slices_S256x256_o136_0_S4x256 inb_S2x256x256_S1x4x256_1_136_0 x), ?_⟩
  refine List.forall_mem_cons.2 ⟨fun x => (congrFun (piece_r0_104 x0 x1 x2 x3 x4) x).trans (piece_ok x0 x1 x2 x3 x4 w hx3 1 inb_S2x256x256_S1x256x256_1_0_0 132 (by norm_num) slices_S256x256_o0_132_S256x4 slices_S256x256_o132_0_S4x256 inb_S2x256x256_S1x4x256_1_132_0 x), ?_⟩
  refine List.forall_mem_cons.2 ⟨fun x => (congrFun (piece_r0_103 x0 x1 x2 x3 x4) x).trans (piece_ok x0 x1 x2 x3 x4 w hx3 1 inb_S2x256x256_S1x256x256_1_0_0 128 (by norm_num) slices_S256x256_o0_128_S256x4 slices_S256x256_o128_0_S4x256 inb_S2x256x256_S1x4x256_1_128_0 x), ?_⟩
  refine List.forall_mem_cons.2 ⟨fun x => (congrFun (piece_r0_102 x0 x1 x2 x3 x4) x).trans (piece_ok x0 x1 x2 x3 x4 w hx3 1 inb_S2x256x256_S1x256x256_1_0_0 124 (by norm_num) slices_S256x256_o0_124_S256x4 slices_S256x256_o124_0_S4x256 inb_S2x256x256_S1x4x256_1_124_0 x), ?_⟩
  refine List.forall_mem_cons.2 ⟨fun x => (congrFun (piece_r0_101 x0 x1 x2 x3 x4) x).trans (piece_ok x0 x1 x2 x3 x4 w hx3 1 inb_S2x256x256_S1x256x256_1_0_0 120 (by norm_num) slices_S256x256_o0_120_S256x4 slices_S256x256_o120_0_S4x256 inb_S2x256x256_S1x4x256_1_120_0 x), ?_⟩
  refine List.forall_mem_cons.2 ⟨fun x => (congrFun (piece_r0_100 x0 x1 x2 x3 x4) x).trans (piece_ok x0 x1 x2 x3 x4 w hx3 1 inb_S2x256x256_S1x256x256_1_0_0 116 (by norm_num) slices_S256x256_o0_116_S256x4 slices_S256x256_o116_0_S4x256 inb_S2x256x256_S1x4x256_1_116_0 x), ?_⟩
  refine List.forall_mem_cons.2 ⟨fun x => (congrFun (piece_r0_99 x0 x1 x2 x3 x4) x).trans (piece_ok x0 x1 x2 x3 x4 w hx3 1 inb_S2x256x256_S1x256x256_1_0_0 112 (by norm_num) slices_S256x256_o0_112_S256x4 slices_S256x256_o112_0_S4x256 inb_S2x256x256_S1x4x256_1_112_0 x), ?_⟩
  refine List.forall_mem_cons.2 ⟨fun x => (congrFun (piece_r0_98 x0 x1 x2 x3 x4) x).trans (piece_ok x0 x1 x2 x3 x4 w hx3 1 inb_S2x256x256_S1x256x256_1_0_0 108 (by norm_num) slices_S256x256_o0_108_S256x4 slices_S256x256_o108_0_S4x256 inb_S2x256x256_S1x4x256_1_108_0 x), ?_⟩
  refine List.forall_mem_cons.2 ⟨fun x => (congrFun (piece_r0_97 x0 x1 x2 x3 x4) x).trans (piece_ok x0 x1 x2 x3 x4 w hx3 1 inb_S2x256x256_S1x256x256_1_0_0 104 (by norm_num) slices_S256x256_o0_104_S256x4 slices_S256x256_o104_0_S4x256 inb_S2x256x256_S1x4x256_1_104_0 x), ?_⟩
  refine List.forall_mem_cons.2 ⟨fun x => (congrFun (piece_r0_96 x0 x1 x2 x3 x4) x).trans (piece_ok x0 x1 x2 x3 x4 w hx3 1 inb_S2x256x256_S1x256x256_1_0_0 100 (by norm_num) slices_S256x256_o0_100_S256x4 slices_S256x256_o100_0_S4x256 inb_S2x256x256_S1x4x256_1_100_0 x), ?_⟩
  refine List.forall_mem_cons.2 ⟨fun x => (congrFun (piece_r0_95 x0 x1 x2 x3 x4) x).trans (piece_ok x0 x1 x2 x3 x4 w hx3 1 inb_S2x256x256_S1x256x256_1_0_0 96 (by norm_num) slices_S256x256_o0_96_S256x4 slices_S256x256_o96_0_S4x256 inb_S2x256x256_S1x4x256_1_96_0 x), ?_⟩
  refine List.forall_mem_cons.2 ⟨fun x => (congrFun (piece_r0_94 x0 x1 x2 x3 x4) x).trans (piece_ok x0 x1 x2 x3 x4 w hx3 1 inb_S2x256x256_S1x256x256_1_0_0 92 (by norm_num) slices_S256x256_o0_92_S256x4 slices_S256x256_o92_0_S4x256 inb_S2x256x256_S1x4x256_1_92_0 x), ?_⟩
  refine List.forall_mem_cons.2 ⟨fun x => (congrFun (piece_r0_93 x0 x1 x2 x3 x4) x).trans (piece_ok x0 x1 x2 x3 x4 w hx3 1 inb_S2x256x256_S1x256x256_1_0_0 88 (by norm_num) slices_S256x256_o0_88_S256x4 slices_S256x256_o88_0_S4x256 inb_S2x256x256_S1x4x256_1_88_0 x), ?_⟩
  refine List.forall_mem_cons.2 ⟨fun x => (congrFun (piece_r0_92 x0 x1 x2 x3 x4) x).trans (piece_ok x0 x1 x2 x3 x4 w hx3 1 inb_S2x256x256_S1x256x256_1_0_0 84 (by norm_num) slices_S256x256_o0_84_S256x4 slices_S256x256_o84_0_S4x256 inb_S2x256x256_S1x4x256_1_84_0 x), ?_⟩
  refine List.forall_mem_cons.2 ⟨fun x => (congrFun (piece_r0_91 x0 x1 x2 x3 x4) x).trans (piece_ok x0 x1 x2 x3 x4 w hx3 1 inb_S2x256x256_S1x256x256_1_0_0 80 (by norm_num) slices_S256x256_o0_80_S256x4 slices_S256x256_o80_0_S4x256 inb_S2x256x256_S1x4x256_1_80_0 x), ?_⟩
  refine List.forall_mem_cons.2 ⟨fun x => (congrFun (piece_r0_90 x0 x1 x2 x3 x4) x).trans (piece_ok x0 x1 x2 x3 x4 w hx3 1 inb_S2x256x256_S1x256x256_1_0_0 76 (by norm_num) slices_S256x256_o0_76_S256x4 slices_S256x256_o76_0_S4x256 inb_S2x256x256_S1x4x256_1_76_0 x), ?_⟩
  refine List.forall_mem_cons.2 ⟨fun x => (congrFun (piece_r0_89 x0 x1 x2 x3 x4) x).trans (piece_ok x0 x1 x2 x3 x4 w hx3 1 inb_S2x256x256_S1x256x256_1_0_0 72 (by norm_num) slices_S256x256_o0_72_S256x4 slices_S256x256_o72_0_S4x256 inb_S2x256x256_S1x4x256_1_72_0 x), ?_⟩
  refine List.forall_mem_cons.2 ⟨fun x => (congrFun (piece_r0_88 x0 x1 x2 x3 x4) x).trans (piece_ok x0 x1 x2 x3 x4 w hx3 1 inb_S2x256x256_S1x256x256_1_0_0 68 (by norm_num) slices_S256x256_o0_68_S256x4 slices_S256x256_o68_0_S4x256 inb_S2x256x256_S1x4x256_1_68_0 x), ?_⟩
  refine List.forall_mem_cons.2 ⟨fun x => (congrFun (piece_r0_87 x0 x1 x2 x3 x4) x).trans (piece_ok x0 x1 x2 x3 x4 w hx3 1 inb_S2x256x256_S1x256x256_1_0_0 64 (by norm_num) slices_S256x256_o0_64_S256x4 slices_S256x256_o64_0_S4x256 inb_S2x256x256_S1x4x256_1_64_0 x), ?_⟩
  refine List.forall_mem_cons.2 ⟨fun x => (congrFun (piece_r0_86 x0 x1 x2 x3 x4) x).trans (piece_ok x0 x1 x2 x3 x4 w hx3 1 inb_S2x256x256_S1x256x256_1_0_0 60 (by norm_num) slices_S256x256_o0_60_S256x4 slices_S256x256_o60_0_S4x256 inb_S2x256x256_S1x4x256_1_60_0 x), ?_⟩
  refine List.forall_mem_cons.2 ⟨fun x => (congrFun (piece_r0_85 x0 x1 x2 x3 x4) x).trans (piece_ok x0 x1 x2 x3 x4 w hx3 1 inb_S2x256x256_S1x256x256_1_0_0 56 (by norm_num) slices_S256x256_o0_56_S256x4 slices_S256x256_o56_0_S4x256 inb_S2x256x256_S1x4x256_1_56_0 x), ?_⟩
  refine List.forall_mem_cons.2 ⟨fun x => (congrFun (piece_r0_84 x0 x1 x2 x3 x4) x).trans (piece_ok x0 x1 x2 x3 x4 w hx3 1 inb_S2x256x256_S1x256x256_1_0_0 52 (by norm_num) slices_S256x256_o0_52_S256x4 slices_S256x256_o52_0_S4x256 inb_S2x256x256_S1x4x256_1_52_0 x), ?_⟩
  refine List.forall_mem_cons.2 ⟨fun x => (congrFun (piece_r0_83 x0 x1 x2 x3 x4) x).trans (piece_ok x0 x1 x2 x3 x4 w hx3 1 inb_S2x256x256_S1x256x256_1_0_0 48 (by norm_num) slices_S256x256_o0_48_S256x4 slices_S256x256_o48_0_S4x256 inb_S2x256x256_S1x4x256_1_48_0 x), ?_⟩
  refine List.forall_mem_cons.2 ⟨fun x => (congrFun (piece_r0_82 x0 x1 x2 x3 x4) x).trans (piece_ok x0 x1 x2 x3 x4 w hx3 1 inb_S2x256x256_S1x256x256_1_0_0 44 (by norm_num) slices_S256x256_o0_44_S256x4 slices_S256x256_o44_0_S4x256 inb_S2x256x256_S1x4x256_1_44_0 x), ?_⟩
  refine List.forall_mem_cons.2 ⟨fun x => (congrFun (piece_r0_81 x0 x1 x2 x3 x4) x).trans (piece_ok x0 x1 x2 x3 x4 w hx3 1 inb_S2x256x256_S1x256x256_1_0_0 40 (by norm_num) slices_S256x256_o0_40_S256x4 slices_S256x256_o40_0_S4x256 inb_S2x256x256_S1x4x256_1_40_0 x), ?_⟩
  refine List.forall_mem_cons.2 ⟨fun x => (congrFun (piece_r0_80 x0 x1 x2 x3 x4) x).trans (piece_ok x0 x1 x2 x3 x4 w hx3 1 inb_S2x256x256_S1x256x256_1_0_0 36 (by norm_num) slices_S256x256_o0_36_S256x4 slices_S256x256_o36_0_S4x256 inb_S2x256x256_S1x4x256_1_36_0 x), ?_⟩
  refine List.forall_mem_cons.2 ⟨fun x => (congrFun (piece_r0_79 x0 x1 x2 x3 x4) x).trans (piece_ok x0 x1 x2 x3 x4 w hx3 1 inb_S2x256x256_S1x256x256_1_0_0 32 (by norm_num) slices_S256x256_o0_32_S256x4 slices_S256x256_o32_0_S4x256 inb_S2x256x256_S1x4x256_1_32_0 x), ?_⟩
  refine List.forall_mem_cons.2 ⟨fun x => (congrFun (piece_r0_78 x0 x1 x2 x3 x4) x).trans (piece_ok x0 x1 x2 x3 x4 w hx3 1 inb_S2x256x256_S1x256x256_1_0_0 28 (by norm_num) slices_S256x256_o0_28_S256x4 slices_S256x256_o28_0_S4x256 inb_S2x256x256_S1x4x256_1_28_0 x), ?_⟩
  refine List.forall_mem_cons.2 ⟨fun x => (congrFun (piece_r0_77 x0 x1 x2 x3 x4) x).trans (piece_ok x0 x1 x2 x3 x4 w hx3 1 inb_S2x256x256_S1x256x256_1_0_0 24 (by norm_num) slices_S256x256_o0_24_S256x4 slices_S256x256_o24_0_S4x256 inb_S2x256x256_S1x4x256_1_24_0 x), ?_⟩
  refine List.forall_mem_cons.2 ⟨fun x => (congrFun (piece_r0_76 x0 x1 x2 x3 x4) x).trans (piece_ok x0 x1 x2 x3 x4 w hx3 1 inb_S2x256x256_S1x256x256_1_0_0 20 (by norm_num) slices_S256x256_o0_20_S256x4 slices_S256x256_o20_0_S4x256 inb_S2x256x256_S1x4x256_1_20_0 x), ?_⟩
  refine List.forall_mem_cons.2 ⟨fun x => (congrFun (piece_r0_75 x0 x1 x2 x3 x4) x).trans (piece_ok x0 x1 x2 x3 x4 w hx3 1 inb_S2x256x256_S1x256x256_1_0_0 16 (by norm_num) slices_S256x256_o0_16_S256x4 slices_S256x256_o16_0_S4x256 inb_S2x256x256_S1x4x256_1_16_0 x), ?_⟩
  refine List.forall_mem_cons.2 ⟨fun x => (congrFun (piece_r0_74 x0 x1 x2 x3 x4) x).trans (piece_ok x0 x1 x2 x3 x4 w hx3 1 inb_S2x256x256_S1x256x256_1_0_0 12 (by norm_num) slices_S256x256_o0_12_S256x4 slices_S256x256_o12_0_S4x256 inb_S2x256x256_S1x4x256_1_12_0 x), ?_⟩
  refine List.forall_mem_cons.2 ⟨fun x => (congrFun (piece_r0_73 x0 x1 x2 x3 x4) x).trans (piece_ok x0 x1 x2 x3 x4 w hx3 1 inb_S2x256x256_S1x256x256_1_0_0 8 (by norm_num) slices_S256x256_o0_8_S256x4 slices_S256x256_o8_0_S4x256 inb_S2x256x256_S1x4x256_1_8_0 x), ?_⟩
  refine List.forall_mem_cons.2 ⟨fun x => (congrFun (piece_r0_72 x0 x1 x2 x3 x4) x).trans (piece_ok x0 x1 x2 x3 x4 w hx3 1 inb_S2x256x256_S1x256x256_1_0_0 4 (by norm_num) slices_S256x256_o0_4_S256x4 slices_S256x256_o4_0_S4x256 inb_S2x256x256_S1x4x256_1_4_0 x), ?_⟩
  refine List.forall_mem_cons.2 ⟨fun x => (congrFun (piece_r0_71 x0 x1 x2 x3 x4) x).trans (piece_ok x0 x1 x2 x3 x4 w hx3 1 inb_S2x256x256_S1x256x256_1_0_0 0 (by norm_num) slices_S256x256_o0_0_S256x4 slices_S256x256_o0_0_S4x256 inb_S2x256x256_S1x4x256_1_0_0 x), ?_⟩
  refine List.forall_mem_cons.2 ⟨fun x => (congrFun (piece_r0_69 x0 x1 x2 x3 x4) x).trans (piece_ok x0 x1 x2 x3 x4 w hx3 0 inb_S2x256x256_S1x256x256_0_0_0 252 (by norm_num) slices_S256x256_o0_252_S256x4 slices_S256x256_o252_0_S4x256 inb_S2x256x256_S1x4x256_0_252_0 x), ?_⟩
  refine List.forall_mem_cons.2 ⟨fun x => (congrFun (piece_r0_68 x0 x1 x2 x3 x4) x).trans (piece_ok x0 x1 x2 x3 x4 w hx3 0 inb_S2x256x256_S1x256x256_0_0_0 248 (by norm_num) slices_S256x256_o0_248_S256x4 slices_S256x256_o248_0_S4x256 inb_S2x256x256_S1x4x256_0_248_0 x), ?_⟩
  refine List.forall_mem_cons.2 ⟨fun x => (congrFun (piece_r0_67 x0 x1 x2 x3 x4) x).trans (piece_ok x0 x1 x2 x3 x4 w hx3 0 inb_S2x256x256_S1x256x256_0_0_0 244 (by norm_num) slices_S256x256_o0_244_S256x4 slices_S256x256_o244_0_S4x256 inb_S2x256x256_S1x4x256_0_244_0 x), ?_⟩
  refine List.forall_mem_cons.2 ⟨fun x => (congrFun (piece_r0_66 x0 x1 x2 x3 x4) x).trans (piece_ok x0 x1 x2 x3 x4 w hx3 0 inb_S2x256x256_S1x256x256_0_0_0 240 (by norm_num) slices_S256x256_o0_240_S256x4 slices_S256x256_o240_0_S4x256 inb_S2x256x256_S1x4x256_0_240_0 x), ?_⟩
  refine List.forall_mem_cons.2 ⟨fun x => (congrFun (piece_r0_65 x0 x1 x2 x3 x4) x).trans (piece_ok x0 x1 x2 x3 x4 w hx3 0 inb_S2x256x256_S1x256x256_0_0_0 236 (by norm_num) slices_S256x256_o0_236_S256x4 slices_S256x256_o236_0_S4x256 inb_S2x256x256_S1x4x256_0_236_0 x), ?_⟩
  refine List.forall_mem_cons.2 ⟨fun x => (congrFun (piece_r0_64 x0 x1 x2 x3 x4) x).trans (piece_ok x0 x1 x2 x3 x4 w hx3 0 inb_S2x256x256_S1x256x256_0_0_0 232 (by norm_num) slices_S256x256_o0_232_S256x4 slices_S256x256_o232_0_S4x256 inb_S2x256x256_S1x4x256_0_232_0 x), ?_⟩
  refine List.forall_mem_cons.2 ⟨fun x => (congrFun (piece_r0_63 x0 x1 x2 x3 x4) x).trans (piece_ok x0 x1 x2 x3 x4 w hx3 0 inb_S2x256x256_S1x256x256_0_0_0 228 (by norm_num) slices_S256x256_o0_228_S256x4 slices_S256x256_o228_0_S4x256 inb_S2x256x256_S1x4x256_0_228_0 x), ?_⟩
  refine List.forall_mem_cons.2 ⟨fun x => (congrFun (piece_r0_62 x0 x1 x2 x3 x4) x).trans (piece_ok x0 x1 x2 x3 x4 w hx3 0 inb_S2x256x256_S1x256x256_0_0_0 224 (by norm_num) slices_S256x256_o0_224_S256x4 slices_S256x256_o224_0_S4x256 inb_S2x256x256_S1x4x256_0_224_0 x), ?_⟩
  refine List.forall_mem_cons.2 ⟨fun x => (congrFun (piece_r0_61 x0 x1 x2 x3 x4) x).trans (piece_ok x0 x1 x2 x3 x4 w hx3 0 inb_S2x256x256_S1x256x256_0_0_0 220 (by norm_num) slices_S256x256_o0_220_S256x4 slices_S256x256_o220_0_S4x256 inb_S2x256x256_S1x4x256_0_220_0 x), ?_⟩
  refine List.forall_mem_cons.2 ⟨fun x => (congrFun (piece_r0_60 x0 x1 x2 x3 x4) x).trans (piece_ok x0 x1 x2 x3 x4 w hx3 0 inb_S2x256x256_S1x256x256_0_0_0 216 (by norm_num) slices_S256x256_o0_216_S256x4 slices_S256x256_o216_0_S4x256 inb_S2x256x256_S1x4x256_0_216_0 x), ?_⟩
  refine List.forall_mem_cons.2 ⟨fun x => (congrFun (piece_r0_59 x0 x1 x2 x3 x4) x).trans (piece_ok x0 x1 x2 x3 x4 w hx3 0 inb_S2x256x256_S1x256x256_0_0_0 212 (by norm_num) slices_S256x256_o0_212_S256x4 slices_S256x256_o212_0_S4x256 inb_S2x256x256_S1x4x256_0_212_0 x), ?_⟩
  refine List.forall_mem_cons.2 ⟨fun x => (congrFun (piece_r0_58 x0 x1 x2 x3 x4) x).trans (piece_ok x0 x1 x2 x3 x4 w hx3 0 inb_S2x256x256_S1x256x256_0_0_0 208 (by norm_num) slices_S256x256_o0_208_S256x4 slices_S256x256_o208_0_S4x256 inb_S2x256x256_S1x4x256_0_208_0 x), ?_⟩
  refine List.forall_mem_cons.2 ⟨fun x => (congrFun (piece_r0_57 x0 x1 x2 x3 x4) x).trans (piece_ok x0 x1 x2 x3 x4 w hx3 0 inb_S2x256x256_S1x256x256_0_0_0 204 (by norm_num) slices_S256x256_o0_204_S256x4 slices_S256x256_o204_0_S4x256 inb_S2x256x256_S1x4x256_0_204_0 x), ?_⟩
  refine List.forall_mem_cons.2 ⟨fun x => (congrFun (piece_r0_56 x0 x1 x2 x3 x4) x).trans (piece_ok x0 x1 x2 x3 x4 w hx3 0 inb_S2x256x256_S1x256x256_0_0_0 200 (by norm_num) slices_S256x256_o0_200_S256x4 slices_S256x256_o200_0_S4x256 inb_S2x256x256_S1x4x256_0_200_0 x), ?_⟩
  refine List.forall_mem_cons.2 ⟨fun x => (congrFun (piece_r0_55 x0 x1 x2 x3 x4) x).trans (piece_ok x0 x1 x2 x3 x4 w hx3 0 inb_S2x256x256_S1x256x256_0_0_0 196 (by norm_num) slices_S256x256_o0_196_S256x4 slices_S256x256_o196_0_S4x256 inb_S2x256x256_S1x4x256_0_196_0 x), ?_⟩
  refine List.forall_mem_cons.2 ⟨fun x => (congrFun (piece_r0_54 x0 x1 x2 x3 x4) x).trans (piece_ok x0 x1 x2 x3 x4 w hx3 0 inb_S2x256x256_S1x256x256_0_0_0 192 (by norm_num) slices_S256x256_o0_192_S256x4 slices_S256x256_o192_0_S4x256 inb_S2x256x256_S1x4x256_0_192_0 x), ?_⟩
  refine List.forall_mem_cons.2 ⟨fun x => (congrFun (piece_r0_53 x0 x1 x2 x3 x4) x).trans (piece_ok x0 x1 x2 x3 x4 w hx3 0 inb_S2x256x256_S1x256x256_0_0_0 188 (by norm_num) slices_S256x256_o0_188_S256x4 slices_S256x256_o188_0_S4x256 inb_S2x256x256_S1x4x256_0_188_0 x), ?_⟩
  refine List.forall_mem_cons.2 ⟨fun x => (congrFun (piece_r0_52 x0 x1 x2 x3 x4) x).trans (piece_ok x0 x1 x2 x3 x4 w hx3 0 inb_S2x256x256_S1x256x256_0_0_0 184 (by norm_num) slices_S256x256_o0_184_S256x4 slices_S256x256_o184_0_S4x256 inb_S2x256x256_S1x4x256_0_184_0 x), ?_⟩
  refine List.forall_mem_cons.2 ⟨fun x => (congrFun (piece_r0_51 x0 x1 x2 x3 x4) x).trans (piece_ok x0 x1 x2 x3 x4 w hx3 0 inb_S2x256x256_S1x256x256_0_0_0 180 (by norm_num) slices_S256x256_o0_180_S256x4 slices_S256x256_o180_0_S4x256 inb_S2x256x256_S1x4x256_0_180_0 x), ?_⟩
  refine List.forall_mem_cons.2 ⟨fun x => (congrFun (piece_r0_50 x0 x1 x2 x3 x4) x).trans (piece_ok x0 x1 x2 x3 x4 w hx3 0 inb_S2x256x256_S1x256x256_0_0_0 176 (by norm_num) slices_S256x256_o0_176_S256x4 slices_S256x256_o176_0_S4x256 inb_S2x256x256_S1x4x256_0_176_0 x), ?_⟩
  refine List.forall_mem_cons.2 ⟨fun x => (congrFun (piece_r0_49 x0 x1 x2 x3 x4) x).trans (piece_ok x0 x1 x2 x3 x4 w hx3 0 inb_S2x256x256_S1x256x256_0_0_0 172 (by norm_num) slices_S256x256_o0_172_S256x4 slices_S256x256_o172_0_S4x256 inb_S2x256x256_S1x4x256_0_172_0 x), ?_⟩
  refine List.forall_mem_cons.2 ⟨fun x => (congrFun (piece_r0_48 x0 x1 x2 x3 x4) x).trans (piece_ok x0 x1 x2 x3 x4 w hx3 0 inb_S2x256x256_S1x256x256_0_0_0 168 (by norm_num) slices_S256x256_o0_168_S256x4 slices_S256x256_o168_0_S4x256 inb_S2x256x256_S1x4x256_0_168_0 x), ?_⟩
  refine List.forall_mem_cons.2 ⟨fun x => (congrFun (piece_r0_47 x0 x1 x2 x3 x4) x).trans (piece_ok x0 x1 x2 x3 x4 w hx3 0 inb_S2x256x256_S1x256x256_0_0_0 164 (by norm_num) slices_S256x256_o0_164_S256x4 slices_S256x256_o164_0_S4x256 inb_S2x256x256_S1x4x256_0_164_0 x), ?_⟩
  refine List.forall_mem_cons.2 ⟨fun x => (congrFun (piece_r0_46 x0 x1 x2 x3 x4) x).trans (piece_ok x0 x1 x2 x3 x4 w hx3 0 inb_S2x256x256_S1x256x256_0_0_0 160 (by norm_num) slices_S256x256_o0_160_S256x4 slices_S256x256_o160_0_S4x256 inb_S2x256x256_S1x4x256_0_160_0 x), ?_⟩
  refine List.forall_mem_cons.2 ⟨fun x => (congrFun (piece_r0_45 x0 x1 x2 x3 x4) x).trans (piece_ok x0 x1 x2 x3 x4 w hx3 0 inb_S2x256x256_S1x256x256_0_0_0 156 (by norm_num) slices_S256x256_o0_156_S256x4 slices_S256x256_o156_0_S4x256 inb_S2x256x256_S1x4x256_0_156_0 x), ?_⟩
  refine List.forall_mem_cons.2 ⟨fun x => (congrFun (piece_r0_44 x0 x1 x2 x3 x4) x).trans (piece_ok x0 x1 x2 x3 x4 w hx3 0 inb_S2x256x256_S1x256x256_0_0_0 152 (by norm_num) slices_S256x256_o0_152_S256x4 slices_S256x256_o152_0_S4x256 inb_S2x256x256_S1x4x256_0_152_0 x), ?_⟩
  refine List.forall_mem_cons.2 ⟨fun x => (congrFun (piece_r0_43 x0 x1 x2 x3 x4) x).trans (piece_ok x0 x1 x2 x3 x4 w hx3 0 inb_S2x256x256_S1x256x256_0_0_0 148 (by norm_num) slices_S256x256_o0_148_S256x4 slices_S256x256_o148_0_S4x256 inb_S2x256x256_S1x4x256_0_148_0 x), ?_⟩
  refine List.forall_mem_cons.2 ⟨fun x => (congrFun (piece_r0_42 x0 x1 x2 x3 x4) x).trans (piece_ok x0 x1 x2 x3 x4 w hx3 0 inb_S2x256x256_S1x256x256_0_0_0 144 (by norm_num) slices_S256x256_o0_144_S256x4 slices_S256x256_o144_0_S4x256 inb_S2x256x256_S1x4x256_0_144_0 x), ?_⟩
  refine List.forall_mem_cons.2 ⟨fun x => (congrFun (piece_r0_41 x0 x1 x2 x3 x4) x).trans (piece_ok x0 x1 x2 x3 x4 w hx3 0 inb_S2x256x256_S1x256x256_0_0_0 140 (by norm_num) slices_S256x256_o0_140_S256x4 slices_S256x256_o140_0_S4x256 inb_S2x256x256_S1x4x256_0_140_0 x), ?_⟩
  refine List.forall_mem_cons.2 ⟨fun x => (congrFun (piece_r0_40 x0 x1 x2 x3 x4) x).trans (piece_ok x0 x1 x2 x3 x4 w hx3 0 inb_S2x256x256_S1x256x256_0_0_0 136 (by norm_num) slices_S256x256_o0_136_S256x4 slices_S256x256_o136_0_S4x256 inb_S2x256x256_S1x4x256_0_136_0 x), ?_⟩
  refine List.forall_mem_cons.2 ⟨fun x => (congrFun (piece_r0_39 x0 x1 x2 x3 x4) x).trans (piece_ok x0 x1 x2 x3 x4 w hx3 0 inb_S2x256x256_S1x256x256_0_0_0 132 (by norm_num) slices_S256x256_o0_132_S256x4 slices_S256x256_o132_0_S4x256 inb_S2x256x256_S1x4x256_0_132_0 x), ?_⟩
  refine List.forall_mem_cons.2 ⟨fun x => (congrFun (piece_r0_38 x0 x1 x2 x3 x4) x).trans (piece_ok x0 x1 x2 x3 x4 w hx3 0 inb_S2x256x256_S1x256x256_0_0_0 128 (by norm_num) slices_S256x256_o0_128_S256x4 slices_S256x256_o128_0_S4x256 inb_S2x256x256_S1x4x256_0_128_0 x), ?_⟩
  refine List.forall_mem_cons.2 ⟨fun x => (congrFun (piece_r0_37 x0 x1 x2 x3 x4) x).trans (piece_ok x0 x1 x2 x3 x4 w hx3 0 inb_S2x256x256_S1x256x256_0_0_0 124 (by norm_num) slices_S256x256_o0_124_S256x4 slices_S256x256_o124_0_S4x256 inb_S2x256x256_S1x4x256_0_124_0 x), ?_⟩
  refine List.forall_mem_cons.2 ⟨fun x => (congrFun (piece_r0_36 x0 x1 x2 x3 x4) x).trans (piece_ok x0 x1 x2 x3 x4 w hx3 0 inb_S2x256x256_S1x256x256_0_0_0 120 (by norm_num) slices_S256x256_o0_120_S256x4 slices_S256x256_o120_0_S4x256 inb_S2x256x256_S1x4x256_0_120_0 x), ?_⟩
  refine List.forall_mem_cons.2 ⟨fun x => (congrFun (piece_r0_35 x0 x1 x2 x3 x4) x).trans (piece_ok x0 x1 x2 x3 x4 w hx3 0 inb_S2x256x256_S1x256x256_0_0_0 116 (by norm_num) slices_S256x256_o0_116_S256x4 slices_S256x256_o116_0_S4x256 inb_S2x256x256_S1x4x256_0_116_0 x), ?_⟩
  refine List.forall_mem_cons.2 ⟨fun x => (congrFun (piece_r0_34 x0 x1 x2 x3 x4) x).trans (piece_ok x0 x1 x2 x3 x4 w hx3 0 inb_S2x256x256_S1x256x256_0_0_0 112 (by norm_num) slices_S256x256_o0_112_S256x4 slices_S256x256_o112_0_S4x256 inb_S2x256x256_S1x4x256_0_112_0 x), ?_⟩
  refine List.forall_mem_cons.2 ⟨fun x => (congrFun (piece_r0_33 x0 x1 x2 x3 x4) x).trans (piece_ok x0 x1 x2 x3 x4 w hx3 0 inb_S2x256x256_S1x256x256_0_0_0 108 (by norm_num) slices_S256x256_o0_108_S256x4 slices_S256x256_o108_0_S4x256 inb_S2x256x256_S1x4x256_0_108_0 x), ?_⟩
  refine List.forall_mem_cons.2 ⟨fun x => (congrFun (piece_r0_32 x0 x1 x2 x3 x4) x).trans (piece_ok x0 x1 x2 x3 x4 w hx3 0 inb_S2x256x256_S1x256x256_0_0_0 104 (by norm_num) slices_S256x256_o0_104_S256x4 slices_S256x256_o104_0_S4x256 inb_S2x256x256_S1x4x256_0_104_0 x), ?_⟩
  refine List.forall_mem_cons.2 ⟨fun x => (congrFun (piece_r0_31 x0 x1 x2 x3 x4) x).trans (piece_ok x0 x1 x2 x3 x4 w hx3 0 inb_S2x256x256_S1x256x256_0_0_0 100 (by norm_num) slices_S256x256_o0_100_S256x4 slices_S256x256_o100_0_S4x256 inb_S2x256x256_S1x4x256_0_100_0 x), ?_⟩
  refine List.forall_mem_cons.2 ⟨fun x => (congrFun (piece_r0_30 x0 x1 x2 x3 x4) x).trans (piece_ok x0 x1 x2 x3 x4 w hx3 0 inb_S2x256x256_S1x256x256_0_0_0 96 (by norm_num) slices_S256x256_o0_96_S256x4 slices_S256x256_o96_0_S4x256 inb_S2x256x256_S1x4x256_0_96_0 x), ?_⟩
  refine List.forall_mem_cons.2 ⟨fun x => (congrFun (piece_r0_29 x0 x1 x2 x3 x4) x).trans (piece_ok x0 x1 x2 x3 x4 w hx3 0 inb_S2x256x256_S1x256x256_0_0_0 92 (by norm_num) slices_S256x256_o0_92_S256x4 slices_S256x256_o92_0_S4x256 inb_S2x256x256_S1x4x256_0_92_0 x), ?_⟩
  refine List.forall_mem_cons.2 ⟨fun x => (congrFun (piece_r0_28 x0 x1 x2 x3 x4) x).trans (piece_ok x0 x1 x2 x3 x4 w hx3 0 inb_S2x256x256_S1x256x256_0_0_0 88 (by norm_num) slices_S256x256_o0_88_S256x4 slices_S256x256_o88_0_S4x256 inb_S2x256x256_S1x4x256_0_88_0 x), ?_⟩
  refine List.forall_mem_cons.2 ⟨fun x => (congrFun (piece_r0_27 x0 x1 x2 x3 x4) x).trans (piece_ok x0 x1 x2 x3 x4 w hx3 0 inb_S2x256x256_S1x256x256_0_0_0 84 (by norm_num) slices_S256x256_o0_84_S256x4 slices_S256x256_o84_0_S4x256 inb_S2x256x256_S1x4x256_0_84_0 x), ?_⟩
  refine List.forall_mem_cons.2 ⟨fun x => (congrFun (piece_r0_26 x0 x1 x2 x3 x4) x).trans (piece_ok x0 x1 x2 x3 x4 w hx3 0 inb_S2x256x256_S1x256x256_0_0_0 80 (by norm_num) slices_S256x256_o0_80_S256x4 slices_S256x256_o80_0_S4x256 inb_S2x256x256_S1x4x256_0_80_0 x), ?_⟩
  refine List.forall_mem_cons.2 ⟨fun x => (congrFun (piece_r0_25 x0 x1 x2 x3 x4) x).trans (piece_ok x0 x1 x2 x3 x4 w hx3 0 inb_S2x256x256_S1x256x256_0_0_0 76 (by norm_num) slices_S256x256_o0_76_S256x4 slices_S256x256_o76_0_S4x256 inb_S2x256x256_S1x4x256_0_76_0 x), ?_⟩
  refine List.forall_mem_cons.2 ⟨fun x => (congrFun (piece_r0_24 x0 x1 x2 x3 x4) x).trans (piece_ok x0 x1 x2 x3 x4 w hx3 0 inb_S2x256x256_S1x256x256_0_0_0 72 (by norm_num) slices_S256x256_o0_72_S256x4 slices_S256x256_o72_0_S4x256 inb_S2x256x256_S1x4x256_0_72_0 x), ?_⟩
  refine List.forall_mem_cons.2 ⟨fun x => (congrFun (piece_r0_23 x0 x1 x2 x3 x4) x).trans (piece_ok x0 x1 x2 x3 x4 w hx3 0 inb_S2x256x256_S1x256x256_0_0_0 68 (by norm_num) slices_S256x256_o0_68_S256x4 slices_S256x256_o68_0_S4x256 inb_S2x256x256_S1x4x256_0_68_0 x), ?_⟩
  refine List.forall_mem_cons.2 ⟨fun x => (congrFun (piece_r0_22 x0 x1 x2 x3 x4) x).trans (piece_ok x0 x1 x2 x3 x4 w hx3 0 inb_S2x256x256_S1x256x256_0_0_0 64 (by norm_num) slices_S256x256_o0_64_S256x4 slices_S256x256_o64_0_S4x256 inb_S2x256x256_S1x4x256_0_64_0 x), ?_⟩
  refine List.forall_mem_cons.2 ⟨fun x => (congrFun (piece_r0_21 x0 x1 x2 x3 x4) x).trans (piece_ok x0 x1 x2 x3 x4 w hx3 0 inb_S2x256x256_S1x256x256_0_0_0 60 (by norm_num) slices_S256x256_o0_60_S256x4 slices_S256x256_o60_0_S4x256 inb_S2x256x256_S1x4x256_0_60_0 x), ?_⟩
  refine List.forall_mem_cons.2 ⟨fun x => (congrFun (piece_r0_20 x0 x1 x2 x3 x4) x).trans (piece_ok x0 x1 x2 x3 x4 w hx3 0 inb_S2x256x256_S1x256x256_0_0_0 56 (by norm_num) slices_S256x256_o0_56_S256x4 slices_S256x256_o56_0_S4x256 inb_S2x256x256_S1x4x256_0_56_0 x), ?_⟩
  refine List.forall_mem_cons.2 ⟨fun x => (congrFun (piece_r0_19 x0 x1 x2 x3 x4) x).trans (piece_ok x0 x1 x2 x3 x4 w hx3 0 inb_S2x256x256_S1x256x256_0_0_0 52 (by norm_num) slices_S256x256_o0_52_S256x4 slices_S256x256_o52_0_S4x256 inb_S2x256x256_S1x4x256_0_52_0 x), ?_⟩
  refine List.forall_mem_cons.2 ⟨fun x => (congrFun (piece_r0_18 x0 x1 x2 x3 x4) x).trans (piece_ok x0 x1 x2 x3 x4 w hx3 0 inb_S2x256x256_S1x256x256_0_0_0 48 (by norm_num) slices_S256x256_o0_48_S256x4 slices_S256x256_o48_0_S4x256 inb_S2x256x256_S1x4x256_0_48_0 x), ?_⟩
  refine List.forall_mem_cons.2 ⟨fun x => (congrFun (piece_r0_17 x0 x1 x2 x3 x4) x).trans (piece_ok x0 x1 x2 x3 x4 w hx3 0 inb_S2x256x256_S1x256x256_0_0_0 44 (by norm_num) slices_S256x256_o0_44_S256x4 slices_S256x256_o44_0_S4x256 inb_S2x256x256_S1x4x256_0_44_0 x), ?_⟩
  refine List.forall_mem_cons.2 ⟨fun x => (congrFun (piece_r0_16 x0 x1 x2 x3 x4) x).trans (piece_ok x0 x1 x2 x3 x4 w hx3 0 inb_S2x256x256_S1x256x256_0_0_0 40 (by norm_num) slices_S256x256_o0_40_S256x4 slices_S256x256_o40_0_S4x256 inb_S2x256x256_S1x4x256_0_40_0 x), ?_⟩
  refine List.forall_mem_cons.2 ⟨fun x => (congrFun (piece_r0_15 x0 x1 x2 x3 x4) x).trans (piece_ok x0 x1 x2 x3 x4 w hx3 0 inb_S2x256x256_S1x256x256_0_0_0 36 (by norm_num) slices_S256x256_o0_36_S256x4 slices_S256x256_o36_0_S4x256 inb_S2x256x256_S1x4x256_0_36_0 x), ?_⟩
  refine List.forall_mem_cons.2 ⟨fun x => (congrFun (piece_r0_14 x0 x1 x2 x3 x4) x).trans (piece_ok x0 x1 x2 x3 x4 w hx3 0 inb_S2x256x256_S1x256x256_0_0_0 32 (by norm_num) slices_S256x256_o0_32_S256x4 slices_S256x256_o32_0_S4x256 inb_S2x256x256_S1x4x256_0_32_0 x), ?_⟩
  refine List.forall_mem_cons.2 ⟨fun x => (congrFun (piece_r0_13 x0 x1 x2 x3 x4) x).trans (piece_ok x0 x1 x2 x3 x4 w hx3 0 inb_S2x256x256_S1x256x256_0_0_0 28 (by norm_num) slices_S256x256_o0_28_S256x4 slices_S256x256_o28_0_S4x256 inb_S2x256x256_S1x4x256_0_28_0 x), ?_⟩
  refine List.forall_mem_cons.2 ⟨fun x => (congrFun (piece_r0_12 x0 x1 x2 x3 x4) x).trans (piece_ok x0 x1 x2 x3 x4 w hx3 0 inb_S2x256x256_S1x256x256_0_0_0 24 (by norm_num) slices_S256x256_o0_24_S256x4 slices_S256x256_o24_0_S4x256 inb_S2x256x256_S1x4x256_0_24_0 x), ?_⟩
  refine List.forall_mem_cons.2 ⟨fun x => (congrFun (piece_r0_11 x0 x1 x2 x3 x4) x).trans (piece_ok x0 x1 x2 x3 x4 w hx3 0 inb_S2x256x256_S1x256x256_0_0_0 20 (by norm_num) slices_S256x256_o0_20_S256x4 slices_S256x256_o20_0_S4x256 inb_S2x256x256_S1x4x256_0_20_0 x), ?_⟩
  refine List.forall_mem_cons.2 ⟨fun x => (congrFun (piece_r0_10 x0 x1 x2 x3 x4) x).trans (piece_ok x0 x1 x2 x3 x4 w hx3 0 inb_S2x256x256_S1x256x256_0_0_0 16 (by norm_num) slices_S256x256_o0_16_S256x4 slices_S256x256_o16_0_S4x256 inb_S2x256x256_S1x4x256_0_16_0 x), ?_⟩
  refine List.forall_mem_cons.2 ⟨fun x => (congrFun (piece_r0_9 x0 x1 x2 x3 x4) x).trans (piece_ok x0 x1 x2 x3 x4 w hx3 0 inb_S2x256x256_S1x256x256_0_0_0 12 (by norm_num) slices_S256x256_o0_12_S256x4 slices_S256x256_o12_0_S4x256 inb_S2x256x256_S1x4x256_0_12_0 x), ?_⟩
  refine List.forall_mem_cons.2 ⟨fun x => (congrFun (piece_r0_8 x0 x1 x2 x3 x4) x).trans (piece_ok x0 x1 x2 x3 x4 w hx3 0 inb_S2x256x256_S1x256x256_0_0_0 8 (by norm_num) slices_S256x256_o0_8_S256x4 slices_S256x256_o8_0_S4x256 inb_S2x256x256_S1x4x256_0_8_0 x), ?_⟩
  refine List.forall_mem_cons.2 ⟨fun x => (congrFun (piece_r0_7 x0 x1 x2 x3 x4) x).trans (piece_ok x0 x1 x2 x3 x4 w hx3 0 inb_S2x256x256_S1x256x256_0_0_0 4 (by norm_num) slices_S256x256_o0_4_S256x4 slices_S256x256_o4_0_S4x256 inb_S2x256x256_S1x4x256_0_4_0 x), ?_⟩
  refine List.forall_mem_cons.2 ⟨fun x => (congrFun (piece_r0_6 x0 x1 x2 x3 x4) x).trans (piece_ok x0 x1 x2 x3 x4 w hx3 0 inb_S2x256x256_S1x256x256_0_0_0 0 (by norm_num) slices_S256x256_o0_0_S256x4 slices_S256x256_o0_0_S4x256 inb_S2x256x256_S1x4x256_0_0_0 x), ?_⟩
  intro p hp
  cases hp

end Cert.KernelIdeal.Rows

end
-- ==== Proof.KernelBlock.lean ====
/-
  The body's result on the whole block: the 128 row groups the kernel stores tile the 2 × 256 × 256 output block,
  and each is the kernel-shaped score (`Cert.EdgeSpec.kernelScore`) on its four rows — so the block the body leaves
  is that score, entry by entry: at each entry the value is the payload of the piece whose rectangle holds it.
-/
import proofs.«101957_g89077621719711_cont_sun_m_405_23_alg».proof.Proof.Gen.KernelIdeal.Frame
import proofs.«101957_g89077621719711_cont_sun_m_405_23_alg».proof.Proof.RowGroup
import proofs.«101957_g89077621719711_cont_sun_m_405_23_alg».proof.Proof.EdgeSpec
import proofs.«101957_g89077621719711_cont_sun_m_405_23_alg».proof.Proof.PieceTable
import Idealize.ShloMosaic.Lib.Pipeline.Value

set_option synthInstance.maxSize 4096
set_option maxRecDepth 16384

noncomputable section

namespace Cert.KernelIdeal.Rows

open Idealize.ShloMosaic Idealize.ShloMosaic.ValueIdx Idealize.SL.Sem Cert.KernelIdeal Cert.KernelIdeal.Gen

/-- What the body leaves in the output window's buffer is the kernel-shaped score of the input blocks, provided the
    fourth input block is block-diagonal over a weight column `w`. -/
theorem out0_5_eq (x0 : Vec Ideal S2x256x256 .f32) (x1 : Vec Ideal S512x256 .f32) (x2 : Vec Ideal S256x1 .f32)
    (x3 : Vec Ideal S4x1024 .f32) (x4 : Vec Ideal S1x1 .f32) (w : Fin 256 → EReal)
    (hx3 : ∀ (g : Fin 4) (c : Fin 1024), x3 (ix2 g c)
      = (if g.val = c.val / 256 then (1 : EReal) else 0) * w ⟨c.val % 256, Nat.mod_lt _ (by norm_num)⟩) :
    out0_5 (F := Ideal) x0 x1 x2 x3 x4 = Cert.EdgeSpec.kernelScore x0 x1 x2 w (x4 (ix2 0 0)) := by
  funext y
  unfold out0_5
  exact View.canon_apply_of_pieces (Val := Elt Ideal) (S := S2x256x256) (e := .f32)
    (Cert.EdgeSpec.kernelScore x0 x1 x2 w (x4 (ix2 0 0))) _ (pieces_ok x0 x1 x2 x3 x4 w hx3) y (cover0_5 ..)

end Cert.KernelIdeal.Rows

end
-- ==== Proof.HostTables.lean ====
/-
  What the region finds in the three arrays the host computes before it: the first-layer bias as a 256 × 1 column,
  the output bias as a 1 × 1 array, and the block-diagonal second-layer weight — the Kronecker product of the
  4 × 4 identity with the weight column laid out as a row: entry (g, 256 a + h) is [g = a] · W2 h.
-/
import proofs.«101957_g89077621719711_cont_sun_m_405_23_alg».proof.Proof.Gen.KernelIdeal.Frame
import Idealize.ShloMosaic.Lib.ValueIdx
import Idealize.ShloMosaic.Lib.Pipeline.Value
import Idealize.ShloMosaic.Lib.StableHlo.Run

set_option synthInstance.maxSize 4096

noncomputable section

namespace Cert.KernelIdeal.Whole

open Idealize.ShloMosaic Idealize.ShloMosaic.ValueIdx Idealize.ShloMosaic.TcCoe Idealize.SL.Sem Cert.KernelIdeal Cert.KernelIdeal.Gen

/-! ## The reshapes and the Kronecker product over arbitrary operands -/

/-- A vector of 256 entries laid out as a 256 × 1 column: entry (h, 0) has row-major position h · 1 + 0 = h. -/
theorem col_of_vec (x : S256.Idx → EReal) (h : Fin 256) :
    shapeCast S256x1 x shapeCasts_S256_S256x1 (ix2 h 0) = x (ix1 h) := by
  refine shapeCast_apply _ _ _ _ ?_
  rw [Shape.rowMajor_val_one, Shape.rowMajor_val_two]
  show h.val = h.val * 1 + 0
  omega

/-- A vector of one entry laid out as a 1 × 1 array: both positions are 0. -/
theorem one_of_vec (x : S1.Idx → EReal) :
    shapeCast S1x1 x shapeCasts_S1_S1x1 (ix2 0 0) = x (ix1 0) := by
  refine shapeCast_apply _ _ _ _ ?_
  rw [Shape.rowMajor_val_one, Shape.rowMajor_val_two]
  rfl

/-- The 4 × 4 comparison word: the row index (plus the zero word) against the column index is the bit [g = a];
    sixteen closed cases of 32-bit words. -/
theorem eye_word (g a : Fin 4) :
    IntOp.cmpi .eq (IntOp.addi (BitVec.ofNat 32 g.val) 0#32) (BitVec.ofNat 32 a.val) = if g.val = a.val then 1#1 else 0#1 := by
  revert g a; decide

/-- The host's block-diagonal weight over an arbitrary weight column `x`: the 4 × 4 identity (row index = column
    index, as a float) spread over axes 0 and 2 of a 4 × 1 × 4 × 256 array, times `x` laid out as a row and spread
    over axis 3, flattened to 4 × 1024. -/
def kronTerm (x : S256x1.Idx → EReal) : S4x1024.Idx → EReal :=
  shapeCast S4x1024
    (mulf (F := Ideal) (φ := .f32)
      (broadcastInDim S4x1x4x256 ![0, 1, 2, 3] bcast_S4x1x4x1_S4x1x4x256_0_1_2_3
        (broadcastInDim S4x1x4x1 ![0, 2] bcast_S4x4_S4x1x4x1_0_2
          (uitofp (F := Ideal) FTy.f32
            (cmpi CmpIPredicate.eq
              (addi (iotaInDim S4x4 32 0) (broadcastInDim S4x4 ![] bcast_S_S4x4 (constantI S_ 32 0#32)))
              (iotaInDim S4x4 32 1)))))
      (broadcastInDim S4x1x4x256 ![0, 1, 2, 3] bcast_S1x1x1x256_S4x1x4x256_0_1_2_3
        (broadcastInDim S1x1x1x256 ![1, 3] bcast_S1x256_S1x1x1x256_1_3
          (shapeCast S1x256 x shapeCasts_S256x1_S1x256))))
    shapeCasts_S4x1x4x256_S4x1024

/-- Entry (g, k) of the flattened product is entry (g, 0, k / 256, k % 256) of the 4 × 1 × 4 × 256 product
    (((g · 1 + 0) · 4 + k / 256) · 256 + k % 256 = g · 1024 + k); there the identity factor reads entry
    (g, k / 256) of the 4 × 4 comparison, the bit [g = k / 256] as the real 1 or 0, and the row factor reads entry
    (0, k % 256) of the row, which is entry (k % 256, 0) of the column (both at position k % 256). -/
theorem kronTerm_apply (x : S256x1.Idx → EReal) (g : Fin 4) (k : Fin 1024) :
    kronTerm x (ix2 g k)
      = (if g.val = k.val / 256 then (1 : EReal) else 0)
        * x (ix2 ⟨k.val % 256, Nat.mod_lt _ (by norm_num)⟩ 0) := by
  have ha : k.val / 256 < 4 := by have := k.isLt; omega
  have hh : k.val % 256 < 256 := Nat.mod_lt _ (by norm_num)
  unfold kronTerm
  -- the flattening: same row-major position
  refine (shapeCast_apply _ _ (ix2 g k) (ix4 g 0 ⟨k.val / 256, ha⟩ ⟨k.val % 256, hh⟩) ?_).trans ?_
  · rw [Shape.rowMajor_val_four, Shape.rowMajor_val_two]
    show ((g.val * 1 + 0) * 4 + k.val / 256) * 256 + k.val % 256 = g.val * 1024 + k.val
    omega
  rw [mulf_apply]
  congr 1
  · -- the identity factor: coordinates 0 and 2 survive the two spreads
    refine (broadcastInDim_apply _ _ _ _ (ix4 g 0 ⟨k.val / 256, ha⟩ 0) ?_).trans ?_
    · intro a; match a with | ⟨0, _⟩ => rfl | ⟨1, _⟩ => rfl | ⟨2, _⟩ => rfl | ⟨3, _⟩ => rfl
    refine (broadcastInDim_apply _ _ _ _ (ix2 g ⟨k.val / 256, ha⟩) ?_).trans ?_
    · intro a; match a with | ⟨0, _⟩ => rfl | ⟨1, _⟩ => rfl
    show FloatOps.uitofp (F := Ideal) FTy.f32 (IntOp.cmpi .eq (IntOp.addi (BitVec.ofNat 32 g.val) 0#32) (BitVec.ofNat 32 (k.val / 256))) = _
    rw [eye_word g ⟨k.val / 256, ha⟩]
    show (((if g.val = k.val / 256 then 1#1 else 0#1).toNat : ℝ) : EReal) = _
    split_ifs <;> simp
  · -- the row factor: coordinate 3 survives the two spreads, then the column read as a row
    refine (broadcastInDim_apply _ _ _ _ (ix4 0 0 0 ⟨k.val % 256, hh⟩) ?_).trans ?_
    · intro a; match a with | ⟨0, _⟩ => rfl | ⟨1, _⟩ => rfl | ⟨2, _⟩ => rfl | ⟨3, _⟩ => rfl
    refine (broadcastInDim_apply _ _ _ _ (ix2 0 ⟨k.val % 256, hh⟩) ?_).trans ?_
    · intro a; match a with | ⟨0, _⟩ => rfl | ⟨1, _⟩ => rfl
    refine shapeCast_apply _ _ _ (ix2 ⟨k.val % 256, hh⟩ 0) ?_
    rw [Shape.rowMajor_val_two, Shape.rowMajor_val_two]
    show (k.val % 256) * 1 + 0 = 0 * 256 + k.val % 256
    omega

/-! ## The three arrays as the region finds them -/

variable (m : (ℓ : Loc nD τ sig) → Buf (Elt Ideal) ℓ)

/-- The bias column the region finds is the first-layer bias, entry by entry. -/
theorem V_biasCol (c : Dev nD) (h : Fin 256) :
    (V m c main_v0 : S256x1.Idx → EReal) (ix2 h 0) = (m ((c : Thread nD τ).loc main_arg2) : S256.Idx → EReal) (ix1 h) := by
  -- the array is the bias vector laid out as a column
  have e : (V m c main_v0 : S256x1.Idx → EReal)
      = shapeCast S256x1 (m ((c : Thread nD τ).loc main_arg2) : S256.Idx → EReal) shapeCasts_S256_S256x1 := by
    dsimp only [Gen.V]
    simp only [Gen.hostOps0, Gen.hostOps0_1, List.flatten_cons, List.flatten_nil, List.append_nil, List.cons_append,
      List.nil_append]
    after_results
    rfl
  rw [e]
  exact col_of_vec _ h

/-- The 1 × 1 array the region finds holds the output bias. -/
theorem V_biasOut (c : Dev nD) :
    (V m c main_v1 : S1x1.Idx → EReal) (ix2 0 0) = (m ((c : Thread nD τ).loc main_arg4) : S1.Idx → EReal) (ix1 0) := by
  -- the array is the one-entry bias vector laid out as 1 × 1
  have e : (V m c main_v1 : S1x1.Idx → EReal)
      = shapeCast S1x1 (m ((c : Thread nD τ).loc main_arg4) : S1.Idx → EReal) shapeCasts_S1_S1x1 := by
    dsimp only [Gen.V]
    simp only [Gen.hostOps0, Gen.hostOps0_1, List.flatten_cons, List.flatten_nil, List.append_nil, List.cons_append,
      List.nil_append]
    after_results
    rfl
  rw [e]
  exact one_of_vec _

/-- The 4 × 1024 weight the region finds is block-diagonal over the weight column. -/
theorem V_blockDiag (c : Dev nD) (g : Fin 4) (k : Fin 1024) :
    (V m c main_v9 : S4x1024.Idx → EReal) (ix2 g k)
      = (if g.val = k.val / 256 then (1 : EReal) else 0)
        * (m ((c : Thread nD τ).loc main_arg3) : S256x1.Idx → EReal) (ix2 ⟨k.val % 256, Nat.mod_lt _ (by norm_num)⟩ 0) := by
  -- the array is the Kronecker term over the weight column as launched
  have e : (V m c main_v9 : S4x1024.Idx → EReal)
      = kronTerm (m ((c : Thread nD τ).loc main_arg3) : S256x1.Idx → EReal) := by
    dsimp only [Gen.V]
    simp only [Gen.hostOps0, Gen.hostOps0_1, List.flatten_cons, List.flatten_nil, List.append_nil, List.cons_append,
      List.nil_append]
    after_results
    rfl
  rw [e]
  exact kronTerm_apply _ g k

end Cert.KernelIdeal.Whole

end
-- ==== Proof.KernelArray.lean ====
/-
  From the block to the array: the kernel's grid has ONE point, every window's block is its whole array, so what the
  point writes back is the body's result on the whole arrays, and the output array after the run is the per-edge score
  of the five arguments.
-/
import proofs.«101957_g89077621719711_cont_sun_m_405_23_alg».proof.Proof.Gen.KernelIdeal.Value
import proofs.«101957_g89077621719711_cont_sun_m_405_23_alg».proof.Proof.KernelBlock
import proofs.«101957_g89077621719711_cont_sun_m_405_23_alg».proof.Proof.HostTables
import proofs.«101957_g89077621719711_cont_sun_m_405_23_alg».proof.Proof.EdgeSpec

set_option synthInstance.maxSize 4096

noncomputable section

namespace Cert.KernelIdeal.Whole

open Idealize.ShloMosaic Idealize.ShloMosaic.ValueIdx Idealize.ShloMosaic.TcCoe Idealize.SL.Sem Cert.KernelIdeal Cert.KernelIdeal.Gen

variable (m : (ℓ : Loc nD τ sig) → Buf (Elt Ideal) ℓ) (ρ : Dev nD → PrngReg)

/-- Every index map of the six windows is constantly zero (decided at the one grid point). -/
theorem idx_zero : ∀ t : Fin cfg0.N,
    win0_0.index t (0 : Fin 3) = 0 ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = 0 ∧ win0_5.index t (1 : Fin 3) = 0 ∧ win0_5.index t (2 : Fin 3) = 0 :=
  (by decide +kernel : ∀ t : Fin grid0.N, _)

/-! ## Each input block is its whole array

A block's coordinate on an axis is (block index) × (block size) + 1 × (coordinate inside the block); the block index is 0
and the block has the array's size, so the coordinate inside the block IS the array's coordinate. -/

/-- The adjacency block is the adjacency array. -/
theorem adjBlock_apply (c : Dev nD) (t : Fin cfg0.N) (y : S2x256x256.Idx) :
    (iblk m c 0 t : Vec Ideal S2x256x256 .f32) y = (V m c main_arg0 : S2x256x256.Idx → EReal) y := by
  obtain ⟨e0, e1, e2, -⟩ := idx_zero t
  unfold iblk
  rw [View.read_apply]
  show V m c main_arg0 (((cfg0.win 0).blk t).view.emb y) = V m c main_arg0 y
  refine congrArg _ (funext fun a => Fin.ext ?_)
  match a with
  | ⟨0, _⟩ => show win0_0.index t (0 : Fin 3) * 2 + 1 * (y 0).val = (y 0).val; omega
  | ⟨1, _⟩ => show win0_0.index t (1 : Fin 3) * 256 + 1 * (y 1).val = (y 1).val; omega
  | ⟨2, _⟩ => show win0_0.index t (2 : Fin 3) * 256 + 1 * (y 2).val = (y 2).val; omega

/-- The first-layer weight's block is the weight array. -/
theorem w1Block_apply (c : Dev nD) (t : Fin cfg0.N) (y : S512x256.Idx) :
    (iblk m c 1 t : Vec Ideal S512x256 .f32) y = (V m c main_arg1 : S512x256.Idx → EReal) y := by
  obtain ⟨-, -, -, e0, e1, -⟩ := idx_zero t
  unfold iblk
  rw [View.read_apply]
  show V m c main_arg1 (((cfg0.win 1).blk t).view.emb y) = V m c main_arg1 y
  refine congrArg _ (funext fun a => Fin.ext ?_)
  match a with
  | ⟨0, _⟩ => show win0_1.index t (0 : Fin 2) * 512 + 1 * (y 0).val = (y 0).val; omega
  | ⟨1, _⟩ => show win0_1.index t (1 : Fin 2) * 256 + 1 * (y 1).val = (y 1).val; omega

/-- The bias column's block is the bias column. -/
theorem biasColBlock_apply (c : Dev nD) (t : Fin cfg0.N) (y : S256x1.Idx) :
    (iblk m c 2 t : Vec Ideal S256x1 .f32) y = (V m c main_v0 : S256x1.Idx → EReal) y := by
  obtain ⟨-, -, -, -, -, e0, e1, -⟩ := idx_zero t
  unfold iblk
  rw [View.read_apply]
  show V m c main_v0 (((cfg0.win 2).blk t).view.emb y) = V m c main_v0 y
  refine congrArg _ (funext fun a => Fin.ext ?_)
  match a with
  | ⟨0, _⟩ => show win0_2.index t (0 : Fin 2) * 256 + 1 * (y 0).val = (y 0).val; omega
  | ⟨1, _⟩ => show win0_2.index t (1 : Fin 2) * 1 + 1 * (y 1).val = (y 1).val; omega

/-- The block-diagonal weight's block is the block-diagonal weight. -/
theorem diagBlock_apply (c : Dev nD) (t : Fin cfg0.N) (y : S4x1024.Idx) :
    (iblk m c 3 t : Vec Ideal S4x1024 .f32) y = (V m c main_v9 : S4x1024.Idx → EReal) y := by
  obtain ⟨-, -, -, -, -, -, -, e0, e1, -⟩ := idx_zero t
  unfold iblk
  rw [View.read_apply]
  show V m c main_v9 (((cfg0.win 3).blk t).view.emb y) = V m c main_v9 y
  refine congrArg _ (funext fun a => Fin.ext ?_)
  match a with
  | ⟨0, _⟩ => show win0_3.index t (0 : Fin 2) * 4 + 1 * (y 0).val = (y 0).val; omega
  | ⟨1, _⟩ => show win0_3.index t (1 : Fin 2) * 1024 + 1 * (y 1).val = (y 1).val; omega

/-- The output bias's block is the 1 × 1 bias array. -/
theorem biasOutBlock_apply (c : Dev nD) (t : Fin cfg0.N) (y : S1x1.Idx) :
    (iblk m c 4 t : Vec Ideal S1x1 .f32) y = (V m c main_v1 : S1x1.Idx → EReal) y := by
  obtain ⟨-, -, -, -, -, -, -, -, -, e0, e1, -⟩ := idx_zero t
  unfold iblk
  rw [View.read_apply]
  show V m c main_v1 (((cfg0.win 4).blk t).view.emb y) = V m c main_v1 y
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 1 + 1 * (y 1).val = (y 1).val; omega

/-! ## What the one grid point writes back -/

/-- The body's result on blocks that ARE the adjacency and the first-layer weight, whose bias column, block-diagonal
    weight and 1 × 1 bias are laid out from b1, W2 and b2: the reference's per-edge score. The kernel-shaped score of
    the blocks, then the two arrangements joined by commutativity and associativity of + and ·. -/
theorem body_score (x0 : Vec Ideal S2x256x256 .f32) (x1 : Vec Ideal S512x256 .f32) (x2 : Vec Ideal S256x1 .f32)
    (x3 : Vec Ideal S4x1024 .f32) (x4 : Vec Ideal S1x1 .f32)
    (s : S2x256x256.Idx → EReal) (W1 : S512x256.Idx → EReal) (b1 : S256.Idx → EReal) (W2 : S256x1.Idx → EReal)
    (b2 : S1.Idx → EReal)
    (h0 : ∀ y, x0 y = s y) (h1 : ∀ y, x1 y = W1 y)
    (hx2 : ∀ h : Fin 256, x2 (ix2 h 0) = b1 (ix1 h))
    (hx3 : ∀ (g : Fin 4) (k : Fin 1024), x3 (ix2 g k)
      = (if g.val = k.val / 256 then (1 : EReal) else 0) * W2 (ix2 ⟨k.val % 256, Nat.mod_lt _ (by norm_num)⟩ 0))
    (hx4 : x4 (ix2 0 0) = b2 (ix1 0)) :
    out0_5 (F := Ideal) x0 x1 x2 x3 x4 = Cert.EdgeSpec.edgeScore s W1 b1 W2 b2 := by
  obtain rfl : x0 = s := funext h0
  obtain rfl : x1 = W1 := funext h1
  rw [Rows.out0_5_eq x0 x1 x2 x3 x4 (fun h => W2 (ix2 h 0)) hx3]
  funext y
  exact Cert.EdgeSpec.kernelScoreAt_eq x0 x1 b1 W2 b2 x2 _ _ hx2 (fun _ => rfl) hx4 _ _ _

/-- WHAT THE GRID POINT WRITES BACK is its block of the per-edge score of the five arguments. -/
theorem block_eq (c : Dev nD) (t : Fin cfg0.N) :
    (dats m 0 c).flushed 5 t = ((cfg0.win 5).blk t).view.read (Elt Ideal)
      (Cert.EdgeSpec.edgeScore (m ((c : Thread nD τ).loc main_arg0)) (m ((c : Thread nD τ).loc main_arg1))
        (m ((c : Thread nD τ).loc main_arg2)) (m ((c : Thread nD τ).loc main_arg3)) (m ((c : Thread nD τ).loc main_arg4))) := by
  rw [Value.flushed5]
  have key := body_score (iblk m c 0 t) (iblk m c 1 t) (iblk m c 2 t) (iblk m c 3 t) (iblk m c 4 t)
    (m ((c : Thread nD τ).loc main_arg0)) (m ((c : Thread nD τ).loc main_arg1))
    (m ((c : Thread nD τ).loc main_arg2)) (m ((c : Thread nD τ).loc main_arg3)) (m ((c : Thread nD τ).loc main_arg4))
    (fun y => (adjBlock_apply m c t y).trans (congrFun (V_main_arg0 m c) y))
    (fun y => (w1Block_apply m c t y).trans (congrFun (V_main_arg1 m c) y))
    (fun h => (biasColBlock_apply m c t (ix2 h 0)).trans (V_biasCol m c h))
    (fun g k => (diagBlock_apply m c t (ix2 g k)).trans (V_blockDiag m c g k))
    ((biasOutBlock_apply m c t (ix2 0 0)).trans (V_biasOut m c))
  refine (congrArg ((cfg0.win 5).cut (grid0.coords t)) key).trans ?_
  obtain ⟨-, -, -, -, -, -, -, -, -, -, -, e0, e1, e2⟩ := idx_zero t
  funext j
  rw [View.read_apply]
  show Cert.EdgeSpec.edgeScore _ _ _ _ _ j = Cert.EdgeSpec.edgeScore _ _ _ _ _ (((cfg0.win 5).blk t).view.emb j)
  refine congrArg _ (funext fun a => Fin.ext ?_)
  match a with
  | ⟨0, _⟩ => show (j 0).val = win0_5.index t (0 : Fin 3) * 2 + 1 * (j 0).val; omega
  | ⟨1, _⟩ => show (j 1).val = win0_5.index t (1 : Fin 3) * 256 + 1 * (j 1).val; omega
  | ⟨2, _⟩ => show (j 2).val = win0_5.index t (2 : Fin 3) * 256 + 1 * (j 2).val; omega

/-! ## The cover, and the array after the run -/

/-- An index of the result array is in the grid point's block iff each coordinate is in the block's range on its axis. -/
theorem mem_block (t : Fin cfg0.N) (i : S2x256x256.Idx) :
    i ∈ ((cfg0.win 5).blk t).view.set ↔ ∀ a : Fin 3, win0_5.index t a * S2x256x256.size a ≤ (i a).val ∧ (i a).val < win0_5.index t a * S2x256x256.size a + S2x256x256.size a := by
  show i ∈ ((View.whole main_v10).slice (win0_5.rect t)).set ↔ _
  rw [View.set_slice_whole, Rect.mem_set_unit]
  exact Iff.rfl

/-- Every index of the result array lies in the one grid point's block, which writes back. -/
theorem cover (i : S2x256x256.Idx) :
    ∃ t : Fin cfg0.N, (cfg0.win 5).flush t = true ∧ i ∈ ((cfg0.win 5).blk t).view.set := by
  refine ⟨t0_0, flush0_5 t0_0, ?_⟩
  rw [mem_block]
  obtain ⟨-, -, -, -, -, -, -, -, -, -, -, e0, e1, e2⟩ := idx_zero t0_0
  have h0 : (i 0).val < 2 := (i 0).isLt
  have h1 : (i 1).val < 256 := (i 1).isLt
  have h2 : (i 2).val < 256 := (i 2).isLt
  intro a
  match a with
  | ⟨0, _⟩ => show win0_5.index t0_0 (0 : Fin 3) * 2 ≤ (i 0).val ∧ (i 0).val < win0_5.index t0_0 (0 : Fin 3) * 2 + 2; omega
  | ⟨1, _⟩ => show win0_5.index t0_0 (1 : Fin 3) * 256 ≤ (i 1).val ∧ (i 1).val < win0_5.index t0_0 (1 : Fin 3) * 256 + 256; omega
  | ⟨2, _⟩ => show win0_5.index t0_0 (2 : Fin 3) * 256 ≤ (i 2).val ∧ (i 2).val < win0_5.index t0_0 (2 : Fin 3) * 256 + 256; omega

/-- THE RESULT ARRAY after the run is the per-edge score of the five arguments. -/
theorem final (c : Dev nD) : (dats m 0 c).arrAt 5 cfg0.N
    = Cert.EdgeSpec.edgeScore (m ((c : Thread nD τ).loc main_arg0)) (m ((c : Thread nD τ).loc main_arg1))
        (m ((c : Thread nD τ).loc main_arg2)) (m ((c : Thread nD τ).loc main_arg3)) (m ((c : Thread nD τ).loc main_arg4)) :=
  (dats m 0 c).arrAt_eq_of_cover 5 _ (fun t _ => block_eq m c t) cover

/-- The idealized kernel's run: it terminates, the result array is the per-edge score of the arguments, and the arguments
    are unchanged. -/
theorem kernel_run : θ_run (defs (F := Ideal)) (onTc (τ := τ) (main (F := Ideal))) ⟨m, fun _ => 0, ρ⟩ fun r => ∀ c : Dev nD,
      r.2.mem ((c : Thread nD τ).loc main_v10)
        = Cert.EdgeSpec.edgeScore (m ((c : Thread nD τ).loc main_arg0)) (m ((c : Thread nD τ).loc main_arg1))
            (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Whole

end
-- ==== Proof.RefScore.lean ====
/-
  The reference's result, stage by stage, is the per-edge score `Cert.EdgeSpec.edgeScore` of its five arguments.
-/
import proofs.«101957_g89077621719711_cont_sun_m_405_23_alg».proof.Proof.Gen.ReferenceIdeal.Read
import proofs.«101957_g89077621719711_cont_sun_m_405_23_alg».proof.Proof.EdgeSpec
import Idealize.ShloMosaic.Lib.ValueIdx
import Idealize.ShloMosaic.Lib.Pipeline.Value
import Idealize.ShloMosaic.PureOps.Ideal.Laws

set_option synthInstance.maxSize 4096

noncomputable section

namespace Cert.ReferenceIdeal.RefScore

open Idealize.ShloMosaic Idealize.ShloMosaic.ValueIdx Idealize.SL.Sem Cert.ReferenceIdeal Cert.ReferenceIdeal.Read

/-- The first contraction at (b, i, h): the source node's rows of the adjacency against the first 256 rows of W1. -/
theorem src_stage (x0 : (⟨S2x256x256, .f32⟩ : BufTy).Contents (Elt Ideal)) (x1 : (⟨S512x256, .f32⟩ : BufTy).Contents (Elt Ideal))
    (b : Fin 2) (i h : Fin 256) :
    val_main_v2 (F := Ideal) x0 x1 (ix3 b i h) = Cert.EdgeSpec.srcPart x0 x1 b i h := by
  rw [val_main_v2_apply]
  unfold Cert.EdgeSpec.srcPart
  refine Finset.sum_congr rfl fun k _ => ?_
  rw [val_main_v0_apply]
  have e1 : lidx_main_v2 (ix3 b i h) k = ix3 b i k := funext fun a => Fin.ext (by
    match a with
    | ⟨0, _⟩ => rfl
    | ⟨1, _⟩ => rfl
    | ⟨2, _⟩ => rfl)
  have e2 : idx_main_v0 (ridx_main_v2 (ix3 b i h) k) = ix2 (Cert.EdgeSpec.lo k) h := funext fun a => Fin.ext (by
    match a with
    | ⟨0, _⟩ => rfl
    | ⟨1, _⟩ => rfl)
  rw [e1, e2]

/-- The second contraction at (b, j, h): the target node's rows against the last 256 rows of W1. -/
theorem tgt_stage (x0 : (⟨S2x256x256, .f32⟩ : BufTy).Contents (Elt Ideal)) (x1 : (⟨S512x256, .f32⟩ : BufTy).Contents (Elt Ideal))
    (b : Fin 2) (j h : Fin 256) :
    val_main_v3 (F := Ideal) x0 x1 (ix3 b j h) = Cert.EdgeSpec.tgtPart x0 x1 b j h := by
  rw [val_main_v3_apply]
  unfold Cert.EdgeSpec.tgtPart
  refine Finset.sum_congr rfl fun k _ => ?_
  rw [val_main_v1_apply]
  have e1 : lidx_main_v3 (ix3 b j h) k = ix3 b j k := funext fun a => Fin.ext (by
    match a with
    | ⟨0, _⟩ => rfl
    | ⟨1, _⟩ => rfl
    | ⟨2, _⟩ => rfl)
  have e2 : idx_main_v1 (ridx_main_v3 (ix3 b j h) k) = ix2 (Cert.EdgeSpec.hi k) h := funext fun a => Fin.ext (by
    match a with
    | ⟨0, _⟩ => rfl
    | ⟨1, _⟩ => rfl)
  rw [e1, e2]

/-- The hidden layer at (b, i, j, h): the two first-layer parts, broadcast along the other node's axis, added, the bias
    added, and the positive part taken. -/
theorem hidden_stage (x0 : (⟨S2x256x256, .f32⟩ : BufTy).Contents (Elt Ideal)) (x1 : (⟨S512x256, .f32⟩ : BufTy).Contents (Elt Ideal))
    (x2 : (⟨S256, .f32⟩ : BufTy).Contents (Elt Ideal)) (b : Fin 2) (i j h : Fin 256) :
    val_main_v12 (F := Ideal) x0 x1 x2 (ix4 b i j h)
      = max ((Cert.EdgeSpec.srcPart x0 x1 b i h + Cert.EdgeSpec.tgtPart x0 x1 b j h) + x2 (ix1 h)) 0 := by
  have e6 : idx_main_v4 (idx_main_v6 (ix4 b i j h)) = ix3 b i h := funext fun a => Fin.ext (by
    match a with
    | ⟨0, _⟩ => rfl
    | ⟨1, _⟩ => rfl
    | ⟨2, _⟩ => rfl)
  have e7 : idx_main_v5 (idx_main_v7 (ix4 b i j h)) = ix3 b j h := funext fun a => Fin.ext (by
    match a with
    | ⟨0, _⟩ => rfl
    | ⟨1, _⟩ => rfl
    | ⟨2, _⟩ => rfl)
  have e10 : idx_main_v9 (idx_main_v10 (ix4 b i j h)) = ix1 h := funext fun a => Fin.ext (by
    match a with
    | ⟨0, _⟩ => rfl)
  rw [val_main_v12_apply, val_main_v11_apply, val_main_v8_apply, val_main_v6_apply, val_main_v4_apply, e6, src_stage,
    val_main_v7_apply, val_main_v5_apply, e7, tgt_stage, val_main_v10_apply, val_main_v9_apply, e10,
    val_main_call0_v0_apply, val_main_call0_cst_apply]
  simp only [Ideal.addf_def, Ideal.maximumf_def, Ideal.ofBits_def, Ideal.ofBits_zero_f32]

/-- The second layer at (b, i, j): the reshape drops the unit axis of the contraction of the hidden layer against W2. -/
theorem out_stage (x0 : (⟨S2x256x256, .f32⟩ : BufTy).Contents (Elt Ideal)) (x1 : (⟨S512x256, .f32⟩ : BufTy).Contents (Elt Ideal))
    (x2 : (⟨S256, .f32⟩ : BufTy).Contents (Elt Ideal)) (x3 : (⟨S256x1, .f32⟩ : BufTy).Contents (Elt Ideal))
    (b : Fin 2) (i j : Fin 256) :
    val_main_v14 (F := Ideal) x0 x1 x2 x3 (ix3 b i j)
      = ∑ h : Fin 256, max ((Cert.EdgeSpec.srcPart x0 x1 b i h + Cert.EdgeSpec.tgtPart x0 x1 b j h) + x2 (ix1 h)) 0
          * x3 (ix2 h 0) := by
  have e14 : idx_main_v14 (ix3 b i j) = ix4 b i j (0 : Fin 1) := funext fun a => Fin.ext (by
    have hb := b.isLt
    have hi := i.isLt
    have hj := j.isLt
    match a with
    | ⟨0, _⟩ => show ((b.val * 256 + i.val) * 256 + j.val) / 65536 = b.val; omega
    | ⟨1, _⟩ => show ((b.val * 256 + i.val) * 256 + j.val) / 256 % 256 = i.val; omega
    | ⟨2, _⟩ => show ((b.val * 256 + i.val) * 256 + j.val) / 1 % 256 = j.val; omega
    | ⟨3, _⟩ => rfl)
  rw [val_main_v14_apply, e14, val_main_v13_apply]
  refine Finset.sum_congr rfl fun h _ => ?_
  have el : lidx_main_v13 (ix4 b i j (0 : Fin 1)) h = ix4 b i j h := funext fun a => Fin.ext (by
    match a with
    | ⟨0, _⟩ => rfl
    | ⟨1, _⟩ => rfl
    | ⟨2, _⟩ => rfl
    | ⟨3, _⟩ => rfl)
  have er : ridx_main_v13 (ix4 b i j (0 : Fin 1)) h = ix2 h (0 : Fin 1) := funext fun a => Fin.ext (by
    match a with
    | ⟨0, _⟩ => rfl
    | ⟨1, _⟩ => rfl)
  rw [el, er, hidden_stage]

/-- The output bias: the one entry of b2, as a scalar, read at every (b, i, j). -/
theorem bias_stage (x4 : (⟨S1, .f32⟩ : BufTy).Contents (Elt Ideal)) (y : S2x256x256.Idx) :
    val_main_v16 (F := Ideal) x4 y = x4 (ix1 0) := by
  rw [val_main_v16_apply]
  unfold val_main_v15
  exact shapeCast_apply x4 _ (idx_main_v16 y) (ix1 0)
    ((Shape.rowMajor_val_one _).trans (Shape.rowMajorPi_zero _ _).symm)

/-- The last stage of the reference's run, at `Ideal`, is the per-edge score. -/
theorem result_eq (x0 : (⟨S2x256x256, .f32⟩ : BufTy).Contents (Elt Ideal)) (x1 : (⟨S512x256, .f32⟩ : BufTy).Contents (Elt Ideal))
    (x2 : (⟨S256, .f32⟩ : BufTy).Contents (Elt Ideal)) (x3 : (⟨S256x1, .f32⟩ : BufTy).Contents (Elt Ideal))
    (x4 : (⟨S1, .f32⟩ : BufTy).Contents (Elt Ideal)) :
    val_main_v27 (F := Ideal) x0 x1 x2 x3 x4 = Cert.EdgeSpec.edgeScore x0 x1 x2 x3 x4 := by
  funext y
  obtain ⟨b, i, j, rfl⟩ : ∃ (b : Fin 2) (i j : Fin 256), y = ix3 b i j := ⟨y 0, y 1, y 2, eq_ix3 y⟩
  show _ = Cert.EdgeSpec.edgeScoreAt x0 x1 x2 x3 x4 b i j
  rw [val_main_v27_apply, val_main_v23_apply, val_main_v22_apply, val_main_cst_0_apply, val_main_v21_apply,
    val_main_v20_apply, val_main_cst_apply, val_main_v19_apply, val_main_v18_apply, val_main_v17_apply, out_stage,
    bias_stage, val_main_v26_apply, val_main_v25_apply, val_main_v24_apply, val_main_cst_1_apply]
  -- logistic x is 1 / (1 + exp (-x)) by definition; the word 0x3F800000 is 1 and the zero word is 0; the indicator of a
  -- nonzero entry is the comparison bit read as a natural number.
  unfold Cert.EdgeSpec.edgeScoreAt Cert.EdgeSpec.mask01 Ideal.logistic
  simp only [Ideal.mulf_def, Ideal.hostDivf_def, Ideal.addf_def, Ideal.hostUnary_exp_def, Ideal.hostNegf_def,
    Ideal.negf_def, Ideal.ofBits_def, Cert.EdgeSpec.ofBits_one_f32, Ideal.ofBits_zero_f32, Ideal.cmpf_def]
  rfl

end Cert.ReferenceIdeal.RefScore

end
-- ==== Proof.lean ====
/-
  Kernel and reference compute the same per-edge score.

  For batch element b, source node i and target node j both programs compute
    logistic (Σ_h relu ((A b i h + B b j h) + b1 h) · W2 h + b2) · [s b i j ≠ 0],
  A and B the two halves of the first linear layer applied to the source's and the target's feature rows
  (`Cert.EdgeSpec.edgeScore`). The reference does so in one pass over a 2 × 256 × 256 × 256 intermediate. The kernel keeps the
  two first-layer tables transposed, handles four source nodes per step, and sums over the hidden units by ONE contraction
  of length 1024 against a block-diagonal copy of W2 (the Kronecker product of the 4 × 4 identity with W2's row), whose
  zero blocks contribute nothing since 0 · x = 0 on the extended reals; its changes of float format are the identity at the
  ideal instance, its logistic is the reference's 1 / (1 + exp (−x)), its ordered and the reference's unordered "not equal"
  agree since no extended real is a NaN. Only commutativity and associativity of + and · join the two arrangements, so the
  precondition (finite inputs) is never opened.

  The frames of the two kernels are the generated ones; the reference's frame is its generated run with the result
  dropped; the ideal pass rewrote nothing, so `preserves` is trivial; `algebraic` sets the kernel's run (KernelArray.lean)
  beside the reference's (RefScore.lean) at arguments that agree.
-/
import proofs.«101957_g89077621719711_cont_sun_m_405_23_alg».proof.Defs
import proofs.«101957_g89077621719711_cont_sun_m_405_23_alg».proof.Proof.Gen.Kernel
import proofs.«101957_g89077621719711_cont_sun_m_405_23_alg».proof.Proof.Gen.Kernel.Skeleton
import proofs.«101957_g89077621719711_cont_sun_m_405_23_alg».proof.Proof.Gen.Kernel.Launch
import proofs.«101957_g89077621719711_cont_sun_m_405_23_alg».proof.Proof.Gen.Kernel.Points
import proofs.«101957_g89077621719711_cont_sun_m_405_23_alg».proof.Proof.Gen.Kernel.Frame
import proofs.«101957_g89077621719711_cont_sun_m_405_23_alg».proof.Proof.Gen.KernelIdeal
import proofs.«101957_g89077621719711_cont_sun_m_405_23_alg».proof.Proof.Gen.KernelIdeal.Skeleton
import proofs.«101957_g89077621719711_cont_sun_m_405_23_alg».proof.Proof.Gen.KernelIdeal.Launch
import proofs.«101957_g89077621719711_cont_sun_m_405_23_alg».proof.Proof.Gen.KernelIdeal.Points
import proofs.«101957_g89077621719711_cont_sun_m_405_23_alg».proof.Proof.Gen.KernelIdeal.Frame
import proofs.«101957_g89077621719711_cont_sun_m_405_23_alg».proof.Proof.Gen.ReferenceIdeal
import proofs.«101957_g89077621719711_cont_sun_m_405_23_alg».proof.Proof.Gen.Pre_finite_inputs
import proofs.«101957_g89077621719711_cont_sun_m_405_23_alg».proof.Proof.Gen.KernelIdeal.Value
import proofs.«101957_g89077621719711_cont_sun_m_405_23_alg».proof.Proof.Gen.ReferenceIdeal.Run
import proofs.«101957_g89077621719711_cont_sun_m_405_23_alg».proof.Proof.Gen.ReferenceIdeal.Read
import proofs.«101957_g89077621719711_cont_sun_m_405_23_alg».proof.Proof.KernelArray
import proofs.«101957_g89077621719711_cont_sun_m_405_23_alg».proof.Proof.RefScore
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run, its result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both runs end with the per-edge score of arguments that agree. -/
theorem algebraic : Cert.algebraic_KernelIdeal_ReferenceIdeal := by
  intro m ρ m' ρ' _ hagree
  refine ⟨_, Cert.KernelIdeal.Whole.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq, Cert.ReferenceIdeal.RefScore.result_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
